-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  main_v3
-- ==== Kernel.lean ====
abbrev S2048x1024 : Shape := ⟨2, ![2048, 1024]⟩
abbrev S1x1024 : Shape := ⟨2, ![1, 1024]⟩
abbrev S32x8x128 : Shape := ⟨3, ![32, 8, 128]⟩
abbrev S32 : Shape := ⟨1, ![32]⟩
abbrev S_ : Shape := ⟨0, ![]⟩
abbrev S8x2048 : Shape := ⟨2, ![8, 2048]⟩
abbrev S8x1024 : Shape := ⟨2, ![8, 1024]⟩
abbrev S8x128 : Shape := ⟨2, ![8, 128]⟩
abbrev S1x8x128 : Shape := ⟨3, ![1, 8, 128]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .local _ .vmem, ⟨0, _⟩ => ⟨S1x1024, .f32⟩
  | .local _ .vmem, ⟨1, _⟩ => ⟨S2048x1024, .f32⟩
  | .local _ .vmem, ⟨2, _⟩ => ⟨S32x8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_dev32 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_285 : BitVec 32 := 1#32
  let v415 : BitVec 32 := Scalar.addi v2 c1_i32_285
  let c32_i32_286 : BitVec 32 := 32#32
  let c0_i32_287 : BitVec 32 := 0#32
  let v416 : BitVec 1 := Scalar.cmpi .eq c32_i32_286 c0_i32_287
  let c1_i32_288 : BitVec 32 := 1#32
  let v417 : BitVec 32 := Scalar.select v416 c1_i32_288 c32_i32_286
  let v418 : BitVec 32 := Scalar.remsi v415 v417
  let c0_i32_290 : BitVec 32 := 0#32
  let v420 : BitVec 1 := Scalar.cmpi .slt v418 c0_i32_290
  let c0_i32_291 : BitVec 32 := 0#32
  let v421 : BitVec 1 := Scalar.cmpi .slt v417 c0_i32_291
  let v422 : BitVec 1 := Scalar.xori v420 v421
  let c0_i32_289 : BitVec 32 := 0#32
  let v419 : BitVec 1 := Scalar.cmpi .ne v418 c0_i32_289
  let v423 : BitVec 1 := Scalar.andi v422 v419
  let v424 : BitVec 32 := Scalar.addi v418 v417
  let v425 : BitVec 32 := Scalar.select v423 v424 v418
  let c1_i32_296 : BitVec 32 := 1#32
  let v426 : BitVec 32 := Scalar.muli v425 c1_i32_296
  let v427 : BitVec 32 := Scalar.addi c0_i32_297 v426
  v427.toNat
def k0_dev33 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_302 : BitVec 32 := 2#32
  let v436 : BitVec 32 := Scalar.addi v2 c2_i32_302
  let c32_i32_303 : BitVec 32 := 32#32
  let c0_i32_304 : BitVec 32 := 0#32
  let v437 : BitVec 1 := Scalar.cmpi .eq c32_i32_303 c0_i32_304
  let c1_i32_305 : BitVec 32 := 1#32
  let v438 : BitVec 32 := Scalar.select v437 c1_i32_305 c32_i32_303
  let v439 : BitVec 32 := Scalar.remsi v436 v438
  let c0_i32_307 : BitVec 32 := 0#32
  let v441 : BitVec 1 := Scalar.cmpi .slt v439 c0_i32_307
  let c0_i32_308 : BitVec 32 := 0#32
  let v442 : BitVec 1 := Scalar.cmpi .slt v438 c0_i32_308
  let v443 : BitVec 1 := Scalar.xori v441 v442
  let c0_i32_306 : BitVec 32 := 0#32
  let v440 : BitVec 1 := Scalar.cmpi .ne v439 c0_i32_306
  let v444 : BitVec 1 := Scalar.andi v443 v440
  let v445 : BitVec 32 := Scalar.addi v439 v438
  let v446 : BitVec 32 := Scalar.select v444 v445 v439
  let c1_i32_313 : BitVec 32 := 1#32
  let v447 : BitVec 32 := Scalar.muli v446 c1_i32_313
  let v448 : BitVec 32 := Scalar.addi c0_i32_314 v447
  v448.toNat
def k0_dev34 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_319 : BitVec 32 := 3#32
  let v457 : BitVec 32 := Scalar.addi v2 c3_i32_319
  let c32_i32_320 : BitVec 32 := 32#32
  let c0_i32_321 : BitVec 32 := 0#32
  let v458 : BitVec 1 := Scalar.cmpi .eq c32_i32_320 c0_i32_321
  let c1_i32_322 : BitVec 32 := 1#32
  let v459 : BitVec 32 := Scalar.select v458 c1_i32_322 c32_i32_320
  let v460 : BitVec 32 := Scalar.remsi v457 v459
  let c0_i32_324 : BitVec 32 := 0#32
  let v462 : BitVec 1 := Scalar.cmpi .slt v460 c0_i32_324
  let c0_i32_325 : BitVec 32 := 0#32
  let v463 : BitVec 1 := Scalar.cmpi .slt v459 c0_i32_325
  let v464 : BitVec 1 := Scalar.xori v462 v463
  let c0_i32_323 : BitVec 32 := 0#32
  let v461 : BitVec 1 := Scalar.cmpi .ne v460 c0_i32_323
  let v465 : BitVec 1 := Scalar.andi v464 v461
  let v466 : BitVec 32 := Scalar.addi v460 v459
  let v467 : BitVec 32 := Scalar.select v465 v466 v460
  let c1_i32_330 : BitVec 32 := 1#32
  let v468 : BitVec 32 := Scalar.muli v467 c1_i32_330
  let v469 : BitVec 32 := Scalar.addi c0_i32_331 v468
  v469.toNat
def k0_dev35 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_336 : BitVec 32 := 4#32
  let v478 : BitVec 32 := Scalar.addi v2 c4_i32_336
  let c32_i32_337 : BitVec 32 := 32#32
  let c0_i32_338 : BitVec 32 := 0#32
  let v479 : BitVec 1 := Scalar.cmpi .eq c32_i32_337 c0_i32_338
  let c1_i32_339 : BitVec 32 := 1#32
  let v480 : BitVec 32 := Scalar.select v479 c1_i32_339 c32_i32_337
  let v481 : BitVec 32 := Scalar.remsi v478 v480
  let c0_i32_341 : BitVec 32 := 0#32
  let v483 : BitVec 1 := Scalar.cmpi .slt v481 c0_i32_341
  let c0_i32_342 : BitVec 32 := 0#32
  let v484 : BitVec 1 := Scalar.cmpi .slt v480 c0_i32_342
  let v485 : BitVec 1 := Scalar.xori v483 v484
  let c0_i32_340 : BitVec 32 := 0#32
  let v482 : BitVec 1 := Scalar.cmpi .ne v481 c0_i32_340
  let v486 : BitVec 1 := Scalar.andi v485 v482
  let v487 : BitVec 32 := Scalar.addi v481 v480
  let v488 : BitVec 32 := Scalar.select v486 v487 v481
  let c1_i32_347 : BitVec 32 := 1#32
  let v489 : BitVec 32 := Scalar.muli v488 c1_i32_347
  let v490 : BitVec 32 := Scalar.addi c0_i32_348 v489
  v490.toNat
def k0_dev36 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_353 : BitVec 32 := 5#32
  let v499 : BitVec 32 := Scalar.addi v2 c5_i32_353
  let c32_i32_354 : BitVec 32 := 32#32
  let c0_i32_355 : BitVec 32 := 0#32
  let v500 : BitVec 1 := Scalar.cmpi .eq c32_i32_354 c0_i32_355
  let c1_i32_356 : BitVec 32 := 1#32
  let v501 : BitVec 32 := Scalar.select v500 c1_i32_356 c32_i32_354
  let v502 : BitVec 32 := Scalar.remsi v499 v501
  let c0_i32_358 : BitVec 32 := 0#32
  let v504 : BitVec 1 := Scalar.cmpi .slt v502 c0_i32_358
  let c0_i32_359 : BitVec 32 := 0#32
  let v505 : BitVec 1 := Scalar.cmpi .slt v501 c0_i32_359
  let v506 : BitVec 1 := Scalar.xori v504 v505
  let c0_i32_357 : BitVec 32 := 0#32
  let v503 : BitVec 1 := Scalar.cmpi .ne v502 c0_i32_357
  let v507 : BitVec 1 := Scalar.andi v506 v503
  let v508 : BitVec 32 := Scalar.addi v502 v501
  let v509 : BitVec 32 := Scalar.select v507 v508 v502
  let c1_i32_364 : BitVec 32 := 1#32
  let v510 : BitVec 32 := Scalar.muli v509 c1_i32_364
  let v511 : BitVec 32 := Scalar.addi c0_i32_365 v510
  v511.toNat
def k0_dev37 (d0 : Dev nD) : Nat :=
  let c0_i32_382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_370 : BitVec 32 := 6#32
  let v520 : BitVec 32 := Scalar.addi v2 c6_i32_370
  let c32_i32_371 : BitVec 32 := 32#32
  let c0_i32_372 : BitVec 32 := 0#32
  let v521 : BitVec 1 := Scalar.cmpi .eq c32_i32_371 c0_i32_372
  let c1_i32_373 : BitVec 32 := 1#32
  let v522 : BitVec 32 := Scalar.select v521 c1_i32_373 c32_i32_371
  let v523 : BitVec 32 := Scalar.remsi v520 v522
  let c0_i32_375 : BitVec 32 := 0#32
  let v525 : BitVec 1 := Scalar.cmpi .slt v523 c0_i32_375
  let c0_i32_376 : BitVec 32 := 0#32
  let v526 : BitVec 1 := Scalar.cmpi .slt v522 c0_i32_376
  let v527 : BitVec 1 := Scalar.xori v525 v526
  let c0_i32_374 : BitVec 32 := 0#32
  let v524 : BitVec 1 := Scalar.cmpi .ne v523 c0_i32_374
  let v528 : BitVec 1 := Scalar.andi v527 v524
  let v529 : BitVec 32 := Scalar.addi v523 v522
  let v530 : BitVec 32 := Scalar.select v528 v529 v523
  let c1_i32_381 : BitVec 32 := 1#32
  let v531 : BitVec 32 := Scalar.muli v530 c1_i32_381
  let v532 : BitVec 32 := Scalar.addi c0_i32_382 v531
  v532.toNat
def k0_dev38 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_387 : BitVec 32 := 7#32
  let v541 : BitVec 32 := Scalar.addi v2 c7_i32_387
  let c32_i32_388 : BitVec 32 := 32#32
  let c0_i32_389 : BitVec 32 := 0#32
  let v542 : BitVec 1 := Scalar.cmpi .eq c32_i32_388 c0_i32_389
  let c1_i32_390 : BitVec 32 := 1#32
  let v543 : BitVec 32 := Scalar.select v542 c1_i32_390 c32_i32_388
  let v544 : BitVec 32 := Scalar.remsi v541 v543
  let c0_i32_392 : BitVec 32 := 0#32
  let v546 : BitVec 1 := Scalar.cmpi .slt v544 c0_i32_392
  let c0_i32_393 : BitVec 32 := 0#32
  let v547 : BitVec 1 := Scalar.cmpi .slt v543 c0_i32_393
  let v548 : BitVec 1 := Scalar.xori v546 v547
  let c0_i32_391 : BitVec 32 := 0#32
  let v545 : BitVec 1 := Scalar.cmpi .ne v544 c0_i32_391
  let v549 : BitVec 1 := Scalar.andi v548 v545
  let v550 : BitVec 32 := Scalar.addi v544 v543
  let v551 : BitVec 32 := Scalar.select v549 v550 v544
  let c1_i32_398 : BitVec 32 := 1#32
  let v552 : BitVec 32 := Scalar.muli v551 c1_i32_398
  let v553 : BitVec 32 := Scalar.addi c0_i32_399 v552
  v553.toNat
def k0_dev39 (d0 : Dev nD) : Nat :=
  let c0_i32_416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_404 : BitVec 32 := 8#32
  let v562 : BitVec 32 := Scalar.addi v2 c8_i32_404
  let c32_i32_405 : BitVec 32 := 32#32
  let c0_i32_406 : BitVec 32 := 0#32
  let v563 : BitVec 1 := Scalar.cmpi .eq c32_i32_405 c0_i32_406
  let c1_i32_407 : BitVec 32 := 1#32
  let v564 : BitVec 32 := Scalar.select v563 c1_i32_407 c32_i32_405
  let v565 : BitVec 32 := Scalar.remsi v562 v564
  let c0_i32_409 : BitVec 32 := 0#32
  let v567 : BitVec 1 := Scalar.cmpi .slt v565 c0_i32_409
  let c0_i32_410 : BitVec 32 := 0#32
  let v568 : BitVec 1 := Scalar.cmpi .slt v564 c0_i32_410
  let v569 : BitVec 1 := Scalar.xori v567 v568
  let c0_i32_408 : BitVec 32 := 0#32
  let v566 : BitVec 1 := Scalar.cmpi .ne v565 c0_i32_408
  let v570 : BitVec 1 := Scalar.andi v569 v566
  let v571 : BitVec 32 := Scalar.addi v565 v564
  let v572 : BitVec 32 := Scalar.select v570 v571 v565
  let c1_i32_415 : BitVec 32 := 1#32
  let v573 : BitVec 32 := Scalar.muli v572 c1_i32_415
  let v574 : BitVec 32 := Scalar.addi c0_i32_416 v573
  v574.toNat
def k0_dev40 (d0 : Dev nD) : Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_421 : BitVec 32 := 9#32
  let v583 : BitVec 32 := Scalar.addi v2 c9_i32_421
  let c32_i32_422 : BitVec 32 := 32#32
  let c0_i32_423 : BitVec 32 := 0#32
  let v584 : BitVec 1 := Scalar.cmpi .eq c32_i32_422 c0_i32_423
  let c1_i32_424 : BitVec 32 := 1#32
  let v585 : BitVec 32 := Scalar.select v584 c1_i32_424 c32_i32_422
  let v586 : BitVec 32 := Scalar.remsi v583 v585
  let c0_i32_426 : BitVec 32 := 0#32
  let v588 : BitVec 1 := Scalar.cmpi .slt v586 c0_i32_426
  let c0_i32_427 : BitVec 32 := 0#32
  let v589 : BitVec 1 := Scalar.cmpi .slt v585 c0_i32_427
  let v590 : BitVec 1 := Scalar.xori v588 v589
  let c0_i32_425 : BitVec 32 := 0#32
  let v587 : BitVec 1 := Scalar.cmpi .ne v586 c0_i32_425
  let v591 : BitVec 1 := Scalar.andi v590 v587
  let v592 : BitVec 32 := Scalar.addi v586 v585
  let v593 : BitVec 32 := Scalar.select v591 v592 v586
  let c1_i32_432 : BitVec 32 := 1#32
  let v594 : BitVec 32 := Scalar.muli v593 c1_i32_432
  let v595 : BitVec 32 := Scalar.addi c0_i32_433 v594
  v595.toNat
def k0_dev41 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_438 : BitVec 32 := 10#32
  let v604 : BitVec 32 := Scalar.addi v2 c10_i32_438
  let c32_i32_439 : BitVec 32 := 32#32
  let c0_i32_440 : BitVec 32 := 0#32
  let v605 : BitVec 1 := Scalar.cmpi .eq c32_i32_439 c0_i32_440
  let c1_i32_441 : BitVec 32 := 1#32
  let v606 : BitVec 32 := Scalar.select v605 c1_i32_441 c32_i32_439
  let v607 : BitVec 32 := Scalar.remsi v604 v606
  let c0_i32_443 : BitVec 32 := 0#32
  let v609 : BitVec 1 := Scalar.cmpi .slt v607 c0_i32_443
  let c0_i32_444 : BitVec 32 := 0#32
  let v610 : BitVec 1 := Scalar.cmpi .slt v606 c0_i32_444
  let v611 : BitVec 1 := Scalar.xori v609 v610
  let c0_i32_442 : BitVec 32 := 0#32
  let v608 : BitVec 1 := Scalar.cmpi .ne v607 c0_i32_442
  let v612 : BitVec 1 := Scalar.andi v611 v608
  let v613 : BitVec 32 := Scalar.addi v607 v606
  let v614 : BitVec 32 := Scalar.select v612 v613 v607
  let c1_i32_449 : BitVec 32 := 1#32
  let v615 : BitVec 32 := Scalar.muli v614 c1_i32_449
  let v616 : BitVec 32 := Scalar.addi c0_i32_450 v615
  v616.toNat
def k0_dev42 (d0 : Dev nD) : Nat :=
  let c0_i32_467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_455 : BitVec 32 := 11#32
  let v625 : BitVec 32 := Scalar.addi v2 c11_i32_455
  let c32_i32_456 : BitVec 32 := 32#32
  let c0_i32_457 : BitVec 32 := 0#32
  let v626 : BitVec 1 := Scalar.cmpi .eq c32_i32_456 c0_i32_457
  let c1_i32_458 : BitVec 32 := 1#32
  let v627 : BitVec 32 := Scalar.select v626 c1_i32_458 c32_i32_456
  let v628 : BitVec 32 := Scalar.remsi v625 v627
  let c0_i32_460 : BitVec 32 := 0#32
  let v630 : BitVec 1 := Scalar.cmpi .slt v628 c0_i32_460
  let c0_i32_461 : BitVec 32 := 0#32
  let v631 : BitVec 1 := Scalar.cmpi .slt v627 c0_i32_461
  let v632 : BitVec 1 := Scalar.xori v630 v631
  let c0_i32_459 : BitVec 32 := 0#32
  let v629 : BitVec 1 := Scalar.cmpi .ne v628 c0_i32_459
  let v633 : BitVec 1 := Scalar.andi v632 v629
  let v634 : BitVec 32 := Scalar.addi v628 v627
  let v635 : BitVec 32 := Scalar.select v633 v634 v628
  let c1_i32_466 : BitVec 32 := 1#32
  let v636 : BitVec 32 := Scalar.muli v635 c1_i32_466
  let v637 : BitVec 32 := Scalar.addi c0_i32_467 v636
  v637.toNat
def k0_dev43 (d0 : Dev nD) : Nat :=
  let c0_i32_484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_472 : BitVec 32 := 12#32
  let v646 : BitVec 32 := Scalar.addi v2 c12_i32_472
  let c32_i32_473 : BitVec 32 := 32#32
  let c0_i32_474 : BitVec 32 := 0#32
  let v647 : BitVec 1 := Scalar.cmpi .eq c32_i32_473 c0_i32_474
  let c1_i32_475 : BitVec 32 := 1#32
  let v648 : BitVec 32 := Scalar.select v647 c1_i32_475 c32_i32_473
  let v649 : BitVec 32 := Scalar.remsi v646 v648
  let c0_i32_477 : BitVec 32 := 0#32
  let v651 : BitVec 1 := Scalar.cmpi .slt v649 c0_i32_477
  let c0_i32_478 : BitVec 32 := 0#32
  let v652 : BitVec 1 := Scalar.cmpi .slt v648 c0_i32_478
  let v653 : BitVec 1 := Scalar.xori v651 v652
  let c0_i32_476 : BitVec 32 := 0#32
  let v650 : BitVec 1 := Scalar.cmpi .ne v649 c0_i32_476
  let v654 : BitVec 1 := Scalar.andi v653 v650
  let v655 : BitVec 32 := Scalar.addi v649 v648
  let v656 : BitVec 32 := Scalar.select v654 v655 v649
  let c1_i32_483 : BitVec 32 := 1#32
  let v657 : BitVec 32 := Scalar.muli v656 c1_i32_483
  let v658 : BitVec 32 := Scalar.addi c0_i32_484 v657
  v658.toNat
def k0_dev44 (d0 : Dev nD) : Nat :=
  let c0_i32_501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_489 : BitVec 32 := 13#32
  let v667 : BitVec 32 := Scalar.addi v2 c13_i32_489
  let c32_i32_490 : BitVec 32 := 32#32
  let c0_i32_491 : BitVec 32 := 0#32
  let v668 : BitVec 1 := Scalar.cmpi .eq c32_i32_490 c0_i32_491
  let c1_i32_492 : BitVec 32 := 1#32
  let v669 : BitVec 32 := Scalar.select v668 c1_i32_492 c32_i32_490
  let v670 : BitVec 32 := Scalar.remsi v667 v669
  let c0_i32_494 : BitVec 32 := 0#32
  let v672 : BitVec 1 := Scalar.cmpi .slt v670 c0_i32_494
  let c0_i32_495 : BitVec 32 := 0#32
  let v673 : BitVec 1 := Scalar.cmpi .slt v669 c0_i32_495
  let v674 : BitVec 1 := Scalar.xori v672 v673
  let c0_i32_493 : BitVec 32 := 0#32
  let v671 : BitVec 1 := Scalar.cmpi .ne v670 c0_i32_493
  let v675 : BitVec 1 := Scalar.andi v674 v671
  let v676 : BitVec 32 := Scalar.addi v670 v669
  let v677 : BitVec 32 := Scalar.select v675 v676 v670
  let c1_i32_500 : BitVec 32 := 1#32
  let v678 : BitVec 32 := Scalar.muli v677 c1_i32_500
  let v679 : BitVec 32 := Scalar.addi c0_i32_501 v678
  v679.toNat
def k0_dev45 (d0 : Dev nD) : Nat :=
  let c0_i32_518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_506 : BitVec 32 := 14#32
  let v688 : BitVec 32 := Scalar.addi v2 c14_i32_506
  let c32_i32_507 : BitVec 32 := 32#32
  let c0_i32_508 : BitVec 32 := 0#32
  let v689 : BitVec 1 := Scalar.cmpi .eq c32_i32_507 c0_i32_508
  let c1_i32_509 : BitVec 32 := 1#32
  let v690 : BitVec 32 := Scalar.select v689 c1_i32_509 c32_i32_507
  let v691 : BitVec 32 := Scalar.remsi v688 v690
  let c0_i32_511 : BitVec 32 := 0#32
  let v693 : BitVec 1 := Scalar.cmpi .slt v691 c0_i32_511
  let c0_i32_512 : BitVec 32 := 0#32
  let v694 : BitVec 1 := Scalar.cmpi .slt v690 c0_i32_512
  let v695 : BitVec 1 := Scalar.xori v693 v694
  let c0_i32_510 : BitVec 32 := 0#32
  let v692 : BitVec 1 := Scalar.cmpi .ne v691 c0_i32_510
  let v696 : BitVec 1 := Scalar.andi v695 v692
  let v697 : BitVec 32 := Scalar.addi v691 v690
  let v698 : BitVec 32 := Scalar.select v696 v697 v691
  let c1_i32_517 : BitVec 32 := 1#32
  let v699 : BitVec 32 := Scalar.muli v698 c1_i32_517
  let v700 : BitVec 32 := Scalar.addi c0_i32_518 v699
  v700.toNat
def k0_dev46 (d0 : Dev nD) : Nat :=
  let c0_i32_535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_523 : BitVec 32 := 15#32
  let v709 : BitVec 32 := Scalar.addi v2 c15_i32_523
  let c32_i32_524 : BitVec 32 := 32#32
  let c0_i32_525 : BitVec 32 := 0#32
  let v710 : BitVec 1 := Scalar.cmpi .eq c32_i32_524 c0_i32_525
  let c1_i32_526 : BitVec 32 := 1#32
  let v711 : BitVec 32 := Scalar.select v710 c1_i32_526 c32_i32_524
  let v712 : BitVec 32 := Scalar.remsi v709 v711
  let c0_i32_528 : BitVec 32 := 0#32
  let v714 : BitVec 1 := Scalar.cmpi .slt v712 c0_i32_528
  let c0_i32_529 : BitVec 32 := 0#32
  let v715 : BitVec 1 := Scalar.cmpi .slt v711 c0_i32_529
  let v716 : BitVec 1 := Scalar.xori v714 v715
  let c0_i32_527 : BitVec 32 := 0#32
  let v713 : BitVec 1 := Scalar.cmpi .ne v712 c0_i32_527
  let v717 : BitVec 1 := Scalar.andi v716 v713
  let v718 : BitVec 32 := Scalar.addi v712 v711
  let v719 : BitVec 32 := Scalar.select v717 v718 v712
  let c1_i32_534 : BitVec 32 := 1#32
  let v720 : BitVec 32 := Scalar.muli v719 c1_i32_534
  let v721 : BitVec 32 := Scalar.addi c0_i32_535 v720
  v721.toNat
def k0_dev47 (d0 : Dev nD) : Nat :=
  let c0_i32_552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_540 : BitVec 32 := 16#32
  let v730 : BitVec 32 := Scalar.addi v2 c16_i32_540
  let c32_i32_541 : BitVec 32 := 32#32
  let c0_i32_542 : BitVec 32 := 0#32
  let v731 : BitVec 1 := Scalar.cmpi .eq c32_i32_541 c0_i32_542
  let c1_i32_543 : BitVec 32 := 1#32
  let v732 : BitVec 32 := Scalar.select v731 c1_i32_543 c32_i32_541
  let v733 : BitVec 32 := Scalar.remsi v730 v732
  let c0_i32_545 : BitVec 32 := 0#32
  let v735 : BitVec 1 := Scalar.cmpi .slt v733 c0_i32_545
  let c0_i32_546 : BitVec 32 := 0#32
  let v736 : BitVec 1 := Scalar.cmpi .slt v732 c0_i32_546
  let v737 : BitVec 1 := Scalar.xori v735 v736
  let c0_i32_544 : BitVec 32 := 0#32
  let v734 : BitVec 1 := Scalar.cmpi .ne v733 c0_i32_544
  let v738 : BitVec 1 := Scalar.andi v737 v734
  let v739 : BitVec 32 := Scalar.addi v733 v732
  let v740 : BitVec 32 := Scalar.select v738 v739 v733
  let c1_i32_551 : BitVec 32 := 1#32
  let v741 : BitVec 32 := Scalar.muli v740 c1_i32_551
  let v742 : BitVec 32 := Scalar.addi c0_i32_552 v741
  v742.toNat
def k0_dev48 (d0 : Dev nD) : Nat :=
  let c0_i32_569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_557 : BitVec 32 := 17#32
  let v751 : BitVec 32 := Scalar.addi v2 c17_i32_557
  let c32_i32_558 : BitVec 32 := 32#32
  let c0_i32_559 : BitVec 32 := 0#32
  let v752 : BitVec 1 := Scalar.cmpi .eq c32_i32_558 c0_i32_559
  let c1_i32_560 : BitVec 32 := 1#32
  let v753 : BitVec 32 := Scalar.select v752 c1_i32_560 c32_i32_558
  let v754 : BitVec 32 := Scalar.remsi v751 v753
  let c0_i32_562 : BitVec 32 := 0#32
  let v756 : BitVec 1 := Scalar.cmpi .slt v754 c0_i32_562
  let c0_i32_563 : BitVec 32 := 0#32
  let v757 : BitVec 1 := Scalar.cmpi .slt v753 c0_i32_563
  let v758 : BitVec 1 := Scalar.xori v756 v757
  let c0_i32_561 : BitVec 32 := 0#32
  let v755 : BitVec 1 := Scalar.cmpi .ne v754 c0_i32_561
  let v759 : BitVec 1 := Scalar.andi v758 v755
  let v760 : BitVec 32 := Scalar.addi v754 v753
  let v761 : BitVec 32 := Scalar.select v759 v760 v754
  let c1_i32_568 : BitVec 32 := 1#32
  let v762 : BitVec 32 := Scalar.muli v761 c1_i32_568
  let v763 : BitVec 32 := Scalar.addi c0_i32_569 v762
  v763.toNat
def k0_dev49 (d0 : Dev nD) : Nat :=
  let c0_i32_586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_574 : BitVec 32 := 18#32
  let v772 : BitVec 32 := Scalar.addi v2 c18_i32_574
  let c32_i32_575 : BitVec 32 := 32#32
  let c0_i32_576 : BitVec 32 := 0#32
  let v773 : BitVec 1 := Scalar.cmpi .eq c32_i32_575 c0_i32_576
  let c1_i32_577 : BitVec 32 := 1#32
  let v774 : BitVec 32 := Scalar.select v773 c1_i32_577 c32_i32_575
  let v775 : BitVec 32 := Scalar.remsi v772 v774
  let c0_i32_579 : BitVec 32 := 0#32
  let v777 : BitVec 1 := Scalar.cmpi .slt v775 c0_i32_579
  let c0_i32_580 : BitVec 32 := 0#32
  let v778 : BitVec 1 := Scalar.cmpi .slt v774 c0_i32_580
  let v779 : BitVec 1 := Scalar.xori v777 v778
  let c0_i32_578 : BitVec 32 := 0#32
  let v776 : BitVec 1 := Scalar.cmpi .ne v775 c0_i32_578
  let v780 : BitVec 1 := Scalar.andi v779 v776
  let v781 : BitVec 32 := Scalar.addi v775 v774
  let v782 : BitVec 32 := Scalar.select v780 v781 v775
  let c1_i32_585 : BitVec 32 := 1#32
  let v783 : BitVec 32 := Scalar.muli v782 c1_i32_585
  let v784 : BitVec 32 := Scalar.addi c0_i32_586 v783
  v784.toNat
def k0_dev50 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_591 : BitVec 32 := 19#32
  let v793 : BitVec 32 := Scalar.addi v2 c19_i32_591
  let c32_i32_592 : BitVec 32 := 32#32
  let c0_i32_593 : BitVec 32 := 0#32
  let v794 : BitVec 1 := Scalar.cmpi .eq c32_i32_592 c0_i32_593
  let c1_i32_594 : BitVec 32 := 1#32
  let v795 : BitVec 32 := Scalar.select v794 c1_i32_594 c32_i32_592
  let v796 : BitVec 32 := Scalar.remsi v793 v795
  let c0_i32_596 : BitVec 32 := 0#32
  let v798 : BitVec 1 := Scalar.cmpi .slt v796 c0_i32_596
  let c0_i32_597 : BitVec 32 := 0#32
  let v799 : BitVec 1 := Scalar.cmpi .slt v795 c0_i32_597
  let v800 : BitVec 1 := Scalar.xori v798 v799
  let c0_i32_595 : BitVec 32 := 0#32
  let v797 : BitVec 1 := Scalar.cmpi .ne v796 c0_i32_595
  let v801 : BitVec 1 := Scalar.andi v800 v797
  let v802 : BitVec 32 := Scalar.addi v796 v795
  let v803 : BitVec 32 := Scalar.select v801 v802 v796
  let c1_i32_602 : BitVec 32 := 1#32
  let v804 : BitVec 32 := Scalar.muli v803 c1_i32_602
  let v805 : BitVec 32 := Scalar.addi c0_i32_603 v804
  v805.toNat
def k0_dev51 (d0 : Dev nD) : Nat :=
  let c0_i32_620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_608 : BitVec 32 := 20#32
  let v814 : BitVec 32 := Scalar.addi v2 c20_i32_608
  let c32_i32_609 : BitVec 32 := 32#32
  let c0_i32_610 : BitVec 32 := 0#32
  let v815 : BitVec 1 := Scalar.cmpi .eq c32_i32_609 c0_i32_610
  let c1_i32_611 : BitVec 32 := 1#32
  let v816 : BitVec 32 := Scalar.select v815 c1_i32_611 c32_i32_609
  let v817 : BitVec 32 := Scalar.remsi v814 v816
  let c0_i32_613 : BitVec 32 := 0#32
  let v819 : BitVec 1 := Scalar.cmpi .slt v817 c0_i32_613
  let c0_i32_614 : BitVec 32 := 0#32
  let v820 : BitVec 1 := Scalar.cmpi .slt v816 c0_i32_614
  let v821 : BitVec 1 := Scalar.xori v819 v820
  let c0_i32_612 : BitVec 32 := 0#32
  let v818 : BitVec 1 := Scalar.cmpi .ne v817 c0_i32_612
  let v822 : BitVec 1 := Scalar.andi v821 v818
  let v823 : BitVec 32 := Scalar.addi v817 v816
  let v824 : BitVec 32 := Scalar.select v822 v823 v817
  let c1_i32_619 : BitVec 32 := 1#32
  let v825 : BitVec 32 := Scalar.muli v824 c1_i32_619
  let v826 : BitVec 32 := Scalar.addi c0_i32_620 v825
  v826.toNat
def k0_dev52 (d0 : Dev nD) : Nat :=
  let c0_i32_637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_625 : BitVec 32 := 21#32
  let v835 : BitVec 32 := Scalar.addi v2 c21_i32_625
  let c32_i32_626 : BitVec 32 := 32#32
  let c0_i32_627 : BitVec 32 := 0#32
  let v836 : BitVec 1 := Scalar.cmpi .eq c32_i32_626 c0_i32_627
  let c1_i32_628 : BitVec 32 := 1#32
  let v837 : BitVec 32 := Scalar.select v836 c1_i32_628 c32_i32_626
  let v838 : BitVec 32 := Scalar.remsi v835 v837
  let c0_i32_630 : BitVec 32 := 0#32
  let v840 : BitVec 1 := Scalar.cmpi .slt v838 c0_i32_630
  let c0_i32_631 : BitVec 32 := 0#32
  let v841 : BitVec 1 := Scalar.cmpi .slt v837 c0_i32_631
  let v842 : BitVec 1 := Scalar.xori v840 v841
  let c0_i32_629 : BitVec 32 := 0#32
  let v839 : BitVec 1 := Scalar.cmpi .ne v838 c0_i32_629
  let v843 : BitVec 1 := Scalar.andi v842 v839
  let v844 : BitVec 32 := Scalar.addi v838 v837
  let v845 : BitVec 32 := Scalar.select v843 v844 v838
  let c1_i32_636 : BitVec 32 := 1#32
  let v846 : BitVec 32 := Scalar.muli v845 c1_i32_636
  let v847 : BitVec 32 := Scalar.addi c0_i32_637 v846
  v847.toNat
def k0_dev53 (d0 : Dev nD) : Nat :=
  let c0_i32_654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_642 : BitVec 32 := 22#32
  let v856 : BitVec 32 := Scalar.addi v2 c22_i32_642
  let c32_i32_643 : BitVec 32 := 32#32
  let c0_i32_644 : BitVec 32 := 0#32
  let v857 : BitVec 1 := Scalar.cmpi .eq c32_i32_643 c0_i32_644
  let c1_i32_645 : BitVec 32 := 1#32
  let v858 : BitVec 32 := Scalar.select v857 c1_i32_645 c32_i32_643
  let v859 : BitVec 32 := Scalar.remsi v856 v858
  let c0_i32_647 : BitVec 32 := 0#32
  let v861 : BitVec 1 := Scalar.cmpi .slt v859 c0_i32_647
  let c0_i32_648 : BitVec 32 := 0#32
  let v862 : BitVec 1 := Scalar.cmpi .slt v858 c0_i32_648
  let v863 : BitVec 1 := Scalar.xori v861 v862
  let c0_i32_646 : BitVec 32 := 0#32
  let v860 : BitVec 1 := Scalar.cmpi .ne v859 c0_i32_646
  let v864 : BitVec 1 := Scalar.andi v863 v860
  let v865 : BitVec 32 := Scalar.addi v859 v858
  let v866 : BitVec 32 := Scalar.select v864 v865 v859
  let c1_i32_653 : BitVec 32 := 1#32
  let v867 : BitVec 32 := Scalar.muli v866 c1_i32_653
  let v868 : BitVec 32 := Scalar.addi c0_i32_654 v867
  v868.toNat
def k0_dev54 (d0 : Dev nD) : Nat :=
  let c0_i32_671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_659 : BitVec 32 := 23#32
  let v877 : BitVec 32 := Scalar.addi v2 c23_i32_659
  let c32_i32_660 : BitVec 32 := 32#32
  let c0_i32_661 : BitVec 32 := 0#32
  let v878 : BitVec 1 := Scalar.cmpi .eq c32_i32_660 c0_i32_661
  let c1_i32_662 : BitVec 32 := 1#32
  let v879 : BitVec 32 := Scalar.select v878 c1_i32_662 c32_i32_660
  let v880 : BitVec 32 := Scalar.remsi v877 v879
  let c0_i32_664 : BitVec 32 := 0#32
  let v882 : BitVec 1 := Scalar.cmpi .slt v880 c0_i32_664
  let c0_i32_665 : BitVec 32 := 0#32
  let v883 : BitVec 1 := Scalar.cmpi .slt v879 c0_i32_665
  let v884 : BitVec 1 := Scalar.xori v882 v883
  let c0_i32_663 : BitVec 32 := 0#32
  let v881 : BitVec 1 := Scalar.cmpi .ne v880 c0_i32_663
  let v885 : BitVec 1 := Scalar.andi v884 v881
  let v886 : BitVec 32 := Scalar.addi v880 v879
  let v887 : BitVec 32 := Scalar.select v885 v886 v880
  let c1_i32_670 : BitVec 32 := 1#32
  let v888 : BitVec 32 := Scalar.muli v887 c1_i32_670
  let v889 : BitVec 32 := Scalar.addi c0_i32_671 v888
  v889.toNat
def k0_dev55 (d0 : Dev nD) : Nat :=
  let c0_i32_688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_676 : BitVec 32 := 24#32
  let v898 : BitVec 32 := Scalar.addi v2 c24_i32_676
  let c32_i32_677 : BitVec 32 := 32#32
  let c0_i32_678 : BitVec 32 := 0#32
  let v899 : BitVec 1 := Scalar.cmpi .eq c32_i32_677 c0_i32_678
  let c1_i32_679 : BitVec 32 := 1#32
  let v900 : BitVec 32 := Scalar.select v899 c1_i32_679 c32_i32_677
  let v901 : BitVec 32 := Scalar.remsi v898 v900
  let c0_i32_681 : BitVec 32 := 0#32
  let v903 : BitVec 1 := Scalar.cmpi .slt v901 c0_i32_681
  let c0_i32_682 : BitVec 32 := 0#32
  let v904 : BitVec 1 := Scalar.cmpi .slt v900 c0_i32_682
  let v905 : BitVec 1 := Scalar.xori v903 v904
  let c0_i32_680 : BitVec 32 := 0#32
  let v902 : BitVec 1 := Scalar.cmpi .ne v901 c0_i32_680
  let v906 : BitVec 1 := Scalar.andi v905 v902
  let v907 : BitVec 32 := Scalar.addi v901 v900
  let v908 : BitVec 32 := Scalar.select v906 v907 v901
  let c1_i32_687 : BitVec 32 := 1#32
  let v909 : BitVec 32 := Scalar.muli v908 c1_i32_687
  let v910 : BitVec 32 := Scalar.addi c0_i32_688 v909
  v910.toNat
def k0_dev56 (d0 : Dev nD) : Nat :=
  let c0_i32_705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_693 : BitVec 32 := 25#32
  let v919 : BitVec 32 := Scalar.addi v2 c25_i32_693
  let c32_i32_694 : BitVec 32 := 32#32
  let c0_i32_695 : BitVec 32 := 0#32
  let v920 : BitVec 1 := Scalar.cmpi .eq c32_i32_694 c0_i32_695
  let c1_i32_696 : BitVec 32 := 1#32
  let v921 : BitVec 32 := Scalar.select v920 c1_i32_696 c32_i32_694
  let v922 : BitVec 32 := Scalar.remsi v919 v921
  let c0_i32_698 : BitVec 32 := 0#32
  let v924 : BitVec 1 := Scalar.cmpi .slt v922 c0_i32_698
  let c0_i32_699 : BitVec 32 := 0#32
  let v925 : BitVec 1 := Scalar.cmpi .slt v921 c0_i32_699
  let v926 : BitVec 1 := Scalar.xori v924 v925
  let c0_i32_697 : BitVec 32 := 0#32
  let v923 : BitVec 1 := Scalar.cmpi .ne v922 c0_i32_697
  let v927 : BitVec 1 := Scalar.andi v926 v923
  let v928 : BitVec 32 := Scalar.addi v922 v921
  let v929 : BitVec 32 := Scalar.select v927 v928 v922
  let c1_i32_704 : BitVec 32 := 1#32
  let v930 : BitVec 32 := Scalar.muli v929 c1_i32_704
  let v931 : BitVec 32 := Scalar.addi c0_i32_705 v930
  v931.toNat
def k0_dev57 (d0 : Dev nD) : Nat :=
  let c0_i32_722 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_710 : BitVec 32 := 26#32
  let v940 : BitVec 32 := Scalar.addi v2 c26_i32_710
  let c32_i32_711 : BitVec 32 := 32#32
  let c0_i32_712 : BitVec 32 := 0#32
  let v941 : BitVec 1 := Scalar.cmpi .eq c32_i32_711 c0_i32_712
  let c1_i32_713 : BitVec 32 := 1#32
  let v942 : BitVec 32 := Scalar.select v941 c1_i32_713 c32_i32_711
  let v943 : BitVec 32 := Scalar.remsi v940 v942
  let c0_i32_715 : BitVec 32 := 0#32
  let v945 : BitVec 1 := Scalar.cmpi .slt v943 c0_i32_715
  let c0_i32_716 : BitVec 32 := 0#32
  let v946 : BitVec 1 := Scalar.cmpi .slt v942 c0_i32_716
  let v947 : BitVec 1 := Scalar.xori v945 v946
  let c0_i32_714 : BitVec 32 := 0#32
  let v944 : BitVec 1 := Scalar.cmpi .ne v943 c0_i32_714
  let v948 : BitVec 1 := Scalar.andi v947 v944
  let v949 : BitVec 32 := Scalar.addi v943 v942
  let v950 : BitVec 32 := Scalar.select v948 v949 v943
  let c1_i32_721 : BitVec 32 := 1#32
  let v951 : BitVec 32 := Scalar.muli v950 c1_i32_721
  let v952 : BitVec 32 := Scalar.addi c0_i32_722 v951
  v952.toNat
def k0_dev58 (d0 : Dev nD) : Nat :=
  let c0_i32_739 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_727 : BitVec 32 := 27#32
  let v961 : BitVec 32 := Scalar.addi v2 c27_i32_727
  let c32_i32_728 : BitVec 32 := 32#32
  let c0_i32_729 : BitVec 32 := 0#32
  let v962 : BitVec 1 := Scalar.cmpi .eq c32_i32_728 c0_i32_729
  let c1_i32_730 : BitVec 32 := 1#32
  let v963 : BitVec 32 := Scalar.select v962 c1_i32_730 c32_i32_728
  let v964 : BitVec 32 := Scalar.remsi v961 v963
  let c0_i32_732 : BitVec 32 := 0#32
  let v966 : BitVec 1 := Scalar.cmpi .slt v964 c0_i32_732
  let c0_i32_733 : BitVec 32 := 0#32
  let v967 : BitVec 1 := Scalar.cmpi .slt v963 c0_i32_733
  let v968 : BitVec 1 := Scalar.xori v966 v967
  let c0_i32_731 : BitVec 32 := 0#32
  let v965 : BitVec 1 := Scalar.cmpi .ne v964 c0_i32_731
  let v969 : BitVec 1 := Scalar.andi v968 v965
  let v970 : BitVec 32 := Scalar.addi v964 v963
  let v971 : BitVec 32 := Scalar.select v969 v970 v964
  let c1_i32_738 : BitVec 32 := 1#32
  let v972 : BitVec 32 := Scalar.muli v971 c1_i32_738
  let v973 : BitVec 32 := Scalar.addi c0_i32_739 v972
  v973.toNat
def k0_dev59 (d0 : Dev nD) : Nat :=
  let c0_i32_756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_744 : BitVec 32 := 28#32
  let v982 : BitVec 32 := Scalar.addi v2 c28_i32_744
  let c32_i32_745 : BitVec 32 := 32#32
  let c0_i32_746 : BitVec 32 := 0#32
  let v983 : BitVec 1 := Scalar.cmpi .eq c32_i32_745 c0_i32_746
  let c1_i32_747 : BitVec 32 := 1#32
  let v984 : BitVec 32 := Scalar.select v983 c1_i32_747 c32_i32_745
  let v985 : BitVec 32 := Scalar.remsi v982 v984
  let c0_i32_749 : BitVec 32 := 0#32
  let v987 : BitVec 1 := Scalar.cmpi .slt v985 c0_i32_749
  let c0_i32_750 : BitVec 32 := 0#32
  let v988 : BitVec 1 := Scalar.cmpi .slt v984 c0_i32_750
  let v989 : BitVec 1 := Scalar.xori v987 v988
  let c0_i32_748 : BitVec 32 := 0#32
  let v986 : BitVec 1 := Scalar.cmpi .ne v985 c0_i32_748
  let v990 : BitVec 1 := Scalar.andi v989 v986
  let v991 : BitVec 32 := Scalar.addi v985 v984
  let v992 : BitVec 32 := Scalar.select v990 v991 v985
  let c1_i32_755 : BitVec 32 := 1#32
  let v993 : BitVec 32 := Scalar.muli v992 c1_i32_755
  let v994 : BitVec 32 := Scalar.addi c0_i32_756 v993
  v994.toNat
def k0_dev60 (d0 : Dev nD) : Nat :=
  let c0_i32_773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_761 : BitVec 32 := 29#32
  let v1003 : BitVec 32 := Scalar.addi v2 c29_i32_761
  let c32_i32_762 : BitVec 32 := 32#32
  let c0_i32_763 : BitVec 32 := 0#32
  let v1004 : BitVec 1 := Scalar.cmpi .eq c32_i32_762 c0_i32_763
  let c1_i32_764 : BitVec 32 := 1#32
  let v1005 : BitVec 32 := Scalar.select v1004 c1_i32_764 c32_i32_762
  let v1006 : BitVec 32 := Scalar.remsi v1003 v1005
  let c0_i32_766 : BitVec 32 := 0#32
  let v1008 : BitVec 1 := Scalar.cmpi .slt v1006 c0_i32_766
  let c0_i32_767 : BitVec 32 := 0#32
  let v1009 : BitVec 1 := Scalar.cmpi .slt v1005 c0_i32_767
  let v1010 : BitVec 1 := Scalar.xori v1008 v1009
  let c0_i32_765 : BitVec 32 := 0#32
  let v1007 : BitVec 1 := Scalar.cmpi .ne v1006 c0_i32_765
  let v1011 : BitVec 1 := Scalar.andi v1010 v1007
  let v1012 : BitVec 32 := Scalar.addi v1006 v1005
  let v1013 : BitVec 32 := Scalar.select v1011 v1012 v1006
  let c1_i32_772 : BitVec 32 := 1#32
  let v1014 : BitVec 32 := Scalar.muli v1013 c1_i32_772
  let v1015 : BitVec 32 := Scalar.addi c0_i32_773 v1014
  v1015.toNat
def k0_dev61 (d0 : Dev nD) : Nat :=
  let c0_i32_790 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_778 : BitVec 32 := 30#32
  let v1024 : BitVec 32 := Scalar.addi v2 c30_i32_778
  let c32_i32_779 : BitVec 32 := 32#32
  let c0_i32_780 : BitVec 32 := 0#32
  let v1025 : BitVec 1 := Scalar.cmpi .eq c32_i32_779 c0_i32_780
  let c1_i32_781 : BitVec 32 := 1#32
  let v1026 : BitVec 32 := Scalar.select v1025 c1_i32_781 c32_i32_779
  let v1027 : BitVec 32 := Scalar.remsi v1024 v1026
  let c0_i32_783 : BitVec 32 := 0#32
  let v1029 : BitVec 1 := Scalar.cmpi .slt v1027 c0_i32_783
  let c0_i32_784 : BitVec 32 := 0#32
  let v1030 : BitVec 1 := Scalar.cmpi .slt v1026 c0_i32_784
  let v1031 : BitVec 1 := Scalar.xori v1029 v1030
  let c0_i32_782 : BitVec 32 := 0#32
  let v1028 : BitVec 1 := Scalar.cmpi .ne v1027 c0_i32_782
  let v1032 : BitVec 1 := Scalar.andi v1031 v1028
  let v1033 : BitVec 32 := Scalar.addi v1027 v1026
  let v1034 : BitVec 32 := Scalar.select v1032 v1033 v1027
  let c1_i32_789 : BitVec 32 := 1#32
  let v1035 : BitVec 32 := Scalar.muli v1034 c1_i32_789
  let v1036 : BitVec 32 := Scalar.addi c0_i32_790 v1035
  v1036.toNat
def k0_dev62 (d0 : Dev nD) : Nat :=
  let c0_i32_807 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_795 : BitVec 32 := 31#32
  let v1045 : BitVec 32 := Scalar.addi v2 c31_i32_795
  let c32_i32_796 : BitVec 32 := 32#32
  let c0_i32_797 : BitVec 32 := 0#32
  let v1046 : BitVec 1 := Scalar.cmpi .eq c32_i32_796 c0_i32_797
  let c1_i32_798 : BitVec 32 := 1#32
  let v1047 : BitVec 32 := Scalar.select v1046 c1_i32_798 c32_i32_796
  let v1048 : BitVec 32 := Scalar.remsi v1045 v1047
  let c0_i32_800 : BitVec 32 := 0#32
  let v1050 : BitVec 1 := Scalar.cmpi .slt v1048 c0_i32_800
  let c0_i32_801 : BitVec 32 := 0#32
  let v1051 : BitVec 1 := Scalar.cmpi .slt v1047 c0_i32_801
  let v1052 : BitVec 1 := Scalar.xori v1050 v1051
  let c0_i32_799 : BitVec 32 := 0#32
  let v1049 : BitVec 1 := Scalar.cmpi .ne v1048 c0_i32_799
  let v1053 : BitVec 1 := Scalar.andi v1052 v1049
  let v1054 : BitVec 32 := Scalar.addi v1048 v1047
  let v1055 : BitVec 32 := Scalar.select v1053 v1054 v1048
  let c1_i32_806 : BitVec 32 := 1#32
  let v1056 : BitVec 32 := Scalar.muli v1055 c1_i32_806
  let v1057 : BitVec 32 := Scalar.addi c0_i32_807 v1056
  v1057.toNat
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  inb_S2048x1024_S2048x1024_0_0 : ∀ a, (![0, 0] : Fin 2 → Nat) a + S2048x1024.size a ≤ S2048x1024.size a
  h_S2048x1024 : 0 < S2048x1024.numel
  slices_S8x1024_o0_0_S1x1024 : S8x1024.Slices ![0, 0] S1x1024
  shapeCasts_S1x1024_S8x128 : S1x1024.ShapeCasts S8x128
  inb_S32x8x128_S1x8x128_0_0_0 : ∀ a, (![0, 0, 0] : Fin 3 → Nat) a + S1x8x128.size a ≤ S32x8x128.size a
  h_S1x8x128 : 0 < S1x8x128.numel
  shapeCasts_S1x8x128_S8x128 : S1x8x128.ShapeCasts S8x128
  shapeCasts_S8x128_S1x8x128 : S8x128.ShapeCasts S1x8x128
  hamt_31 : (31#32 : BitVec 32).msb = false
  inb_S32_S1_1 : ∀ a, (![1] : Fin 1 → Nat) a + S1.size a ≤ S32.size a
  squeezes_S1_S_ : S1.Squeezes S_
  inb_S32x8x128_S1x8x128_1_0_0 : ∀ a, (![1, 0, 0] : Fin 3 → Nat) a + S1x8x128.size a ≤ S32x8x128.size a
  squeezes_S1x8x128_S8x128 : S1x8x128.Squeezes S8x128
  inb_S32_S1_2 : ∀ a, (![2] : Fin 1 → Nat) a + S1.size a ≤ S32.size a
  inb_S32x8x128_S1x8x128_2_0_0 : ∀ a, (![2, 0, 0] : Fin 3 → Nat) a + S1x8x128.size a ≤ S32x8x128.size a
  inb_S32_S1_3 : ∀ a, (![3] : Fin 1 → Nat) a + S1.size a ≤ S32.size a
  inb_S32x8x128_S1x8x128_3_0_0 : ∀ a, (![3, 0, 0] : Fin 3 → Nat) a + S1x8x128.size a ≤ S32x8x128.size a
  inb_S32_S1_4 : ∀ a, (![4] : Fin 1 → Nat) a + S1.size a ≤ S32.size a
  inb_S32x8x128_S1x8x128_4_0_0 : ∀ a, (![4, 0, 0] : Fin 3 → Nat) a + S1x8x128.size a ≤ S32x8x128.size a
  inb_S32_S1_5 : ∀ a, (![5] : Fin 1 → Nat) a + S1.size a ≤ S32.size a
  inb_S32x8x128_S1x8x128_5_0_0 : ∀ a, (![5, 0, 0] : Fin 3 → Nat) a + S1x8x128.size a ≤ S32x8x128.size a
  inb_S32_S1_6 : ∀ a, (![6] : Fin 1 → Nat) a + S1.size a ≤ S32.size a
  inb_S32x8x128_S1x8x128_6_0_0 : ∀ a, (![6, 0, 0] : Fin 3 → Nat) a + S1x8x128.size a ≤ S32x8x128.size a
  inb_S32_S1_7 : ∀ a, (![7] : Fin 1 → Nat) a + S1.size a ≤ S32.size a
  inb_S32x8x128_S1x8x128_7_0_0 : ∀ a, (![7, 0, 0] : Fin 3 → Nat) a + S1x8x128.size a ≤ S32x8x128.size a
  inb_S32_S1_8 : ∀ a, (![8] : Fin 1 → Nat) a + S1.size a ≤ S32.size a
  inb_S32x8x128_S1x8x128_8_0_0 : ∀ a, (![8, 0, 0] : Fin 3 → Nat) a + S1x8x128.size a ≤ S32x8x128.size a
  inb_S32_S1_9 : ∀ a, (![9] : Fin 1 → Nat) a + S1.size a ≤ S32.size a
  inb_S32x8x128_S1x8x128_9_0_0 : ∀ a, (![9, 0, 0] : Fin 3 → Nat) a + S1x8x128.size a ≤ S32x8x128.size a
  inb_S32_S1_10 : ∀ a, (![10] : Fin 1 → Nat) a + S1.size a ≤ S32.size a
  inb_S32x8x128_S1x8x128_10_0_0 : ∀ a, (![10, 0, 0] : Fin 3 → Nat) a + S1x8x128.size a ≤ S32x8x128.size a
  inb_S32_S1_11 : ∀ a, (![11] : Fin 1 → Nat) a + S1.size a ≤ S32.size a
  inb_S32x8x128_S1x8x128_11_0_0 : ∀ a, (![11, 0, 0] : Fin 3 → Nat) a + S1x8x128.size a ≤ S32x8x128.size a
  inb_S32_S1_12 : ∀ a, (![12] : Fin 1 → Nat) a + S1.size a ≤ S32.size a
  inb_S32x8x128_S1x8x128_12_0_0 : ∀ a, (![12, 0, 0] : Fin 3 → Nat) a + S1x8x128.size a ≤ S32x8x128.size a
  inb_S32_S1_13 : ∀ a, (![13] : Fin 1 → Nat) a + S1.size a ≤ S32.size a
  inb_S32x8x128_S1x8x128_13_0_0 : ∀ a, (![13, 0, 0] : Fin 3 → Nat) a + S1x8x128.size a ≤ S32x8x128.size a
  inb_S32_S1_14 : ∀ a, (![14] : Fin 1 → Nat) a + S1.size a ≤ S32.size a
  inb_S32x8x128_S1x8x128_14_0_0 : ∀ a, (![14, 0, 0] : Fin 3 → Nat) a + S1x8x128.size a ≤ S32x8x128.size a
  inb_S32_S1_15 : ∀ a, (![15] : Fin 1 → Nat) a + S1.size a ≤ S32.size a
  inb_S32x8x128_S1x8x128_15_0_0 : ∀ a, (![15, 0, 0] : Fin 3 → Nat) a + S1x8x128.size a ≤ S32x8x128.size a
  inb_S32_S1_16 : ∀ a, (![16] : Fin 1 → Nat) a + S1.size a ≤ S32.size a
  inb_S32x8x128_S1x8x128_16_0_0 : ∀ a, (![16, 0, 0] : Fin 3 → Nat) a + S1x8x128.size a ≤ S32x8x128.size a
  inb_S32_S1_17 : ∀ a, (![17] : Fin 1 → Nat) a + S1.size a ≤ S32.size a
  inb_S32x8x128_S1x8x128_17_0_0 : ∀ a, (![17, 0, 0] : Fin 3 → Nat) a + S1x8x128.size a ≤ S32x8x128.size a
  inb_S32_S1_18 : ∀ a, (![18] : Fin 1 → Nat) a + S1.size a ≤ S32.size a
  inb_S32x8x128_S1x8x128_18_0_0 : ∀ a, (![18, 0, 0] : Fin 3 → Nat) a + S1x8x128.size a ≤ S32x8x128.size a
  inb_S32_S1_19 : ∀ a, (![19] : Fin 1 → Nat) a + S1.size a ≤ S32.size a
  inb_S32x8x128_S1x8x128_19_0_0 : ∀ a, (![19, 0, 0] : Fin 3 → Nat) a + S1x8x128.size a ≤ S32x8x128.size a
  inb_S32_S1_20 : ∀ a, (![20] : Fin 1 → Nat) a + S1.size a ≤ S32.size a
  inb_S32x8x128_S1x8x128_20_0_0 : ∀ a, (![20, 0, 0] : Fin 3 → Nat) a + S1x8x128.size a ≤ S32x8x128.size a
  inb_S32_S1_21 : ∀ a, (![21] : Fin 1 → Nat) a + S1.size a ≤ S32.size a
  inb_S32x8x128_S1x8x128_21_0_0 : ∀ a, (![21, 0, 0] : Fin 3 → Nat) a + S1x8x128.size a ≤ S32x8x128.size a
  inb_S32_S1_22 : ∀ a, (![22] : Fin 1 → Nat) a + S1.size a ≤ S32.size a
  inb_S32x8x128_S1x8x128_22_0_0 : ∀ a, (![22, 0, 0] : Fin 3 → Nat) a + S1x8x128.size a ≤ S32x8x128.size a
  inb_S32_S1_23 : ∀ a, (![23] : Fin 1 → Nat) a + S1.size a ≤ S32.size a
  inb_S32x8x128_S1x8x128_23_0_0 : ∀ a, (![23, 0, 0] : Fin 3 → Nat) a + S1x8x128.size a ≤ S32x8x128.size a
  inb_S32_S1_24 : ∀ a, (![24] : Fin 1 → Nat) a + S1.size a ≤ S32.size a
  inb_S32x8x128_S1x8x128_24_0_0 : ∀ a, (![24, 0, 0] : Fin 3 → Nat) a + S1x8x128.size a ≤ S32x8x128.size a
  inb_S32_S1_25 : ∀ a, (![25] : Fin 1 → Nat) a + S1.size a ≤ S32.size a
  inb_S32x8x128_S1x8x128_25_0_0 : ∀ a, (![25, 0, 0] : Fin 3 → Nat) a + S1x8x128.size a ≤ S32x8x128.size a
  inb_S32_S1_26 : ∀ a, (![26] : Fin 1 → Nat) a + S1.size a ≤ S32.size a
  inb_S32x8x128_S1x8x128_26_0_0 : ∀ a, (![26, 0, 0] : Fin 3 → Nat) a + S1x8x128.size a ≤ S32x8x128.size a
  inb_S32_S1_27 : ∀ a, (![27] : Fin 1 → Nat) a + S1.size a ≤ S32.size a
  inb_S32x8x128_S1x8x128_27_0_0 : ∀ a, (![27, 0, 0] : Fin 3 → Nat) a + S1x8x128.size a ≤ S32x8x128.size a
  inb_S32_S1_28 : ∀ a, (![28] : Fin 1 → Nat) a + S1.size a ≤ S32.size a
  inb_S32x8x128_S1x8x128_28_0_0 : ∀ a, (![28, 0, 0] : Fin 3 → Nat) a + S1x8x128.size a ≤ S32x8x128.size a
  inb_S32_S1_29 : ∀ a, (![29] : Fin 1 → Nat) a + S1.size a ≤ S32.size a
  inb_S32x8x128_S1x8x128_29_0_0 : ∀ a, (![29, 0, 0] : Fin 3 → Nat) a + S1x8x128.size a ≤ S32x8x128.size a
  inb_S32_S1_30 : ∀ a, (![30] : Fin 1 → Nat) a + S1.size a ≤ S32.size a
  inb_S32x8x128_S1x8x128_30_0_0 : ∀ a, (![30, 0, 0] : Fin 3 → Nat) a + S1x8x128.size a ≤ S32x8x128.size a
  inb_S32_S1_31 : ∀ a, (![31] : Fin 1 → Nat) a + S1.size a ≤ S32.size a
  inb_S32x8x128_S1x8x128_31_0_0 : ∀ a, (![31, 0, 0] : Fin 3 → Nat) a + S1x8x128.size a ≤ S32x8x128.size a
  inb_S32x8x128_S32x8x128_0_0_0 : ∀ a, (![0, 0, 0] : Fin 3 → Nat) a + S32x8x128.size a ≤ S32x8x128.size a
  h_S32x8x128 : 0 < S32x8x128.numel
  reduces_S32x8x128_S8x128 : S32x8x128.Reduces [0] S8x128
  shapeCasts_S8x128_S1x1024 : S8x128.ShapeCasts S1x1024
  inb_S1x1024_S1x1024_0_0 : ∀ a, (![0, 0] : Fin 2 → Nat) a + S1x1024.size a ≤ S1x1024.size a
  h_S1x1024 : 0 < S1x1024.numel
  dot_S8x2048_S2048x1024_S8x1024_1_0_0_1_n_n_wf : DotDims.WF S8x2048 S2048x1024 S8x1024 [1] [0] [0] [1] [] []
  hcc0_scratch2 : 1 + S32.numel ≤ 66
  hcc0_scratch3 : 33 + S32.numel ≤ 66
  hcc0_scratch4 : 65 + S_.numel ≤ 66
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  hstage0_0 : ∀ j, (stage0_0 j).IsWhole

variable [Facts₀]

abbrev cc0_scratch2 : DmaSems sig S32 := SemArray.consecutive 1 S32 hcc0_scratch2
abbrev cc0_scratch3 : DmaSems sig S32 := SemArray.consecutive 33 S32 hcc0_scratch3
abbrev cc0_scratch4 : DmaSems sig S_ := SemArray.consecutive 65 S_ hcc0_scratch4
def dot_S8x2048_S2048x1024_S8x1024_1_0_0_1_n_n : DotDims S8x2048 S2048x1024 S8x1024 where
  lhsContracting := [1]
  rhsContracting := [0]
  lhsNonContracting := [0]
  rhsNonContracting := [1]
  lhsBatch := []
  rhsBatch := []
  wf := dot_S8x2048_S2048x1024_S8x1024_1_0_0_1_n_n_wf

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S_ : Shape := ⟨0, ![]⟩
abbrev S1024 : Shape := ⟨1, ![1024]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S_, .f32⟩
  | .hbm, ⟨2, _⟩ => ⟨S1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S65536x1024_S1024_d0 : S65536x1024.ReducesTo [0] S1024
  h_S_ : 0 < S_.numel
  bcast_S1024_S1x1024_1 : S1024.BroadcastsInDim S1x1024 (![1] : Fin 1 → Fin S1x1024.rank)
  bcast_S_S1x1024 : S_.BroadcastsInDim S1x1024 (![] : Fin 0 → Fin S1x1024.rank)

variable [Facts₀]

class Facts : Prop extends Facts₀ where

variable [Facts]
-- ==== Proof.Mesh.lean ====
import proofs.«900948_g7700000000000949_dist_mean_ax0_shard0_i_m2048_n1024_v7x_i32_f32_1_alg».proof.Proof.Gen.KernelIdeal

/-! The ring of 32 devices: device `c`'s `e`-th neighbour is `(c + e) mod 32`; `neg e = (32 - e) mod 32` names the
    way back, so that `peer (peer c e) (neg e) = c`. -/

namespace Cert.KernelIdeal.Mesh

open Cert.KernelIdeal Idealize.ShloMosaic

/-- The `e`-th neighbour of device `c` around the ring. -/
def peer (c : Dev nD) (e : Fin 32) : Dev nD := ⟨(c.val + e.val) % 32, Nat.mod_lt _ (by decide)⟩

/-- The step that undoes `e`. -/
def neg (e : Fin 32) : Fin 32 := ⟨(32 - e.val) % 32, Nat.mod_lt _ (by decide)⟩

theorem peer_zero (c : Dev nD) : peer c 0 = c := by revert c; decide
theorem neg_neg (e : Fin 32) : neg (neg e) = e := by revert e; decide
theorem neg_zero : neg 0 = 0 := by decide
theorem neg_ne_zero {e : Fin 32} (h : e ≠ 0) : neg e ≠ 0 := by revert e; decide
theorem peer_peer_neg (c : Dev nD) (e : Fin 32) : peer (peer c e) (neg e) = c := by revert c e; decide
theorem peer_neg_peer (c : Dev nD) (e : Fin 32) : peer (peer c (neg e)) e = c := by revert c e; decide
theorem peer_injective (e : Fin 32) : Function.Injective fun c => peer c e := by
  intro a b h; have := congrArg (fun x => peer x (neg e)) h; simpa only [peer_peer_neg] using this

/-- Going `e` steps round the ring permutes the devices. -/
def ring (e : Fin 32) : Dev nD ≃ Dev nD :=
  ⟨fun c => peer c e, fun c => peer c (neg e), fun c => peer_peer_neg c e, fun c => peer_neg_peer c e⟩

end Cert.KernelIdeal.Mesh
-- ==== Proof.Sched.lean ====
import proofs.«900948_g7700000000000949_dist_mean_ax0_shard0_i_m2048_n1024_v7x_i32_f32_1_alg».proof.Proof.Gen.KernelIdeal
import proofs.«900948_g7700000000000949_dist_mean_ax0_shard0_i_m2048_n1024_v7x_i32_f32_1_alg».proof.Proof.Gen.KernelIdeal.Skeleton
import proofs.«900948_g7700000000000949_dist_mean_ax0_shard0_i_m2048_n1024_v7x_i32_f32_1_alg».proof.Proof.Gen.KernelIdeal.Launch
import proofs.«900948_g7700000000000949_dist_mean_ax0_shard0_i_m2048_n1024_v7x_i32_f32_1_alg».proof.Proof.Mesh
import Idealize.ShloMosaic.Lib.Pipeline.Launch
import Idealize.ShloMosaic.Lib.Pipeline.Kit
import Idealize.ShloMosaic.Lib.Tactic

/-! # The protocol of the 32-device mean

Every device `c` signals the barrier semaphore of each of its 31 neighbours once and waits for 31 units on its own: after
that wait every neighbour is inside the kernel. The unit that the neighbour `peer c e` sends `c` carries that neighbour's
slot `e` of the gather buffer (which nobody else touches) and the fact that its receive cell `e` is open: exactly what `c`'s
`e`-th transfer, addressed to `peer c e`, slot `e`, needs. A transfer pays two cells: the send cell `e` of `c` (it hands back the
share of slot 0 it read) and the receive cell `e` of `peer c e` (it hands over slot `e` holding the sender's column sums). -/

noncomputable section

namespace Cert.KernelIdeal.Proto

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by the neighbour's number) -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Memrefs, semaphores, cells -/

abbrev xH : Memref sig .tc .hbm S2048x1024 .f32 := Memref.whole main_arg0
abbrev oM : Memref sig .tc .vmem S1x1024 .f32 := Memref.whole cc0_stg0_0
abbrev xV : Memref sig .tc .vmem S2048x1024 .f32 := Memref.whole cc0_scratch0
abbrev gM : Memref sig .tc .vmem S32x8x128 .f32 := Memref.whole cc0_scratch1

theorem inbSlot (e : Fin 32) : ∀ a, (![e.val, 0, 0] : Fin 3 → Nat) a + S1x8x128.size a ≤ S32x8x128.size a := by
  revert e; decide
theorem inbSem (e : Fin 32) : ∀ a, (![e.val] : Fin 1 → Nat) a + S1.size a ≤ S32.size a := by
  revert e; decide

/-- Slot `e` of the gather buffer, as the transfers address it: the 8×128 block at row `e`. -/
abbrev slotR (e : Fin 32) : Rect S32x8x128 := Rect.unit (s := S32x8x128) ![e.val, 0, 0] S1x8x128.size (inbSlot e)
abbrev slotM (e : Fin 32) : Memref sig .tc .vmem S8x128 .f32 :=
  ((gM.slice (slotR e) (fun _ => rfl)).squeeze S8x128 squeezes_S1x8x128_S8x128)

/-- The runtime's barrier semaphore; the `e`-th send and receive DMA semaphores; the local copy's. -/
abbrev barS : Sem sig := (SemArray.scalar (sig.barrier 0 rfl) : Sems sig S_).sem
abbrev sendS (e : Fin 32) : DmaSem sig :=
  ((cc0_scratch2.slice (Rect.unit (s := S32) ![e.val] S1.size (inbSem e))).squeeze S_ squeezes_S1_S_).sem
abbrev recvS (e : Fin 32) : DmaSem sig :=
  ((cc0_scratch3.slice (Rect.unit (s := S32) ![e.val] S1.size (inbSem e))).squeeze S_ squeezes_S1_S_).sem
abbrev cpyS : DmaSem sig := cc0_scratch4.sem

theorem sendS_val (e : Fin 32) : (sendS e).val = 1 + e.val := by revert e; decide
theorem recvS_val (e : Fin 32) : (recvS e).val = 33 + e.val := by revert e; decide
theorem cpyS_val : (cpyS).val = 65 := by decide

abbrev barCell (c : Dev nD) : GSem nD τ sig := ((c : Thread nD τ), .reg barS)
abbrev sendCell (c : Dev nD) (e : Fin 32) : GSem nD τ sig := ((c : Thread nD τ), .dma (sendS e))
abbrev recvCell (c : Dev nD) (e : Fin 32) : GSem nD τ sig := ((c : Thread nD τ), .dma (recvS e))

/-- One transfer's credit: the words of a slot. -/
abbrev N : ℕ := (slotM 0).view.dmaCredit
theorem N_pos : 0 < N := View.dmaCredit_pos _ (by decide)
theorem credit_slot (e : Fin 32) : (slotM e).view.dmaCredit = N := by revert e; decide

end Cert.KernelIdeal.Proto

/-! ## The cells, all of them, by one index: 0 the barrier cell, `k = 1..65` the DMA semaphore `k` (send `k - 1`, receive `k - 33`, 65 the local copy's) -/

namespace Cert.KernelIdeal.Proto
open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

abbrev csem (k : Fin 66) : SemLoc sig := if k.val = 0 then .reg barS else .dma ⟨k.val, k.isLt⟩
abbrev kcell (ck : Dev nD × Fin 66) : GSem nD τ sig := ((ck.1 : Thread nD τ), csem ck.2)

/-- The neighbour's number a DMA semaphore belongs to. -/
def slotOf (k : DmaSem sig) : Fin 32 := ⟨(k.val + 31) % 32, Nat.mod_lt _ (by decide)⟩
theorem slotOf_send (e : Fin 32) : slotOf (sendS e) = e := by revert e; decide
theorem slotOf_recv (e : Fin 32) : slotOf (recvS e) = e := by revert e; decide

/-- The neighbours proper: everyone but the device itself. -/
def E31 : Finset (Fin 32) := Finset.univ.erase 0
theorem mem_E31 {e : Fin 32} : e ∈ E31 ↔ e ≠ 0 := by unfold E31; simp
theorem card_E31 : E31.card = 31 := by decide

/-! ## Contents, shares, points-to facts -/

variable (m : (ℓ : Loc nD τ sig) → Buf (Elt F) ℓ) (ρ : Dev nD → PrngReg)
-- What each device's gather buffer ends holding; the protocol needs two facts of it only, stated where they are used.
variable (Gc : (c : Dev nD) → Buf (Elt F) ((c : Thread nD τ).loc cc0_scratch1))

/-- Device `c`'s block of the input. -/
def X (c : Dev nD) : Buf (Elt F) ((c : Thread nD τ).loc main_arg0) := m ((c : Thread nD τ).loc main_arg0)

/-- The share of slot 0 lent to the `e`-th transfer: the left half of what the first `e - 1` transfers left. -/
def restShare : ℕ → PosShare TreeShare
  | 0 => fullShare
  | k + 1 => (restShare k).right
def lentShare (e : Fin 32) : PosShare TreeShare := (restShare (e.val - 1)).left

def slotPts (c : Dev nD) (e : Fin 32) (f : Buf (Elt F) ((slotM e).view.loc (c : Thread nD τ))) : sProp 𝕄 :=
  (slotM e).view.loc (c : Thread nD τ) ↦[(slotM e).view.set]{fullShare} f
def srcPts (c : Dev nD) (q : PosShare TreeShare) (f : Buf (Elt F) ((slotM 0).view.loc (c : Thread nD τ))) : sProp 𝕄 :=
  (slotM 0).view.loc (c : Thread nD τ) ↦[(slotM 0).view.set]{q} f

omit [FloatOps F] in
instance slotPts_storable (c : Dev nD) (e : Fin 32) (f) : BI.Storable (upEmb : UEmb _ 𝕄) (slotPts (F := F) c e f) := by unfold slotPts; infer_instance
omit [FloatOps F] in
instance srcPts_storable (c : Dev nD) (q) (f) : BI.Storable (upEmb : UEmb _ 𝕄) (srcPts (F := F) c q f) := by unfold srcPts; infer_instance

abbrev cpyCell (c : Dev nD) : GSem nD τ sig := ((c : Thread nD τ), .dma cpyS)
/-- The local copy's credit: the words of a block. -/
abbrev NX : ℕ := (xV : Memref sig .tc .vmem S2048x1024 .f32).view.dmaCredit
theorem NX_pos : 0 < NX := View.dmaCredit_pos _ (by decide)

def xvPts (c : Dev nD) (f : Buf (Elt F) ((c : Thread nD τ).loc cc0_scratch0)) : sProp 𝕄 := ((c : Thread nD τ).loc cc0_scratch0) ↦{fullShare} f
def gPts (c : Dev nD) (f : Buf (Elt F) ((c : Thread nD τ).loc cc0_scratch1)) : sProp 𝕄 := ((c : Thread nD τ).loc cc0_scratch1) ↦{fullShare} f
def argPts (c : Dev nD) : sProp 𝕄 := ((c : Thread nD τ).loc main_arg0) ↦{fullShare} X m c

/-! ## The schedule: one round -/

/-- The local copy's landing: the device's block in VMEM, and the input array back. -/
def cpyPay (c : Dev nD) : sProp 𝕄 := iprop(xvPts c (X m c) ∗ argPts m c)

/-- What the neighbour `peer c e` hands `c` with its unit on `c`'s barrier cell: its slot `e`, and that its receive cell `e` is open. -/
def barPay (c : Dev nD) (e : Fin 32) : sProp 𝕄 := iprop((∃ f, slotPts (peer c e) e f) ∗ reached ER (recvCell (peer c e) e) 0)
/-- The landing on `c`'s slot `e`: the slot holding its final contents. -/
def recvPay (c : Dev nD) (e : Fin 32) : sProp 𝕄 := slotPts c e (Gc c)
/-- The departure of `c`'s `e`-th transfer: the share of slot 0 it read, back. -/
def sendPay (c : Dev nD) (e : Fin 32) : sProp 𝕄 := srcPts c (lentShare e) (Gc c)

def ringRd : Rounds.Schedule (GSem nD τ sig) (Fin 32) 𝕄 where
  duties g r :=
    if r = 0 ∧ g.1.2 = .tc then
      (match g.2 with
        | .reg s => if s = barS then E31 else ∅
        | .dma k => if (1 ≤ k.val ∧ k.val ≤ 64 ∧ slotOf k ≠ 0) ∨ k.val = 65 then {0} else ∅)
    else ∅
  unitless _ := False
  amount g _ _ := match g.2 with | .reg _ => 1 | .dma k => if k.val = 65 then NX else N
  payload g _ d := match g.2 with
    | .reg _ => barPay g.1.1 d
    | .dma k => if k.val ≤ 32 then sendPay Gc g.1.1 (slotOf k) else if k.val ≤ 64 then recvPay Gc g.1.1 (slotOf k) else cpyPay m g.1.1
  amount_pos g _ _ _ := by
    cases g.2 with
    | reg s => exact Nat.one_pos
    | dma k => dsimp only; split <;> [exact NX_pos; exact N_pos]

instance ringRd_payload_storable (g : GSem nD τ sig) (r : ℕ) (d : Fin 32) :
    BI.Storable (upEmb : UEmb _ 𝕄) ((ringRd (F := F) m Gc).payload g r d) := by
  show BI.Storable upEmb (match g.2 with
    | .reg _ => barPay g.1.1 d
    | .dma k => if k.val ≤ 32 then sendPay Gc g.1.1 (slotOf k) else if k.val ≤ 64 then recvPay Gc g.1.1 (slotOf k) else cpyPay m g.1.1)
  unfold barPay recvPay sendPay cpyPay xvPts argPts
  (repeat' split) <;> infer_instance

end Cert.KernelIdeal.Proto

end
-- ==== Proof.Ghost.lean ====
import proofs.«900948_g7700000000000949_dist_mean_ax0_shard0_i_m2048_n1024_v7x_i32_f32_1_alg».proof.Proof.Sched

/-! # What each device starts from and ends with

The launch allocates every cell's invariant and records them with the cells' round-0 marks (`records`); a device keeps
its own cells' positions and the tokens of the duties IT pays (`linear`): one unit on each neighbour's barrier cell,
the landing of each of its transfers, the departure of each. It owes those units at launch (`O₀`). -/

noncomputable section

namespace Cert.KernelIdeal.Proto

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (Gc : (c : Dev nD) → Buf (Elt F) ((c : Thread nD τ).loc cc0_scratch1))

/-- The neighbours in the order the program visits them. -/
def L31 : List (Fin 32) := [1, 2, 3, 4, 5, 6, 7, 8, 9, 10, 11, 12, 13, 14, 15, 16, 17, 18, 19, 20, 21, 22, 23, 24, 25, 26, 27, 28, 29, 30, 31]
theorem L31_toFinset : L31.toFinset = E31 := by decide
theorem L31_nodup : L31.Nodup := by decide

/-- What a device owes: the landing credit of each of its transfers, and a unit on each neighbour's barrier cell. -/
def owedRecv (c : Dev nD) (es : List (Fin 32)) : CellTallies nD τ sig Unit := (es.map fun e => tallyAt (recvCell (peer c e) e) () N).sum
def owedBar (c : Dev nD) (js : List (Fin 32)) : CellTallies nD τ sig Unit := (js.map fun j => tallyAt (barCell (peer c j)) () 1).sum
def O₀ (c : Dev nD) : CellTallies nD τ sig Unit := owedRecv c L31 + owedBar c L31

/-- Every TensorCore cell has the one index; barrier cells sit at level 1, receive cells at 2, everything else at 0. -/
def L (g : GSem nD τ sig) : Finset Unit := if g.1.2 = .tc then {()} else ∅
def lv (g : GSem nD τ sig) (_ : Unit) : ℕ :=
  match g.2 with
  | .reg s => if s = barS then 1 else 0
  | .dma k => if 33 ≤ k.val ∧ k.val ≤ 64 then 2 else 0

/-! ## The ghost state -/

def records (K : Dev nD × Fin 66 → ℕ) : sProp 𝕄 :=
  iprop((bigSep Finset.univ fun ck : Dev nD × Fin 66 => cellInv ER (ringRd m Gc) (K ck) (kcell ck))
    ∗ bigSep Finset.univ fun ck : Dev nD × Fin 66 => reached ER (kcell ck) 0)

instance records_persistent (K : Dev nD × Fin 66 → ℕ) : BI.Persistent (records (F := F) m Gc K) := by unfold records; infer_instance

/-- The tokens of the duties device `c` pays: on the barrier cell of its `j`-th neighbour the duty that neighbour knows it by
    (`neg j`: `c` is its `neg j`-th neighbour), the landing of its `e`-th transfer, the departure of its `e`-th transfer, and its local copy. -/
def payToks (c : Dev nD) : sProp 𝕄 :=
  iprop((bigSep E31 fun j => dutyTok ER (barCell (peer c j)) 0 (neg j))
    ∗ (bigSep E31 fun e => dutyTok ER (recvCell (peer c e) e) 0 (0 : Fin 32))
    ∗ (bigSep E31 fun e => dutyTok ER (sendCell c e) 0 (0 : Fin 32))
    ∗ dutyTok ER (cpyCell c) 0 (0 : Fin 32))
def linear (c : Dev nD) : sProp 𝕄 :=
  iprop((bigSep Finset.univ fun k : Fin 66 => atPos ER (kcell (c, k)) 0 (∅ : Finset (Fin 32)) 0) ∗ payToks c)
def ghost (K : Dev nD × Fin 66 → ℕ) (c : Dev nD) : sProp 𝕄 := iprop(records m Gc K ∗ linear c)

/-- What a device's body starts from: the ghost state at some names, the credit for the 31 units its barrier cell will
    receive and for each landing on its slots, and the level facts. -/
def start (c : Dev nD) : sProp 𝕄 :=
  iprop((∃ K, ghost m Gc K c) ∗ cred (tallyAt (barCell c) () 31) ∗ (bigSep E31 fun e => cred (tallyAt (recvCell c e) () N))
    ∗ levAts L lv)

/-- Before the kernel's one point: the start, the two scratch buffers at any contents, the input array. -/
def Φ₀ (c : Dev nD) : sProp 𝕄 := iprop(start m Gc c ∗ (∃ f, xvPts c f) ∗ (∃ f, gPts c f) ∗ argPts m c)
/-- After it: the scratch buffers, the input array, and the 65 DMA cells closed (their counters at zero). -/
def Φ₁ (c : Dev nD) : sProp 𝕄 :=
  iprop((∃ f, xvPts c f) ∗ (∃ f, gPts c f) ∗ argPts m c
    ∗ (bigSep (Finset.univ.erase (0 : Fin 66)) fun k => semVal (kcell (c, k)) 0))

/-- The kernel's result on device `c`. -/
def outAt (c : Dev nD) : (cc0_stg0_0 : Ref sig .tc).ty.Contents (Elt F) := k0_pay1 (Gc c)

def dats (_ : Fin 1) (c : Dev nD) : Dat τ (Elt F) Unit ℕ UU ℕ cfg0 c where
  A w := m ((cfg0.win w).arr.view.loc (c : Thread nD τ))
  after w _ := match w with
    | ⟨0, _⟩ => outAt Gc c
  Φ t := match t with
    | ⟨0, _⟩ => Φ₀ m Gc c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Proto

end
-- ==== Proof.Launch.lean ====
import proofs.«900948_g7700000000000949_dist_mean_ax0_shard0_i_m2048_n1024_v7x_i32_f32_1_alg».proof.Proof.Ghost
import proofs.«900948_g7700000000000949_dist_mean_ax0_shard0_i_m2048_n1024_v7x_i32_f32_1_alg».proof.Proof.Gen.KernelIdeal.Points

/-! # The launch

From "every device's body is proved" to the run of the whole 32-device program: the protocol's launch element (every
cell of every device at round 0, the duty tokens minted), the invariants of all 66 cells of every device allocated
under one update, the tokens dealt around the ring to the devices that pay them, each device's launch credit, and
the side conditions under which the pipeline's invariant is entered and left. -/

noncomputable section

namespace Cert.KernelIdeal.Proto

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (Gc : (c : Dev nD) → Buf (Elt F) ((c : Thread nD τ).loc cc0_scratch1))

namespace Launch

/-! ## The kernel's own semaphores and the cells -/

/-- The 65 scoped DMA semaphores the kernel names: the 32 send, the 32 receive, the local copy's. -/
abbrev osem : Fin 65 → SemLoc sig := fun k => .dma ⟨k.val + 1, by have := k.isLt; show k.val + 1 < 66; omega⟩

theorem ownSemFacts : Pipeline.OwnSemFacts cfg0.spec osem :=
  ⟨fun k => by revert k; decide,
   fun a b h => Fin.ext (Nat.succ.inj (congrArg Fin.val (SemLoc.dma.inj h))),
   fun k w s h => by
     have h2 : ∀ (w : Fin cfg0.W) (s : Fin (cfg0.spec w).nbuf), ((cfg0.spec w).sem s).val = 0 := by decide
     have h1 := congrArg Fin.val (SemLoc.dma.inj h)
     rw [h2] at h1; exact Nat.succ_ne_zero _ h1⟩

theorem share_eq (c : Dev nD) (w : Fin cfg0.W) : (dats m Gc 0 c).share w = fullShare := by unfold Dat.share; split <;> rfl

theorem csem_zero : csem 0 = .reg barS := rfl
theorem csem_succ (k : Fin 65) : csem k.succ = osem k := by
  show (if k.succ.val = 0 then SemLoc.reg barS else .dma ⟨k.succ.val, k.succ.isLt⟩) = _
  rw [if_neg (by rw [Fin.val_succ]; exact Nat.succ_ne_zero _)]; rfl

theorem csem_injective : Function.Injective csem := by
  intro k k' h
  have e (k : Fin 66) : csem k = if k.val = 0 then SemLoc.reg barS else .dma ⟨k.val, k.isLt⟩ := rfl
  rw [e, e] at h
  by_cases hk : k.val = 0 <;> by_cases hk' : k'.val = 0
  · exact Fin.ext (hk.trans hk'.symm)
  · rw [if_pos hk, if_neg hk'] at h; cases h
  · rw [if_neg hk, if_pos hk'] at h; cases h
  · rw [if_neg hk, if_neg hk'] at h; exact Fin.ext (congrArg Fin.val (SemLoc.dma.inj h))

theorem kcell_injective : Function.Injective (kcell : Dev nD × Fin 66 → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

/-- All the protocol's cells: the 66 of every device. -/
def ringCells : Finset (GSem nD τ sig) := Finset.univ.map ⟨kcell, kcell_injective⟩

/-- The index of the send, receive cell of a neighbour's number. -/
def kSend (e : Fin 32) : Fin 66 := ⟨1 + e.val, by have := e.isLt; omega⟩
def kRecv (e : Fin 32) : Fin 66 := ⟨33 + e.val, by have := e.isLt; omega⟩

theorem kcell_bar (c : Dev nD) : kcell (c, 0) = barCell c := rfl
theorem kcell_send (c : Dev nD) (e : Fin 32) : kcell (c, kSend e) = sendCell c e := by
  have h : csem (kSend e) = .dma (sendS e) := by
    show (if (kSend e).val = 0 then SemLoc.reg barS else .dma ⟨(kSend e).val, (kSend e).isLt⟩) = _
    rw [if_neg (by show 1 + e.val ≠ 0; omega)]
    exact congrArg SemLoc.dma (Fin.ext (sendS_val e).symm)
  show ((c : Thread nD τ), csem (kSend e)) = _; rw [h]
theorem kcell_recv (c : Dev nD) (e : Fin 32) : kcell (c, kRecv e) = recvCell c e := by
  have h : csem (kRecv e) = .dma (recvS e) := by
    show (if (kRecv e).val = 0 then SemLoc.reg barS else .dma ⟨(kRecv e).val, (kRecv e).isLt⟩) = _
    rw [if_neg (by show 33 + e.val ≠ 0; omega)]
    exact congrArg SemLoc.dma (Fin.ext (recvS_val e).symm)
  show ((c : Thread nD τ), csem (kRecv e)) = _; rw [h]
theorem kcell_cpy (c : Dev nD) : kcell (c, 65) = cpyCell c := by
  have h : csem 65 = .dma cpyS := by
    show (if (65 : Fin 66).val = 0 then SemLoc.reg barS else .dma ⟨(65 : Fin 66).val, (65 : Fin 66).isLt⟩) = _
    rw [if_neg (by decide)]
    exact congrArg SemLoc.dma (Fin.ext cpyS_val.symm)
  show ((c : Thread nD τ), csem 65) = _; rw [h]

/-! ## The minted tokens -/

/-- The duty tokens minted, by (neighbour's number, kind): a barrier cell's duty `e`; the send cell `e`'s and the receive
    cell `e`'s one duty; the local copy's. (Those at number 0 of the first three kinds, and at a number other than 0 of the last, name no
    duty of the schedule and are let go.) -/
def tokK (ej : Fin 32 × Fin 4) : Fin 66 × Fin 32 :=
  match ej.2 with
  | 0 => (0, ej.1) | 1 => (kSend ej.1, 0) | 2 => (kRecv ej.1, 0) | 3 => (65, ej.1)
theorem tokK_injective : Function.Injective tokK := by decide +kernel

abbrev tokOf (x : Dev nD × Fin 32 × Fin 4) : GSem nD τ sig × ℕ × Fin 32 := (kcell (x.1, (tokK x.2).1), 0, (tokK x.2).2)
theorem tokOf_injective : Function.Injective (tokOf : Dev nD × Fin 32 × Fin 4 → GSem nD τ sig × ℕ × Fin 32) := by
  rintro ⟨c, ej⟩ ⟨c', ej'⟩ h
  have h1 := kcell_injective (congrArg (fun x : GSem nD τ sig × ℕ × Fin 32 => x.1) h)
  have h2 : (tokK ej).2 = (tokK ej').2 := congrArg (fun x : GSem nD τ sig × ℕ × Fin 32 => x.2.2) h
  have h3 : c = c' := congrArg Prod.fst h1
  have h4 : (tokK ej).1 = (tokK ej').1 := congrArg Prod.snd h1
  have h5 : ej = ej' := tokK_injective (Prod.ext h4 h2)
  rw [h3, h5]
def ringToks : Finset (GSem nD τ sig × ℕ × Fin 32) := Finset.univ.map ⟨tokOf, tokOf_injective⟩

/-- The launch element: the pipeline's and the protocol's. -/
def u₀ : UU :=
  (initOf (Pipeline.cells cfgs cellOf_inj) (Pipeline.launchToks cfgs cellOf_inj), initOf ringCells ringToks)

/-- The tokens minted on device `c`'s cells, by neighbour's number. -/
def toksU (c : Dev nD) : sProp 𝕄 :=
  bigSep Finset.univ fun e : Fin 32 =>
    iprop(dutyTok ER (kcell (c, 0)) 0 e ∗ dutyTok ER (kcell (c, kSend e)) 0 (0 : Fin 32) ∗ dutyTok ER (kcell (c, kRecv e)) 0 (0 : Fin 32)
      ∗ dutyTok ER (kcell (c, 65)) 0 e)

/-- What the launch element deals device `c`: its 66 cells' round states at counter zero, their positions and round-0 marks, its tokens. -/
def G (c : Dev nD) : sProp 𝕄 :=
  iprop((bigSep Finset.univ fun k : Fin 66 => roundState ER (ringRd m Gc) (kcell (c, k)) 0)
    ∗ (bigSep Finset.univ fun k : Fin 66 => iprop(atPos ER (kcell (c, k)) 0 ∅ 0 ∗ reached ER (kcell (c, k)) 0)) ∗ toksU c)

/-- What the global step makes of it. -/
def G' (c : Dev nD) : sProp 𝕄 := iprop(∃ K, ghost m Gc K c)

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem fund_ring : BI.own (ER (initOf ringCells ringToks)) ⊢ (|==> bigSep Finset.univ (G m Gc) : sProp 𝕄) := by
  have hX (Φ : GSem nD τ sig → sProp 𝕄) : bigSep ringCells Φ = bigSep Finset.univ fun c : Dev nD => bigSep Finset.univ fun k : Fin 66 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toksU c := by
    unfold ringToks; rw [bigSep_map, bigSep_univ_prod]
    exact bigSep_congr fun c _ => by
      unfold toksU; rw [bigSep_univ_prod]
      exact bigSep_congr fun e _ => by rw [bigSep_fin4]; rfl
  iintro HX
  imod (Rounds.fund ER (ringRd m Gc) ringCells ringToks) $$ HX with ⟨Hst, Hr, Hat, Htok⟩
  imodintro
  ihave Hst' := (Entails.of_eq (hX fun g => roundState ER (ringRd m Gc) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt around the ring -/

theorem erase_zero_eq : (Finset.univ.erase (0 : Fin 66)) = Finset.univ.map (Fin.succEmb 65) := by
  ext k
  simp only [Finset.mem_erase, Finset.mem_univ, and_true, Finset.mem_map, true_and, Fin.coe_succEmb]
  constructor
  · intro h; exact ⟨k.pred h, Fin.succ_pred k h⟩
  · rintro ⟨j, rfl⟩; exact Fin.succ_ne_zero j

omit [FloatOps F] in
theorem bigSep_erase_zero (Φ : Fin 66 → sProp 𝕄) : bigSep (Finset.univ.erase (0 : Fin 66)) Φ = bigSep Finset.univ fun k : Fin 65 => Φ k.succ := by
  rw [erase_zero_eq, bigSep_map]; rfl

omit [FloatOps F] in
/-- The DMA cells' counters, all but the barrier cell's, are the kernel's own 65 semaphores'. -/
theorem ownSems0_eq (c : Dev nD) : (Pipeline.ownSems0 (Ix := Unit) (Name := ℕ) (U := UU) (Lvl := ℕ) (Val := Elt F) (τ := τ) osem c : sProp 𝕄)
    = bigSep (Finset.univ.erase (0 : Fin 66)) fun k => semVal (kcell (c, k)) 0 := by
  rw [bigSep_erase_zero]; unfold Pipeline.ownSems0
  exact bigSep_congr fun k _ => by
    show _ = semVal ((c : Thread nD τ), csem k.succ) 0
    rw [csem_succ]
omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 66 => semVal (kcell (c, k)) 0 : sProp 𝕄) := by
  rw [ownSems0_eq, unscopedSems0_eq, bigSep_univ_at (fun k : Fin 66 => (semVal (kcell (c, k)) 0 : sProp 𝕄)) 0]
  iintro ⟨HS, HB⟩
  isplitl [HB]; · iexact HB
  iexact HS

omit [FloatOps F] in
theorem core_alloc (c : Dev nD) :
    iprop(Pipeline.ownSems0 (Ix := Unit) (Name := ℕ) (U := UU) (Lvl := ℕ) (Val := Elt F) (τ := τ) osem c ∗ unscopedSems0 c ∗ G m Gc c)
      ⊢ |={Set.univ}=> iprop((bigSep Finset.univ fun k => iprop(∃ κ : ℕ, cellInv ER (ringRd m Gc) κ (kcell (c, k))))
          ∗ (bigSep Finset.univ fun k : Fin 66 => iprop(atPos ER (kcell (c, k)) 0 ∅ 0 ∗ reached ER (kcell (c, k)) 0)) ∗ toksU c) := by
  unfold G
  iintro ⟨Hos, Hus, Hst, Hat, Htok⟩
  ihave Hv := (sems0_eq (F := F) c) $$ [Hos Hus]
  · isplitl [Hos] <;> iassumption
  imod (show iprop((bigSep Finset.univ fun k : Fin 66 => semVal (kcell (c, k)) 0) ∗ bigSep Finset.univ fun k : Fin 66 => roundState ER (ringRd m Gc) (kcell (c, k)) 0)
      ⊢ (|={Set.univ}=> bigSep Finset.univ fun k => iprop(∃ κ : ℕ, cellInv ER (ringRd m Gc) κ (kcell (c, k))) : sProp 𝕄) from by
        rw [← bigSep_sep']
        exact (bigSep_mono fun k _ => (Rounds.body_intro ER (ringRd m Gc) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The way back round the ring, as a permutation of the neighbours' numbers. -/
def negE : Fin 32 ≃ Fin 32 := ⟨neg, neg, neg_neg, neg_neg⟩

omit [FloatOps F] in
/-- The tokens dealt around the ring: the barrier token `e` of device `d` to its `e`-th neighbour (whose `neg e`-th neighbour `d` is), the
    receive token `e` of device `d` to the device whose `e`-th neighbour `d` is; the send tokens and the copy's stay. -/
theorem toks_around : (bigSep Finset.univ fun c : Dev nD => (toksU c : sProp 𝕄)) ⊢ bigSep Finset.univ fun c : Dev nD => payToks c := by
  have h0 : (bigSep Finset.univ fun c : Dev nD => bigSep Finset.univ fun e : Fin 32 => (dutyTok ER (kcell (c, 0)) 0 e : sProp 𝕄))
      ⊢ bigSep Finset.univ fun c : Dev nD => bigSep E31 fun j => dutyTok ER (barCell (peer c j)) 0 (neg j) := by
    have e1 := bigSep_univ_comm (fun (c : Dev nD) (e : Fin 32) => (dutyTok ER (kcell (c, 0)) 0 e : sProp 𝕄))
    have e2 := bigSep_univ_equiv negE (fun e : Fin 32 => bigSep Finset.univ fun c : Dev nD => (dutyTok ER (kcell (c, 0)) 0 e : sProp 𝕄))
    have e3 : (bigSep Finset.univ fun j : Fin 32 => bigSep Finset.univ fun c : Dev nD => (dutyTok ER (kcell (c, 0)) 0 (negE j) : sProp 𝕄))
        = bigSep Finset.univ fun j : Fin 32 => bigSep Finset.univ fun c : Dev nD => (dutyTok ER (barCell (peer c j)) 0 (neg j) : sProp 𝕄) :=
      bigSep_congr fun j _ => bigSep_univ_equiv (ring j) (fun d : Dev nD => (dutyTok ER (kcell (d, 0)) 0 (negE j) : sProp 𝕄))
    have e4 := bigSep_univ_comm (fun (j : Fin 32) (c : Dev nD) => (dutyTok ER (barCell (peer c j)) 0 (neg j) : sProp 𝕄))
    rw [e1, e2, e3, e4]
    exact bigSep_mono fun c _ => bigSep_subset (Finset.subset_univ _)
  have h1 : (bigSep Finset.univ fun c : Dev nD => bigSep Finset.univ fun e : Fin 32 => (dutyTok ER (kcell (c, kSend e)) 0 (0 : Fin 32) : sProp 𝕄))
      ⊢ bigSep Finset.univ fun c : Dev nD => bigSep E31 fun e => dutyTok ER (sendCell c e) 0 (0 : Fin 32) :=
    bigSep_mono fun c _ => (bigSep_subset (Finset.subset_univ E31)).trans (Entails.of_eq (bigSep_congr fun e _ => by rw [kcell_send]))
  have h2 : (bigSep Finset.univ fun c : Dev nD => bigSep Finset.univ fun e : Fin 32 => (dutyTok ER (kcell (c, kRecv e)) 0 (0 : Fin 32) : sProp 𝕄))
      ⊢ bigSep Finset.univ fun c : Dev nD => bigSep E31 fun e => dutyTok ER (recvCell (peer c e) e) 0 (0 : Fin 32) := by
    have e1 := bigSep_univ_comm (fun (c : Dev nD) (e : Fin 32) => (dutyTok ER (kcell (c, kRecv e)) 0 (0 : Fin 32) : sProp 𝕄))
    have e3 : (bigSep Finset.univ fun e : Fin 32 => bigSep Finset.univ fun c : Dev nD => (dutyTok ER (kcell (c, kRecv e)) 0 (0 : Fin 32) : sProp 𝕄))
        = bigSep Finset.univ fun e : Fin 32 => bigSep Finset.univ fun c : Dev nD => (dutyTok ER (kcell (peer c e, kRecv e)) 0 (0 : Fin 32) : sProp 𝕄) :=
      bigSep_congr fun e _ => bigSep_univ_equiv (ring e) (fun d : Dev nD => (dutyTok ER (kcell (d, kRecv e)) 0 (0 : Fin 32) : sProp 𝕄))
    have e4 := bigSep_univ_comm (fun (e : Fin 32) (c : Dev nD) => (dutyTok ER (kcell (peer c e, kRecv e)) 0 (0 : Fin 32) : sProp 𝕄))
    rw [e1, e3, e4]
    exact bigSep_mono fun c _ => (bigSep_subset (Finset.subset_univ E31)).trans (Entails.of_eq (bigSep_congr fun e _ => by rw [kcell_recv]))
  have h3 : (bigSep Finset.univ fun c : Dev nD => bigSep Finset.univ fun e : Fin 32 => (dutyTok ER (kcell (c, 65)) 0 e : sProp 𝕄))
      ⊢ bigSep Finset.univ fun c : Dev nD => dutyTok ER (cpyCell c) 0 (0 : Fin 32) :=
    bigSep_mono fun c _ => show (bigSep Finset.univ fun e : Fin 32 => (dutyTok ER (kcell (c, 65)) 0 e : sProp 𝕄)) ⊢ dutyTok ER (cpyCell c) 0 (0 : Fin 32) from by
      rw [← kcell_cpy]; exact bigSep_elim (Finset.mem_univ (0 : Fin 32))
  unfold toksU payToks
  simp only [bigSep_sep']
  iintro ⟨H0, H1, H2, H3⟩
  isplitl [H0]; · iapply h0; iexact H0
  isplitl [H2]; · iapply h2; iexact H2
  isplitl [H1]; · iapply h1; iexact H1
  iapply h3; iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem ghost_intro (K : Dev nD × Fin 66 → ℕ) (c : Dev nD) : iprop(records m Gc K ∗ linear c) ⊢ G' m Gc c := by
  unfold G' ghost
  iintro H; iexists K; iexact H

omit [FloatOps F] in
theorem regroup :
    (bigSep Finset.univ fun c : Dev nD => iprop((bigSep Finset.univ fun k => iprop(∃ κ : ℕ, cellInv ER (ringRd m Gc) κ (kcell (c, k))))
          ∗ (bigSep Finset.univ fun k : Fin 66 => iprop(atPos ER (kcell (c, k)) 0 ∅ 0 ∗ reached ER (kcell (c, k)) 0)) ∗ toksU c) : sProp 𝕄)
      ⊢ bigSep Finset.univ (G' m Gc) := by
  rw [bigSep_sep', bigSep_sep', ← bigSep_univ_prod (fun ck : Dev nD × Fin 66 => iprop(∃ κ : ℕ, cellInv ER (ringRd m Gc) κ (kcell ck))),
    bigSep_congr (s := Finset.univ) (fun (c : Dev nD) _ => bigSep_sep' Finset.univ (fun k : Fin 66 => (atPos ER (kcell (c, k)) 0 ∅ 0 : sProp 𝕄)) (fun k => reached ER (kcell (c, k)) 0)),
    bigSep_sep', ← bigSep_univ_prod (fun ck : Dev nD × Fin 66 => (reached ER (kcell ck) 0 : sProp 𝕄))]
  iintro ⟨HI, ⟨Hat, #HR⟩, Htok⟩
  ihave HK := (BI.bigSep_exists_pi Finset.univ (fun (ck : Dev nD × Fin 66) (κ : ℕ) => (cellInv ER (ringRd m Gc) κ (kcell ck) : sProp 𝕄))) $$ HI
  icases HK with ⟨%K, #HI⟩
  ihave Htk := (toks_around (F := F)) $$ Htok
  iapply (bigSep_with_persistent (R := records m Gc K) fun c _ => ghost_intro m Gc K c)
  isplitr
  · unfold records; isplitl; · iexact HI
    iexact HR
  · iapply ((Entails.of_eq (bigSep_sep' Finset.univ (fun c : Dev nD => bigSep Finset.univ fun k : Fin 66 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m Gc c) : sProp 𝕄)
    ⊢ |={Set.univ}=> bigSep Finset.univ (G' m Gc) :=
  ((bigSep_mono fun c _ => core_alloc m Gc c).trans (bigSep_fupd _ _)).trans (BI.fupd_mono (regroup m Gc))

/-! ## The launch credit -/

omit [FloatOps F] in
theorem O₀_eq (d : Dev nD) :
    O₀ d = (∑ e ∈ E31, (tallyAt (recvCell (peer d e) e) () N : CellTallies nD τ sig Unit)) + ∑ j ∈ E31, (tallyAt (barCell (peer d j)) () 1 : CellTallies nD τ sig Unit) := by
  unfold O₀ owedRecv owedBar
  rw [← List.sum_toFinset _ L31_nodup, ← List.sum_toFinset _ L31_nodup, L31_toFinset]

omit [FloatOps F] in
theorem nsmul_tallyAt (g : GSem nD τ sig) (n : ℕ) : n • (tallyAt g () 1 : CellTallies nD τ sig Unit) = tallyAt g () n := by
  induction n with
  | zero => rw [zero_smul, tallyAt_zero]
  | succ n ih => rw [succ_nsmul, ih, tallyAt_add]

omit [FloatOps F] in
/-- Each of the 31 other devices owes `c`'s barrier cell one unit; the device whose `e`-th neighbour `c` is owes `c`'s receive cell `e` a slot's credit. -/
theorem creds (c : Dev nD) :
    (Pipeline.launchCred O₀ c : sProp 𝕄) ⊢ iprop(cred (tallyAt (barCell c) () 31) ∗ bigSep E31 fun e => cred (tallyAt (recvCell c e) () N)) := by
  have hO : (O₀ : Dev nD → CellTallies nD τ sig Unit)
      = fun d => (∑ e ∈ E31, (fun (e : Fin 32) (d : Dev nD) => (tallyAt (recvCell (peer d e) e) () N : CellTallies nD τ sig Unit)) e d)
          + ∑ j ∈ E31, (fun (j : Fin 32) (d : Dev nD) => (tallyAt (barCell (peer d j)) () 1 : CellTallies nD τ sig Unit)) j d := funext O₀_eq
  have hbar : (bigSep E31 fun _ : Fin 32 => (cred (tallyAt (barCell c) () 1) : sProp 𝕄)) = cred (tallyAt (barCell c) () 31) := by
    rw [← Pipeline.cred_finsetSum, Finset.sum_const, card_E31, nsmul_tallyAt]
  have hB : (bigSep E31 fun j : Fin 32 => (Pipeline.launchCred (fun d : Dev nD => (tallyAt (barCell (peer d j)) () 1 : CellTallies nD τ sig Unit)) c : sProp 𝕄))
      ⊢ cred (tallyAt (barCell c) () 31) :=
    (bigSep_mono fun (j : Fin 32) _ => Pipeline.launchCred_tallyAt (.reg barS) (fun d => peer d j) (fun d => peer d (neg j))
      (fun d => peer_neg_peer d j) (fun d => peer_peer_neg d j) () 1 c).trans (Entails.of_eq hbar)
  have hR : (bigSep E31 fun e : Fin 32 => (Pipeline.launchCred (fun d : Dev nD => (tallyAt (recvCell (peer d e) e) () N : CellTallies nD τ sig Unit)) c : sProp 𝕄))
      ⊢ bigSep E31 fun e => cred (tallyAt (recvCell c e) () N) :=
    bigSep_mono fun (e : Fin 32) _ => Pipeline.launchCred_tallyAt (.dma (recvS e)) (fun d => peer d e) (fun d => peer d (neg e))
      (fun d => peer_neg_peer d e) (fun d => peer_peer_neg d e) () N c
  rw [hO, Pipeline.launchCred_add, Pipeline.launchCred_sum, Pipeline.launchCred_sum]
  iintro ⟨HR, HB⟩
  isplitl [HB]
  · iapply hB; iexact HB
  · iapply hR; iexact HR

/-! ## The levels -/

omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl

omit [FloatOps F] in
theorem lv_recv (d : Dev nD) (e : Fin 32) : lv (recvCell d e) () = 2 := by
  show (if 33 ≤ (recvS e).val ∧ (recvS e).val ≤ 64 then 2 else 0) = 2
  rw [if_pos (by rw [recvS_val]; have := e.isLt; omega)]
omit [FloatOps F] in
theorem lv_bar (d : Dev nD) : lv (barCell d) () = 1 := by
  show (if barS = barS then 1 else 0) = 1
  rw [if_pos rfl]

omit [FloatOps F] in
theorem O₀_pos {c : Dev nD} {g : GSem nD τ sig} {u : Unit} (h : 0 < O₀ c g u) :
    (∃ e, g = recvCell (peer c e) e) ∨ (∃ j, g = barCell (peer c j)) := by
  rw [O₀_eq] at h
  rcases Pipeline.add_pos_cases h with h | h
  · obtain ⟨e, _, he⟩ := Pipeline.sum_pos_exists h
    exact Or.inl ⟨e, (Pipeline.tallyAt_pos he).1⟩
  · obtain ⟨j, _, hj⟩ := Pipeline.sum_pos_exists h
    exact Or.inr ⟨j, (Pipeline.tallyAt_pos hj).1⟩

omit [FloatOps F] in
/-- The output window's staging semaphore sits at level 0, below every cell a device owes at launch. -/
theorem mayWait_stage (c : Dev nD) (q : DmaSem sig) (hq : q.val = 0) (O : CellTallies nD τ sig Unit) (hO : O = O₀ c ∨ O = 0) :
    (levAts L lv : sProp 𝕄) ⊢ MayWait (c : Thread nD τ) (.dma q) () O := by
  rcases hO with rfl | rfl
  · have h0 : lv ((c : Thread nD τ), .dma q) () = 0 := by
      show (if 33 ≤ q.val ∧ q.val ≤ 64 then 2 else 0) = 0
      rw [if_neg (by omega)]
    refine Pipeline.mayWait_of_levAts (by rw [L_tc]; exact Finset.mem_singleton_self _) fun g i hg => ?_
    cases i
    rcases O₀_pos hg with ⟨e, rfl⟩ | ⟨j, rfl⟩
    · exact ⟨by rw [L_tc]; exact Finset.mem_singleton_self _, by rw [h0, lv_recv]; decide⟩
    · exact ⟨by rw [L_tc]; exact Finset.mem_singleton_self _, by rw [h0, lv_bar]; decide⟩
  · rw [MayWait_zero]; iintro -; iempintro

theorem waits (c : Dev nD) : (levAts L lv : sProp 𝕄) ⊢ Pipeline.cellsWaits cfgs (dats m Gc) () 0 c :=
  Pipeline.cellsWaits_intro cfgs (dats m Gc) () 0 c fun w s t =>
    mayWait_stage c _ (by revert w s; decide) _ (by
      rcases t with ⟨_ | _, ht⟩
      · exact Or.inl rfl
      · exact Or.inr rfl)

/-! ## The side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m Gc c)
      ⊢ |={Set.univ}=> iprop((start m Gc c ∗ argPts m c) ∗ emp) := by
  rw [Pipeline.unscopedRestP_none, unscopedRest0_eq]
  iintro ⟨Harg, Hlev, Hcr, -, HG⟩
  ihave Hc := (creds (F := F) c) $$ Hcr
  icases Hc with ⟨H1, HN⟩
  imodintro
  unfold start G' argPts X
  isplitl
  · isplitr [Harg]
    · isplitl [HG]; · iexact HG
      isplitl [H1]; · iexact H1
      isplitl [HN]; · iexact HN
      iexact Hlev
    · iexact Harg
  · iempintro

theorem phi0_intro (c : Dev nD) :
    iprop((start m Gc c ∗ argPts m c) ∗ Pipeline.prefHeld Pipeline.Prefetch.none c (fun _ => fullShare.right) (fun k => k.elim0) ∗ Pipeline.scopedRest cfg0.spec c)
      ⊢ (dats m Gc 0 c).Φ 0 := by
  rw [show (dats m Gc 0 c).Φ 0 = Φ₀ m Gc c from rfl, scopedRest0_eq]
  unfold Φ₀ xvPts gPts
  iintro ⟨⟨Hs, Harg⟩, -, ⟨%f, Hx⟩, ⟨%g, Hg⟩⟩
  isplitl [Hs]; · iexact Hs
  isplitl [Hx]; · iexists f; iexact Hx
  isplitl [Hg]; · iexists g; iexact Hg
  iexact Harg

theorem phi1_exit (c : Dev nD) :
    (dats m Gc 0 c).Φ (Fin.last cfg0.N) ⊢ iprop(argPts m c ∗ Pipeline.ownSems0 osem c ∗ Pipeline.scopedRest cfg0.spec c) := by
  rw [show (dats m Gc 0 c).Φ (Fin.last cfg0.N) = Φ₁ m c from rfl, scopedRest0_eq, ownSems0_eq]
  unfold Φ₁ xvPts gPts
  iintro ⟨⟨%f, Hx⟩, ⟨%g, Hg⟩, Harg, Hs⟩
  isplitl [Harg]; · iexact Harg
  isplitl [Hs]; · iexact Hs
  isplitl [Hx]; · iexists f; iexact Hx
  iexists g; iexact Hg

end Launch

open Launch

/-! ## The result array after the run -/

/-- Window 0's block at the one point is the whole result array and is written back there: the array ends holding what the
    body left in the staging buffer. -/
theorem finalOut (c : Dev nD) : (dats (F := F) m Gc 0 c).arrAt (0 : Fin 1) cfg0.N = outAt Gc c := by
  have hz : (fun a => (cfg0.win (0 : Fin 1)).index t0_0 a * (cfg0.win (0 : Fin 1)).size a) = fun _ => 0 := funext fun a => Nat.zero_mul _
  rw [show cfg0.N = (t0_0 : Fin cfg0.N).val + 1 from rfl, (dats (F := F) m Gc 0 c).arrAt_succ (0 : Fin 1) t0_0, flush0_0 t0_0, if_pos rfl]
  exact Memref.write_access_unit_zero_univ (Elt F) main_v1 hz _ _ _

/-! ## The run -/

set_option maxRecDepth 8000 in
/-- At the compiled mesh of 32 devices, for any float values, from any memory with zero counters, given each device's body: every weakly
    fair execution of @main terminates, and every final state has each device's result array at the contents the pipeline's
    write-back leaves and its input array as launched. -/
theorem run_main (hbody : ∀ c : Dev nD, BodyObligation (dats (F := F) m Gc 0 c) (defs₀ (F := F)) 𝒱₀ () Set.univ) :
    θ_run defs (onTc (τ := τ) (main (F := F))) (⟨m, fun _ => 0, ρ⟩ : MemSt nD τ sig (Elt F)) (fun r => ∀ c : Dev nD,
      r.2.mem ((cfg0.win (0 : Fin 1)).arr.view.loc (c.tc : Thread nD τ)) = (dats m Gc 0 c).arrAt (0 : Fin 1) cfg0.N
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m Gc) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m Gc)
    (hdistinct := winFacts0.arr_inj)
    (O₀ := O₀) (howed₀ := fun _ => rfl) (howedN := fun _ => rfl)
    (L := L) (lv := lv) (hL := L_of_ne) (hwaits := waits m Gc)
    (G := G m Gc) (G' := G' m Gc) (u₀ := u₀)
    (hu₀ := by
      unfold u₀
      iintro Hu
      ihave H := (ownU_pair _ _) $$ Hu
      icases H with ⟨HP, HX⟩
      imod (fund_ring m Gc) $$ HX with HG
      imodintro
      isplitl [HP] <;> iassumption)
    (hglob := glob m Gc)
    (hA := fun _ _ => rfl) (hpf := fun _ k => k.elim0)
    (X := fun c => iprop(start m Gc c ∗ argPts m c)) (Y := argPts m) (Z := fun _ => iprop(emp))
    (hX := start_intro m ρ Gc) (hin := phi0_intro m Gc) (hout := phi1_exit m Gc)
    (QY := fun c s => s.mem ((c.tc : Thread nD τ).loc main_arg0) = m ((c.tc : Thread nD τ).loc main_arg0))
    (hY := fun c s' => by
      iintro ⟨Hx, -, HSI⟩
      unfold argPts X
      icombine HSI Hx gives %hx
      imodintro
      isplitr; · ipureintro; exact Buf.eq_of_forall_mem_univ hx
      iexact HSI)
    (hQ := fun _ h c => ⟨(h c).1 0, (h c).2.2⟩)

/-- The run with the result named: every final state has each device's result array holding the body's payload of its gather
    buffer's final contents, and its input array as launched. -/
theorem run_out (hbody : ∀ c : Dev nD, BodyObligation (dats (F := F) m Gc 0 c) (defs₀ (F := F)) 𝒱₀ () Set.univ) :
    θ_run defs (onTc (τ := τ) (main (F := F))) (⟨m, fun _ => 0, ρ⟩ : MemSt nD τ sig (Elt F)) (fun r => ∀ c : Dev nD,
      r.2.mem ((c.tc : Thread nD τ).loc main_v1) = k0_pay1 (Gc c)
      ∧ r.2.mem ((c.tc : Thread nD τ).loc main_arg0) = m ((c.tc : Thread nD τ).loc main_arg0)) :=
  (θ_run defs _ _).mono (fun _ h c => ⟨((h c).1).trans (finalOut m Gc c), (h c).2⟩) (run_main m ρ Gc hbody)

/-- info: 'Cert.KernelIdeal.Proto.run_out' depends on axioms: [propext, Classical.choice, Quot.sound] -/
#guard_msgs in #print axioms run_out

/-- info: 'Cert.KernelIdeal.Proto.run_main' depends on axioms: [propext, Classical.choice, Quot.sound] -/
#guard_msgs in #print axioms run_main

end Cert.KernelIdeal.Proto

end
-- ==== Proof.Tables.lean ====
import proofs.«900948_g7700000000000949_dist_mean_ax0_shard0_i_m2048_n1024_v7x_i32_f32_1_alg».proof.Proof.Sched
import proofs.«900948_g7700000000000949_dist_mean_ax0_shard0_i_m2048_n1024_v7x_i32_f32_1_alg».proof.Proof.Ghost

/-! # The schedule's tables, cell by cell

Each device has 66 cells: the barrier cell, 32 send cells, 32 receive cells and the local copy's cell. Round 0 of a barrier
cell has one duty of one unit per neighbour; round 0 of the send and receive cells of a neighbour proper has the one duty of a
slot's words; round 0 of the local copy's cell has the one duty of a block's words; the two cells of the device's own number
have no duty, and no cell has a later round. -/

noncomputable section

namespace Cert.KernelIdeal.Proto

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)
variable (Gc : (c : Dev nD) → Buf (Elt F) ((c : Thread nD τ).loc cc0_scratch1))

def sIdx (e : Fin 32) : Fin 66 := ⟨1 + e.val, by have := e.isLt; omega⟩
def rIdx (e : Fin 32) : Fin 66 := ⟨33 + e.val, by have := e.isLt; omega⟩
def cIdx : Fin 66 := ⟨65, by omega⟩

theorem csem_sIdx (e : Fin 32) : csem (sIdx e) = .dma (sendS e) := by
  have h : ¬ (sIdx e).val = 0 := by show ¬ 1 + e.val = 0; omega
  show (if (sIdx e).val = 0 then (SemLoc.reg barS : SemLoc sig) else .dma ⟨(sIdx e).val, (sIdx e).isLt⟩) = _
  rw [if_neg h]; exact congrArg SemLoc.dma (Fin.ext (sendS_val e).symm)
theorem csem_rIdx (e : Fin 32) : csem (rIdx e) = .dma (recvS e) := by
  have h : ¬ (rIdx e).val = 0 := by show ¬ 33 + e.val = 0; omega
  show (if (rIdx e).val = 0 then (SemLoc.reg barS : SemLoc sig) else .dma ⟨(rIdx e).val, (rIdx e).isLt⟩) = _
  rw [if_neg h]; exact congrArg SemLoc.dma (Fin.ext (recvS_val e).symm)
theorem csem_cIdx : csem cIdx = .dma cpyS := by
  have h : ¬ cIdx.val = 0 := by show ¬ 65 = 0; omega
  show (if cIdx.val = 0 then (SemLoc.reg barS : SemLoc sig) else .dma ⟨cIdx.val, cIdx.isLt⟩) = _
  rw [if_neg h]; exact congrArg SemLoc.dma (Fin.ext cpyS_val.symm)

theorem kcell_bar (c : Dev nD) : kcell (c, (0 : Fin 66)) = barCell c := rfl
theorem kcell_send (c : Dev nD) (e : Fin 32) : kcell (c, sIdx e) = sendCell c e := by
  show ((c : Thread nD τ), csem (sIdx e)) = _; rw [csem_sIdx]
theorem kcell_recv (c : Dev nD) (e : Fin 32) : kcell (c, rIdx e) = recvCell c e := by
  show ((c : Thread nD τ), csem (rIdx e)) = _; rw [csem_rIdx]
theorem kcell_cpy (c : Dev nD) : kcell (c, cIdx) = cpyCell c := by
  show ((c : Thread nD τ), csem cIdx) = _; rw [csem_cIdx]

/-! ## Duties: who pays round 0 of each cell -/

theorem duties_bar (c : Dev nD) : (ringRd (F := F) m Gc).duties (barCell c) 0 = E31 := by
  have h1 : (0 : ℕ) = 0 ∧ (barCell c).1.2 = .tc := ⟨rfl, rfl⟩
  dsimp only [ringRd]; rw [if_pos h1]; exact if_pos rfl
theorem duties_send (c : Dev nD) {e : Fin 32} (he : e ≠ 0) : (ringRd (F := F) m Gc).duties (sendCell c e) 0 = {0} := by
  have h1 : (0 : ℕ) = 0 ∧ (sendCell c e).1.2 = .tc := ⟨rfl, rfl⟩
  have h2 : (1 ≤ (sendS e).val ∧ (sendS e).val ≤ 64 ∧ slotOf (sendS e) ≠ 0) ∨ (sendS e).val = 65 :=
    .inl ⟨by rw [sendS_val]; omega, by rw [sendS_val]; have := e.isLt; omega, by rw [slotOf_send]; exact he⟩
  dsimp only [ringRd]; rw [if_pos h1]; exact if_pos h2
theorem duties_recv (c : Dev nD) {e : Fin 32} (he : e ≠ 0) : (ringRd (F := F) m Gc).duties (recvCell c e) 0 = {0} := by
  have h1 : (0 : ℕ) = 0 ∧ (recvCell c e).1.2 = .tc := ⟨rfl, rfl⟩
  have h2 : (1 ≤ (recvS e).val ∧ (recvS e).val ≤ 64 ∧ slotOf (recvS e) ≠ 0) ∨ (recvS e).val = 65 :=
    .inl ⟨by rw [recvS_val]; omega, by rw [recvS_val]; have := e.isLt; omega, by rw [slotOf_recv]; exact he⟩
  dsimp only [ringRd]; rw [if_pos h1]; exact if_pos h2
theorem duties_cpy (c : Dev nD) : (ringRd (F := F) m Gc).duties (cpyCell c) 0 = {0} := by
  have h1 : (0 : ℕ) = 0 ∧ (cpyCell c).1.2 = .tc := ⟨rfl, rfl⟩
  have h2 : (1 ≤ (cpyS).val ∧ (cpyS).val ≤ 64 ∧ slotOf cpyS ≠ 0) ∨ (cpyS).val = 65 := .inr cpyS_val
  dsimp only [ringRd]; rw [if_pos h1]; exact if_pos h2
theorem duties_later (g : GSem nD τ sig) : ∀ r, 1 ≤ r → (ringRd (F := F) m Gc).duties g r = ∅ :=
  fun r hr => by dsimp only [ringRd]; exact if_neg fun h => absurd h.1 (by omega)
/-- The send cell of the device's own number is never paid: its semaphore is number 1, whose neighbour's number is 0. -/
theorem duties_send0 (c : Dev nD) : ∀ r, 0 ≤ r → (ringRd (F := F) m Gc).duties (sendCell c 0) r = ∅ := by
  intro r _
  have h2 : ¬ ((1 ≤ (sendS 0).val ∧ (sendS 0).val ≤ 64 ∧ slotOf (sendS 0) ≠ 0) ∨ (sendS 0).val = 65) := by
    rw [slotOf_send, sendS_val]; rintro (⟨_, _, h⟩ | h)
    · exact h rfl
    · exact absurd h (by decide)
  dsimp only [ringRd]
  by_cases h1 : r = 0 ∧ (sendCell c 0).1.2 = .tc
  · rw [if_pos h1]; exact if_neg h2
  · exact if_neg h1
theorem duties_recv0 (c : Dev nD) : ∀ r, 0 ≤ r → (ringRd (F := F) m Gc).duties (recvCell c 0) r = ∅ := by
  intro r _
  have h2 : ¬ ((1 ≤ (recvS 0).val ∧ (recvS 0).val ≤ 64 ∧ slotOf (recvS 0) ≠ 0) ∨ (recvS 0).val = 65) := by
    rw [slotOf_recv, recvS_val]; rintro (⟨_, _, h⟩ | h)
    · exact h rfl
    · exact absurd h (by decide)
  dsimp only [ringRd]
  by_cases h1 : r = 0 ∧ (recvCell c 0).1.2 = .tc
  · rw [if_pos h1]; exact if_neg h2
  · exact if_neg h1

theorem amount_bar (c : Dev nD) (d : Fin 32) : (ringRd (F := F) m Gc).amount (barCell c) 0 d = 1 := rfl
theorem amount_send (c : Dev nD) (e d : Fin 32) : (ringRd (F := F) m Gc).amount (sendCell c e) 0 d = N := by
  dsimp only [ringRd]; exact if_neg (by rw [sendS_val]; have := e.isLt; omega)
theorem amount_recv (c : Dev nD) (e d : Fin 32) : (ringRd (F := F) m Gc).amount (recvCell c e) 0 d = N := by
  dsimp only [ringRd]; exact if_neg (by rw [recvS_val]; have := e.isLt; omega)
theorem amount_cpy (c : Dev nD) (d : Fin 32) : (ringRd (F := F) m Gc).amount (cpyCell c) 0 d = NX := by
  dsimp only [ringRd]; exact if_pos cpyS_val

/-- The units a round expects are the sum of its duties' units. -/
theorem expect_eq (g : GSem nD τ sig) (r : ℕ) :
    (ringRd (F := F) m Gc).expect g r = ∑ d ∈ (ringRd (F := F) m Gc).duties g r, (ringRd (F := F) m Gc).amount g r d := rfl

theorem expect_bar (c : Dev nD) : (ringRd (F := F) m Gc).expect (barCell c) 0 = 31 := by
  rw [expect_eq, duties_bar]
  calc ∑ d ∈ E31, (ringRd (F := F) m Gc).amount (barCell c) 0 d = ∑ d ∈ E31, 1 :=
        Finset.sum_congr rfl fun d _ => amount_bar m Gc c d
    _ = 31 := by rw [Finset.sum_const, card_E31, smul_eq_mul]
theorem expect_send (c : Dev nD) {e : Fin 32} (he : e ≠ 0) : (ringRd (F := F) m Gc).expect (sendCell c e) 0 = N := by
  rw [expect_eq, duties_send m Gc c he, Finset.sum_singleton, amount_send]
theorem expect_recv (c : Dev nD) {e : Fin 32} (he : e ≠ 0) : (ringRd (F := F) m Gc).expect (recvCell c e) 0 = N := by
  rw [expect_eq, duties_recv m Gc c he, Finset.sum_singleton, amount_recv]
theorem expect_cpy (c : Dev nD) : (ringRd (F := F) m Gc).expect (cpyCell c) 0 = NX := by
  rw [expect_eq, duties_cpy, Finset.sum_singleton, amount_cpy]

theorem payload_bar (c : Dev nD) (d : Fin 32) : (ringRd (F := F) m Gc).payload (barCell c) 0 d = barPay c d := rfl
theorem payload_send (c : Dev nD) (e d : Fin 32) : (ringRd (F := F) m Gc).payload (sendCell c e) 0 d = sendPay Gc c e := by
  have h : (sendS e).val ≤ 32 := by rw [sendS_val]; have := e.isLt; omega
  dsimp only [ringRd]; rw [if_pos h, slotOf_send]
theorem payload_recv (c : Dev nD) (e d : Fin 32) : (ringRd (F := F) m Gc).payload (recvCell c e) 0 d = recvPay Gc c e := by
  have h : ¬ (recvS e).val ≤ 32 := by rw [recvS_val]; omega
  have h' : (recvS e).val ≤ 64 := by rw [recvS_val]; have := e.isLt; omega
  dsimp only [ringRd]; rw [if_neg h, if_pos h', slotOf_recv]
theorem payload_cpy (c : Dev nD) (d : Fin 32) : (ringRd (F := F) m Gc).payload (cpyCell c) 0 d = cpyPay m c := by
  have h : ¬ (cpyS).val ≤ 32 := by rw [cpyS_val]; omega
  have h' : ¬ (cpyS).val ≤ 64 := by rw [cpyS_val]; omega
  dsimp only [ringRd]; rw [if_neg h, if_neg h']

/-! ## What a wait for a whole round hands over -/

theorem rest_bar (c : Dev nD) :
    bigSep ((ringRd (F := F) m Gc).duties (barCell c) 0 \ ∅) (fun d => (ringRd (F := F) m Gc).payload (barCell c) 0 d) = bigSep E31 (fun e => barPay (F := F) c e) := by
  rw [Finset.sdiff_empty, duties_bar]; exact bigSep_congr fun d _ => payload_bar m Gc c d
theorem rest_send (c : Dev nD) {e : Fin 32} (he : e ≠ 0) :
    bigSep ((ringRd (F := F) m Gc).duties (sendCell c e) 0 \ ∅) (fun d => (ringRd (F := F) m Gc).payload (sendCell c e) 0 d) = sendPay Gc c e := by
  rw [Finset.sdiff_empty, duties_send m Gc c he, bigSep_singleton, payload_send]
theorem rest_recv (c : Dev nD) {e : Fin 32} (he : e ≠ 0) :
    bigSep ((ringRd (F := F) m Gc).duties (recvCell c e) 0 \ ∅) (fun d => (ringRd (F := F) m Gc).payload (recvCell c e) 0 d) = recvPay Gc c e := by
  rw [Finset.sdiff_empty, duties_recv m Gc c he, bigSep_singleton, payload_recv]
theorem rest_cpy (c : Dev nD) :
    bigSep ((ringRd (F := F) m Gc).duties (cpyCell c) 0 \ ∅) (fun d => (ringRd (F := F) m Gc).payload (cpyCell c) 0 d) = cpyPay m c := by
  rw [Finset.sdiff_empty, duties_cpy, bigSep_singleton, payload_cpy]

/-! ## The records, cell by cell -/

theorem inv_at (K : Dev nD × Fin 66 → ℕ) (ck : Dev nD × Fin 66) : records (F := F) m Gc K ⊢ cellInv ER (ringRd m Gc) (K ck) (kcell ck) := by
  unfold records; exact (Laws.sep_and.trans and_elimL).trans (bigSep_elim (Finset.mem_univ ck))
theorem reached_at (K : Dev nD × Fin 66 → ℕ) (ck : Dev nD × Fin 66) : records (F := F) m Gc K ⊢ reached ER (kcell ck) 0 := by
  unfold records; exact (Laws.sep_and.trans and_elimR).trans (bigSep_elim (Finset.mem_univ ck))

theorem inv_bar (K : Dev nD × Fin 66 → ℕ) (c : Dev nD) : records (F := F) m Gc K ⊢ cellInv ER (ringRd m Gc) (K (c, 0)) (barCell c) :=
  inv_at m Gc K (c, 0)
theorem inv_send (K : Dev nD × Fin 66 → ℕ) (c : Dev nD) (e : Fin 32) : records (F := F) m Gc K ⊢ cellInv ER (ringRd m Gc) (K (c, sIdx e)) (sendCell c e) := by
  have h := inv_at m Gc K (c, sIdx e); rwa [kcell_send] at h
theorem inv_recv (K : Dev nD × Fin 66 → ℕ) (c : Dev nD) (e : Fin 32) : records (F := F) m Gc K ⊢ cellInv ER (ringRd m Gc) (K (c, rIdx e)) (recvCell c e) := by
  have h := inv_at m Gc K (c, rIdx e); rwa [kcell_recv] at h
theorem inv_cpy (K : Dev nD × Fin 66 → ℕ) (c : Dev nD) : records (F := F) m Gc K ⊢ cellInv ER (ringRd m Gc) (K (c, cIdx)) (cpyCell c) := by
  have h := inv_at m Gc K (c, cIdx); rwa [kcell_cpy] at h

theorem reached_bar (K : Dev nD × Fin 66 → ℕ) (c : Dev nD) : records (F := F) m Gc K ⊢ reached ER (barCell c) 0 :=
  reached_at m Gc K (c, 0)
theorem reached_send (K : Dev nD × Fin 66 → ℕ) (c : Dev nD) (e : Fin 32) : records (F := F) m Gc K ⊢ reached ER (sendCell c e) 0 := by
  have h := reached_at m Gc K (c, sIdx e); rwa [kcell_send] at h
theorem reached_recv (K : Dev nD × Fin 66 → ℕ) (c : Dev nD) (e : Fin 32) : records (F := F) m Gc K ⊢ reached ER (recvCell c e) 0 := by
  have h := reached_at m Gc K (c, rIdx e); rwa [kcell_recv] at h
theorem reached_cpy (K : Dev nD × Fin 66 → ℕ) (c : Dev nD) : records (F := F) m Gc K ⊢ reached ER (cpyCell c) 0 := by
  have h := reached_at m Gc K (c, cIdx); rwa [kcell_cpy] at h

/-! ## The mesh, and what a device owes -/

/-- Every device's TensorCore reaches every device's. -/
theorem routes_all (c d : Dev nD) : τ.routes (c : Thread nD τ) (d : Thread nD τ) = true := Topo.routes_tc c d

theorem owedBar_nil (c : Dev nD) : owedBar c [] = 0 := rfl
theorem owedRecv_nil (c : Dev nD) : owedRecv c [] = 0 := rfl
theorem owedBar_cons (c : Dev nD) (j : Fin 32) (js : List (Fin 32)) : owedBar c (j :: js) = owedBar c js + tallyAt (barCell (peer c j)) () 1 := by
  unfold owedBar; rw [List.map_cons, List.sum_cons, add_comm]
theorem owedRecv_cons (c : Dev nD) (e : Fin 32) (es : List (Fin 32)) : owedRecv c (e :: es) = owedRecv c es + tallyAt (recvCell (peer c e) e) () N := by
  unfold owedRecv; rw [List.map_cons, List.sum_cons, add_comm]

/-! ## A device's 66 cells, sorted: the barrier cell, the send cells, the receive cells, the local copy's -/

theorem sIdx_injective : Function.Injective sIdx := fun a b h => by
  have h' : 1 + a.val = 1 + b.val := congrArg Fin.val h
  exact Fin.ext (by omega)
theorem rIdx_injective : Function.Injective rIdx := fun a b h => by
  have h' : 33 + a.val = 33 + b.val := congrArg Fin.val h
  exact Fin.ext (by omega)
def sEmb : Fin 32 ↪ Fin 66 := ⟨sIdx, sIdx_injective⟩
def rEmb : Fin 32 ↪ Fin 66 := ⟨rIdx, rIdx_injective⟩

/-- An index is 0, a send cell's, a receive cell's, or the local copy's. -/
theorem fin66_cases (k : Fin 66) : k = 0 ∨ (∃ e, sIdx e = k) ∨ (∃ e, rIdx e = k) ∨ k = cIdx := by
  rcases k with ⟨k, hk⟩
  by_cases h0 : k = 0
  · left; exact Fin.ext h0
  by_cases h1 : k ≤ 32
  · right; left; exact ⟨⟨k - 1, by omega⟩, Fin.ext (by show 1 + (k - 1) = k; omega)⟩
  by_cases h2 : k ≤ 64
  · right; right; left; exact ⟨⟨k - 33, by omega⟩, Fin.ext (by show 33 + (k - 33) = k; omega)⟩
  · right; right; right; exact Fin.ext (by show k = 65; omega)

theorem erase0_eq : (Finset.univ.erase (0 : Fin 66)) = Finset.univ.map sEmb ∪ (Finset.univ.map rEmb ∪ {cIdx}) := by
  ext k
  rw [Finset.mem_erase, Finset.mem_union, Finset.mem_union, Finset.mem_map, Finset.mem_map, Finset.mem_singleton]
  constructor
  · rintro ⟨h, -⟩
    rcases fin66_cases k with h0 | ⟨e, he⟩ | ⟨e, he⟩ | h3
    · exact absurd h0 h
    · exact .inl ⟨e, Finset.mem_univ e, he⟩
    · exact .inr (.inl ⟨e, Finset.mem_univ e, he⟩)
    · exact .inr (.inr h3)
  · intro h
    refine ⟨fun h0 => ?_, Finset.mem_univ k⟩
    subst h0
    rcases h with ⟨e, -, he⟩ | ⟨e, -, he⟩ | he
    · have : 1 + e.val = 0 := congrArg Fin.val he
      omega
    · have : 33 + e.val = 0 := congrArg Fin.val he
      omega
    · have : (0 : ℕ) = 65 := congrArg Fin.val he
      omega

theorem disj_send : Disjoint (Finset.univ.map sEmb) (Finset.univ.map rEmb ∪ {cIdx}) := by
  rw [Finset.disjoint_left]; intro k hk hk'
  obtain ⟨e, -, rfl⟩ := Finset.mem_map.mp hk
  rcases Finset.mem_union.mp hk' with h | h
  · obtain ⟨e', -, h'⟩ := Finset.mem_map.mp h
    have : 33 + e'.val = 1 + e.val := congrArg Fin.val h'
    have := e.isLt; omega
  · have : 1 + e.val = 65 := congrArg Fin.val (Finset.mem_singleton.mp h)
    have := e.isLt; omega
theorem disj_recv : Disjoint (Finset.univ.map rEmb) ({cIdx} : Finset (Fin 66)) := by
  rw [Finset.disjoint_left]; intro k hk hk'
  obtain ⟨e, -, rfl⟩ := Finset.mem_map.mp hk
  have : 33 + e.val = 65 := congrArg Fin.val (Finset.mem_singleton.mp hk')
  have := e.isLt; omega

theorem bigSep_ownCells (c : Dev nD) (Φ : GSem nD τ sig → sProp 𝕄) :
    bigSep (Finset.univ.erase (0 : Fin 66)) (fun k => Φ (kcell (c, k)))
      = iprop((bigSep Finset.univ fun e : Fin 32 => Φ (sendCell c e)) ∗ (bigSep Finset.univ fun e : Fin 32 => Φ (recvCell c e)) ∗ Φ (cpyCell c)) := by
  have hs : (fun e : Fin 32 => Φ (kcell (c, sEmb e))) = fun e => Φ (sendCell c e) := funext fun e => congrArg Φ (kcell_send c e)
  have hr : (fun e : Fin 32 => Φ (kcell (c, rEmb e))) = fun e => Φ (recvCell c e) := funext fun e => congrArg Φ (kcell_recv c e)
  rw [erase0_eq, bigSep_union disj_send, bigSep_union disj_recv, bigSep_map, bigSep_map, bigSep_singleton, hs, hr, kcell_cpy]
  rfl
theorem bigSep_cells (c : Dev nD) (Φ : GSem nD τ sig → sProp 𝕄) :
    bigSep Finset.univ (fun k : Fin 66 => Φ (kcell (c, k)))
      = iprop(Φ (barCell c) ∗ (bigSep Finset.univ fun e : Fin 32 => Φ (sendCell c e)) ∗ (bigSep Finset.univ fun e : Fin 32 => Φ (recvCell c e)) ∗ Φ (cpyCell c)) := by
  rw [bigSep_univ_split (0 : Fin 66), bigSep_ownCells c Φ]
  rfl
theorem bigSep_univ32 (Φ : Fin 32 → sProp 𝕄) : bigSep Finset.univ Φ = iprop(Φ 0 ∗ bigSep E31 Φ) := by
  unfold E31; exact bigSep_univ_split (0 : Fin 32)
theorem bigSep_E31 (Φ : Fin 32 → sProp 𝕄) : bigSep E31 Φ = bigSepL L31 Φ :=
  bigSep_eq_bigSepL_of_eq L31 L31_toFinset.symm L31_nodup Φ

/-! ## Credits of the two kinds of transfer -/

theorem amount_slot (e : Fin 32) (sm : DmaSem sig) : (slotM e).view.amount (.dma sm) = N := credit_slot e
theorem amount_xV (sm : DmaSem sig) : (xV : Memref sig .tc .vmem S2048x1024 .f32).view.amount (.dma sm) = NX := rfl

end Cert.KernelIdeal.Proto

end
-- ==== Proof.RegionsB.lean ====
import proofs.«900948_g7700000000000949_dist_mean_ax0_shard0_i_m2048_n1024_v7x_i32_f32_1_alg».proof.Proof.Sched
import proofs.«900948_g7700000000000949_dist_mean_ax0_shard0_i_m2048_n1024_v7x_i32_f32_1_alg».proof.Proof.Ghost
import Idealize.ShloMosaic.Lib.Pipeline.Value
import Idealize.ShloMosaic.Lib.ValueIdx

/-! # The gather buffer read and written by slots

Slot `e` of a device's gather buffer is the 8×128 block of indices whose first coordinate is `e`. A transfer reads slot 0
of the sender through the 8×128 window and writes slot `e` of the receiver through the same window; the first store
writes slot 0 through the 1×8×128 window; the last load reads the whole buffer. -/

noncomputable section

namespace Cert.KernelIdeal.Proto

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- Position `(p, q)` of the 8×128 window on slot `e` is the buffer's index `(e, p, q)`. -/
theorem slotM_emb (e : Fin 32) (p : Fin 8) (q : Fin 128) :
    (slotM e).view.emb (ix2 p q) = ix3 e p q := by
  have h1 : Shape.reshapeEquiv (s := (slotR e).shape) (s' := S8x128) squeezes_S1x8x128_S8x128.numel_eq (ix2 p q)
      = ix3 (0 : Fin 1) p q :=
    Shape.reshapeEquiv_eq_of_rowMajor _ (by
      rw [Shape.rowMajor_val_two, Shape.rowMajor_val_three]
      show (0 * 8 + p.val) * 128 + q.val = p.val * 128 + q.val
      omega)
  show (slotR e).emb (Shape.reshapeEquiv (s := (slotR e).shape) (s' := S8x128) squeezes_S1x8x128_S8x128.numel_eq (ix2 p q)) = _
  rw [h1]
  funext a
  apply Fin.ext
  match a with
  | ⟨0, _⟩ => show e.val + 1 * 0 = e.val; omega
  | ⟨1, _⟩ => show 0 + 1 * p.val = p.val; omega
  | ⟨2, _⟩ => show 0 + 1 * q.val = q.val; omega

/-- Position `(0, p, q)` of the 1×8×128 window on slot `e` is the buffer's index `(e, p, q)`. -/
theorem slotR_emb (e : Fin 32) (p : Fin 8) (q : Fin 128) :
    (gM.access (slotR e) : View sig .tc _ _ _).emb (ix3 (0 : Fin 1) p q) = ix3 e p q := by
  show (slotR e).emb (ix3 (0 : Fin 1) p q) = _
  funext a
  apply Fin.ext
  match a with
  | ⟨0, _⟩ => show e.val + 1 * 0 = e.val; omega
  | ⟨1, _⟩ => show 0 + 1 * p.val = p.val; omega
  | ⟨2, _⟩ => show 0 + 1 * q.val = q.val; omega

/-- A transfer's landing: slot `e` of the receiver takes slot 0 of the sender, position by position. -/
theorem landing_apply (e : Fin 32) (c c' : Dev nD) (fd : Buf (Elt F) ((slotM e).view.loc (c' : Thread nD τ)))
    (fs : Buf (Elt F) ((slotM 0).view.loc (c : Thread nD τ))) (p : Fin 8) (q : Fin 128) :
    ((slotM e).view.write (Elt F) fd ((slotM 0).view.read (Elt F) fs) Finset.univ) (ix3 e p q) = fs (ix3 (0 : Fin 32) p q) := by
  have hw := View.write_emb_of_mem (v := (slotM e).view) (Val := Elt F) fd ((slotM 0).view.read (Elt F) fs)
    (M := Finset.univ) (x := ix2 p q) (Finset.mem_univ _)
  rw [slotM_emb] at hw
  refine hw.trans ?_
  rw [View.read_apply, slotM_emb]
  rfl

/-- The first store: slot 0 takes the stored vector, position by position. -/
theorem store0_apply (c : Dev nD) (f : Buf (Elt F) ((c : Thread nD τ).loc cc0_scratch1)) (w : Vec F S1x8x128 .f32) (p : Fin 8) (q : Fin 128) :
    (((gM.access (slotR 0) : View sig .tc _ _ _).write (Elt F) f w Finset.univ)) (ix3 (0 : Fin 32) p q) = w (ix3 (0 : Fin 1) p q) := by
  have hw := View.write_emb_of_mem (v := (gM.access (slotR 0) : View sig .tc _ _ _)) (Val := Elt F) f w
    (M := Finset.univ) (x := ix3 (0 : Fin 1) p q) (Finset.mem_univ _)
  rw [slotR_emb] at hw
  exact hw

/-- The last load reads the whole buffer. -/
theorem load_all (c : Dev nD) (f : Buf (Elt F) ((c : Thread nD τ).loc cc0_scratch1)) :
    (gM : Memref sig .tc .vmem S32x8x128 .f32).view.readAt (Elt F)
      (Rect.unit (s := S32x8x128) ![0, 0, 0] S32x8x128.size inb_S32x8x128_S32x8x128_0_0_0).toLoadRect f = f :=
  Memref.readAt_unit_zero (Elt F) cc0_scratch1 (by decide) _ f

end Cert.KernelIdeal.Proto

end
-- ==== Proof.Regions.lean ====
import proofs.«900948_g7700000000000949_dist_mean_ax0_shard0_i_m2048_n1024_v7x_i32_f32_1_alg».proof.Proof.Sched
import proofs.«900948_g7700000000000949_dist_mean_ax0_shard0_i_m2048_n1024_v7x_i32_f32_1_alg».proof.Proof.Ghost
import proofs.«900948_g7700000000000949_dist_mean_ax0_shard0_i_m2048_n1024_v7x_i32_f32_1_alg».proof.Proof.RegionsB
import Idealize.ShloMosaic.Lib.Pipeline.Value
import Idealize.ShloMosaic.Lib.ValueIdx

/-! # The gather buffer by slots, and the shares of slot 0

The gather buffer of a device is 32 slots of 8×128 words; slot `e` is the indices whose first coordinate is `e`. The whole
buffer is the 32 slots side by side. Slot 0 holds the device's own column sums; each transfer borrows a share of it: the
`k`-th remainder splits into its left half (lent) and its right half (the next remainder). -/

noncomputable section

namespace Cert.KernelIdeal.Proto

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
local notation "𝕄" => MT nD τ sig Unit (Elt F) ℕ UU ℕ

variable (m : (ℓ : Loc nD τ sig) → Buf (Elt F) ℓ)
variable (Gc : (c : Dev nD) → Buf (Elt F) ((c : Thread nD τ).loc cc0_scratch1))

/-- The indices of slot `e`: those whose first coordinate is `e`. -/
theorem mem_slot (c : Dev nD) (e : Fin 32) (i : Idx ((slotM e).view.loc (c : Thread nD τ))) :
    i ∈ (slotM e).view.set ↔ (i 0).val = e.val := by
  constructor
  · intro h
    obtain ⟨x, _, rfl⟩ := Finset.mem_map.mp h
    obtain ⟨p, q, rfl⟩ : ∃ (p : Fin 8) (q : Fin 128), x = ix2 p q := ⟨x 0, x 1, eq_ix2 x⟩
    rw [slotM_emb]
    rfl
  · intro h
    obtain ⟨a, p, q, rfl⟩ : ∃ (a : Fin 32) (p : Fin 8) (q : Fin 128), i = ix3 a p q := ⟨i 0, i 1, i 2, eq_ix3 i⟩
    have ha : a = e := Fin.ext h
    subst ha
    rw [← slotM_emb]
    exact View.emb_mem_set _ _

/-- The whole buffer is the 32 slots side by side. -/
theorem gPts_split (c : Dev nD) (f : Buf (Elt F) ((c : Thread nD τ).loc cc0_scratch1)) :
    gPts (F := F) c f = bigSep Finset.univ (fun e : Fin 32 => slotPts c e f) := by
  have hU : (Finset.univ : Finset (Idx ((c : Thread nD τ).loc cc0_scratch1)))
      = Finset.univ.biUnion (fun e : Fin 32 => (slotM e).view.set) := by
    ext i
    simp only [Finset.mem_univ, Finset.mem_biUnion, true_and, true_iff]
    obtain ⟨a, p, q, rfl⟩ : ∃ (a : Fin 32) (p : Fin 8) (q : Fin 128), i = ix3 a p q := ⟨i 0, i 1, i 2, eq_ix3 i⟩
    exact ⟨a, (mem_slot c a _).mpr rfl⟩
  unfold gPts
  rw [hU, pointsTo_biUnion]
  · rfl
  · intro e _ e' _ hne
    rw [Finset.disjoint_left]
    intro i hi hi'
    exact hne (Fin.ext (((mem_slot c e i).mp hi).symm.trans ((mem_slot c e' i).mp hi')))

/-- A slot's points-to looks at the slot's elements only. -/
theorem slotPts_congr (c : Dev nD) (e : Fin 32) (f g : Buf (Elt F) ((slotM e).view.loc (c : Thread nD τ)))
    (h : ∀ (p : Fin 8) (q : Fin 128), f (ix3 e p q) = g (ix3 e p q)) : slotPts (F := F) c e f = slotPts c e g := by
  unfold slotPts
  refine pointsTo_congr fun i hi => ?_
  obtain ⟨a, p, q, rfl⟩ : ∃ (a : Fin 32) (p : Fin 8) (q : Fin 128), i = ix3 a p q := ⟨i 0, i 1, i 2, eq_ix3 i⟩
  have ha : a = e := Fin.ext ((mem_slot c e _).mp hi)
  subst ha
  exact h p q

theorem srcPts_congr (c : Dev nD) (sh : PosShare TreeShare) (f g : Buf (Elt F) ((slotM 0).view.loc (c : Thread nD τ)))
    (h : ∀ (p : Fin 8) (q : Fin 128), f (ix3 (0 : Fin 32) p q) = g (ix3 (0 : Fin 32) p q)) : srcPts (F := F) c sh f = srcPts c sh g := by
  unfold srcPts
  refine pointsTo_congr fun i hi => ?_
  obtain ⟨a, p, q, rfl⟩ : ∃ (a : Fin 32) (p : Fin 8) (q : Fin 128), i = ix3 a p q := ⟨i 0, i 1, i 2, eq_ix3 i⟩
  have ha : a = 0 := Fin.ext ((mem_slot c 0 _).mp hi)
  subst ha
  exact h p q

/-- Slot 0 held in full is its full share. -/
theorem slot0_full (c : Dev nD) (f : Buf (Elt F) ((slotM 0).view.loc (c : Thread nD τ))) :
    slotPts (F := F) c 0 f = srcPts c fullShare f := rfl

/-- The `k`-th remainder is its left half, lent, and the next remainder. -/
theorem src_split (c : Dev nD) (k : ℕ) (f : Buf (Elt F) ((slotM 0).view.loc (c : Thread nD τ))) :
    srcPts (F := F) c (restShare k) f ⊣⊢ iprop(srcPts c (restShare k).left f ∗ srcPts c (restShare (k + 1)) f) := by
  unfold srcPts
  exact pointsTo_share (PosShare.mem_left_op_right (restShare k))

theorem lentShare_succ (k : ℕ) (hk : k + 1 < 32) : lentShare ⟨k + 1, hk⟩ = (restShare k).left := by
  show (restShare (k + 1 - 1)).left = _
  rw [Nat.add_sub_cancel]

end Cert.KernelIdeal.Proto

end
-- ==== Proof.FoldDefs.lean ====
import proofs.«900948_g7700000000000949_dist_mean_ax0_shard0_i_m2048_n1024_v7x_i32_f32_1_alg».proof.Proof.Sched
import proofs.«900948_g7700000000000949_dist_mean_ax0_shard0_i_m2048_n1024_v7x_i32_f32_1_alg».proof.Proof.Mesh

/-! # The three folds of the kernel body

The body visits its 31 neighbours three times in the same order: it signals the barrier semaphore of each; it starts a
transfer of slot 0 to slot `e` of neighbour `peer c e`; it waits for the landings and then for the departures. Each run is
a fold over the list of the neighbours' numbers, written here once with the continuation as the last argument. -/

noncomputable section

namespace Cert.KernelIdeal.Proto

open Cert.KernelIdeal Cert.KernelIdeal.Gen Cert.KernelIdeal.Mesh
open Idealize.ShloMosaic Idealize.ShloMosaic.TcCoe Idealize.SL.Sem

variable {F : FTy → Type} [FloatOps F]

/-- A program of the TensorCore's body. -/
abbrev P (F : FTy → Type) : Type 1 := Prog (TpuEff nD τ sig (Elt F) Λ₀ .tc) PUnit

/-! ## The evidence the transfers carry, at every slot -/

/-- Every slot is a whole number of words. -/
theorem slotM_wordExact (e : Fin 32) : (slotM e).view.WordExact := (View.wordExact_bits rfl).reshape _ _

/-- No slot lies in a SparseCore's scratch. -/
theorem slotM_notSc (e : Fin 32) : (slotM e).view.ref.isScScratch = false := rfl

/-! ## The folds -/

/-- Signal the barrier semaphore of each listed neighbour once, then go on as `k`. -/
def sigK (c : Dev nD) : List (Fin 32) → P F → P F
  | [], k => k
  | j :: js, k => Prog.op (TpuEff.semSignal ((peer c j : Dev nD), Proc.tc) barS 1) fun _ => sigK c js k

/-- Start the transfer of slot 0 to slot `e` of neighbour `peer c e`, for each listed `e`, then go on as `k`. -/
def sendK (c : Dev nD) : List (Fin 32) → P F → P F
  | [], k => k
  | e :: es, k =>
    Prog.op (TpuEff.enqueueDma (slotM 0) (DmaTarget.remote (Dev.tc (peer c e)) (slotM e) (SemLoc.dma (sendS e)) (slotM_notSc e))
      (SemLoc.dma (recvS e)) (slotM_wordExact 0) (slotM_wordExact e) ⟨⟨rfl, Or.inl rfl⟩, trivial⟩) fun _ => sendK c es k

/-- Wait for the landing on each listed slot, then go on as `k`. -/
def recvWaitK : List (Fin 32) → P F → P F
  | [], k => k
  | e :: es, k => Prog.op (TpuEff.waitDma2 (recvS e) (slotM 0) (slotM e) (slotM_wordExact 0) (slotM_wordExact e)) fun _ => recvWaitK es k

/-- Wait for the departure of each listed transfer, then go on as `k`. -/
def sendWaitK : List (Fin 32) → P F → P F
  | [], k => k
  | e :: es, k => Prog.op (TpuEff.waitDma2 (sendS e) (slotM e) (slotM 0) (slotM_wordExact e) (slotM_wordExact 0)) fun _ => sendWaitK es k

end Cert.KernelIdeal.Proto

end
-- ==== Proof.Steps.lean ====
import proofs.«900948_g7700000000000949_dist_mean_ax0_shard0_i_m2048_n1024_v7x_i32_f32_1_alg».proof.Proof.Tables
import proofs.«900948_g7700000000000949_dist_mean_ax0_shard0_i_m2048_n1024_v7x_i32_f32_1_alg».proof.Proof.Regions
import proofs.«900948_g7700000000000949_dist_mean_ax0_shard0_i_m2048_n1024_v7x_i32_f32_1_alg».proof.Proof.FoldDefs
import Idealize.ShloMosaic.Lib.ValueIdx

/-! # One step of each kind, and the three runs of 31 of them

A device's body is: 31 signals, a local copy, the column sums stored in slot 0, the wait for the 31 neighbours, 31
transfers, 31 waits for landings, 31 waits for departures, the sum. Each of the four repeated steps is stated once, for
the `e`-th neighbour; the runs are inductions over the list of neighbours still to visit. -/

noncomputable section

namespace Cert.KernelIdeal.Proto

open Cert.KernelIdeal Cert.KernelIdeal.Gen Cert.KernelIdeal.Mesh
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (Gc : (c : Dev nD) → Buf (Elt F) ((c : Thread nD τ).loc cc0_scratch1))
variable (K : Dev nD × Fin 66 → ℕ)

/-- The two facts the protocol needs of the gather buffers' final contents: slot 0 of `c` holds `c`'s own column sums,
    and slot `e` of the `e`-th neighbour holds what slot 0 of `c` holds. -/
structure GatherFacts : Prop where
  own : ∀ (c : Dev nD) (p : Fin 8) (q : Fin 128), Gc c (ix3 (0 : Fin 32) p q) = k0_pay2 (X m c) (ix3 (0 : Fin 1) p q)
  land : ∀ (c : Dev nD) (e : Fin 32) (p : Fin 8) (q : Fin 128), Gc (peer c e) (ix3 e p q) = Gc c (ix3 (0 : Fin 32) p q)

/-! ## The four steps -/

/-- The `j`-th signal: a unit on the `j`-th neighbour's barrier cell, carrying this device's slot `neg j` — the slot that
    neighbour's transfer will write — and that the slot's receive cell is open. -/
theorem signal_step (c : Dev nD) {j : Fin 32} (hj : j ≠ 0) (O : CellTallies nD τ sig Unit) (W : Waits sig Unit)
    {α : Type} {Q : α → sProp 𝕄} {k : PUnit → Prog (TpuEff nD τ sig (Elt F) Λ₀ .tc) α} :
    iprop(records m Gc K ∗ owes (c : Thread nD τ) (O + tallyAt (barCell (peer c j)) () 1) W
        ∗ dutyTok ER (barCell (peer c j)) 0 (neg j) ∗ (∃ f, slotPts c (neg j) f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (peer c j : Thread nD τ) barS 1) k) Q) := by
  iintro ⟨#HR, HO, Htok, Hslot⟩
  iapply (Rounds.wp_signal 𝒱₀ ER (ringRd m Gc) (c : Thread nD τ) none (dst := (peer c j : Thread nD τ)) (κ := K (peer c j, 0))
      (d := neg j) (by rw [duties_bar]; exact mem_E31.mpr (neg_ne_zero hj)) (amount_bar m Gc (peer c j) (neg j)) () O rfl
      (hr := routes_all c (peer c j))) $$ [HO Htok Hslot]
  isplitr; · iapply (inv_bar m Gc K (peer c j)); iexact HR
  isplitl [HO]; · iexact HO
  isplitl [Htok]; · iexact Htok
  isplitl [Hslot]
  · rw [payload_bar]; unfold barPay; rw [peer_peer_neg]
    isplitl [Hslot]; · iexact Hslot
    iapply (reached_recv m Gc K c (neg j)); iexact HR
  · iapply (reached_bar m Gc K (peer c j)); iexact HR

/-- The `e`-th transfer: slot 0, read at the share lent to it, into slot `e` of the `e`-th neighbour. The departure hands
    the share back; the landing leaves the neighbour's slot `e` at its final contents. -/
theorem send_step (hG : GatherFacts m Gc) (c : Dev nD) {e : Fin 32} (he : e ≠ 0) (O : CellTallies nD τ sig Unit) (W : Waits sig Unit)
    {hsc : (slotM e : Memref sig (Dev.tc (peer c e) : Thread nD τ).2.kind .vmem S8x128 .f32).view.ref.isScScratch = false}
    {hsrc : (slotM 0 : Memref sig .tc .vmem S8x128 .f32).view.WordExact} {hdst : (slotM e : Memref sig .tc .vmem S8x128 .f32).view.WordExact}
    {hsem : DmaTarget.Typed .vmem (.dma (recvS e)) (.remote (Dev.tc (peer c e) : Thread nD τ) (slotM e : Memref sig .tc .vmem S8x128 .f32) (.dma (sendS e)) hsc)}
    {α : Type} {Q : α → sProp 𝕄} {k : PUnit → Prog (TpuEff nD τ sig (Elt F) Λ₀ .tc) α}
    (f : Buf (Elt F) ((slotM e).view.loc (peer c e : Thread nD τ))) :
    iprop(records m Gc K ∗ owes (c : Thread nD τ) (O + tallyAt (recvCell (peer c e) e) () N) W
        ∗ dutyTok ER (sendCell c e) 0 (0 : Fin 32) ∗ dutyTok ER (recvCell (peer c e) e) 0 (0 : Fin 32)
        ∗ srcPts c (lentShare e) (Gc c) ∗ slotPts (peer c e) e f)
      ⊢ iprop(((cred (tallyAt (sendCell c e) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc (peer c e) : Thread nD τ) (slotM e) (.dma (sendS e)) hsc) (.dma (recvS e)) hsrc hdst hsem) k) Q) := by
  unfold srcPts slotPts
  iintro ⟨#HR, HO, HtS, HtR, Hsrc, Hdst⟩
  iapply (Rounds.wp_send_pointsTo 𝒱₀ ER (ringRd m Gc) (c : Thread nD τ) none (κ₁ := K (c, sIdx e)) (κ₂ := K (peer c e, rIdx e))
      (r₁ := 0) (r₂ := 0) (d₁ := (0 : Fin 32)) (d₂ := (0 : Fin 32)) (fd := f) (fs := Gc c) (q := lentShare e)
      (by rw [duties_send m Gc c he]; exact Finset.mem_singleton_self _) (by rw [duties_recv m Gc (peer c e) he]; exact Finset.mem_singleton_self _)
      () () N (amount_slot e (recvS e)) (amount_send m Gc c e 0) (amount_recv m Gc (peer c e) e 0) O rfl (W := W)
      (by rw [payload_send]; unfold sendPay srcPts; exact BI.Entails.refl _)
      (by
        rw [payload_recv]; unfold recvPay
        exact Entails.of_eq (slotPts_congr (peer c e) e _ _ fun p q => (landing_apply e c (peer c e) f (Gc c) p q).trans (hG.land c e p q).symm))
      (hr := routes_all c (peer c e))) $$ [HO HtS HtR Hsrc Hdst]
  isplitr; · iapply (inv_send m Gc K c e); iexact HR
  isplitr; · iapply (inv_recv m Gc K (peer c e) e); iexact HR
  isplitl [Hsrc]; · iexact Hsrc
  isplitl [Hdst]; · iexact Hdst
  isplitl [HO]; · iexact HO
  isplitl [HtS]; · iexact HtS
  isplitr; · iapply (reached_send m Gc K c e); iexact HR
  isplitl [HtR]; · iexact HtR
  iapply (reached_recv m Gc K (peer c e) e); iexact HR

/-- The wait for the landing on slot `e`: the slot comes back holding its final contents. The device owes nothing by now. -/
theorem recvWait_step (c : Dev nD) {e : Fin 32} (he : e ≠ 0) (W : Waits sig Unit)
    {h0 : (slotM 0 : Memref sig .tc .vmem S8x128 .f32).view.WordExact} {h1 : (slotM e : Memref sig .tc .vmem S8x128 .f32).view.WordExact}
    {α : Type} {Q : α → sProp 𝕄} {k : PUnit → Prog (TpuEff nD τ sig (Elt F) Λ₀ .tc) α} :
    iprop(records m Gc K ∗ cred (tallyAt (recvCell c e) () N) ∗ owes (c : Thread nD τ) 0 W ∗ atPos ER (recvCell c e) 0 (∅ : Finset (Fin 32)) 0)
      ⊢ iprop(((owes (c : Thread nD τ) 0 (insert (SemLoc.dma (recvS e), ()) W) ∗ atPos ER (recvCell c e) 1 (∅ : Finset (Fin 32)) 0 ∗ slotPts c e (Gc c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS e) (slotM 0) (slotM e) h0 h1) k) Q) := by
  iintro ⟨#HR, Hc, HO, Hat⟩ Hk
  rw [← credit_slot e]
  iapply (Rounds.wp_wait_rest_token 𝒱₀ ER (ringRd m Gc) (c : Thread nD τ) none (κ := K (c, rIdx e))
      (wpE_waitDma2_eq 𝒱₀ (c : Thread nD τ) none Set.univ) (Set.mem_univ _) () (O := 0) (W := W) (R := 0) (m := 0) (T := ∅)
      (by rw [Nat.zero_add, expect_recv m Gc c he, credit_slot e])) $$ [Hc HO Hat]
  · isplitr; · iapply (inv_recv m Gc K c e); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  ihave Hp := (Entails.of_eq (rest_recv m Gc c he)) $$ Hpay
  unfold recvPay; iexact Hp

/-- The wait for the departure of the `e`-th transfer: the share of slot 0 lent to it comes back. -/
theorem sendWait_step (c : Dev nD) {e : Fin 32} (he : e ≠ 0) (W : Waits sig Unit)
    {h0 : (slotM 0 : Memref sig .tc .vmem S8x128 .f32).view.WordExact} {h1 : (slotM e : Memref sig .tc .vmem S8x128 .f32).view.WordExact}
    {α : Type} {Q : α → sProp 𝕄} {k : PUnit → Prog (TpuEff nD τ sig (Elt F) Λ₀ .tc) α} :
    iprop(records m Gc K ∗ cred (tallyAt (sendCell c e) () N) ∗ owes (c : Thread nD τ) 0 W ∗ atPos ER (sendCell c e) 0 (∅ : Finset (Fin 32)) 0)
      ⊢ iprop(((owes (c : Thread nD τ) 0 (insert (SemLoc.dma (sendS e), ()) W) ∗ atPos ER (sendCell c e) 1 (∅ : Finset (Fin 32)) 0 ∗ srcPts c (lentShare e) (Gc c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS e) (slotM e) (slotM 0) h1 h0) k) Q) := by
  iintro ⟨#HR, Hc, HO, Hat⟩ Hk
  iapply (Rounds.wp_wait_rest_token 𝒱₀ ER (ringRd m Gc) (c : Thread nD τ) none (κ := K (c, sIdx e))
      (wpE_waitDma2_eq 𝒱₀ (c : Thread nD τ) none Set.univ) (Set.mem_univ _) () (O := 0) (W := W) (R := 0) (m := 0) (T := ∅)
      (by rw [Nat.zero_add, expect_send m Gc c he])) $$ [Hc HO Hat]
  · isplitr; · iapply (inv_send m Gc K c e); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  ihave Hp := (Entails.of_eq (rest_send m Gc c he)) $$ Hpay
  unfold sendPay; iexact Hp

end Cert.KernelIdeal.Proto

end
-- ==== Proof.ListSep.lean ====
import proofs.«900948_g7700000000000949_dist_mean_ax0_shard0_i_m2048_n1024_v7x_i32_f32_1_alg».proof.Proof.Ghost

/-! The big `∗` over a list, one element at a time, in the form the proof mode opens. -/

noncomputable section

namespace Cert.KernelIdeal.Proto

open Cert.KernelIdeal Idealize.ShloMosaic
open Idealize.SL Idealize.SL.BI
open scoped Idealize.SL.BI
open Idealize.SL.BI.BIBase

variable {F : FTy → Type} [FloatOps F]
local notation "𝕄" => MT nD τ sig Unit (Elt F) ℕ UU ℕ

omit [FloatOps F] in
theorem bigSepL_cons' {I : Type} (i : I) (l : List I) (Φ : I → sProp 𝕄) : bigSepL (i :: l) Φ = iprop(Φ i ∗ bigSepL l Φ) :=
  bigSepL_cons i l Φ
omit [FloatOps F] in
theorem bigSepL_nil' {I : Type} (Φ : I → sProp 𝕄) : bigSepL ([] : List I) Φ = iprop(emp) := rfl

end Cert.KernelIdeal.Proto

end
-- ==== Proof.Runs.lean ====
import proofs.«900948_g7700000000000949_dist_mean_ax0_shard0_i_m2048_n1024_v7x_i32_f32_1_alg».proof.Proof.Steps
import proofs.«900948_g7700000000000949_dist_mean_ax0_shard0_i_m2048_n1024_v7x_i32_f32_1_alg».proof.Proof.ListSep
import Idealize.ShloMosaic.Lib.ValueIdx

/-! # The three runs: 31 signals, 31 transfers, 62 waits

Each is an induction over the neighbours still to visit. What a run consumes and what it leaves is a big `∗` over
that list: a signal consumes a token and a slot; a transfer consumes two tokens, a share of slot 0 and the neighbour's
slot, and leaves a credit; a wait consumes a credit and a position and leaves the position one round on and what landed. -/

noncomputable section

namespace Cert.KernelIdeal.Proto

open Cert.KernelIdeal Cert.KernelIdeal.Gen Cert.KernelIdeal.Mesh
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (Gc : (c : Dev nD) → Buf (Elt F) ((c : Thread nD τ).loc cc0_scratch1))
variable (K : Dev nD × Fin 66 → ℕ)

/-- The 31 signals: what the device owes goes down by a unit on each neighbour's barrier cell. -/
theorem wp_sigK (c : Dev nD) (js : List (Fin 32)) (hjs : ∀ j ∈ js, j ≠ 0) (A : CellTallies nD τ sig Unit) (W : Waits sig Unit)
    (k : P F) (Q : PUnit → sProp 𝕄) :
    iprop(records m Gc K ∗ owes (c : Thread nD τ) (A + owedBar c js) W
        ∗ bigSepL js (fun j => iprop(dutyTok ER (barCell (peer c j)) 0 (neg j) ∗ ∃ f, slotPts (F := F) c (neg j) f))
        ∗ (owes (c : Thread nD τ) A W -∗ wp frame (wpE (defs₀ (F := F)) 𝒱₀ (c : Thread nD τ) none) Set.univ k Q))
      ⊢ wp frame (wpE (defs₀ (F := F)) 𝒱₀ (c : Thread nD τ) none) Set.univ (sigK c js k) Q := by
  induction js with
  | nil =>
    rw [owedBar_nil, add_zero]
    show _ ⊢ wp frame (wpE (defs₀ (F := F)) 𝒱₀ (c : Thread nD τ) none) Set.univ k Q
    iintro ⟨-, HO, -, Hk⟩
    iapply Hk; iexact HO
  | cons j js ih =>
    have hj : j ≠ 0 := hjs j (List.mem_cons_self ..)
    rw [owedBar_cons, ← add_assoc, bigSepL_cons']
    show _ ⊢ wp frame (wpE (defs₀ (F := F)) 𝒱₀ (c : Thread nD τ) none) Set.univ (.op (.semSignal (peer c j : Thread nD τ) barS 1) fun _ => sigK c js k) Q
    iintro ⟨#HR, HO, ⟨⟨Htok, Hslot⟩, Hrest⟩, Hk⟩
    iapply (signal_step m Gc K c hj (A + owedBar c js) W) $$ [HO Htok Hslot]
    · isplitr; · iexact HR
      isplitl [HO]; · iexact HO
      isplitl [Htok]; · iexact Htok
      iexact Hslot
    iintro HO
    iapply (ih fun j' hj' => hjs j' (List.mem_cons_of_mem _ hj'))
    isplitr; · iexact HR
    isplitl [HO]; · iexact HO
    isplitl [Hrest]; · iexact Hrest
    iexact Hk

/-- The 31 transfers: what the device owes goes down by each landing's credit; a departure credit is left for each. -/
theorem wp_sendK (hG : GatherFacts m Gc) (c : Dev nD) (es : List (Fin 32)) (hes : ∀ e ∈ es, e ≠ 0) (A : CellTallies nD τ sig Unit) (W : Waits sig Unit)
    (k : P F) (Q : PUnit → sProp 𝕄) :
    iprop(records m Gc K ∗ owes (c : Thread nD τ) (A + owedRecv c es) W
        ∗ bigSepL es (fun e => iprop(dutyTok ER (sendCell c e) 0 (0 : Fin 32) ∗ dutyTok ER (recvCell (peer c e) e) 0 (0 : Fin 32)
            ∗ srcPts c (lentShare e) (Gc c) ∗ ∃ f, slotPts (F := F) (peer c e) e f))
        ∗ ((owes (c : Thread nD τ) A W ∗ bigSepL es (fun e => cred (tallyAt (sendCell c e) () N))) -∗ wp frame (wpE (defs₀ (F := F)) 𝒱₀ (c : Thread nD τ) none) Set.univ k Q))
      ⊢ wp frame (wpE (defs₀ (F := F)) 𝒱₀ (c : Thread nD τ) none) Set.univ (sendK c es k) Q := by
  induction es with
  | nil =>
    rw [owedRecv_nil, add_zero]
    show _ ⊢ wp frame (wpE (defs₀ (F := F)) 𝒱₀ (c : Thread nD τ) none) Set.univ k Q
    iintro ⟨-, HO, -, Hk⟩
    iapply Hk
    isplitl [HO]; · iexact HO
    rw [bigSepL_nil']; iempintro
  | cons e es ih =>
    have he : e ≠ 0 := hes e (List.mem_cons_self ..)
    rw [owedRecv_cons, ← add_assoc, bigSepL_cons']
    show _ ⊢ wp frame (wpE (defs₀ (F := F)) 𝒱₀ (c : Thread nD τ) none) Set.univ (.op (.enqueueDma (slotM 0) (.remote (Dev.tc (peer c e)) (slotM e) (.dma (sendS e)) (slotM_notSc e)) (.dma (recvS e)) (slotM_wordExact 0) (slotM_wordExact e) ⟨⟨rfl, Or.inl rfl⟩, trivial⟩) fun _ => sendK c es k) Q
    iintro ⟨#HR, HO, ⟨⟨HtS, HtR, Hsrc, ⟨%f, Hdst⟩⟩, Hrest⟩, Hk⟩
    iapply (send_step m Gc K hG c he (A + owedRecv c es) W f) $$ [HO HtS HtR Hsrc Hdst]
    · isplitr; · iexact HR
      isplitl [HO]; · iexact HO
      isplitl [HtS]; · iexact HtS
      isplitl [HtR]; · iexact HtR
      isplitl [Hsrc]; · iexact Hsrc
      iexact Hdst
    iintro ⟨Hc, HO⟩
    iapply (ih fun e' he' => hes e' (List.mem_cons_of_mem _ he'))
    isplitr; · iexact HR
    isplitl [HO]; · iexact HO
    isplitl [Hrest]; · iexact Hrest
    iintro ⟨HO, Hcs⟩
    iapply Hk
    isplitl [HO]; · iexact HO
    rw [bigSepL_cons']
    isplitl [Hc]; · iexact Hc
    iexact Hcs

/-- The 31 waits for landings: every slot comes back holding its final contents; every receive cell is one round on. -/
theorem wp_recvWaitK (c : Dev nD) (es : List (Fin 32)) (hes : ∀ e ∈ es, e ≠ 0) (W : Waits sig Unit) (k : P F) (Q : PUnit → sProp 𝕄) :
    iprop(records m Gc K ∗ owes (c : Thread nD τ) 0 W
        ∗ bigSepL es (fun e => iprop(cred (tallyAt (recvCell c e) () N) ∗ atPos ER (recvCell c e) 0 (∅ : Finset (Fin 32)) 0))
        ∗ (((∃ W', owes (c : Thread nD τ) 0 W') ∗ bigSepL es (fun e => iprop(atPos ER (recvCell c e) 1 (∅ : Finset (Fin 32)) 0 ∗ slotPts c e (Gc c)))) -∗ wp frame (wpE (defs₀ (F := F)) 𝒱₀ (c : Thread nD τ) none) Set.univ k Q))
      ⊢ wp frame (wpE (defs₀ (F := F)) 𝒱₀ (c : Thread nD τ) none) Set.univ (recvWaitK es k) Q := by
  induction es generalizing W with
  | nil =>
    show _ ⊢ wp frame (wpE (defs₀ (F := F)) 𝒱₀ (c : Thread nD τ) none) Set.univ k Q
    iintro ⟨-, HO, -, Hk⟩
    iapply Hk
    isplitl [HO]; · iexists W; iexact HO
    rw [bigSepL_nil']; iempintro
  | cons e es ih =>
    have he : e ≠ 0 := hes e (List.mem_cons_self ..)
    rw [bigSepL_cons']
    show _ ⊢ wp frame (wpE (defs₀ (F := F)) 𝒱₀ (c : Thread nD τ) none) Set.univ (.op (.waitDma2 (recvS e) (slotM 0) (slotM e) (slotM_wordExact 0) (slotM_wordExact e)) fun _ => recvWaitK es k) Q
    iintro ⟨#HR, HO, ⟨⟨Hc, Hat⟩, Hrest⟩, Hk⟩
    iapply (recvWait_step m Gc K c he W) $$ [Hc HO Hat]
    · isplitr; · iexact HR
      isplitl [Hc]; · iexact Hc
      isplitl [HO]; · iexact HO
      iexact Hat
    iintro ⟨HO, Hat, Hslot⟩
    iapply (ih (fun e' he' => hes e' (List.mem_cons_of_mem _ he')) (insert (SemLoc.dma (recvS e), ()) W))
    isplitr; · iexact HR
    isplitl [HO]; · iexact HO
    isplitl [Hrest]; · iexact Hrest
    iintro ⟨HO, Hs⟩
    iapply Hk
    isplitl [HO]; · iexact HO
    rw [bigSepL_cons']
    isplitl [Hat Hslot]
    · isplitl [Hat]; · iexact Hat
      iexact Hslot
    iexact Hs

/-- The 31 waits for departures: every lent share of slot 0 comes back; every send cell is one round on. -/
theorem wp_sendWaitK (c : Dev nD) (es : List (Fin 32)) (hes : ∀ e ∈ es, e ≠ 0) (W : Waits sig Unit) (k : P F) (Q : PUnit → sProp 𝕄) :
    iprop(records m Gc K ∗ owes (c : Thread nD τ) 0 W
        ∗ bigSepL es (fun e => iprop(cred (tallyAt (sendCell c e) () N) ∗ atPos ER (sendCell c e) 0 (∅ : Finset (Fin 32)) 0))
        ∗ (((∃ W', owes (c : Thread nD τ) 0 W') ∗ bigSepL es (fun e => iprop(atPos ER (sendCell c e) 1 (∅ : Finset (Fin 32)) 0 ∗ srcPts c (lentShare e) (Gc c)))) -∗ wp frame (wpE (defs₀ (F := F)) 𝒱₀ (c : Thread nD τ) none) Set.univ k Q))
      ⊢ wp frame (wpE (defs₀ (F := F)) 𝒱₀ (c : Thread nD τ) none) Set.univ (sendWaitK es k) Q := by
  induction es generalizing W with
  | nil =>
    show _ ⊢ wp frame (wpE (defs₀ (F := F)) 𝒱₀ (c : Thread nD τ) none) Set.univ k Q
    iintro ⟨-, HO, -, Hk⟩
    iapply Hk
    isplitl [HO]; · iexists W; iexact HO
    rw [bigSepL_nil']; iempintro
  | cons e es ih =>
    have he : e ≠ 0 := hes e (List.mem_cons_self ..)
    rw [bigSepL_cons']
    show _ ⊢ wp frame (wpE (defs₀ (F := F)) 𝒱₀ (c : Thread nD τ) none) Set.univ (.op (.waitDma2 (sendS e) (slotM e) (slotM 0) (slotM_wordExact e) (slotM_wordExact 0)) fun _ => sendWaitK es k) Q
    iintro ⟨#HR, HO, ⟨⟨Hc, Hat⟩, Hrest⟩, Hk⟩
    iapply (sendWait_step m Gc K c he W) $$ [Hc HO Hat]
    · isplitr; · iexact HR
      isplitl [Hc]; · iexact Hc
      isplitl [HO]; · iexact HO
      iexact Hat
    iintro ⟨HO, Hat, Hsrc⟩
    iapply (ih (fun e' he' => hes e' (List.mem_cons_of_mem _ he')) (insert (SemLoc.dma (sendS e), ()) W))
    isplitr; · iexact HR
    isplitl [HO]; · iexact HO
    isplitl [Hrest]; · iexact Hrest
    iintro ⟨HO, Hs⟩
    iapply Hk
    isplitl [HO]; · iexact HO
    rw [bigSepL_cons']
    isplitl [Hat Hsrc]
    · isplitl [Hat]; · iexact Hat
      iexact Hsrc
    iexact Hs

end Cert.KernelIdeal.Proto

end
-- ==== Proof.Shares.lean ====
import proofs.«900948_g7700000000000949_dist_mean_ax0_shard0_i_m2048_n1024_v7x_i32_f32_1_alg».proof.Proof.Regions
import proofs.«900948_g7700000000000949_dist_mean_ax0_shard0_i_m2048_n1024_v7x_i32_f32_1_alg».proof.Proof.Ghost

/-! # Slot 0 lent out 31 times, the neighbours renamed, and the whole-buffer accesses

Slot 0's full share splits into the 31 shares lent to the transfers and a remainder; the neighbours proper are permuted by
`neg`; the first load and store through the 1×8×128 window at slot 0 touch slot 0's elements only; the block's load, the
result's store and the local copy read and write whole buffers. -/

noncomputable section

namespace Cert.KernelIdeal.Proto

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
local notation "𝕄" => MT nD τ sig Unit (Elt F) ℕ UU ℕ

variable (m : (ℓ : Loc nD τ sig) → Buf (Elt F) ℓ)
variable (Gc : (c : Dev nD) → Buf (Elt F) ((c : Thread nD τ).loc cc0_scratch1))

/-! ## Slot 0's share, lent 31 times -/

omit [FloatOps F] in
/-- The neighbours still to be served after the first `k`. -/
theorem L31_drop (k : ℕ) (hk : k + 1 < 32) : L31.drop k = ⟨k + 1, hk⟩ :: L31.drop (k + 1) := by
  have hk' : k < 31 := by omega
  interval_cases k <;> rfl

/-- From the `k`-th remainder on: the shares lent to the neighbours after the `k`-th, and the last remainder. -/
theorem src_split_from (c : Dev nD) (f : Buf (Elt F) ((slotM 0).view.loc (c : Thread nD τ))) : ∀ (n k : ℕ), k + n = 31 →
    srcPts (F := F) c (restShare k) f
      ⊣⊢ iprop(bigSepL (L31.drop k) (fun e => srcPts c (lentShare e) f) ∗ srcPts c (restShare 31) f)
  | 0, k, h => by
    have hk : k = 31 := by omega
    subst hk
    have h0 : L31.drop 31 = [] := rfl
    rw [h0, bigSepL_nil]
    exact emp_sep.symm
  | n + 1, k, h => by
    have hk : k + 1 < 32 := by omega
    rw [L31_drop k hk, bigSepL_cons]
    refine (src_split c k f).trans ?_
    rw [← lentShare_succ k hk]
    refine (sep_congr_right (src_split_from c f n (k + 1) (by omega))).trans ?_
    exact sep_assoc.symm

/-- Slot 0's full share is the 31 shares lent to the transfers and the last remainder. -/
theorem src_split_all (c : Dev nD) (f : Buf (Elt F) ((slotM 0).view.loc (c : Thread nD τ))) :
    srcPts (F := F) c fullShare f ⊣⊢ iprop(bigSepL L31 (fun e => srcPts c (lentShare e) f) ∗ srcPts c (restShare 31) f) :=
  src_split_from c f 31 0 rfl

/-! ## The neighbours renamed -/

/-- `neg` as an embedding: it is its own inverse. -/
def negEmb : Fin 32 ↪ Fin 32 :=
  ⟨neg, fun a b h => by have h' := congrArg neg h; rwa [Mesh.neg_neg, Mesh.neg_neg] at h'⟩

theorem E31_map_neg : E31.map negEmb = E31 := by
  ext j
  constructor
  · intro h
    obtain ⟨i, hi, rfl⟩ := Finset.mem_map.mp h
    exact mem_E31.mpr (neg_ne_zero (mem_E31.mp hi))
  · intro h
    exact Finset.mem_map.mpr ⟨neg j, mem_E31.mpr (neg_ne_zero (mem_E31.mp h)), Mesh.neg_neg j⟩

omit [FloatOps F] in
/-- `neg` permutes the neighbours proper, so a product over them may be taken in either naming. -/
theorem bigSep_E31_neg (Φ : Fin 32 → sProp 𝕄) : bigSep E31 (fun j => Φ (neg j)) = bigSep E31 Φ := by
  have h := bigSep_map (s := E31) negEmb (Φ := Φ)
  rw [E31_map_neg] at h
  exact h.symm

/-! ## The 1×8×128 window at slot 0 touches slot 0 only -/

theorem load0_sub : (gM : Memref sig .tc .vmem S32x8x128 .f32).view.setOn (slotR 0).toLoadRect.set ⊆ (slotM 0).view.set := by
  show _ ⊆ (((gM : Memref sig .tc .vmem S32x8x128 .f32).view.slice (slotR 0)).reshape S8x128 squeezes_S1x8x128_S8x128.numel_eq).set
  rw [View.set_reshape, View.set_slice]
  exact subset_rfl

theorem store0_sub : ((gM : Memref sig .tc .vmem S32x8x128 .f32).access (slotR 0)).setOn Finset.univ ⊆ (slotM 0).view.set := by
  show _ ⊆ (((gM : Memref sig .tc .vmem S32x8x128 .f32).view.slice (slotR 0)).reshape S8x128 squeezes_S1x8x128_S8x128.numel_eq).set
  rw [View.set_reshape]
  exact subset_rfl

/-! ## Whole-buffer accesses -/

theorem hz2 : (![0, 0] : Fin 2 → Nat) = fun _ => 0 := funext fun a => by fin_cases a <;> rfl

omit [FloatOps F] in
/-- The block's load reads the whole VMEM copy. -/
theorem read_xV (c : Dev nD) (f : Buf (Elt F) ((c : Thread nD τ).loc cc0_scratch0)) :
    (xV : Memref sig .tc .vmem S2048x1024 .f32).view.readAt (Elt F)
      (Rect.unit (s := S2048x1024) ![0, 0] S2048x1024.size inb_S2048x1024_S2048x1024_0_0).toLoadRect f = f :=
  Memref.readAt_unit_zero (Elt F) cc0_scratch0 hz2 _ f

omit [FloatOps F] in
/-- The result's store overwrites the whole staging buffer. -/
theorem write_out (c : Dev nD) (f w : (cc0_stg0_0 : Ref sig .tc).ty.Contents (Elt F)) :
    ((oM : Memref sig .tc .vmem S1x1024 .f32).access (Rect.unit (s := S1x1024) ![0, 0] S1x1024.size inb_S1x1024_S1x1024_0_0) :
      View sig .tc _ _ _).write (Elt F) f w Finset.univ = w :=
  Memref.write_access_unit_zero_univ (Elt F) cc0_stg0_0 hz2 _ f w

omit [FloatOps F] in
/-- The local copy lands the whole block. -/
theorem copy_landed (c : Dev nD) (fd : Buf (Elt F) ((xV : Memref sig .tc .vmem S2048x1024 .f32).view.loc (c : Thread nD τ)))
    (fs : Buf (Elt F) ((xH : Memref sig .tc .hbm S2048x1024 .f32).view.loc (c : Thread nD τ))) :
    (xV : Memref sig .tc .vmem S2048x1024 .f32).view.write (Elt F) fd
      ((xH : Memref sig .tc .hbm S2048x1024 .f32).view.read (Elt F) fs) Finset.univ = fs := by
  show (View.whole cc0_scratch0).write (Elt F) fd ((View.whole main_arg0).read (Elt F) fs) Finset.univ = fs
  rw [View.read_whole]
  exact View.write_whole_univ _ _ _

end Cert.KernelIdeal.Proto

end
-- ==== Proof.Levels.lean ====
import proofs.«900948_g7700000000000949_dist_mean_ax0_shard0_i_m2048_n1024_v7x_i32_f32_1_alg».proof.Proof.Ghost
import Idealize.ShloMosaic.Lib.ValueIdx

/-! # The levels at the waits

Barrier cells sit at level 1, receive cells at level 2, every other cell at level 0. What a device owes while it waits is
landing credit on receive cells only, so it may wait on its barrier cell and on its local copy's cell. -/

noncomputable section

namespace Cert.KernelIdeal.Proto

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
local notation "𝕄" => MT nD τ sig Unit (Elt F) ℕ UU ℕ

variable (m : (ℓ : Loc nD τ sig) → Buf (Elt F) ℓ)
variable (Gc : (c : Dev nD) → Buf (Elt F) ((c : Thread nD τ).loc cc0_scratch1))

omit [FloatOps F] in
/-- What a device owes for its transfers' landings is owed to receive cells of its neighbours. -/
theorem owedRecv_pos {c : Dev nD} {es : List (Fin 32)} {g : GSem nD τ sig} {u : Unit} (h : 0 < owedRecv c es g u) :
    ∃ e ∈ es, g = recvCell (peer c e) e := by
  induction es with
  | nil => exact absurd h (Nat.lt_irrefl 0)
  | cons e es ih =>
    have hsplit : owedRecv c (e :: es) g u = tallyAt (recvCell (peer c e) e) () N g u + owedRecv c es g u := by
      unfold owedRecv; rw [List.map_cons, List.sum_cons]; rfl
    rw [hsplit] at h
    by_cases hg : g = recvCell (peer c e) e
    · exact ⟨e, List.mem_cons_self, hg⟩
    · have h0 : tallyAt (recvCell (peer c e) e) () N g u = 0 := by
        rw [tallyAt_apply, if_neg (fun hh => hg hh.1)]
      rw [h0, Nat.zero_add] at h
      obtain ⟨e', he', hge⟩ := ih h
      exact ⟨e', List.mem_cons_of_mem _ he', hge⟩

omit [FloatOps F] in
theorem Levels.L_tc (c : Dev nD) (s : SemLoc sig) : L ((c : Thread nD τ), s) = {()} := by
  unfold L; exact if_pos rfl

omit [FloatOps F] in
theorem Levels.lv_recv (c : Dev nD) (e : Fin 32) (u : Unit) : lv (recvCell c e) u = 2 := by
  have h : 33 ≤ (recvS e).val ∧ (recvS e).val ≤ 64 := by rw [recvS_val]; have := e.isLt; omega
  unfold lv; exact if_pos h

omit [FloatOps F] in
/-- At its barrier wait a device owes landing credit only: receive cells, above its barrier cell. -/
theorem mayWait_bar (c : Dev nD) :
    (levAts L lv : sProp 𝕄) ⊢ MayWait (c : Thread nD τ) (.reg barS) () (owedRecv c L31) :=
  MayOwe.of_cut (L := L) (lev := lv) 1
    (fun p hp => by rw [Finset.mem_singleton.mp hp, Levels.L_tc]; exact Finset.mem_singleton_self _)
    (fun g u hg => by obtain ⟨e, _, rfl⟩ := owedRecv_pos hg; rw [Levels.L_tc]; exact Finset.mem_singleton_self _)
    (fun p hp => by rw [Finset.mem_singleton.mp hp]; unfold lv; exact le_of_eq (if_pos rfl))
    (fun g u hg => by obtain ⟨e, _, rfl⟩ := owedRecv_pos hg; rw [Levels.lv_recv]; decide)

omit [FloatOps F] in
/-- At its local copy's wait likewise: the copy's cell sits at level 0. -/
theorem mayWait_cpy (c : Dev nD) :
    (levAts L lv : sProp 𝕄) ⊢ MayWait (c : Thread nD τ) (.dma cpyS) () (owedRecv c L31) :=
  MayOwe.of_cut (L := L) (lev := lv) 0
    (fun p hp => by rw [Finset.mem_singleton.mp hp, Levels.L_tc]; exact Finset.mem_singleton_self _)
    (fun g u hg => by obtain ⟨e, _, rfl⟩ := owedRecv_pos hg; rw [Levels.L_tc]; exact Finset.mem_singleton_self _)
    (fun p hp => by
      rw [Finset.mem_singleton.mp hp]
      have h : ¬ (33 ≤ (cpyS).val ∧ (cpyS).val ≤ 64) := by rw [cpyS_val]; omega
      unfold lv; exact le_of_eq (if_neg h))
    (fun g u hg => by obtain ⟨e, _, rfl⟩ := owedRecv_pos hg; rw [Levels.lv_recv]; decide)

end Cert.KernelIdeal.Proto

end
-- ==== Proof.BodyA.lean ====
import proofs.«900948_g7700000000000949_dist_mean_ax0_shard0_i_m2048_n1024_v7x_i32_f32_1_alg».proof.Proof.Tables
import proofs.«900948_g7700000000000949_dist_mean_ax0_shard0_i_m2048_n1024_v7x_i32_f32_1_alg».proof.Proof.ListSep
import proofs.«900948_g7700000000000949_dist_mean_ax0_shard0_i_m2048_n1024_v7x_i32_f32_1_alg».proof.Proof.Regions
import proofs.«900948_g7700000000000949_dist_mean_ax0_shard0_i_m2048_n1024_v7x_i32_f32_1_alg».proof.Proof.RegionsB
import proofs.«900948_g7700000000000949_dist_mean_ax0_shard0_i_m2048_n1024_v7x_i32_f32_1_alg».proof.Proof.Shares
import proofs.«900948_g7700000000000949_dist_mean_ax0_shard0_i_m2048_n1024_v7x_i32_f32_1_alg».proof.Proof.Levels
import proofs.«900948_g7700000000000949_dist_mean_ax0_shard0_i_m2048_n1024_v7x_i32_f32_1_alg».proof.Proof.FoldDefs
import Idealize.ShloMosaic.Lib.ValueIdx

/-! # The local steps, and how the device's resources are laid out for each run

The local copy of the device's block into VMEM and its wait; the wait for the 31 neighbours; and the regroupings of big
`∗`s between the form the launch hands them over in (indexed by the neighbours as a finite set) and the form the runs
consume (indexed by the list of neighbours in program order). -/

noncomputable section

namespace Cert.KernelIdeal.Proto

open Cert.KernelIdeal Cert.KernelIdeal.Gen Cert.KernelIdeal.Mesh
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (Gc : (c : Dev nD) → Buf (Elt F) ((c : Thread nD τ).loc cc0_scratch1))
variable (K : Dev nD × Fin 66 → ℕ)

theorem L31_ne : ∀ e ∈ L31, e ≠ 0 := by decide

omit [FloatOps F] in
theorem argPts_eq (c : Dev nD) :
    argPts m c = ((xH : Memref sig .tc .hbm S2048x1024 .f32).view.loc (c : Thread nD τ) ↦[(xH : Memref sig .tc .hbm S2048x1024 .f32).view.set]{fullShare} X m c : sProp 𝕄) := by
  unfold argPts; rw [View.set_whole]
omit [FloatOps F] in
theorem xvPts_eq (c : Dev nD) (f : Buf (Elt F) ((c : Thread nD τ).loc cc0_scratch0)) :
    xvPts c f = ((xV : Memref sig .tc .vmem S2048x1024 .f32).view.loc (c : Thread nD τ) ↦[(xV : Memref sig .tc .vmem S2048x1024 .f32).view.set]{fullShare} f : sProp 𝕄) := by
  unfold xvPts; rw [View.set_whole]

/-- The local copy: the device's block goes to VMEM; the landing hands back the input array and the block in VMEM. -/
theorem copy_step (c : Dev nD) (fx : Buf (Elt F) ((c : Thread nD τ).loc cc0_scratch0))
    {hsrc : (xH : Memref sig .tc .hbm S2048x1024 .f32).view.WordExact} {hdst : (xV : Memref sig .tc .vmem S2048x1024 .f32).view.WordExact}
    {hsem : DmaTarget.Typed (nD := nD) .hbm (.dma cpyS) (DmaTarget.here (p := (c : Thread nD τ).2) (xV : Memref sig .tc .vmem S2048x1024 .f32))}
    {α : Type} {Q : α → sProp 𝕄} {k : PUnit → Prog (TpuEff nD τ sig (Elt F) Λ₀ .tc) α} :
    iprop(records m Gc K ∗ argPts m c ∗ xvPts c fx ∗ dutyTok ER (cpyCell c) 0 (0 : Fin 32))
      ⊢ iprop((cred (tallyAt (cpyCell c) () NX) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma xH (.here xV) (.dma cpyS) hsrc hdst hsem) k) Q) := by
  rw [argPts_eq, xvPts_eq]
  iintro ⟨#HR, Harg, Hxv, Htok⟩
  iapply (Rounds.wp_copy_pointsTo 𝒱₀ ER (ringRd m Gc) (c : Thread nD τ) none (κ := K (c, cIdx)) (r := 0) (d := (0 : Fin 32))
      (q := fullShare) (fs := X m c) (fd := fx)
      (by rw [duties_cpy]; exact Finset.mem_singleton_self _) () NX (amount_xV cpyS) (amount_cpy m Gc c 0)
      (by rw [payload_cpy, copy_landed]; unfold cpyPay; rw [argPts_eq, xvPts_eq])) $$ [Harg Hxv Htok]
  isplitr; · iapply (inv_cpy m Gc K c); iexact HR
  isplitl [Harg]; · iexact Harg
  isplitl [Hxv]; · iexact Hxv
  isplitl [Htok]; · iexact Htok
  iapply (reached_cpy m Gc K c); iexact HR

/-- The wait for the local copy, while the device still owes every landing's credit. -/
theorem copyWait_step (c : Dev nD) (W : Waits sig Unit)
    {hsrc : (xH : Memref sig .tc .hbm S2048x1024 .f32).view.WordExact} {hdst : (xV : Memref sig .tc .vmem S2048x1024 .f32).view.WordExact}
    {α : Type} {Q : α → sProp 𝕄} {k : PUnit → Prog (TpuEff nD τ sig (Elt F) Λ₀ .tc) α} :
    iprop(records m Gc K ∗ levAts L lv ∗ cred (tallyAt (cpyCell c) () NX) ∗ owes (c : Thread nD τ) (owedRecv c L31) W
        ∗ atPos ER (cpyCell c) 0 (∅ : Finset (Fin 32)) 0)
      ⊢ iprop(((owes (c : Thread nD τ) (owedRecv c L31) (insert (SemLoc.dma cpyS, ()) W) ∗ atPos ER (cpyCell c) 1 (∅ : Finset (Fin 32)) 0
              ∗ xvPts c (X m c) ∗ argPts m c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 cpyS xH xV hsrc hdst) k) Q) := by
  iintro ⟨#HR, #Hlev, Hc, HO, Hat⟩ Hk
  iapply (Rounds.wp_wait_rest_token 𝒱₀ ER (ringRd m Gc) (c : Thread nD τ) none (κ := K (c, cIdx))
      (wpE_waitDma2_eq 𝒱₀ (c : Thread nD τ) none Set.univ) (Set.mem_univ _) () (O := owedRecv c L31) (W := W) (R := 0) (m := 0) (T := ∅)
      (by rw [Nat.zero_add, expect_cpy])) $$ [Hc HO Hat]
  · isplitr; · iapply (inv_cpy m Gc K c); iexact HR
    isplitl [Hc]; · iexact Hc
    isplitl [HO]; · iexact HO
    isplitr; · iapply (mayWait_cpy c); iexact Hlev
    iexact Hat
  iintro ⟨HO, Hat, -, Hpay⟩
  iapply Hk
  isplitl [HO]; · iexact HO
  isplitl [Hat]; · iexact Hat
  ihave Hp := (Entails.of_eq (rest_cpy m Gc c)) $$ Hpay
  unfold cpyPay; iexact Hp

/-- The wait for the 31 neighbours' units: each comes with that neighbour's slot for this device's transfer. -/
theorem barWait_step (c : Dev nD) (W : Waits sig Unit)
    {α : Type} {Q : α → sProp 𝕄} {k : PUnit → Prog (TpuEff nD τ sig (Elt F) Λ₀ .tc) α} :
    iprop(records m Gc K ∗ levAts L lv ∗ cred (tallyAt (barCell c) () 31) ∗ owes (c : Thread nD τ) (owedRecv c L31) W
        ∗ atPos ER (barCell c) 0 (∅ : Finset (Fin 32)) 0)
      ⊢ iprop(((owes (c : Thread nD τ) (owedRecv c L31) (insert (SemLoc.reg barS, ()) W) ∗ bigSep E31 (fun e => barPay (F := F) c e))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 31) k) Q) := by
  iintro ⟨#HR, #Hlev, Hc, HO, Hat⟩ Hk
  iapply (Rounds.wp_wait_rest_token 𝒱₀ ER (ringRd m Gc) (c : Thread nD τ) none (κ := K (c, 0))
      (wpE_semWait_eq 𝒱₀ (c : Thread nD τ) none Set.univ) (Set.mem_univ _) () (O := owedRecv c L31) (W := W) (R := 0) (m := 0) (T := ∅)
      (by rw [Nat.zero_add, expect_bar])) $$ [Hc HO Hat]
  · isplitr; · iapply (inv_bar m Gc K c); iexact HR
    isplitl [Hc]; · iexact Hc
    isplitl [HO]; · iexact HO
    isplitr; · iapply (mayWait_bar c); iexact Hlev
    iexact Hat
  iintro ⟨HO, -, -, Hpay⟩
  iapply Hk
  isplitl [HO]; · iexact HO
  ihave Hp := (Entails.of_eq (rest_bar m Gc c)) $$ Hpay
  iexact Hp

/-! ## Regroupings -/

theorem sig_one (c : Dev nD) (f : Buf (Elt F) ((c : Thread nD τ).loc cc0_scratch1)) (j : Fin 32) :
    iprop(dutyTok ER (barCell (peer c j)) 0 (neg j) ∗ slotPts (F := F) c (neg j) f)
      ⊢ iprop(dutyTok ER (barCell (peer c j)) 0 (neg j) ∗ ∃ f', slotPts (F := F) c (neg j) f') := by
  iintro ⟨Ht, Hs⟩
  isplitl [Ht]; · iexact Ht
  iexists f; iexact Hs

theorem send_one (c : Dev nD) (e : Fin 32) :
    iprop(dutyTok ER (sendCell c e) 0 (0 : Fin 32) ∗ dutyTok ER (recvCell (peer c e) e) 0 (0 : Fin 32)
        ∗ srcPts (F := F) c (lentShare e) (Gc c) ∗ barPay (F := F) c e)
      ⊢ iprop(dutyTok ER (sendCell c e) 0 (0 : Fin 32) ∗ dutyTok ER (recvCell (peer c e) e) 0 (0 : Fin 32)
          ∗ srcPts (F := F) c (lentShare e) (Gc c) ∗ ∃ f, slotPts (F := F) (peer c e) e f) := by
  unfold barPay
  iintro ⟨HtS, HtR, Hsrc, Hf, -⟩
  isplitl [HtS]; · iexact HtS
  isplitl [HtR]; · iexact HtR
  isplitl [Hsrc]; · iexact Hsrc
  iexact Hf

/-- For the signals: the tokens on the neighbours' barrier cells, and the device's own 31 slots, each to go to the
    neighbour that will write it. -/
theorem sig_res (c : Dev nD) (f : Buf (Elt F) ((c : Thread nD τ).loc cc0_scratch1)) :
    iprop((bigSep E31 fun j => dutyTok ER (barCell (peer c j)) 0 (neg j)) ∗ (bigSep E31 fun e => slotPts (F := F) c e f))
      ⊢ bigSepL L31 (fun j => iprop(dutyTok ER (barCell (peer c j)) 0 (neg j) ∗ ∃ f', slotPts (F := F) c (neg j) f')) := by
  rw [← bigSep_E31, ← bigSep_E31_neg (fun e => slotPts (F := F) c e f), ← bigSep_sep']
  exact bigSep_mono fun j _ => sig_one c f j

/-- For the transfers: per neighbour the two tokens, the share of slot 0 lent, and the neighbour's slot as it came
    with its unit on the barrier cell. -/
theorem send_res (c : Dev nD) :
    iprop((bigSep E31 fun e => dutyTok ER (sendCell c e) 0 (0 : Fin 32)) ∗ (bigSep E31 fun e => dutyTok ER (recvCell (peer c e) e) 0 (0 : Fin 32))
        ∗ bigSepL L31 (fun e => srcPts (F := F) c (lentShare e) (Gc c)) ∗ bigSep E31 (fun e => barPay (F := F) c e))
      ⊢ bigSepL L31 (fun e => iprop(dutyTok ER (sendCell c e) 0 (0 : Fin 32) ∗ dutyTok ER (recvCell (peer c e) e) 0 (0 : Fin 32)
          ∗ srcPts (F := F) c (lentShare e) (Gc c) ∗ ∃ f, slotPts (F := F) (peer c e) e f)) := by
  rw [← bigSep_E31, ← bigSep_E31, ← bigSep_sep', ← bigSep_sep', ← bigSep_sep']
  exact bigSep_mono fun e _ => send_one Gc c e

/-- A list-indexed pair of families, zipped. -/
theorem zipL (Φ Ψ : Fin 32 → sProp 𝕄) (l : List (Fin 32)) :
    iprop(bigSepL l Φ ∗ bigSepL l Ψ) ⊣⊢ bigSepL l (fun e => iprop(Φ e ∗ Ψ e)) := by
  induction l with
  | nil => simp only [bigSepL_nil']; exact ⟨by iintro -; iempintro, by iintro -; isplitl <;> iempintro⟩
  | cons e l ih =>
    simp only [bigSepL_cons']
    constructor
    · iintro ⟨⟨Ha, Hl⟩, Hb, Hm⟩
      isplitl [Ha Hb]
      · isplitl [Ha] <;> iassumption
      iapply ih.1
      isplitl [Hl] <;> iassumption
    · iintro ⟨⟨Ha, Hb⟩, Hr⟩
      ihave H := ih.2 $$ Hr
      icases H with ⟨Hl, Hm⟩
      isplitl [Ha Hl]
      · isplitl [Ha] <;> iassumption
      isplitl [Hb] <;> iassumption

end Cert.KernelIdeal.Proto

end
-- ==== Proof.Close.lean ====
import proofs.«900948_g7700000000000949_dist_mean_ax0_shard0_i_m2048_n1024_v7x_i32_f32_1_alg».proof.Proof.Tables
import proofs.«900948_g7700000000000949_dist_mean_ax0_shard0_i_m2048_n1024_v7x_i32_f32_1_alg».proof.Proof.ListSep
import Idealize.ShloMosaic.Lib.ValueIdx

/-! # Closing the device's own DMA cells

After its waits a send or receive cell is one round on, and no later round has a duty: the cell is closed and its
counter, at zero, is the device's again. The two cells of the device's own number never had a duty. -/

noncomputable section

namespace Cert.KernelIdeal.Proto

open Cert.KernelIdeal Cert.KernelIdeal.Gen Cert.KernelIdeal.Mesh
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (Gc : (c : Dev nD) → Buf (Elt F) ((c : Thread nD τ).loc cc0_scratch1))
variable (K : Dev nD × Fin 66 → ℕ)

/-- A run of send cells, each past its only round, closed. -/
theorem close_sends (c : Dev nD) (es : List (Fin 32)) :
    iprop(records m Gc K ∗ bigSepL es (fun e => atPos ER (sendCell c e) 1 (∅ : Finset (Fin 32)) 0))
      ⊢ (|={Set.univ}=> bigSepL es (fun e => semVal (sendCell c e) 0) : sProp 𝕄) := by
  induction es with
  | nil => iintro -; imodintro; rw [bigSepL_nil']; iempintro
  | cons e es ih =>
    rw [bigSepL_cons', bigSepL_cons']
    iintro ⟨#HR, Hat, Hrest⟩
    imod (Rounds.cell_close ER (ringRd m Gc) (Set.mem_univ (K (c, sIdx e))) (fun h => h) (R := 1) (duties_later m Gc (sendCell c e))) $$ [Hat] with Hz
    · isplitr; · iapply (inv_send m Gc K c e); iexact HR
      iexact Hat
    imod ih $$ [Hrest] with Hzs
    · isplitr; · iexact HR
      iexact Hrest
    imodintro
    isplitl [Hz]; · iexact Hz
    iexact Hzs

/-- A run of receive cells, each past its only round, closed. -/
theorem close_recvs (c : Dev nD) (es : List (Fin 32)) :
    iprop(records m Gc K ∗ bigSepL es (fun e => atPos ER (recvCell c e) 1 (∅ : Finset (Fin 32)) 0))
      ⊢ (|={Set.univ}=> bigSepL es (fun e => semVal (recvCell c e) 0) : sProp 𝕄) := by
  induction es with
  | nil => iintro -; imodintro; rw [bigSepL_nil']; iempintro
  | cons e es ih =>
    rw [bigSepL_cons', bigSepL_cons']
    iintro ⟨#HR, Hat, Hrest⟩
    imod (Rounds.cell_close ER (ringRd m Gc) (Set.mem_univ (K (c, rIdx e))) (fun h => h) (R := 1) (duties_later m Gc (recvCell c e))) $$ [Hat] with Hz
    · isplitr; · iapply (inv_recv m Gc K c e); iexact HR
      iexact Hat
    imod ih $$ [Hrest] with Hzs
    · isplitr; · iexact HR
      iexact Hrest
    imodintro
    isplitl [Hz]; · iexact Hz
    iexact Hzs

/-- The two cells of the device's own number, which nobody ever pays, and the local copy's cell past its round. -/
theorem close_rest (c : Dev nD) :
    iprop(records m Gc K ∗ atPos ER (sendCell c 0) 0 (∅ : Finset (Fin 32)) 0 ∗ atPos ER (recvCell c 0) 0 (∅ : Finset (Fin 32)) 0
        ∗ atPos ER (cpyCell c) 1 (∅ : Finset (Fin 32)) 0)
      ⊢ |={Set.univ}=> iprop(semVal (sendCell c 0) 0 ∗ semVal (recvCell c 0) 0 ∗ semVal (cpyCell c) 0) := by
  iintro ⟨#HR, HaS, HaR, HaC⟩
  imod (Rounds.cell_close ER (ringRd m Gc) (Set.mem_univ (K (c, sIdx 0))) (fun h => h) (R := 0) (duties_send0 m Gc c)) $$ [HaS] with HzS
  · isplitr; · iapply (inv_send m Gc K c 0); iexact HR
    iexact HaS
  imod (Rounds.cell_close ER (ringRd m Gc) (Set.mem_univ (K (c, rIdx 0))) (fun h => h) (R := 0) (duties_recv0 m Gc c)) $$ [HaR] with HzR
  · isplitr; · iapply (inv_recv m Gc K c 0); iexact HR
    iexact HaR
  imod (Rounds.cell_close ER (ringRd m Gc) (Set.mem_univ (K (c, cIdx))) (fun h => h) (R := 1) (duties_later m Gc (cpyCell c))) $$ [HaC] with HzC
  · isplitr; · iapply (inv_cpy m Gc K c); iexact HR
    iexact HaC
  imodintro
  isplitl [HzS]; · iexact HzS
  isplitl [HzR]; · iexact HzR
  iexact HzC

end Cert.KernelIdeal.Proto

end
-- ==== Proof.MeshTable.lean ====
import proofs.«900948_g7700000000000949_dist_mean_ax0_shard0_i_m2048_n1024_v7x_i32_f32_1_alg».proof.Proof.Gen.KernelIdeal
import proofs.«900948_g7700000000000949_dist_mean_ax0_shard0_i_m2048_n1024_v7x_i32_f32_1_alg».proof.Proof.Mesh

namespace Cert.KernelIdeal.Mesh

open Cert.KernelIdeal Cert.KernelIdeal.Gen Cert.KernelIdeal.Mesh Idealize.ShloMosaic

theorem sig1_val : ∀ c : Dev nD, k0_dev1 c = (c.val + 1) % 32 := by decide +kernel
/-- The 1-th entry signal names the 1-th neighbour. -/
theorem sig1_eq (c : Dev nD) : (⟨k0_dev1 c, k0_dev1_lt c⟩ : Dev nD) = peer c 1 := Fin.ext (sig1_val c)
theorem sig2_val : ∀ c : Dev nD, k0_dev2 c = (c.val + 2) % 32 := by decide +kernel
/-- The 2-th entry signal names the 2-th neighbour. -/
theorem sig2_eq (c : Dev nD) : (⟨k0_dev2 c, k0_dev2_lt c⟩ : Dev nD) = peer c 2 := Fin.ext (sig2_val c)
theorem sig3_val : ∀ c : Dev nD, k0_dev3 c = (c.val + 3) % 32 := by decide +kernel
/-- The 3-th entry signal names the 3-th neighbour. -/
theorem sig3_eq (c : Dev nD) : (⟨k0_dev3 c, k0_dev3_lt c⟩ : Dev nD) = peer c 3 := Fin.ext (sig3_val c)
theorem sig4_val : ∀ c : Dev nD, k0_dev4 c = (c.val + 4) % 32 := by decide +kernel
/-- The 4-th entry signal names the 4-th neighbour. -/
theorem sig4_eq (c : Dev nD) : (⟨k0_dev4 c, k0_dev4_lt c⟩ : Dev nD) = peer c 4 := Fin.ext (sig4_val c)
theorem sig5_val : ∀ c : Dev nD, k0_dev5 c = (c.val + 5) % 32 := by decide +kernel
/-- The 5-th entry signal names the 5-th neighbour. -/
theorem sig5_eq (c : Dev nD) : (⟨k0_dev5 c, k0_dev5_lt c⟩ : Dev nD) = peer c 5 := Fin.ext (sig5_val c)
theorem sig6_val : ∀ c : Dev nD, k0_dev6 c = (c.val + 6) % 32 := by decide +kernel
/-- The 6-th entry signal names the 6-th neighbour. -/
theorem sig6_eq (c : Dev nD) : (⟨k0_dev6 c, k0_dev6_lt c⟩ : Dev nD) = peer c 6 := Fin.ext (sig6_val c)
theorem sig7_val : ∀ c : Dev nD, k0_dev7 c = (c.val + 7) % 32 := by decide +kernel
/-- The 7-th entry signal names the 7-th neighbour. -/
theorem sig7_eq (c : Dev nD) : (⟨k0_dev7 c, k0_dev7_lt c⟩ : Dev nD) = peer c 7 := Fin.ext (sig7_val c)
theorem sig8_val : ∀ c : Dev nD, k0_dev8 c = (c.val + 8) % 32 := by decide +kernel
/-- The 8-th entry signal names the 8-th neighbour. -/
theorem sig8_eq (c : Dev nD) : (⟨k0_dev8 c, k0_dev8_lt c⟩ : Dev nD) = peer c 8 := Fin.ext (sig8_val c)
theorem sig9_val : ∀ c : Dev nD, k0_dev9 c = (c.val + 9) % 32 := by decide +kernel
/-- The 9-th entry signal names the 9-th neighbour. -/
theorem sig9_eq (c : Dev nD) : (⟨k0_dev9 c, k0_dev9_lt c⟩ : Dev nD) = peer c 9 := Fin.ext (sig9_val c)
theorem sig10_val : ∀ c : Dev nD, k0_dev10 c = (c.val + 10) % 32 := by decide +kernel
/-- The 10-th entry signal names the 10-th neighbour. -/
theorem sig10_eq (c : Dev nD) : (⟨k0_dev10 c, k0_dev10_lt c⟩ : Dev nD) = peer c 10 := Fin.ext (sig10_val c)
theorem sig11_val : ∀ c : Dev nD, k0_dev11 c = (c.val + 11) % 32 := by decide +kernel
/-- The 11-th entry signal names the 11-th neighbour. -/
theorem sig11_eq (c : Dev nD) : (⟨k0_dev11 c, k0_dev11_lt c⟩ : Dev nD) = peer c 11 := Fin.ext (sig11_val c)
theorem sig12_val : ∀ c : Dev nD, k0_dev12 c = (c.val + 12) % 32 := by decide +kernel
/-- The 12-th entry signal names the 12-th neighbour. -/
theorem sig12_eq (c : Dev nD) : (⟨k0_dev12 c, k0_dev12_lt c⟩ : Dev nD) = peer c 12 := Fin.ext (sig12_val c)
theorem sig13_val : ∀ c : Dev nD, k0_dev13 c = (c.val + 13) % 32 := by decide +kernel
/-- The 13-th entry signal names the 13-th neighbour. -/
theorem sig13_eq (c : Dev nD) : (⟨k0_dev13 c, k0_dev13_lt c⟩ : Dev nD) = peer c 13 := Fin.ext (sig13_val c)
theorem sig14_val : ∀ c : Dev nD, k0_dev14 c = (c.val + 14) % 32 := by decide +kernel
/-- The 14-th entry signal names the 14-th neighbour. -/
theorem sig14_eq (c : Dev nD) : (⟨k0_dev14 c, k0_dev14_lt c⟩ : Dev nD) = peer c 14 := Fin.ext (sig14_val c)
theorem sig15_val : ∀ c : Dev nD, k0_dev15 c = (c.val + 15) % 32 := by decide +kernel
/-- The 15-th entry signal names the 15-th neighbour. -/
theorem sig15_eq (c : Dev nD) : (⟨k0_dev15 c, k0_dev15_lt c⟩ : Dev nD) = peer c 15 := Fin.ext (sig15_val c)
theorem sig16_val : ∀ c : Dev nD, k0_dev16 c = (c.val + 16) % 32 := by decide +kernel
/-- The 16-th entry signal names the 16-th neighbour. -/
theorem sig16_eq (c : Dev nD) : (⟨k0_dev16 c, k0_dev16_lt c⟩ : Dev nD) = peer c 16 := Fin.ext (sig16_val c)
theorem sig17_val : ∀ c : Dev nD, k0_dev17 c = (c.val + 17) % 32 := by decide +kernel
/-- The 17-th entry signal names the 17-th neighbour. -/
theorem sig17_eq (c : Dev nD) : (⟨k0_dev17 c, k0_dev17_lt c⟩ : Dev nD) = peer c 17 := Fin.ext (sig17_val c)
theorem sig18_val : ∀ c : Dev nD, k0_dev18 c = (c.val + 18) % 32 := by decide +kernel
/-- The 18-th entry signal names the 18-th neighbour. -/
theorem sig18_eq (c : Dev nD) : (⟨k0_dev18 c, k0_dev18_lt c⟩ : Dev nD) = peer c 18 := Fin.ext (sig18_val c)
theorem sig19_val : ∀ c : Dev nD, k0_dev19 c = (c.val + 19) % 32 := by decide +kernel
/-- The 19-th entry signal names the 19-th neighbour. -/
theorem sig19_eq (c : Dev nD) : (⟨k0_dev19 c, k0_dev19_lt c⟩ : Dev nD) = peer c 19 := Fin.ext (sig19_val c)
theorem sig20_val : ∀ c : Dev nD, k0_dev20 c = (c.val + 20) % 32 := by decide +kernel
/-- The 20-th entry signal names the 20-th neighbour. -/
theorem sig20_eq (c : Dev nD) : (⟨k0_dev20 c, k0_dev20_lt c⟩ : Dev nD) = peer c 20 := Fin.ext (sig20_val c)
theorem sig21_val : ∀ c : Dev nD, k0_dev21 c = (c.val + 21) % 32 := by decide +kernel
/-- The 21-th entry signal names the 21-th neighbour. -/
theorem sig21_eq (c : Dev nD) : (⟨k0_dev21 c, k0_dev21_lt c⟩ : Dev nD) = peer c 21 := Fin.ext (sig21_val c)
theorem sig22_val : ∀ c : Dev nD, k0_dev22 c = (c.val + 22) % 32 := by decide +kernel
/-- The 22-th entry signal names the 22-th neighbour. -/
theorem sig22_eq (c : Dev nD) : (⟨k0_dev22 c, k0_dev22_lt c⟩ : Dev nD) = peer c 22 := Fin.ext (sig22_val c)
theorem sig23_val : ∀ c : Dev nD, k0_dev23 c = (c.val + 23) % 32 := by decide +kernel
/-- The 23-th entry signal names the 23-th neighbour. -/
theorem sig23_eq (c : Dev nD) : (⟨k0_dev23 c, k0_dev23_lt c⟩ : Dev nD) = peer c 23 := Fin.ext (sig23_val c)
theorem sig24_val : ∀ c : Dev nD, k0_dev24 c = (c.val + 24) % 32 := by decide +kernel
/-- The 24-th entry signal names the 24-th neighbour. -/
theorem sig24_eq (c : Dev nD) : (⟨k0_dev24 c, k0_dev24_lt c⟩ : Dev nD) = peer c 24 := Fin.ext (sig24_val c)
theorem sig25_val : ∀ c : Dev nD, k0_dev25 c = (c.val + 25) % 32 := by decide +kernel
/-- The 25-th entry signal names the 25-th neighbour. -/
theorem sig25_eq (c : Dev nD) : (⟨k0_dev25 c, k0_dev25_lt c⟩ : Dev nD) = peer c 25 := Fin.ext (sig25_val c)
theorem sig26_val : ∀ c : Dev nD, k0_dev26 c = (c.val + 26) % 32 := by decide +kernel
/-- The 26-th entry signal names the 26-th neighbour. -/
theorem sig26_eq (c : Dev nD) : (⟨k0_dev26 c, k0_dev26_lt c⟩ : Dev nD) = peer c 26 := Fin.ext (sig26_val c)
theorem sig27_val : ∀ c : Dev nD, k0_dev27 c = (c.val + 27) % 32 := by decide +kernel
/-- The 27-th entry signal names the 27-th neighbour. -/
theorem sig27_eq (c : Dev nD) : (⟨k0_dev27 c, k0_dev27_lt c⟩ : Dev nD) = peer c 27 := Fin.ext (sig27_val c)
theorem sig28_val : ∀ c : Dev nD, k0_dev28 c = (c.val + 28) % 32 := by decide +kernel
/-- The 28-th entry signal names the 28-th neighbour. -/
theorem sig28_eq (c : Dev nD) : (⟨k0_dev28 c, k0_dev28_lt c⟩ : Dev nD) = peer c 28 := Fin.ext (sig28_val c)
theorem sig29_val : ∀ c : Dev nD, k0_dev29 c = (c.val + 29) % 32 := by decide +kernel
/-- The 29-th entry signal names the 29-th neighbour. -/
theorem sig29_eq (c : Dev nD) : (⟨k0_dev29 c, k0_dev29_lt c⟩ : Dev nD) = peer c 29 := Fin.ext (sig29_val c)
theorem sig30_val : ∀ c : Dev nD, k0_dev30 c = (c.val + 30) % 32 := by decide +kernel
/-- The 30-th entry signal names the 30-th neighbour. -/
theorem sig30_eq (c : Dev nD) : (⟨k0_dev30 c, k0_dev30_lt c⟩ : Dev nD) = peer c 30 := Fin.ext (sig30_val c)
theorem sig31_val : ∀ c : Dev nD, k0_dev31 c = (c.val + 31) % 32 := by decide +kernel
/-- The 31-th entry signal names the 31-th neighbour. -/
theorem sig31_eq (c : Dev nD) : (⟨k0_dev31 c, k0_dev31_lt c⟩ : Dev nD) = peer c 31 := Fin.ext (sig31_val c)
theorem cpy1_val : ∀ c : Dev nD, k0_dev32 c = (c.val + 1) % 32 := by decide +kernel
/-- The 1-th transfer is addressed to the 1-th neighbour. -/
theorem cpy1_eq (c : Dev nD) : (⟨k0_dev32 c, k0_dev32_lt c⟩ : Dev nD) = peer c 1 := Fin.ext (cpy1_val c)
theorem cpy2_val : ∀ c : Dev nD, k0_dev33 c = (c.val + 2) % 32 := by decide +kernel
/-- The 2-th transfer is addressed to the 2-th neighbour. -/
theorem cpy2_eq (c : Dev nD) : (⟨k0_dev33 c, k0_dev33_lt c⟩ : Dev nD) = peer c 2 := Fin.ext (cpy2_val c)
theorem cpy3_val : ∀ c : Dev nD, k0_dev34 c = (c.val + 3) % 32 := by decide +kernel
/-- The 3-th transfer is addressed to the 3-th neighbour. -/
theorem cpy3_eq (c : Dev nD) : (⟨k0_dev34 c, k0_dev34_lt c⟩ : Dev nD) = peer c 3 := Fin.ext (cpy3_val c)
theorem cpy4_val : ∀ c : Dev nD, k0_dev35 c = (c.val + 4) % 32 := by decide +kernel
/-- The 4-th transfer is addressed to the 4-th neighbour. -/
theorem cpy4_eq (c : Dev nD) : (⟨k0_dev35 c, k0_dev35_lt c⟩ : Dev nD) = peer c 4 := Fin.ext (cpy4_val c)
theorem cpy5_val : ∀ c : Dev nD, k0_dev36 c = (c.val + 5) % 32 := by decide +kernel
/-- The 5-th transfer is addressed to the 5-th neighbour. -/
theorem cpy5_eq (c : Dev nD) : (⟨k0_dev36 c, k0_dev36_lt c⟩ : Dev nD) = peer c 5 := Fin.ext (cpy5_val c)
theorem cpy6_val : ∀ c : Dev nD, k0_dev37 c = (c.val + 6) % 32 := by decide +kernel
/-- The 6-th transfer is addressed to the 6-th neighbour. -/
theorem cpy6_eq (c : Dev nD) : (⟨k0_dev37 c, k0_dev37_lt c⟩ : Dev nD) = peer c 6 := Fin.ext (cpy6_val c)
theorem cpy7_val : ∀ c : Dev nD, k0_dev38 c = (c.val + 7) % 32 := by decide +kernel
/-- The 7-th transfer is addressed to the 7-th neighbour. -/
theorem cpy7_eq (c : Dev nD) : (⟨k0_dev38 c, k0_dev38_lt c⟩ : Dev nD) = peer c 7 := Fin.ext (cpy7_val c)
theorem cpy8_val : ∀ c : Dev nD, k0_dev39 c = (c.val + 8) % 32 := by decide +kernel
/-- The 8-th transfer is addressed to the 8-th neighbour. -/
theorem cpy8_eq (c : Dev nD) : (⟨k0_dev39 c, k0_dev39_lt c⟩ : Dev nD) = peer c 8 := Fin.ext (cpy8_val c)
theorem cpy9_val : ∀ c : Dev nD, k0_dev40 c = (c.val + 9) % 32 := by decide +kernel
/-- The 9-th transfer is addressed to the 9-th neighbour. -/
theorem cpy9_eq (c : Dev nD) : (⟨k0_dev40 c, k0_dev40_lt c⟩ : Dev nD) = peer c 9 := Fin.ext (cpy9_val c)
theorem cpy10_val : ∀ c : Dev nD, k0_dev41 c = (c.val + 10) % 32 := by decide +kernel
/-- The 10-th transfer is addressed to the 10-th neighbour. -/
theorem cpy10_eq (c : Dev nD) : (⟨k0_dev41 c, k0_dev41_lt c⟩ : Dev nD) = peer c 10 := Fin.ext (cpy10_val c)
theorem cpy11_val : ∀ c : Dev nD, k0_dev42 c = (c.val + 11) % 32 := by decide +kernel
/-- The 11-th transfer is addressed to the 11-th neighbour. -/
theorem cpy11_eq (c : Dev nD) : (⟨k0_dev42 c, k0_dev42_lt c⟩ : Dev nD) = peer c 11 := Fin.ext (cpy11_val c)
theorem cpy12_val : ∀ c : Dev nD, k0_dev43 c = (c.val + 12) % 32 := by decide +kernel
/-- The 12-th transfer is addressed to the 12-th neighbour. -/
theorem cpy12_eq (c : Dev nD) : (⟨k0_dev43 c, k0_dev43_lt c⟩ : Dev nD) = peer c 12 := Fin.ext (cpy12_val c)
theorem cpy13_val : ∀ c : Dev nD, k0_dev44 c = (c.val + 13) % 32 := by decide +kernel
/-- The 13-th transfer is addressed to the 13-th neighbour. -/
theorem cpy13_eq (c : Dev nD) : (⟨k0_dev44 c, k0_dev44_lt c⟩ : Dev nD) = peer c 13 := Fin.ext (cpy13_val c)
theorem cpy14_val : ∀ c : Dev nD, k0_dev45 c = (c.val + 14) % 32 := by decide +kernel
/-- The 14-th transfer is addressed to the 14-th neighbour. -/
theorem cpy14_eq (c : Dev nD) : (⟨k0_dev45 c, k0_dev45_lt c⟩ : Dev nD) = peer c 14 := Fin.ext (cpy14_val c)
theorem cpy15_val : ∀ c : Dev nD, k0_dev46 c = (c.val + 15) % 32 := by decide +kernel
/-- The 15-th transfer is addressed to the 15-th neighbour. -/
theorem cpy15_eq (c : Dev nD) : (⟨k0_dev46 c, k0_dev46_lt c⟩ : Dev nD) = peer c 15 := Fin.ext (cpy15_val c)
theorem cpy16_val : ∀ c : Dev nD, k0_dev47 c = (c.val + 16) % 32 := by decide +kernel
/-- The 16-th transfer is addressed to the 16-th neighbour. -/
theorem cpy16_eq (c : Dev nD) : (⟨k0_dev47 c, k0_dev47_lt c⟩ : Dev nD) = peer c 16 := Fin.ext (cpy16_val c)
theorem cpy17_val : ∀ c : Dev nD, k0_dev48 c = (c.val + 17) % 32 := by decide +kernel
/-- The 17-th transfer is addressed to the 17-th neighbour. -/
theorem cpy17_eq (c : Dev nD) : (⟨k0_dev48 c, k0_dev48_lt c⟩ : Dev nD) = peer c 17 := Fin.ext (cpy17_val c)
theorem cpy18_val : ∀ c : Dev nD, k0_dev49 c = (c.val + 18) % 32 := by decide +kernel
/-- The 18-th transfer is addressed to the 18-th neighbour. -/
theorem cpy18_eq (c : Dev nD) : (⟨k0_dev49 c, k0_dev49_lt c⟩ : Dev nD) = peer c 18 := Fin.ext (cpy18_val c)
theorem cpy19_val : ∀ c : Dev nD, k0_dev50 c = (c.val + 19) % 32 := by decide +kernel
/-- The 19-th transfer is addressed to the 19-th neighbour. -/
theorem cpy19_eq (c : Dev nD) : (⟨k0_dev50 c, k0_dev50_lt c⟩ : Dev nD) = peer c 19 := Fin.ext (cpy19_val c)
theorem cpy20_val : ∀ c : Dev nD, k0_dev51 c = (c.val + 20) % 32 := by decide +kernel
/-- The 20-th transfer is addressed to the 20-th neighbour. -/
theorem cpy20_eq (c : Dev nD) : (⟨k0_dev51 c, k0_dev51_lt c⟩ : Dev nD) = peer c 20 := Fin.ext (cpy20_val c)
theorem cpy21_val : ∀ c : Dev nD, k0_dev52 c = (c.val + 21) % 32 := by decide +kernel
/-- The 21-th transfer is addressed to the 21-th neighbour. -/
theorem cpy21_eq (c : Dev nD) : (⟨k0_dev52 c, k0_dev52_lt c⟩ : Dev nD) = peer c 21 := Fin.ext (cpy21_val c)
theorem cpy22_val : ∀ c : Dev nD, k0_dev53 c = (c.val + 22) % 32 := by decide +kernel
/-- The 22-th transfer is addressed to the 22-th neighbour. -/
theorem cpy22_eq (c : Dev nD) : (⟨k0_dev53 c, k0_dev53_lt c⟩ : Dev nD) = peer c 22 := Fin.ext (cpy22_val c)
theorem cpy23_val : ∀ c : Dev nD, k0_dev54 c = (c.val + 23) % 32 := by decide +kernel
/-- The 23-th transfer is addressed to the 23-th neighbour. -/
theorem cpy23_eq (c : Dev nD) : (⟨k0_dev54 c, k0_dev54_lt c⟩ : Dev nD) = peer c 23 := Fin.ext (cpy23_val c)
theorem cpy24_val : ∀ c : Dev nD, k0_dev55 c = (c.val + 24) % 32 := by decide +kernel
/-- The 24-th transfer is addressed to the 24-th neighbour. -/
theorem cpy24_eq (c : Dev nD) : (⟨k0_dev55 c, k0_dev55_lt c⟩ : Dev nD) = peer c 24 := Fin.ext (cpy24_val c)
theorem cpy25_val : ∀ c : Dev nD, k0_dev56 c = (c.val + 25) % 32 := by decide +kernel
/-- The 25-th transfer is addressed to the 25-th neighbour. -/
theorem cpy25_eq (c : Dev nD) : (⟨k0_dev56 c, k0_dev56_lt c⟩ : Dev nD) = peer c 25 := Fin.ext (cpy25_val c)
theorem cpy26_val : ∀ c : Dev nD, k0_dev57 c = (c.val + 26) % 32 := by decide +kernel
/-- The 26-th transfer is addressed to the 26-th neighbour. -/
theorem cpy26_eq (c : Dev nD) : (⟨k0_dev57 c, k0_dev57_lt c⟩ : Dev nD) = peer c 26 := Fin.ext (cpy26_val c)
theorem cpy27_val : ∀ c : Dev nD, k0_dev58 c = (c.val + 27) % 32 := by decide +kernel
/-- The 27-th transfer is addressed to the 27-th neighbour. -/
theorem cpy27_eq (c : Dev nD) : (⟨k0_dev58 c, k0_dev58_lt c⟩ : Dev nD) = peer c 27 := Fin.ext (cpy27_val c)
theorem cpy28_val : ∀ c : Dev nD, k0_dev59 c = (c.val + 28) % 32 := by decide +kernel
/-- The 28-th transfer is addressed to the 28-th neighbour. -/
theorem cpy28_eq (c : Dev nD) : (⟨k0_dev59 c, k0_dev59_lt c⟩ : Dev nD) = peer c 28 := Fin.ext (cpy28_val c)
theorem cpy29_val : ∀ c : Dev nD, k0_dev60 c = (c.val + 29) % 32 := by decide +kernel
/-- The 29-th transfer is addressed to the 29-th neighbour. -/
theorem cpy29_eq (c : Dev nD) : (⟨k0_dev60 c, k0_dev60_lt c⟩ : Dev nD) = peer c 29 := Fin.ext (cpy29_val c)
theorem cpy30_val : ∀ c : Dev nD, k0_dev61 c = (c.val + 30) % 32 := by decide +kernel
/-- The 30-th transfer is addressed to the 30-th neighbour. -/
theorem cpy30_eq (c : Dev nD) : (⟨k0_dev61 c, k0_dev61_lt c⟩ : Dev nD) = peer c 30 := Fin.ext (cpy30_val c)
theorem cpy31_val : ∀ c : Dev nD, k0_dev62 c = (c.val + 31) % 32 := by decide +kernel
/-- The 31-th transfer is addressed to the 31-th neighbour. -/
theorem cpy31_eq (c : Dev nD) : (⟨k0_dev62 c, k0_dev62_lt c⟩ : Dev nD) = peer c 31 := Fin.ext (cpy31_val c)

end Cert.KernelIdeal.Mesh
-- ==== Proof.Folded.lean ====
import proofs.«900948_g7700000000000949_dist_mean_ax0_shard0_i_m2048_n1024_v7x_i32_f32_1_alg».proof.Proof.Gen.KernelIdeal.Skeleton
import proofs.«900948_g7700000000000949_dist_mean_ax0_shard0_i_m2048_n1024_v7x_i32_f32_1_alg».proof.Proof.FoldDefs
import proofs.«900948_g7700000000000949_dist_mean_ax0_shard0_i_m2048_n1024_v7x_i32_f32_1_alg».proof.Proof.MeshTable
import proofs.«900948_g7700000000000949_dist_mean_ax0_shard0_i_m2048_n1024_v7x_i32_f32_1_alg».proof.Proof.Ghost

/-! # The kernel body as three folds

The body of the kernel is straight-line: the device reads its number `c`; signals the barrier semaphore of each of its 31
neighbours `peer c 1 … peer c 31`; copies its block of the input into VMEM and waits for the copy; stores the column sums of
the block into slot 0 of the gather buffer; waits for 31 units on its own barrier semaphore; sends slot 0 to slot `e` of
neighbour `peer c e` for `e = 1 … 31`; waits for the 31 landings, then for the 31 departures; and stores the scaled sum of
the 32 slots. The three runs of 31 like operations are folds over the list `1 … 31`, and the body `cc0_body` is shown equal
to the folded one. -/

noncomputable section

namespace Cert.KernelIdeal.Proto

open Cert.KernelIdeal Cert.KernelIdeal.Gen Cert.KernelIdeal.Mesh
open Idealize.ShloMosaic Idealize.ShloMosaic.TcCoe Idealize.SL.Sem

variable {F : FTy → Type} [FloatOps F]

/-- The body once the device knows its number `c`. -/
def foldedAt (c : Dev nD) : P F :=
  sigK c L31 <|
  Prog.op (TpuEff.enqueueDma xH (DmaTarget.here xV) (SemLoc.dma cpyS) (Memref.isWhole_whole _).wordExact (Memref.isWhole_whole _).wordExact
    ⟨Or.inl rfl, trivial⟩) fun _ =>
  Prog.op (TpuEff.waitDma2 cpyS xH xV (Memref.isWhole_whole _).wordExact (Memref.isWhole_whole _).wordExact) fun _ =>
  Prog.op (TpuEff.load xV (Rect.unit (s := S2048x1024) ![0, 0] S2048x1024.size inb_S2048x1024_S2048x1024_0_0).toLoadRect
    (View.loadsAt_vmem h_S2048x1024)) fun x =>
  Prog.op (TpuEff.load gM (slotR 0).toLoadRect (View.loadsAt_vmem h_S1x8x128)) fun _ =>
  Prog.op (TpuEff.store gM (slotR 0) (k0_pay2 x) Finset.univ (View.stores_vmem_bits_univ h_S1x8x128 rfl) (.inl rfl)) fun _ =>
  Prog.op (TpuEff.semWait barS 31) fun _ =>
  sendK c L31 <| recvWaitK L31 <| sendWaitK L31 <|
  Prog.op (TpuEff.load gM (Rect.unit (s := S32x8x128) ![0, 0, 0] S32x8x128.size inb_S32x8x128_S32x8x128_0_0_0).toLoadRect
    (View.loadsAt_vmem h_S32x8x128)) fun v =>
  Prog.op (TpuEff.load oM (Rect.unit (s := S1x1024) ![0, 0] S1x1024.size inb_S1x1024_S1x1024_0_0).toLoadRect
    (View.loadsAt_vmem h_S1x1024)) fun _ =>
  Prog.op (TpuEff.store oM (Rect.unit (s := S1x1024) ![0, 0] S1x1024.size inb_S1x1024_S1x1024_0_0) (k0_pay1 v) Finset.univ
    (View.stores_vmem_bits_univ h_S1x1024 rfl) (.inl rfl)) fun _ =>
  Prog.ret PUnit.unit

/-- The body, folded: read the device's number, then the rest. -/
def folded : P F := Prog.op TpuEff.deviceId fun c => foldedAt c

/-! ## The transfers with the neighbours under the names the body computes -/

/-- `sendK` with each transfer's addressee given beside its slot. -/
def sendKD : List (Dev nD × Fin 32) → P F → P F
  | [], k => k
  | (d, e) :: es, k =>
    Prog.op (TpuEff.enqueueDma (slotM 0) (DmaTarget.remote (Dev.tc d) (slotM e) (SemLoc.dma (sendS e)) (slotM_notSc e))
      (SemLoc.dma (recvS e)) (slotM_wordExact 0) (slotM_wordExact e) ⟨⟨rfl, Or.inl rfl⟩, trivial⟩) fun _ => sendKD es k

/-- Addressed to the neighbours `peer c e`, it is `sendK c`. -/
theorem sendKD_map (c : Dev nD) (L : List (Fin 32)) (k : P F) : sendKD (L.map fun e => (peer c e, e)) k = sendK c L k := by
  induction L with
  | nil => rfl
  | cons e es ih => simp only [List.map, sendKD, sendK, ih]

/-- The addressees the body computes, beside their slots. -/
def devs (c : Dev nD) : List (Dev nD × Fin 32) := [
    (⟨k0_dev32 c, k0_dev32_lt c⟩, 1), (⟨k0_dev33 c, k0_dev33_lt c⟩, 2), (⟨k0_dev34 c, k0_dev34_lt c⟩, 3),
    (⟨k0_dev35 c, k0_dev35_lt c⟩, 4), (⟨k0_dev36 c, k0_dev36_lt c⟩, 5), (⟨k0_dev37 c, k0_dev37_lt c⟩, 6),
    (⟨k0_dev38 c, k0_dev38_lt c⟩, 7), (⟨k0_dev39 c, k0_dev39_lt c⟩, 8), (⟨k0_dev40 c, k0_dev40_lt c⟩, 9),
    (⟨k0_dev41 c, k0_dev41_lt c⟩, 10), (⟨k0_dev42 c, k0_dev42_lt c⟩, 11), (⟨k0_dev43 c, k0_dev43_lt c⟩, 12),
    (⟨k0_dev44 c, k0_dev44_lt c⟩, 13), (⟨k0_dev45 c, k0_dev45_lt c⟩, 14), (⟨k0_dev46 c, k0_dev46_lt c⟩, 15),
    (⟨k0_dev47 c, k0_dev47_lt c⟩, 16), (⟨k0_dev48 c, k0_dev48_lt c⟩, 17), (⟨k0_dev49 c, k0_dev49_lt c⟩, 18),
    (⟨k0_dev50 c, k0_dev50_lt c⟩, 19), (⟨k0_dev51 c, k0_dev51_lt c⟩, 20), (⟨k0_dev52 c, k0_dev52_lt c⟩, 21),
    (⟨k0_dev53 c, k0_dev53_lt c⟩, 22), (⟨k0_dev54 c, k0_dev54_lt c⟩, 23), (⟨k0_dev55 c, k0_dev55_lt c⟩, 24),
    (⟨k0_dev56 c, k0_dev56_lt c⟩, 25), (⟨k0_dev57 c, k0_dev57_lt c⟩, 26), (⟨k0_dev58 c, k0_dev58_lt c⟩, 27),
    (⟨k0_dev59 c, k0_dev59_lt c⟩, 28), (⟨k0_dev60 c, k0_dev60_lt c⟩, 29), (⟨k0_dev61 c, k0_dev61_lt c⟩, 30),
    (⟨k0_dev62 c, k0_dev62_lt c⟩, 31)]

/-- Each is the neighbour of its slot's number. -/
theorem devs_eq (c : Dev nD) : devs c = L31.map fun e => (peer c e, e) := by
  unfold devs L31
  simp only [List.map,
    cpy1_eq, cpy2_eq, cpy3_eq, cpy4_eq, cpy5_eq, cpy6_eq, cpy7_eq, cpy8_eq, cpy9_eq, cpy10_eq, cpy11_eq, cpy12_eq,
    cpy13_eq, cpy14_eq, cpy15_eq, cpy16_eq, cpy17_eq, cpy18_eq, cpy19_eq, cpy20_eq, cpy21_eq, cpy22_eq, cpy23_eq,
    cpy24_eq, cpy25_eq, cpy26_eq, cpy27_eq, cpy28_eq, cpy29_eq, cpy30_eq, cpy31_eq]

/-- `foldedAt` with the run of transfers left open. -/
def foldedWith (c : Dev nD) (send : P F → P F) : P F :=
  sigK c L31 <|
  Prog.op (TpuEff.enqueueDma xH (DmaTarget.here xV) (SemLoc.dma cpyS) (Memref.isWhole_whole _).wordExact (Memref.isWhole_whole _).wordExact
    ⟨Or.inl rfl, trivial⟩) fun _ =>
  Prog.op (TpuEff.waitDma2 cpyS xH xV (Memref.isWhole_whole _).wordExact (Memref.isWhole_whole _).wordExact) fun _ =>
  Prog.op (TpuEff.load xV (Rect.unit (s := S2048x1024) ![0, 0] S2048x1024.size inb_S2048x1024_S2048x1024_0_0).toLoadRect
    (View.loadsAt_vmem h_S2048x1024)) fun x =>
  Prog.op (TpuEff.load gM (slotR 0).toLoadRect (View.loadsAt_vmem h_S1x8x128)) fun _ =>
  Prog.op (TpuEff.store gM (slotR 0) (k0_pay2 x) Finset.univ (View.stores_vmem_bits_univ h_S1x8x128 rfl) (.inl rfl)) fun _ =>
  Prog.op (TpuEff.semWait barS 31) fun _ =>
  send <| recvWaitK L31 <| sendWaitK L31 <|
  Prog.op (TpuEff.load gM (Rect.unit (s := S32x8x128) ![0, 0, 0] S32x8x128.size inb_S32x8x128_S32x8x128_0_0_0).toLoadRect
    (View.loadsAt_vmem h_S32x8x128)) fun v =>
  Prog.op (TpuEff.load oM (Rect.unit (s := S1x1024) ![0, 0] S1x1024.size inb_S1x1024_S1x1024_0_0).toLoadRect
    (View.loadsAt_vmem h_S1x1024)) fun _ =>
  Prog.op (TpuEff.store oM (Rect.unit (s := S1x1024) ![0, 0] S1x1024.size inb_S1x1024_S1x1024_0_0) (k0_pay1 v) Finset.univ
    (View.stores_vmem_bits_univ h_S1x1024 rfl) (.inl rfl)) fun _ =>
  Prog.ret PUnit.unit

theorem foldedAt_eq_with (c : Dev nD) : foldedAt (F := F) c = foldedWith c (sendK c L31) := rfl

/-- With the addressees the body computes, it is `foldedAt`. -/
theorem foldedWith_devs (c : Dev nD) : foldedWith (F := F) c (sendKD (devs c)) = foldedAt c := by
  rw [foldedAt_eq_with, devs_eq]
  exact congrArg (foldedWith c) (funext fun k => sendKD_map c L31 k)

/-! ## The body is the folded one -/

set_option maxRecDepth 65536 in
set_option maxHeartbeats 4000000 in
/-- The body `cc0_body`, at the kernel's own buffers, is the folded body: its parts, spliced, are one chain of operations, the
device each signal and each transfer names is the neighbour `peer c e`, and the chain is the folds unrolled. -/
theorem body_eq_folded :
    cc0_body (F := F) (Memref.whole main_arg0) (Memref.isWhole_whole _) (Memref.whole cc0_stg0_0) (Memref.isWhole_whole _)
      (Memref.whole cc0_scratch0) (Memref.isWhole_whole _) (Memref.whole cc0_scratch1) (Memref.isWhole_whole _)
      cc0_scratch2 cc0_scratch3 cc0_scratch4 = folded := by
  rw [cc0_body_eq_skeleton]; unfold cc0_body_skel
  simp only [
    k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton,
    k0_part15_eq_skeleton, k0_part16_eq_skeleton, k0_part17_eq_skeleton, k0_part18_eq_skeleton,
    k0_part19_eq_skeleton, k0_part20_eq_skeleton, k0_part21_eq_skeleton, k0_part22_eq_skeleton,
    k0_part23_eq_skeleton, k0_part24_eq_skeleton, k0_part25_eq_skeleton, k0_part26_eq_skeleton,
    k0_part27_eq_skeleton, k0_part28_eq_skeleton, k0_part29_eq_skeleton, k0_part30_eq_skeleton,
    k0_part31_eq_skeleton, k0_part32_eq_skeleton, k0_part33_eq_skeleton, k0_part34_eq_skeleton,
    k0_part35_eq_skeleton, k0_part36_eq_skeleton, k0_part37_eq_skeleton, k0_part38_eq_skeleton,
    k0_part39_eq_skeleton, k0_part40_eq_skeleton, k0_part41_eq_skeleton, k0_part42_eq_skeleton,
    k0_part43_eq_skeleton, k0_part44_eq_skeleton, k0_part45_eq_skeleton, k0_part46_eq_skeleton,
    k0_part47_eq_skeleton, k0_part48_eq_skeleton, k0_part49_eq_skeleton, k0_part50_eq_skeleton,
    k0_part51_eq_skeleton, k0_part52_eq_skeleton, k0_part1_skel, k0_part2_skel, k0_part3_skel, k0_part4_skel,
    k0_part5_skel, k0_part6_skel, k0_part7_skel, k0_part8_skel, k0_part9_skel, k0_part10_skel, k0_part11_skel,
    k0_part12_skel, k0_part13_skel, k0_part14_skel, k0_part15_skel, k0_part16_skel, k0_part17_skel, k0_part18_skel,
    k0_part19_skel, k0_part20_skel, k0_part21_skel, k0_part22_skel, k0_part23_skel, k0_part24_skel, k0_part25_skel,
    k0_part26_skel, k0_part27_skel, k0_part28_skel, k0_part29_skel, k0_part30_skel, k0_part31_skel, k0_part32_skel,
    k0_part33_skel, k0_part34_skel, k0_part35_skel, k0_part36_skel, k0_part37_skel, k0_part38_skel, k0_part39_skel,
    k0_part40_skel, k0_part41_skel, k0_part42_skel, k0_part43_skel, k0_part44_skel, k0_part45_skel, k0_part46_skel,
    k0_part47_skel, k0_part48_skel, k0_part49_skel, k0_part50_skel, k0_part51_skel, k0_part52_skel, semSignalWord,
    semWaitWord, Prog.lift, Prog.bind_op, Prog.bind_ret, Prog.pure_eq_ret]
  simp only [
    sig1_eq, sig2_eq, sig3_eq, sig4_eq, sig5_eq, sig6_eq, sig7_eq, sig8_eq, sig9_eq, sig10_eq, sig11_eq, sig12_eq,
    sig13_eq, sig14_eq, sig15_eq, sig16_eq, sig17_eq, sig18_eq, sig19_eq, sig20_eq, sig21_eq, sig22_eq, sig23_eq,
    sig24_eq, sig25_eq, sig26_eq, sig27_eq, sig28_eq, sig29_eq, sig30_eq, sig31_eq]
  refine Eq.trans (b := Prog.op TpuEff.deviceId fun c => foldedWith c (sendKD (devs c))) ?_ ?_
  · unfold foldedWith devs L31
    simp only [sigK, sendKD, recvWaitK, sendWaitK]
    rfl
  · unfold folded
    exact congrArg (Prog.op TpuEff.deviceId) (funext fun c => foldedWith_devs c)

end Cert.KernelIdeal.Proto

end
-- ==== Proof.BodyB.lean ====
import proofs.«900948_g7700000000000949_dist_mean_ax0_shard0_i_m2048_n1024_v7x_i32_f32_1_alg».proof.Proof.Runs
import proofs.«900948_g7700000000000949_dist_mean_ax0_shard0_i_m2048_n1024_v7x_i32_f32_1_alg».proof.Proof.BodyA
import proofs.«900948_g7700000000000949_dist_mean_ax0_shard0_i_m2048_n1024_v7x_i32_f32_1_alg».proof.Proof.Close
import proofs.«900948_g7700000000000949_dist_mean_ax0_shard0_i_m2048_n1024_v7x_i32_f32_1_alg».proof.Proof.Folded
import Idealize.ShloMosaic.Lib.ValueIdx

/-! # The body of one device, run from the launch's hand-over to what the pipeline takes back

The device signals its 31 neighbours (each unit carrying the slot that neighbour will write), copies its block to VMEM,
stores the block's column sums in slot 0, waits for the 31 neighbours, lends slot 0 to 31 transfers, waits for the 31
landings and the 31 departures, closes its cells, and stores the sum of the 32 slots times 2^-16. -/

noncomputable section

namespace Cert.KernelIdeal.Proto

open Cert.KernelIdeal Cert.KernelIdeal.Gen Cert.KernelIdeal.Mesh
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (Gc : (c : Dev nD) → Buf (Elt F) ((c : Thread nD τ).loc cc0_scratch1))
variable (K : Dev nD × Fin 66 → ℕ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop((ghost m Gc K c ∗ cred (tallyAt (barCell c) () 31) ∗ (bigSep E31 fun e => cred (tallyAt (recvCell c e) () N)) ∗ levAts L lv
      ∗ (∃ f, xvPts c f) ∗ (∃ f, gPts c f) ∗ argPts m c)
    ∗ (dats m Gc 0 c).owesAt () t₀.castSucc
    ∗ (∃ d, stg c cc0_stg0_0 ((dats m Gc 0 c).before (0 : Fin 1) t₀ d)))

def bodyPost (c : Dev nD) : sProp 𝕄 :=
  iprop(Φ₁ m c ∗ (dats m Gc 0 c).owesAt () t₀.succ ∗ stg c cc0_stg0_0 (outAt Gc c))

/-- After the store of the column sums, slot 0 holds what the gather buffer's final contents say it holds. -/
theorem store_slot0 (hG : GatherFacts m Gc) (c : Dev nD) (fg : Buf (Elt F) ((c : Thread nD τ).loc cc0_scratch1)) :
    ((((gM : Memref sig .tc .vmem S32x8x128 .f32).access (slotR 0) : View sig .tc _ _ _).loc (c : Thread nD τ))
        ↦[(slotM 0).view.set]{fullShare} (((gM : Memref sig .tc .vmem S32x8x128 .f32).access (slotR 0) : View sig .tc _ _ _).write (Elt F) fg (k0_pay2 (X m c)) Finset.univ) : sProp 𝕄)
      ⊢ srcPts c fullShare (Gc c) :=
  Entails.of_eq (srcPts_congr c fullShare _ (Gc c) fun p q => (store0_apply c fg (k0_pay2 (X m c)) p q).trans (hG.own c p q).symm)

set_option maxHeartbeats 1600000 in
/-- The body on device `c`, from `bodyPre` to `bodyPost`. -/
theorem sound_body (hG : GatherFacts m Gc) (c : Dev nD) (Kt : PUnit → sProp 𝕄) :
    iprop(bodyPre m Gc K c ∗ (bodyPost m Gc c -∗ Kt ⟨⟩))
      ⊢ wp frame (wpE (defs₀ (F := F)) 𝒱₀ (c : Thread nD τ) none) Set.univ (foldedAt c) Kt := by
  unfold foldedAt bodyPre ghost linear payToks
  iintro ⟨⟨⟨⟨#HR, Hats, HtB, HtR, HtS, HtC⟩, HcB, HcRs, #Hlev, ⟨%fx, Hxv⟩, ⟨%fg, Hg⟩, Harg⟩, Ho, ⟨%d1, %g1, %hg1, Hout⟩⟩, Hk⟩
  unfold Dat.owesAt Pipeline.owesWithin
  icases Ho with ⟨%W, %hW, HO⟩
  rw [show (dats m Gc 0 c).owed t₀.castSucc = O₀ c from rfl]
  unfold O₀
  -- the device's own cells' positions, by kind
  ihave Hats' := (Entails.of_eq (bigSep_cells c (fun g => atPos ER g 0 (∅ : Finset (Fin 32)) 0))) $$ Hats
  icases Hats' with ⟨HaB, HaSs, HaRs, HaC⟩
  ihave HaSs' := (Entails.of_eq (bigSep_univ32 (fun e => atPos ER (sendCell c e) 0 (∅ : Finset (Fin 32)) 0))) $$ HaSs
  icases HaSs' with ⟨HaS0, HaS⟩
  ihave HaRs' := (Entails.of_eq (bigSep_univ32 (fun e => atPos ER (recvCell c e) 0 (∅ : Finset (Fin 32)) 0))) $$ HaRs
  icases HaRs' with ⟨HaR0, HaR⟩
  -- the gather buffer, slot by slot
  ihave Hsl := (Entails.of_eq (gPts_split c fg)) $$ Hg
  ihave Hsl' := (Entails.of_eq (bigSep_univ32 (fun e => slotPts (F := F) c e fg))) $$ Hsl
  icases Hsl' with ⟨Hs0, Hss⟩
  -- the 31 signals
  iapply (wp_sigK m Gc K c L31 L31_ne (owedRecv c L31) W _ _)
  isplitr; · iexact HR
  isplitl [HO]; · iexact HO
  isplitl [HtB Hss]
  · iapply (sig_res c fg); isplitl [HtB] <;> iassumption
  iintro HO
  -- the local copy and its wait
  iapply (copy_step m Gc K c fx) $$ [Harg Hxv HtC]
  · isplitr; · iexact HR
    isplitl [Harg]; · iexact Harg
    isplitl [Hxv]; · iexact Hxv
    iexact HtC
  iintro HcC
  iapply (copyWait_step m Gc K c W) $$ [HcC HO HaC]
  · isplitr; · iexact HR
    isplitr; · iexact Hlev
    isplitl [HcC]; · iexact HcC
    isplitl [HO]; · iexact HO
    iexact HaC
  iintro ⟨HO, HaC, Hxv, Harg⟩
  -- the block is loaded, its column sums stored in slot 0
  unfold xvPts
  iapply (wp_load 𝒱₀ (c : Thread nD τ) none Set.univ (m := xV) (Finset.subset_univ _)) $$ Hxv; iintro Hxv
  rw [read_xV c]
  unfold slotPts
  iapply (wp_load 𝒱₀ (c : Thread nD τ) none Set.univ (m := gM) load0_sub) $$ Hs0; iintro Hs0
  iapply (wp_store 𝒱₀ (c : Thread nD τ) none Set.univ (m := gM) (r := slotR 0) (Mk := Finset.univ) store0_sub) $$ Hs0; iintro Hs0
  ihave Hs0 := (store_slot0 m Gc hG c fg) $$ Hs0
  -- the wait for the 31 neighbours
  iapply (barWait_step m Gc K c (insert (SemLoc.dma cpyS, ()) W)) $$ [HcB HO HaB]
  · isplitr; · iexact HR
    isplitr; · iexact Hlev
    isplitl [HcB]; · iexact HcB
    isplitl [HO]; · iexact HO
    iexact HaB
  iintro ⟨HO, Hbar⟩
  -- slot 0 lent out, the 31 transfers
  ihave Hsh := (src_split_all c (Gc c)).1 $$ Hs0
  icases Hsh with ⟨Hlent, Hkeep⟩
  rw [show owedRecv c L31 = 0 + owedRecv c L31 from (zero_add _).symm]
  iapply (wp_sendK m Gc K hG c L31 L31_ne 0 (insert (SemLoc.reg barS, ()) (insert (SemLoc.dma cpyS, ()) W)) _ _)
  isplitr; · iexact HR
  isplitl [HO]; · iexact HO
  isplitl [HtS HtR Hlent Hbar]
  · iapply (send_res Gc c)
    isplitl [HtS]; · iexact HtS
    isplitl [HtR]; · iexact HtR
    isplitl [Hlent]; · iexact Hlent
    iexact Hbar
  iintro ⟨HO, HcSs⟩
  -- the 31 landings
  iapply (wp_recvWaitK m Gc K c L31 L31_ne (insert (SemLoc.reg barS, ()) (insert (SemLoc.dma cpyS, ()) W)) _ _)
  isplitr; · iexact HR
  isplitl [HO]; · iexact HO
  isplitl [HcRs HaR]
  · iapply (zipL _ _ L31).1
    isplitl [HcRs]
    · iapply (Entails.of_eq (bigSep_E31 (fun e => cred (tallyAt (recvCell c e) () N)))); iexact HcRs
    · iapply (Entails.of_eq (bigSep_E31 (fun e => atPos ER (recvCell c e) 0 (∅ : Finset (Fin 32)) 0))); iexact HaR
  iintro ⟨⟨%W1, HO⟩, Hrecvd⟩
  ihave Hrecvd := (zipL _ _ L31).2 $$ Hrecvd
  icases Hrecvd with ⟨HaR, Hslots⟩
  -- the 31 departures
  iapply (wp_sendWaitK m Gc K c L31 L31_ne W1 _ _)
  isplitr; · iexact HR
  isplitl [HO]; · iexact HO
  isplitl [HcSs HaS]
  · iapply (zipL _ _ L31).1
    isplitl [HcSs]; · iexact HcSs
    iapply (Entails.of_eq (bigSep_E31 (fun e => atPos ER (sendCell c e) 0 (∅ : Finset (Fin 32)) 0))); iexact HaS
  iintro ⟨⟨%W2, HO⟩, Hsent⟩
  ihave Hsent := (zipL _ _ L31).2 $$ Hsent
  icases Hsent with ⟨HaS, Hback⟩
  -- slot 0 whole again; the buffer whole again, at its final contents
  ihave Hs0 := (src_split_all c (Gc c)).2 $$ [Hback Hkeep]
  · isplitl [Hback] <;> iassumption
  ihave Hs0 := (Entails.of_eq (slot0_full c (Gc c)).symm) $$ Hs0
  ihave Hslots := (Entails.of_eq (bigSep_E31 (fun e => slotPts (F := F) c e (Gc c))).symm) $$ Hslots
  ihave Hg := (Entails.of_eq ((gPts_split c (Gc c)).trans (bigSep_univ32 (fun e => slotPts (F := F) c e (Gc c)))).symm) $$ [Hs0 Hslots]
  · isplitl [Hs0] <;> iassumption
  -- the device's 65 DMA cells closed
  imod (close_sends m Gc K c L31) $$ [HaS] with HzS
  · isplitr; · iexact HR
    iexact HaS
  imod (close_recvs m Gc K c L31) $$ [HaR] with HzR
  · isplitr; · iexact HR
    iexact HaR
  imod (close_rest m Gc K c) $$ [HaS0 HaR0 HaC] with ⟨HzS0, HzR0, HzC⟩
  · isplitr; · iexact HR
    isplitl [HaS0]; · iexact HaS0
    isplitl [HaR0]; · iexact HaR0
    iexact HaC
  -- the sum of the 32 slots, scaled, stored as the result
  unfold gPts
  iapply (wp_load 𝒱₀ (c : Thread nD τ) none Set.univ (m := gM) (Finset.subset_univ _)) $$ Hg; iintro Hg
  rw [load_all c]
  iapply (wp_load 𝒱₀ (c : Thread nD τ) none Set.univ (m := oM) (Finset.subset_univ _)) $$ Hout; iintro Hout
  iapply (wp_store 𝒱₀ (c : Thread nD τ) none Set.univ (m := oM) (r := Rect.unit (s := S1x1024) ![0, 0] S1x1024.size inb_S1x1024_S1x1024_0_0) (Mk := Finset.univ) (Finset.subset_univ _)) $$ Hout; iintro Hout
  rw [write_out c, wp_ret]; imodintro
  iapply Hk
  unfold bodyPost Φ₁ Dat.owesAt Pipeline.owesWithin
  rw [show (dats m Gc 0 c).owed t₀.succ = 0 from rfl]
  isplitl [Hxv Hg Harg HzS HzR HzS0 HzR0 HzC]
  · isplitl [Hxv]; · iexists (X m c); unfold xvPts; iexact Hxv
    isplitl [Hg]; · iexists (Gc c); unfold gPts; iexact Hg
    isplitl [Harg]; · iexact Harg
    rw [bigSep_ownCells c (fun g => semVal g 0), bigSep_univ32 (fun e => semVal (sendCell c e) 0), bigSep_univ32 (fun e => semVal (recvCell c e) 0),
      bigSep_E31, bigSep_E31]
    isplitl [HzS0 HzS]
    · isplitl [HzS0] <;> iassumption
    isplitl [HzR0 HzR]
    · isplitl [HzR0] <;> iassumption
    iexact HzC
  isplitl [HO]
  · iexists W2
    isplitr; · ipureintro; exact fun _ _ => Or.inl trivial
    iexact HO
  iexists _; isplitr; · (ipureintro; rfl)
  unfold outAt; iexact Hout

end Cert.KernelIdeal.Proto

end
-- ==== Proof.BodyC.lean ====
import proofs.«900948_g7700000000000949_dist_mean_ax0_shard0_i_m2048_n1024_v7x_i32_f32_1_alg».proof.Proof.BodyB
import Idealize.ShloMosaic.Lib.ValueIdx

/-! # The body obligation

The run of the body (`sound_body`) in the form the pipeline's launch asks for, at the kernel's one grid point. -/

noncomputable section

namespace Cert.KernelIdeal.Proto

open Cert.KernelIdeal Cert.KernelIdeal.Gen Cert.KernelIdeal.Mesh
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (Gc : (c : Dev nD) → Buf (Elt F) ((c : Thread nD τ).loc cc0_scratch1))
variable (K : Dev nD × Fin 66 → ℕ)

omit [FloatOps F] in
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m Gc c ∗ (dats m Gc 0 c).owesAt () t₀.castSucc
    ∗ (∃ d, stg c cc0_stg0_0 ((dats m Gc 0 c).before (0 : Fin 1) t₀ d)))

set_option maxRecDepth 65536 in
set_option maxHeartbeats 1600000 in
/-- The library's body obligation on device `c`. -/
theorem body_obligation (hG : GatherFacts m Gc) (c : Dev nD) :
    BodyObligation (dats (F := F) m Gc 0 c) (defs₀ (F := F)) 𝒱₀ () Set.univ := fun t => by
  rw [fin_N t]
  rw [bigSep_W0, bigSep_W0]
  simp only [owns_whole_eq]
  show bodyPre' m Gc c ⊢ wp frame (wpE (defs₀ (F := F)) 𝒱₀ c none) Set.univ
    (cc0_body (Memref.whole main_arg0) (Memref.isWhole_whole _) (Memref.whole cc0_stg0_0) (Memref.isWhole_whole _)
      (Memref.whole cc0_scratch0) (Memref.isWhole_whole _) (Memref.whole cc0_scratch1) (Memref.isWhole_whole _) cc0_scratch2 cc0_scratch3 cc0_scratch4)
    (fun _ => bodyPost m Gc c)
  rw [body_eq_folded]
  unfold folded
  simp only [wp_deviceId]
  unfold bodyPre' Φ₀ start
  iintro ⟨⟨⟨⟨%K, Hg⟩, HcB, HcR, Hlev⟩, Hxv, Hgp, Harg⟩, Ho, Hout⟩
  iapply (sound_body m Gc K hG c fun _ => bodyPost m Gc c)
  unfold bodyPre
  isplitr []
  · isplitl [Hg HcB HcR Hlev Hxv Hgp Harg]
    · isplitl [Hg]; · iexact Hg
      isplitl [HcB]; · iexact HcB
      isplitl [HcR]; · iexact HcR
      isplitl [Hlev]; · iexact Hlev
      isplitl [Hxv]; · iexact Hxv
      isplitl [Hgp]; · iexact Hgp
      iexact Harg
    isplitl [Ho]; · iexact Ho
    iexact Hout
  · iintro H; iexact H

end Cert.KernelIdeal.Proto

end
-- ==== Proof.Gathered.lean ====
import proofs.«900948_g7700000000000949_dist_mean_ax0_shard0_i_m2048_n1024_v7x_i32_f32_1_alg».proof.Proof.Gen.KernelIdeal.Skeleton
import proofs.«900948_g7700000000000949_dist_mean_ax0_shard0_i_m2048_n1024_v7x_i32_f32_1_alg».proof.Proof.Mesh
import Idealize.ShloMosaic.Lib.ValueIdx

/-! What every device's gather buffer ends holding, for any float values: slot `s` of device `c` holds the column sums of
    the block of the device `(c + 32 - s) mod 32`. -/

noncomputable section

namespace Cert.KernelIdeal.MeanValue

open Idealize.ShloMosaic Idealize.ShloMosaic.ValueIdx
open Cert.KernelIdeal Cert.KernelIdeal.Gen Cert.KernelIdeal.Mesh

/-- Device `c`'s gather buffer once every transfer has landed: slot `s` holds the column sums of the block of the
    device `(c + 32 - s) mod 32`. -/
def gathered {F : FTy → Type} [FloatOps F] (X : Dev nD → (⟨S2048x1024, .f32⟩ : BufTy).Contents (Elt F)) (c : Dev nD) :
    (⟨S32x8x128, .f32⟩ : BufTy).Contents (Elt F) :=
  fun i => k0_pay2 (X (peer c (neg (i 0)))) (ix3 (0 : Fin 1) (i 1) (i 2))

/-- Slot `s` at position `(p, q)` is the column sums of the block of device `(c + 32 - s) mod 32` at `(0, p, q)`. -/
theorem gathered_apply {F : FTy → Type} [FloatOps F] (X : Dev nD → (⟨S2048x1024, .f32⟩ : BufTy).Contents (Elt F)) (c : Dev nD)
    (s : Fin 32) (p : Fin 8) (q : Fin 128) :
    gathered X c (ix3 s p q) = k0_pay2 (X (peer c (neg s))) (ix3 (0 : Fin 1) p q) := rfl

end Cert.KernelIdeal.MeanValue

end
-- ==== Proof.GatherFacts.lean ====
import proofs.«900948_g7700000000000949_dist_mean_ax0_shard0_i_m2048_n1024_v7x_i32_f32_1_alg».proof.Proof.Gathered
import proofs.«900948_g7700000000000949_dist_mean_ax0_shard0_i_m2048_n1024_v7x_i32_f32_1_alg».proof.Proof.Sched

/-! What every device's gather buffer ends holding, as a buffer of the scratch it lives in, and the two facts the
    protocol needs of it: slot 0 is the device's own column sums, and slot `e` of the `e`-th neighbour is slot 0 of the
    device itself. -/

noncomputable section

namespace Cert.KernelIdeal.MeanValue

open Idealize.ShloMosaic Idealize.ShloMosaic.ValueIdx Idealize.ShloMosaic.TcCoe Idealize.SL.Sem
open Cert.KernelIdeal Cert.KernelIdeal.Gen Cert.KernelIdeal.Mesh

variable {F : FTy → Type} [FloatOps F]
variable (m : (ℓ : Loc nD τ sig) → Buf (Elt F) ℓ)

/-- What device `c`'s gather buffer ends holding: slot `s` the column sums of the block of device `(c + 32 - s) mod 32`. -/
def Gfin (c : Dev nD) : Buf (Elt F) ((c : Thread nD τ).loc cc0_scratch1) := gathered (Proto.X m) c

/-- Slot 0 is the device's own column sums. -/
theorem gath_own (c : Dev nD) (p : Fin 8) (q : Fin 128) :
    Gfin m c (ix3 (0 : Fin 32) p q) = k0_pay2 (Proto.X m c) (ix3 (0 : Fin 1) p q) := by
  show gathered (Proto.X m) c (ix3 (0 : Fin 32) p q) = _
  rw [gathered_apply, neg_zero, peer_zero]

/-- Slot `e` of the `e`-th neighbour is slot 0 of the device itself. -/
theorem gath_land (c : Dev nD) (e : Fin 32) (p : Fin 8) (q : Fin 128) :
    Gfin m (peer c e) (ix3 e p q) = Gfin m c (ix3 (0 : Fin 32) p q) := by
  show gathered (Proto.X m) (peer c e) (ix3 e p q) = gathered (Proto.X m) c (ix3 (0 : Fin 32) p q)
  rw [gathered_apply, gathered_apply, peer_peer_neg, neg_zero, peer_zero]

end Cert.KernelIdeal.MeanValue

end
-- ==== Proof.MeanValue.lean ====
import proofs.«900948_g7700000000000949_dist_mean_ax0_shard0_i_m2048_n1024_v7x_i32_f32_1_alg».proof.Defs
import proofs.«900948_g7700000000000949_dist_mean_ax0_shard0_i_m2048_n1024_v7x_i32_f32_1_alg».proof.Proof.Gen.KernelIdeal.Skeleton
import proofs.«900948_g7700000000000949_dist_mean_ax0_shard0_i_m2048_n1024_v7x_i32_f32_1_alg».proof.Proof.Gen.ReferenceIdeal.Run
import proofs.«900948_g7700000000000949_dist_mean_ax0_shard0_i_m2048_n1024_v7x_i32_f32_1_alg».proof.Proof.Gen.ReferenceIdeal.Read
import proofs.«900948_g7700000000000949_dist_mean_ax0_shard0_i_m2048_n1024_v7x_i32_f32_1_alg».proof.Proof.Mesh
import proofs.«900948_g7700000000000949_dist_mean_ax0_shard0_i_m2048_n1024_v7x_i32_f32_1_alg».proof.Proof.Gathered
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Layout
import Idealize.ShloMosaic.Lib.IdealHost

/-! The value bridge: the column sums of 32 row blocks, gathered around a ring and added up, then scaled by 2⁻¹⁶,
    are the mean over all 65536 rows. -/

noncomputable section

open scoped BigOperators

namespace Cert.KernelIdeal.MeanValue

open Idealize.ShloMosaic Idealize.ShloMosaic.ValueIdx
open Cert.KernelIdeal Cert.KernelIdeal.Gen Cert.KernelIdeal.Mesh

/-- The pattern `0x47800000` is the real 65536 = 2¹⁶. -/
theorem ofBits_65536 : Ideal.ofBits .f32 0x47800000#32 = ((65536 : ℝ) : EReal) := by
  simp [Ideal.ofBits, Ideal.ieee, -EReal.coe_mul]; norm_num

/-- The pattern `0x37800000` is the real 2⁻¹⁶ = 1/65536. -/
theorem ofBits_inv_65536 : Ideal.ofBits .f32 0x37800000#32 = (((1 : ℝ) / 65536 : ℝ) : EReal) := by
  simp [Ideal.ofBits, Ideal.ieee, -EReal.coe_mul]; norm_num

/-- The column sums of a block read at a coordinate: position `(p, q)` of the slot is column `128 p + q`, and the sum
    runs over the block's 2048 rows. -/
theorem k0_pay2_apply (v : Vec Ideal S2048x1024 .f32) (p : Fin 8) (q : Fin 128) :
    k0_pay2 (F := Ideal) v (ix3 (0 : Fin 1) p q)
      = ∑ k : Fin 2048, v (ix2 k (⟨p.val * 128 + q.val, by have := p.isLt; have := q.isLt; omega⟩ : Fin 1024)) := by
  have hp := p.isLt
  have hq := q.isLt
  have hj : p.val * 128 + q.val < 1024 := by omega
  unfold k0_pay2
  -- the cast adding the unit axis: [1,8,128] at (0, p, q) reads [8,128] at (p, q)
  refine (shapeCast_apply _ _ (ix3 (0 : Fin 1) p q) (ix2 p q)
    (by rw [Shape.rowMajor_val_two, Shape.rowMajor_val_three]
        show p.val * 128 + q.val = (0 * 8 + p.val) * 128 + q.val
        omega)).trans ?_
  -- the cast of the row: [8,128] at (p, q) reads [1,1024] at (0, 128 p + q)
  refine (shapeCast_apply _ _ (ix2 p q) (ix2 (0 : Fin 1) (⟨p.val * 128 + q.val, hj⟩ : Fin 1024))
    (by rw [Shape.rowMajor_val_two, Shape.rowMajor_val_two]
        show 0 * 1024 + (p.val * 128 + q.val) = p.val * 128 + q.val
        omega)).trans ?_
  -- row 0 of the product
  refine (extractStridedSlice_apply _ _ _ _ (ix2 (0 : Fin 8) (⟨p.val * 128 + q.val, hj⟩ : Fin 1024))
    (fun a => match a with
      | ⟨0, _⟩ => by show 0 = 0 + 0; omega
      | ⟨1, _⟩ => by show p.val * 128 + q.val = 0 + (p.val * 128 + q.val); omega)).trans ?_
  -- the product with the all-ones matrix: the sum of the column
  simp only [matmul]
  rw [Ideal.matmul_constant_zero_apply]
  rw [← Equiv.sum_comp (contrEquiv1 dot_S8x2048_S2048x1024_S8x1024_1_0_0_1_n_n 2048 rfl rfl).symm]
  refine Finset.sum_congr rfl fun k _ => ?_
  rw [broadcast_apply]
  show Ideal.ofBits .f32 0x3F800000#32 * _ = _
  rw [Ideal.ofBits_one_f32, one_mul]
  refine congrArg v (funext fun a => Fin.ext ?_)
  match a with
  | ⟨0, _⟩ =>
    exact (dot_S8x2048_S2048x1024_S8x1024_1_0_0_1_n_n.rhsIdx_val_of_single (cr := ⟨0, by decide⟩) rfl _ _).trans
      (contrEquiv1_symm_val _ _ _ _ k)
  | ⟨1, _⟩ => rfl

/-- What a device stores, read at column `j`: the 32 slots' entries at position `(j / 128, j % 128)` added up, times 2⁻¹⁶. -/
theorem k0_pay1_apply (G : Vec Ideal S32x8x128 .f32) (j : Fin 1024) :
    k0_pay1 (F := Ideal) G (ix2 (0 : Fin 1) j)
      = (∑ s : Fin 32, G (ix3 s (⟨j.val / 128, by have := j.isLt; omega⟩ : Fin 8) (⟨j.val % 128, Nat.mod_lt _ (by decide)⟩ : Fin 128)))
          * (((1 : ℝ) / 65536 : ℝ) : EReal) := by
  have hj := j.isLt
  have hp : j.val / 128 < 8 := by omega
  have hq : j.val % 128 < 128 := Nat.mod_lt _ (by decide)
  unfold k0_pay1
  rw [mulf_apply, broadcast_apply]
  show _ * Ideal.ofBits .f32 0x37800000#32 = _
  rw [ofBits_inv_65536]
  refine congrArg (· * _) ?_
  -- the cast of the row: [1,1024] at (0, j) reads [8,128] at (j / 128, j % 128)
  refine (shapeCast_apply _ _ (ix2 (0 : Fin 1) j) (ix2 (⟨j.val / 128, hp⟩ : Fin 8) (⟨j.val % 128, hq⟩ : Fin 128))
    (by rw [Shape.rowMajor_val_two, Shape.rowMajor_val_two]
        show j.val / 128 * 128 + j.val % 128 = 0 * 1024 + j.val
        omega)).trans ?_
  -- the sum over the slots
  refine (Ideal.multiReduction_add_single (a := (0 : Fin 3)) G 0x00000000#32 reduces_S32x8x128_S8x128 (.inl rfl) rfl
    (ix2 (⟨j.val / 128, hp⟩ : Fin 8) (⟨j.val % 128, hq⟩ : Fin 128))).trans ?_
  refine Finset.sum_congr rfl fun s _ => ?_
  refine congrArg G (funext fun a => Fin.ext ?_)
  match a with
  | ⟨0, _⟩ => rfl
  | ⟨1, _⟩ => rfl
  | ⟨2, _⟩ => rfl

/-- The reference's mean read at column `j`: the sum of the column's 65536 entries, times 2⁻¹⁶ (a division by the real
    65536 is the product with its reciprocal on every extended real). -/
theorem ref_apply (xw : (⟨Cert.ReferenceIdeal.S65536x1024, .f32⟩ : BufTy).Contents (Elt Ideal)) (j : Fin 1024) :
    Cert.ReferenceIdeal.Read.val_main_v3 (F := Ideal) xw (ix2 (0 : Fin 1) j)
      = (∑ r : Fin 65536, xw (ix2 r j)) * (((1 : ℝ) / 65536 : ℝ) : EReal) := by
  have hs : (∑ k : Fin 65536, xw (Cert.ReferenceIdeal.Read.idx_main_v0 (Cert.ReferenceIdeal.Read.idx_main_v1 (ix2 (0 : Fin 1) j)) k))
      = ∑ r : Fin 65536, xw (ix2 r j) :=
    Finset.sum_congr rfl fun k _ => congrArg xw (funext fun a => match a with
      | ⟨0, _⟩ => rfl
      | ⟨1, _⟩ => rfl)
  rw [Cert.ReferenceIdeal.Read.val_main_v3_apply, Cert.ReferenceIdeal.Read.val_main_v1_apply,
    Cert.ReferenceIdeal.Read.val_main_v0_apply, Cert.ReferenceIdeal.Read.val_main_v2_apply,
    Cert.ReferenceIdeal.Read.val_main_cst_0_apply, Cert.ReferenceIdeal.Read.val_main_cst_apply,
    Ideal.hostDivf_def, Ideal.ofBits_def, Ideal.ofBits_def, Ideal.ofBits_zero_f32, zero_add, ofBits_65536,
    Ideal.div_coe (by norm_num), hs]

/-- Slot `s` of device `c` is fed by the device `(c + 32 - s) mod 32`: slots and devices correspond one to one. -/
def slotDev (c : Dev nD) : Fin 32 ≃ Dev nD where
  toFun s := peer c (neg s)
  invFun d := neg ⟨(d.val + 32 - c.val) % 32, Nat.mod_lt _ (by decide)⟩
  left_inv := by
    intro s
    apply Fin.ext
    have hc : c.val < 32 := c.isLt
    have hs : s.val < 32 := s.isLt
    simp only [peer, neg]
    omega
  right_inv := by
    intro d
    apply Fin.ext
    have hc : c.val < 32 := c.isLt
    have hd : d.val < 32 := d.isLt
    simp only [peer, neg]
    omega

/-- Row `k` of block `d` is row `2048 d + k` of the whole: blocks and rows within them number the 65536 rows. -/
def rowEquiv : Fin 32 × Fin 2048 ≃ Fin 65536 where
  toFun x := ⟨x.1.val * 2048 + x.2.val, by have := x.1.isLt; have := x.2.isLt; omega⟩
  invFun r := (⟨r.val / 2048, by have := r.isLt; omega⟩, ⟨r.val % 2048, Nat.mod_lt _ (by decide)⟩)
  left_inv := fun ⟨a, b⟩ => by
    have := a.isLt; have := b.isLt
    exact Prod.ext (Fin.ext (by show (a.val * 2048 + b.val) / 2048 = a.val; omega))
      (Fin.ext (by show (a.val * 2048 + b.val) % 2048 = b.val; omega))
  right_inv := fun r => Fin.ext (by show r.val / 2048 * 2048 + r.val % 2048 = r.val; omega)

/-- Adding up, slot by slot, the rows of the block each slot was fed from adds up all 65536 rows: addition of extended
    reals is commutative and associative, so the order in which the ring delivers the blocks does not matter. -/
theorem sum_slots_rows (f : Fin 65536 → EReal) (c : Dev nD) :
    ∑ s : Fin 32, ∑ k : Fin 2048, f (rowEquiv (peer c (neg s), k)) = ∑ r : Fin 65536, f r := by
  refine (Equiv.sum_comp (slotDev c) (fun d : Dev nD => ∑ k : Fin 2048, f (rowEquiv (d, k)))).trans ?_
  rw [← Fintype.sum_prod_type' (f := fun (d : Fin 32) (k : Fin 2048) => f (rowEquiv (d, k)))]
  exact Equiv.sum_comp rowEquiv f

/-- At the exact-real instance, what device `c` stores as its result is the reference's value of the whole array whose
    32 row blocks the devices hold. -/
theorem mean_eq (xw : (⟨Cert.ReferenceIdeal.S65536x1024, .f32⟩ : BufTy).Contents (Elt Ideal)) (c : Dev nD) :
    k0_pay1 (F := Ideal) (gathered (fun d => Layout.block ⟨2, ![2048, 1024]⟩ ⟨2, ![65536, 1024]⟩ 0 32 d xw) c)
      = Host.divf (broadcastInDim Cert.ReferenceIdeal.S1x1024 ![1] Cert.ReferenceIdeal.Facts₀.bcast_S1024_S1x1024_1
          (Host.reduceAdd xw (constant Cert.ReferenceIdeal.S_ .f32 0x00000000#32)
            Cert.ReferenceIdeal.Facts₀.reducesTo_S65536x1024_S1024_d0 Cert.ReferenceIdeal.Facts₀.h_S_))
          (broadcastInDim Cert.ReferenceIdeal.S1x1024 ![] Cert.ReferenceIdeal.Facts₀.bcast_S_S1x1024
            (constant Cert.ReferenceIdeal.S_ .f32 0x47800000#32)) := by
  show _ = Cert.ReferenceIdeal.Read.val_main_v3 (F := Ideal) xw
  funext i
  obtain ⟨a, j, rfl⟩ : ∃ (a : Fin 1) (j : Fin 1024), i = ix2 a j := ⟨i 0, i 1, eq_ix2 i⟩
  obtain rfl : a = 0 := Subsingleton.elim _ _
  have hj := j.isLt
  rw [k0_pay1_apply, ref_apply, ← sum_slots_rows (fun r => xw (ix2 r j)) c]
  have hs : ∀ s : Fin 32,
      gathered (fun d => Layout.block ⟨2, ![2048, 1024]⟩ ⟨2, ![65536, 1024]⟩ 0 32 d xw) c
          (ix3 s (⟨j.val / 128, by omega⟩ : Fin 8) (⟨j.val % 128, Nat.mod_lt _ (by decide)⟩ : Fin 128))
        = ∑ k : Fin 2048, xw (ix2 (rowEquiv (peer c (neg s), k)) j) := by
    intro s
    rw [gathered_apply, k0_pay2_apply]
    refine Finset.sum_congr rfl fun k _ => ?_
    refine congrArg xw (funext fun a => Fin.ext ?_)
    match a with
    | ⟨0, _⟩ => rfl
    | ⟨1, _⟩ => show j.val / 128 * 128 + j.val % 128 = j.val; omega
  rw [Finset.sum_congr rfl fun s _ => hs s]

end Cert.KernelIdeal.MeanValue

end
-- ==== Proof.MeshK.lean ====
import proofs.«900948_g7700000000000949_dist_mean_ax0_shard0_i_m2048_n1024_v7x_i32_f32_1_alg».proof.Proof.Gen.Kernel

/-! The ring of 32 devices: device `c`'s `e`-th neighbour is `(c + e) mod 32`; `neg e = (32 - e) mod 32` names the
    way back, so that `peer (peer c e) (neg e) = c`. -/

namespace Cert.Kernel.Mesh

open Cert.Kernel Idealize.ShloMosaic

/-- The `e`-th neighbour of device `c` around the ring. -/
def peer (c : Dev nD) (e : Fin 32) : Dev nD := ⟨(c.val + e.val) % 32, Nat.mod_lt _ (by decide)⟩

/-- The step that undoes `e`. -/
def neg (e : Fin 32) : Fin 32 := ⟨(32 - e.val) % 32, Nat.mod_lt _ (by decide)⟩

theorem peer_zero (c : Dev nD) : peer c 0 = c := by revert c; decide
theorem neg_neg (e : Fin 32) : neg (neg e) = e := by revert e; decide
theorem neg_zero : neg 0 = 0 := by decide
theorem neg_ne_zero {e : Fin 32} (h : e ≠ 0) : neg e ≠ 0 := by revert e; decide
theorem peer_peer_neg (c : Dev nD) (e : Fin 32) : peer (peer c e) (neg e) = c := by revert c e; decide
theorem peer_neg_peer (c : Dev nD) (e : Fin 32) : peer (peer c (neg e)) e = c := by revert c e; decide
theorem peer_injective (e : Fin 32) : Function.Injective fun c => peer c e := by
  intro a b h; have := congrArg (fun x => peer x (neg e)) h; simpa only [peer_peer_neg] using this

/-- Going `e` steps round the ring permutes the devices. -/
def ring (e : Fin 32) : Dev nD ≃ Dev nD :=
  ⟨fun c => peer c e, fun c => peer c (neg e), fun c => peer_peer_neg c e, fun c => peer_neg_peer c e⟩

end Cert.Kernel.Mesh
-- ==== Proof.SchedK.lean ====
import proofs.«900948_g7700000000000949_dist_mean_ax0_shard0_i_m2048_n1024_v7x_i32_f32_1_alg».proof.Proof.Gen.Kernel
import proofs.«900948_g7700000000000949_dist_mean_ax0_shard0_i_m2048_n1024_v7x_i32_f32_1_alg».proof.Proof.Gen.Kernel.Skeleton
import proofs.«900948_g7700000000000949_dist_mean_ax0_shard0_i_m2048_n1024_v7x_i32_f32_1_alg».proof.Proof.Gen.Kernel.Launch
import proofs.«900948_g7700000000000949_dist_mean_ax0_shard0_i_m2048_n1024_v7x_i32_f32_1_alg».proof.Proof.MeshK
import Idealize.ShloMosaic.Lib.Pipeline.Launch
import Idealize.ShloMosaic.Lib.Pipeline.Kit
import Idealize.ShloMosaic.Lib.Tactic

/-! # The protocol of the 32-device mean

Every device `c` signals the barrier semaphore of each of its 31 neighbours once and waits for 31 units on its own: after
that wait every neighbour is inside the kernel. The unit that the neighbour `peer c e` sends `c` carries that neighbour's
slot `e` of the gather buffer (which nobody else touches) and the fact that its receive cell `e` is open: exactly what `c`'s
`e`-th transfer, addressed to `peer c e`, slot `e`, needs. A transfer pays two cells: the send cell `e` of `c` (it hands back the
share of slot 0 it read) and the receive cell `e` of `peer c e` (it hands over slot `e` holding the sender's column sums). -/

noncomputable section

namespace Cert.Kernel.Proto

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by the neighbour's number) -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Memrefs, semaphores, cells -/

abbrev xH : Memref sig .tc .hbm S2048x1024 .f32 := Memref.whole main_arg0
abbrev oM : Memref sig .tc .vmem S1x1024 .f32 := Memref.whole cc0_stg0_0
abbrev xV : Memref sig .tc .vmem S2048x1024 .f32 := Memref.whole cc0_scratch0
abbrev gM : Memref sig .tc .vmem S32x8x128 .f32 := Memref.whole cc0_scratch1

theorem inbSlot (e : Fin 32) : ∀ a, (![e.val, 0, 0] : Fin 3 → Nat) a + S1x8x128.size a ≤ S32x8x128.size a := by
  revert e; decide
theorem inbSem (e : Fin 32) : ∀ a, (![e.val] : Fin 1 → Nat) a + S1.size a ≤ S32.size a := by
  revert e; decide

/-- Slot `e` of the gather buffer, as the transfers address it: the 8×128 block at row `e`. -/
abbrev slotR (e : Fin 32) : Rect S32x8x128 := Rect.unit (s := S32x8x128) ![e.val, 0, 0] S1x8x128.size (inbSlot e)
abbrev slotM (e : Fin 32) : Memref sig .tc .vmem S8x128 .f32 :=
  ((gM.slice (slotR e) (fun _ => rfl)).squeeze S8x128 squeezes_S1x8x128_S8x128)

/-- The runtime's barrier semaphore; the `e`-th send and receive DMA semaphores; the local copy's. -/
abbrev barS : Sem sig := (SemArray.scalar (sig.barrier 0 rfl) : Sems sig S_).sem
abbrev sendS (e : Fin 32) : DmaSem sig :=
  ((cc0_scratch2.slice (Rect.unit (s := S32) ![e.val] S1.size (inbSem e))).squeeze S_ squeezes_S1_S_).sem
abbrev recvS (e : Fin 32) : DmaSem sig :=
  ((cc0_scratch3.slice (Rect.unit (s := S32) ![e.val] S1.size (inbSem e))).squeeze S_ squeezes_S1_S_).sem
abbrev cpyS : DmaSem sig := cc0_scratch4.sem

theorem sendS_val (e : Fin 32) : (sendS e).val = 1 + e.val := by revert e; decide
theorem recvS_val (e : Fin 32) : (recvS e).val = 33 + e.val := by revert e; decide
theorem cpyS_val : (cpyS).val = 65 := by decide

abbrev barCell (c : Dev nD) : GSem nD τ sig := ((c : Thread nD τ), .reg barS)
abbrev sendCell (c : Dev nD) (e : Fin 32) : GSem nD τ sig := ((c : Thread nD τ), .dma (sendS e))
abbrev recvCell (c : Dev nD) (e : Fin 32) : GSem nD τ sig := ((c : Thread nD τ), .dma (recvS e))

/-- One transfer's credit: the words of a slot. -/
abbrev N : ℕ := (slotM 0).view.dmaCredit
theorem N_pos : 0 < N := View.dmaCredit_pos _ (by decide)
theorem credit_slot (e : Fin 32) : (slotM e).view.dmaCredit = N := by revert e; decide

end Cert.Kernel.Proto

/-! ## The cells, all of them, by one index: 0 the barrier cell, `k = 1..65` the DMA semaphore `k` (send `k - 1`, receive `k - 33`, 65 the local copy's) -/

namespace Cert.Kernel.Proto
open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

abbrev csem (k : Fin 66) : SemLoc sig := if k.val = 0 then .reg barS else .dma ⟨k.val, k.isLt⟩
abbrev kcell (ck : Dev nD × Fin 66) : GSem nD τ sig := ((ck.1 : Thread nD τ), csem ck.2)

/-- The neighbour's number a DMA semaphore belongs to. -/
def slotOf (k : DmaSem sig) : Fin 32 := ⟨(k.val + 31) % 32, Nat.mod_lt _ (by decide)⟩
theorem slotOf_send (e : Fin 32) : slotOf (sendS e) = e := by revert e; decide
theorem slotOf_recv (e : Fin 32) : slotOf (recvS e) = e := by revert e; decide

/-- The neighbours proper: everyone but the device itself. -/
def E31 : Finset (Fin 32) := Finset.univ.erase 0
theorem mem_E31 {e : Fin 32} : e ∈ E31 ↔ e ≠ 0 := by unfold E31; simp
theorem card_E31 : E31.card = 31 := by decide

/-! ## Contents, shares, points-to facts -/

variable (m : (ℓ : Loc nD τ sig) → Buf (Elt F) ℓ) (ρ : Dev nD → PrngReg)
-- What each device's gather buffer ends holding; the protocol needs two facts of it only, stated where they are used.
variable (Gc : (c : Dev nD) → Buf (Elt F) ((c : Thread nD τ).loc cc0_scratch1))

/-- Device `c`'s block of the input. -/
def X (c : Dev nD) : Buf (Elt F) ((c : Thread nD τ).loc main_arg0) := m ((c : Thread nD τ).loc main_arg0)

/-- The share of slot 0 lent to the `e`-th transfer: the left half of what the first `e - 1` transfers left. -/
def restShare : ℕ → PosShare TreeShare
  | 0 => fullShare
  | k + 1 => (restShare k).right
def lentShare (e : Fin 32) : PosShare TreeShare := (restShare (e.val - 1)).left

def slotPts (c : Dev nD) (e : Fin 32) (f : Buf (Elt F) ((slotM e).view.loc (c : Thread nD τ))) : sProp 𝕄 :=
  (slotM e).view.loc (c : Thread nD τ) ↦[(slotM e).view.set]{fullShare} f
def srcPts (c : Dev nD) (q : PosShare TreeShare) (f : Buf (Elt F) ((slotM 0).view.loc (c : Thread nD τ))) : sProp 𝕄 :=
  (slotM 0).view.loc (c : Thread nD τ) ↦[(slotM 0).view.set]{q} f

omit [FloatOps F] in
instance slotPts_storable (c : Dev nD) (e : Fin 32) (f) : BI.Storable (upEmb : UEmb _ 𝕄) (slotPts (F := F) c e f) := by unfold slotPts; infer_instance
omit [FloatOps F] in
instance srcPts_storable (c : Dev nD) (q) (f) : BI.Storable (upEmb : UEmb _ 𝕄) (srcPts (F := F) c q f) := by unfold srcPts; infer_instance

abbrev cpyCell (c : Dev nD) : GSem nD τ sig := ((c : Thread nD τ), .dma cpyS)
/-- The local copy's credit: the words of a block. -/
abbrev NX : ℕ := (xV : Memref sig .tc .vmem S2048x1024 .f32).view.dmaCredit
theorem NX_pos : 0 < NX := View.dmaCredit_pos _ (by decide)

def xvPts (c : Dev nD) (f : Buf (Elt F) ((c : Thread nD τ).loc cc0_scratch0)) : sProp 𝕄 := ((c : Thread nD τ).loc cc0_scratch0) ↦{fullShare} f
def gPts (c : Dev nD) (f : Buf (Elt F) ((c : Thread nD τ).loc cc0_scratch1)) : sProp 𝕄 := ((c : Thread nD τ).loc cc0_scratch1) ↦{fullShare} f
def argPts (c : Dev nD) : sProp 𝕄 := ((c : Thread nD τ).loc main_arg0) ↦{fullShare} X m c

/-! ## The schedule: one round -/

/-- The local copy's landing: the device's block in VMEM, and the input array back. -/
def cpyPay (c : Dev nD) : sProp 𝕄 := iprop(xvPts c (X m c) ∗ argPts m c)

/-- What the neighbour `peer c e` hands `c` with its unit on `c`'s barrier cell: its slot `e`, and that its receive cell `e` is open. -/
def barPay (c : Dev nD) (e : Fin 32) : sProp 𝕄 := iprop((∃ f, slotPts (peer c e) e f) ∗ reached ER (recvCell (peer c e) e) 0)
/-- The landing on `c`'s slot `e`: the slot holding its final contents. -/
def recvPay (c : Dev nD) (e : Fin 32) : sProp 𝕄 := slotPts c e (Gc c)
/-- The departure of `c`'s `e`-th transfer: the share of slot 0 it read, back. -/
def sendPay (c : Dev nD) (e : Fin 32) : sProp 𝕄 := srcPts c (lentShare e) (Gc c)

def ringRd : Rounds.Schedule (GSem nD τ sig) (Fin 32) 𝕄 where
  duties g r :=
    if r = 0 ∧ g.1.2 = .tc then
      (match g.2 with
        | .reg s => if s = barS then E31 else ∅
        | .dma k => if (1 ≤ k.val ∧ k.val ≤ 64 ∧ slotOf k ≠ 0) ∨ k.val = 65 then {0} else ∅)
    else ∅
  unitless _ := False
  amount g _ _ := match g.2 with | .reg _ => 1 | .dma k => if k.val = 65 then NX else N
  payload g _ d := match g.2 with
    | .reg _ => barPay g.1.1 d
    | .dma k => if k.val ≤ 32 then sendPay Gc g.1.1 (slotOf k) else if k.val ≤ 64 then recvPay Gc g.1.1 (slotOf k) else cpyPay m g.1.1
  amount_pos g _ _ _ := by
    cases g.2 with
    | reg s => exact Nat.one_pos
    | dma k => dsimp only; split <;> [exact NX_pos; exact N_pos]

instance ringRd_payload_storable (g : GSem nD τ sig) (r : ℕ) (d : Fin 32) :
    BI.Storable (upEmb : UEmb _ 𝕄) ((ringRd (F := F) m Gc).payload g r d) := by
  show BI.Storable upEmb (match g.2 with
    | .reg _ => barPay g.1.1 d
    | .dma k => if k.val ≤ 32 then sendPay Gc g.1.1 (slotOf k) else if k.val ≤ 64 then recvPay Gc g.1.1 (slotOf k) else cpyPay m g.1.1)
  unfold barPay recvPay sendPay cpyPay xvPts argPts
  (repeat' split) <;> infer_instance

end Cert.Kernel.Proto

end
-- ==== Proof.GhostK.lean ====
import proofs.«900948_g7700000000000949_dist_mean_ax0_shard0_i_m2048_n1024_v7x_i32_f32_1_alg».proof.Proof.SchedK

/-! # What each device starts from and ends with

The launch allocates every cell's invariant and records them with the cells' round-0 marks (`records`); a device keeps
its own cells' positions and the tokens of the duties IT pays (`linear`): one unit on each neighbour's barrier cell,
the landing of each of its transfers, the departure of each. It owes those units at launch (`O₀`). -/

noncomputable section

namespace Cert.Kernel.Proto

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (Gc : (c : Dev nD) → Buf (Elt F) ((c : Thread nD τ).loc cc0_scratch1))

/-- The neighbours in the order the program visits them. -/
def L31 : List (Fin 32) := [1, 2, 3, 4, 5, 6, 7, 8, 9, 10, 11, 12, 13, 14, 15, 16, 17, 18, 19, 20, 21, 22, 23, 24, 25, 26, 27, 28, 29, 30, 31]
theorem L31_toFinset : L31.toFinset = E31 := by decide
theorem L31_nodup : L31.Nodup := by decide

/-- What a device owes: the landing credit of each of its transfers, and a unit on each neighbour's barrier cell. -/
def owedRecv (c : Dev nD) (es : List (Fin 32)) : CellTallies nD τ sig Unit := (es.map fun e => tallyAt (recvCell (peer c e) e) () N).sum
def owedBar (c : Dev nD) (js : List (Fin 32)) : CellTallies nD τ sig Unit := (js.map fun j => tallyAt (barCell (peer c j)) () 1).sum
def O₀ (c : Dev nD) : CellTallies nD τ sig Unit := owedRecv c L31 + owedBar c L31

/-- Every TensorCore cell has the one index; barrier cells sit at level 1, receive cells at 2, everything else at 0. -/
def L (g : GSem nD τ sig) : Finset Unit := if g.1.2 = .tc then {()} else ∅
def lv (g : GSem nD τ sig) (_ : Unit) : ℕ :=
  match g.2 with
  | .reg s => if s = barS then 1 else 0
  | .dma k => if 33 ≤ k.val ∧ k.val ≤ 64 then 2 else 0

/-! ## The ghost state -/

def records (K : Dev nD × Fin 66 → ℕ) : sProp 𝕄 :=
  iprop((bigSep Finset.univ fun ck : Dev nD × Fin 66 => cellInv ER (ringRd m Gc) (K ck) (kcell ck))
    ∗ bigSep Finset.univ fun ck : Dev nD × Fin 66 => reached ER (kcell ck) 0)

instance records_persistent (K : Dev nD × Fin 66 → ℕ) : BI.Persistent (records (F := F) m Gc K) := by unfold records; infer_instance

/-- The tokens of the duties device `c` pays: on the barrier cell of its `j`-th neighbour the duty that neighbour knows it by
    (`neg j`: `c` is its `neg j`-th neighbour), the landing of its `e`-th transfer, the departure of its `e`-th transfer, and its local copy. -/
def payToks (c : Dev nD) : sProp 𝕄 :=
  iprop((bigSep E31 fun j => dutyTok ER (barCell (peer c j)) 0 (neg j))
    ∗ (bigSep E31 fun e => dutyTok ER (recvCell (peer c e) e) 0 (0 : Fin 32))
    ∗ (bigSep E31 fun e => dutyTok ER (sendCell c e) 0 (0 : Fin 32))
    ∗ dutyTok ER (cpyCell c) 0 (0 : Fin 32))
def linear (c : Dev nD) : sProp 𝕄 :=
  iprop((bigSep Finset.univ fun k : Fin 66 => atPos ER (kcell (c, k)) 0 (∅ : Finset (Fin 32)) 0) ∗ payToks c)
def ghost (K : Dev nD × Fin 66 → ℕ) (c : Dev nD) : sProp 𝕄 := iprop(records m Gc K ∗ linear c)

/-- What a device's body starts from: the ghost state at some names, the credit for the 31 units its barrier cell will
    receive and for each landing on its slots, and the level facts. -/
def start (c : Dev nD) : sProp 𝕄 :=
  iprop((∃ K, ghost m Gc K c) ∗ cred (tallyAt (barCell c) () 31) ∗ (bigSep E31 fun e => cred (tallyAt (recvCell c e) () N))
    ∗ levAts L lv)

/-- Before the kernel's one point: the start, the two scratch buffers at any contents, the input array. -/
def Φ₀ (c : Dev nD) : sProp 𝕄 := iprop(start m Gc c ∗ (∃ f, xvPts c f) ∗ (∃ f, gPts c f) ∗ argPts m c)
/-- After it: the scratch buffers, the input array, and the 65 DMA cells closed (their counters at zero). -/
def Φ₁ (c : Dev nD) : sProp 𝕄 :=
  iprop((∃ f, xvPts c f) ∗ (∃ f, gPts c f) ∗ argPts m c
    ∗ (bigSep (Finset.univ.erase (0 : Fin 66)) fun k => semVal (kcell (c, k)) 0))

/-- The kernel's result on device `c`. -/
def outAt (c : Dev nD) : (cc0_stg0_0 : Ref sig .tc).ty.Contents (Elt F) := k0_pay1 (Gc c)

def dats (_ : Fin 1) (c : Dev nD) : Dat τ (Elt F) Unit ℕ UU ℕ cfg0 c where
  A w := m ((cfg0.win w).arr.view.loc (c : Thread nD τ))
  after w _ := match w with
    | ⟨0, _⟩ => outAt Gc c
  Φ t := match t with
    | ⟨0, _⟩ => Φ₀ m Gc c
    | ⟨_ + 1, _⟩ => Φ₁ m c
  q _ := fullShare
  owed t := match t with
    | ⟨0, _⟩ => O₀ c
    | ⟨_ + 1, _⟩ => 0

abbrev 𝒱₀ : Variants := Variants.none

end Cert.Kernel.Proto

end
-- ==== Proof.LaunchK.lean ====
import proofs.«900948_g7700000000000949_dist_mean_ax0_shard0_i_m2048_n1024_v7x_i32_f32_1_alg».proof.Proof.GhostK
import proofs.«900948_g7700000000000949_dist_mean_ax0_shard0_i_m2048_n1024_v7x_i32_f32_1_alg».proof.Proof.Gen.Kernel.Points

/-! # The launch

From "every device's body is proved" to the run of the whole 32-device program: the protocol's launch element (every
cell of every device at round 0, the duty tokens minted), the invariants of all 66 cells of every device allocated
under one update, the tokens dealt around the ring to the devices that pay them, each device's launch credit, and
the side conditions under which the pipeline's invariant is entered and left. -/

noncomputable section

namespace Cert.Kernel.Proto

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (Gc : (c : Dev nD) → Buf (Elt F) ((c : Thread nD τ).loc cc0_scratch1))

namespace Launch

/-! ## The kernel's own semaphores and the cells -/

/-- The 65 scoped DMA semaphores the kernel names: the 32 send, the 32 receive, the local copy's. -/
abbrev osem : Fin 65 → SemLoc sig := fun k => .dma ⟨k.val + 1, by have := k.isLt; show k.val + 1 < 66; omega⟩

theorem ownSemFacts : Pipeline.OwnSemFacts cfg0.spec osem :=
  ⟨fun k => by revert k; decide,
   fun a b h => Fin.ext (Nat.succ.inj (congrArg Fin.val (SemLoc.dma.inj h))),
   fun k w s h => by
     have h2 : ∀ (w : Fin cfg0.W) (s : Fin (cfg0.spec w).nbuf), ((cfg0.spec w).sem s).val = 0 := by decide
     have h1 := congrArg Fin.val (SemLoc.dma.inj h)
     rw [h2] at h1; exact Nat.succ_ne_zero _ h1⟩

theorem share_eq (c : Dev nD) (w : Fin cfg0.W) : (dats m Gc 0 c).share w = fullShare := by unfold Dat.share; split <;> rfl

theorem csem_zero : csem 0 = .reg barS := rfl
theorem csem_succ (k : Fin 65) : csem k.succ = osem k := by
  show (if k.succ.val = 0 then SemLoc.reg barS else .dma ⟨k.succ.val, k.succ.isLt⟩) = _
  rw [if_neg (by rw [Fin.val_succ]; exact Nat.succ_ne_zero _)]; rfl

theorem csem_injective : Function.Injective csem := by
  intro k k' h
  have e (k : Fin 66) : csem k = if k.val = 0 then SemLoc.reg barS else .dma ⟨k.val, k.isLt⟩ := rfl
  rw [e, e] at h
  by_cases hk : k.val = 0 <;> by_cases hk' : k'.val = 0
  · exact Fin.ext (hk.trans hk'.symm)
  · rw [if_pos hk, if_neg hk'] at h; cases h
  · rw [if_neg hk, if_pos hk'] at h; cases h
  · rw [if_neg hk, if_neg hk'] at h; exact Fin.ext (congrArg Fin.val (SemLoc.dma.inj h))

theorem kcell_injective : Function.Injective (kcell : Dev nD × Fin 66 → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

/-- All the protocol's cells: the 66 of every device. -/
def ringCells : Finset (GSem nD τ sig) := Finset.univ.map ⟨kcell, kcell_injective⟩

/-- The index of the send, receive cell of a neighbour's number. -/
def kSend (e : Fin 32) : Fin 66 := ⟨1 + e.val, by have := e.isLt; omega⟩
def kRecv (e : Fin 32) : Fin 66 := ⟨33 + e.val, by have := e.isLt; omega⟩

theorem kcell_bar (c : Dev nD) : kcell (c, 0) = barCell c := rfl
theorem kcell_send (c : Dev nD) (e : Fin 32) : kcell (c, kSend e) = sendCell c e := by
  have h : csem (kSend e) = .dma (sendS e) := by
    show (if (kSend e).val = 0 then SemLoc.reg barS else .dma ⟨(kSend e).val, (kSend e).isLt⟩) = _
    rw [if_neg (by show 1 + e.val ≠ 0; omega)]
    exact congrArg SemLoc.dma (Fin.ext (sendS_val e).symm)
  show ((c : Thread nD τ), csem (kSend e)) = _; rw [h]
theorem kcell_recv (c : Dev nD) (e : Fin 32) : kcell (c, kRecv e) = recvCell c e := by
  have h : csem (kRecv e) = .dma (recvS e) := by
    show (if (kRecv e).val = 0 then SemLoc.reg barS else .dma ⟨(kRecv e).val, (kRecv e).isLt⟩) = _
    rw [if_neg (by show 33 + e.val ≠ 0; omega)]
    exact congrArg SemLoc.dma (Fin.ext (recvS_val e).symm)
  show ((c : Thread nD τ), csem (kRecv e)) = _; rw [h]
theorem kcell_cpy (c : Dev nD) : kcell (c, 65) = cpyCell c := by
  have h : csem 65 = .dma cpyS := by
    show (if (65 : Fin 66).val = 0 then SemLoc.reg barS else .dma ⟨(65 : Fin 66).val, (65 : Fin 66).isLt⟩) = _
    rw [if_neg (by decide)]
    exact congrArg SemLoc.dma (Fin.ext cpyS_val.symm)
  show ((c : Thread nD τ), csem 65) = _; rw [h]

/-! ## The minted tokens -/

/-- The duty tokens minted, by (neighbour's number, kind): a barrier cell's duty `e`; the send cell `e`'s and the receive
    cell `e`'s one duty; the local copy's. (Those at number 0 of the first three kinds, and at a number other than 0 of the last, name no
    duty of the schedule and are let go.) -/
def tokK (ej : Fin 32 × Fin 4) : Fin 66 × Fin 32 :=
  match ej.2 with
  | 0 => (0, ej.1) | 1 => (kSend ej.1, 0) | 2 => (kRecv ej.1, 0) | 3 => (65, ej.1)
theorem tokK_injective : Function.Injective tokK := by decide +kernel

abbrev tokOf (x : Dev nD × Fin 32 × Fin 4) : GSem nD τ sig × ℕ × Fin 32 := (kcell (x.1, (tokK x.2).1), 0, (tokK x.2).2)
theorem tokOf_injective : Function.Injective (tokOf : Dev nD × Fin 32 × Fin 4 → GSem nD τ sig × ℕ × Fin 32) := by
  rintro ⟨c, ej⟩ ⟨c', ej'⟩ h
  have h1 := kcell_injective (congrArg (fun x : GSem nD τ sig × ℕ × Fin 32 => x.1) h)
  have h2 : (tokK ej).2 = (tokK ej').2 := congrArg (fun x : GSem nD τ sig × ℕ × Fin 32 => x.2.2) h
  have h3 : c = c' := congrArg Prod.fst h1
  have h4 : (tokK ej).1 = (tokK ej').1 := congrArg Prod.snd h1
  have h5 : ej = ej' := tokK_injective (Prod.ext h4 h2)
  rw [h3, h5]
def ringToks : Finset (GSem nD τ sig × ℕ × Fin 32) := Finset.univ.map ⟨tokOf, tokOf_injective⟩

/-- The launch element: the pipeline's and the protocol's. -/
def u₀ : UU :=
  (initOf (Pipeline.cells cfgs cellOf_inj) (Pipeline.launchToks cfgs cellOf_inj), initOf ringCells ringToks)

/-- The tokens minted on device `c`'s cells, by neighbour's number. -/
def toksU (c : Dev nD) : sProp 𝕄 :=
  bigSep Finset.univ fun e : Fin 32 =>
    iprop(dutyTok ER (kcell (c, 0)) 0 e ∗ dutyTok ER (kcell (c, kSend e)) 0 (0 : Fin 32) ∗ dutyTok ER (kcell (c, kRecv e)) 0 (0 : Fin 32)
      ∗ dutyTok ER (kcell (c, 65)) 0 e)

/-- What the launch element deals device `c`: its 66 cells' round states at counter zero, their positions and round-0 marks, its tokens. -/
def G (c : Dev nD) : sProp 𝕄 :=
  iprop((bigSep Finset.univ fun k : Fin 66 => roundState ER (ringRd m Gc) (kcell (c, k)) 0)
    ∗ (bigSep Finset.univ fun k : Fin 66 => iprop(atPos ER (kcell (c, k)) 0 ∅ 0 ∗ reached ER (kcell (c, k)) 0)) ∗ toksU c)

/-- What the global step makes of it. -/
def G' (c : Dev nD) : sProp 𝕄 := iprop(∃ K, ghost m Gc K c)

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem fund_ring : BI.own (ER (initOf ringCells ringToks)) ⊢ (|==> bigSep Finset.univ (G m Gc) : sProp 𝕄) := by
  have hX (Φ : GSem nD τ sig → sProp 𝕄) : bigSep ringCells Φ = bigSep Finset.univ fun c : Dev nD => bigSep Finset.univ fun k : Fin 66 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toksU c := by
    unfold ringToks; rw [bigSep_map, bigSep_univ_prod]
    exact bigSep_congr fun c _ => by
      unfold toksU; rw [bigSep_univ_prod]
      exact bigSep_congr fun e _ => by rw [bigSep_fin4]; rfl
  iintro HX
  imod (Rounds.fund ER (ringRd m Gc) ringCells ringToks) $$ HX with ⟨Hst, Hr, Hat, Htok⟩
  imodintro
  ihave Hst' := (Entails.of_eq (hX fun g => roundState ER (ringRd m Gc) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt around the ring -/

theorem erase_zero_eq : (Finset.univ.erase (0 : Fin 66)) = Finset.univ.map (Fin.succEmb 65) := by
  ext k
  simp only [Finset.mem_erase, Finset.mem_univ, and_true, Finset.mem_map, true_and, Fin.coe_succEmb]
  constructor
  · intro h; exact ⟨k.pred h, Fin.succ_pred k h⟩
  · rintro ⟨j, rfl⟩; exact Fin.succ_ne_zero j

omit [FloatOps F] in
theorem bigSep_erase_zero (Φ : Fin 66 → sProp 𝕄) : bigSep (Finset.univ.erase (0 : Fin 66)) Φ = bigSep Finset.univ fun k : Fin 65 => Φ k.succ := by
  rw [erase_zero_eq, bigSep_map]; rfl

omit [FloatOps F] in
/-- The DMA cells' counters, all but the barrier cell's, are the kernel's own 65 semaphores'. -/
theorem ownSems0_eq (c : Dev nD) : (Pipeline.ownSems0 (Ix := Unit) (Name := ℕ) (U := UU) (Lvl := ℕ) (Val := Elt F) (τ := τ) osem c : sProp 𝕄)
    = bigSep (Finset.univ.erase (0 : Fin 66)) fun k => semVal (kcell (c, k)) 0 := by
  rw [bigSep_erase_zero]; unfold Pipeline.ownSems0
  exact bigSep_congr fun k _ => by
    show _ = semVal ((c : Thread nD τ), csem k.succ) 0
    rw [csem_succ]
omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 66 => semVal (kcell (c, k)) 0 : sProp 𝕄) := by
  rw [ownSems0_eq, unscopedSems0_eq, bigSep_univ_at (fun k : Fin 66 => (semVal (kcell (c, k)) 0 : sProp 𝕄)) 0]
  iintro ⟨HS, HB⟩
  isplitl [HB]; · iexact HB
  iexact HS

omit [FloatOps F] in
theorem core_alloc (c : Dev nD) :
    iprop(Pipeline.ownSems0 (Ix := Unit) (Name := ℕ) (U := UU) (Lvl := ℕ) (Val := Elt F) (τ := τ) osem c ∗ unscopedSems0 c ∗ G m Gc c)
      ⊢ |={Set.univ}=> iprop((bigSep Finset.univ fun k => iprop(∃ κ : ℕ, cellInv ER (ringRd m Gc) κ (kcell (c, k))))
          ∗ (bigSep Finset.univ fun k : Fin 66 => iprop(atPos ER (kcell (c, k)) 0 ∅ 0 ∗ reached ER (kcell (c, k)) 0)) ∗ toksU c) := by
  unfold G
  iintro ⟨Hos, Hus, Hst, Hat, Htok⟩
  ihave Hv := (sems0_eq (F := F) c) $$ [Hos Hus]
  · isplitl [Hos] <;> iassumption
  imod (show iprop((bigSep Finset.univ fun k : Fin 66 => semVal (kcell (c, k)) 0) ∗ bigSep Finset.univ fun k : Fin 66 => roundState ER (ringRd m Gc) (kcell (c, k)) 0)
      ⊢ (|={Set.univ}=> bigSep Finset.univ fun k => iprop(∃ κ : ℕ, cellInv ER (ringRd m Gc) κ (kcell (c, k))) : sProp 𝕄) from by
        rw [← bigSep_sep']
        exact (bigSep_mono fun k _ => (Rounds.body_intro ER (ringRd m Gc) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The way back round the ring, as a permutation of the neighbours' numbers. -/
def negE : Fin 32 ≃ Fin 32 := ⟨neg, neg, neg_neg, neg_neg⟩

omit [FloatOps F] in
/-- The tokens dealt around the ring: the barrier token `e` of device `d` to its `e`-th neighbour (whose `neg e`-th neighbour `d` is), the
    receive token `e` of device `d` to the device whose `e`-th neighbour `d` is; the send tokens and the copy's stay. -/
theorem toks_around : (bigSep Finset.univ fun c : Dev nD => (toksU c : sProp 𝕄)) ⊢ bigSep Finset.univ fun c : Dev nD => payToks c := by
  have h0 : (bigSep Finset.univ fun c : Dev nD => bigSep Finset.univ fun e : Fin 32 => (dutyTok ER (kcell (c, 0)) 0 e : sProp 𝕄))
      ⊢ bigSep Finset.univ fun c : Dev nD => bigSep E31 fun j => dutyTok ER (barCell (peer c j)) 0 (neg j) := by
    have e1 := bigSep_univ_comm (fun (c : Dev nD) (e : Fin 32) => (dutyTok ER (kcell (c, 0)) 0 e : sProp 𝕄))
    have e2 := bigSep_univ_equiv negE (fun e : Fin 32 => bigSep Finset.univ fun c : Dev nD => (dutyTok ER (kcell (c, 0)) 0 e : sProp 𝕄))
    have e3 : (bigSep Finset.univ fun j : Fin 32 => bigSep Finset.univ fun c : Dev nD => (dutyTok ER (kcell (c, 0)) 0 (negE j) : sProp 𝕄))
        = bigSep Finset.univ fun j : Fin 32 => bigSep Finset.univ fun c : Dev nD => (dutyTok ER (barCell (peer c j)) 0 (neg j) : sProp 𝕄) :=
      bigSep_congr fun j _ => bigSep_univ_equiv (ring j) (fun d : Dev nD => (dutyTok ER (kcell (d, 0)) 0 (negE j) : sProp 𝕄))
    have e4 := bigSep_univ_comm (fun (j : Fin 32) (c : Dev nD) => (dutyTok ER (barCell (peer c j)) 0 (neg j) : sProp 𝕄))
    rw [e1, e2, e3, e4]
    exact bigSep_mono fun c _ => bigSep_subset (Finset.subset_univ _)
  have h1 : (bigSep Finset.univ fun c : Dev nD => bigSep Finset.univ fun e : Fin 32 => (dutyTok ER (kcell (c, kSend e)) 0 (0 : Fin 32) : sProp 𝕄))
      ⊢ bigSep Finset.univ fun c : Dev nD => bigSep E31 fun e => dutyTok ER (sendCell c e) 0 (0 : Fin 32) :=
    bigSep_mono fun c _ => (bigSep_subset (Finset.subset_univ E31)).trans (Entails.of_eq (bigSep_congr fun e _ => by rw [kcell_send]))
  have h2 : (bigSep Finset.univ fun c : Dev nD => bigSep Finset.univ fun e : Fin 32 => (dutyTok ER (kcell (c, kRecv e)) 0 (0 : Fin 32) : sProp 𝕄))
      ⊢ bigSep Finset.univ fun c : Dev nD => bigSep E31 fun e => dutyTok ER (recvCell (peer c e) e) 0 (0 : Fin 32) := by
    have e1 := bigSep_univ_comm (fun (c : Dev nD) (e : Fin 32) => (dutyTok ER (kcell (c, kRecv e)) 0 (0 : Fin 32) : sProp 𝕄))
    have e3 : (bigSep Finset.univ fun e : Fin 32 => bigSep Finset.univ fun c : Dev nD => (dutyTok ER (kcell (c, kRecv e)) 0 (0 : Fin 32) : sProp 𝕄))
        = bigSep Finset.univ fun e : Fin 32 => bigSep Finset.univ fun c : Dev nD => (dutyTok ER (kcell (peer c e, kRecv e)) 0 (0 : Fin 32) : sProp 𝕄) :=
      bigSep_congr fun e _ => bigSep_univ_equiv (ring e) (fun d : Dev nD => (dutyTok ER (kcell (d, kRecv e)) 0 (0 : Fin 32) : sProp 𝕄))
    have e4 := bigSep_univ_comm (fun (e : Fin 32) (c : Dev nD) => (dutyTok ER (kcell (peer c e, kRecv e)) 0 (0 : Fin 32) : sProp 𝕄))
    rw [e1, e3, e4]
    exact bigSep_mono fun c _ => (bigSep_subset (Finset.subset_univ E31)).trans (Entails.of_eq (bigSep_congr fun e _ => by rw [kcell_recv]))
  have h3 : (bigSep Finset.univ fun c : Dev nD => bigSep Finset.univ fun e : Fin 32 => (dutyTok ER (kcell (c, 65)) 0 e : sProp 𝕄))
      ⊢ bigSep Finset.univ fun c : Dev nD => dutyTok ER (cpyCell c) 0 (0 : Fin 32) :=
    bigSep_mono fun c _ => show (bigSep Finset.univ fun e : Fin 32 => (dutyTok ER (kcell (c, 65)) 0 e : sProp 𝕄)) ⊢ dutyTok ER (cpyCell c) 0 (0 : Fin 32) from by
      rw [← kcell_cpy]; exact bigSep_elim (Finset.mem_univ (0 : Fin 32))
  unfold toksU payToks
  simp only [bigSep_sep']
  iintro ⟨H0, H1, H2, H3⟩
  isplitl [H0]; · iapply h0; iexact H0
  isplitl [H2]; · iapply h2; iexact H2
  isplitl [H1]; · iapply h1; iexact H1
  iapply h3; iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem ghost_intro (K : Dev nD × Fin 66 → ℕ) (c : Dev nD) : iprop(records m Gc K ∗ linear c) ⊢ G' m Gc c := by
  unfold G' ghost
  iintro H; iexists K; iexact H

omit [FloatOps F] in
theorem regroup :
    (bigSep Finset.univ fun c : Dev nD => iprop((bigSep Finset.univ fun k => iprop(∃ κ : ℕ, cellInv ER (ringRd m Gc) κ (kcell (c, k))))
          ∗ (bigSep Finset.univ fun k : Fin 66 => iprop(atPos ER (kcell (c, k)) 0 ∅ 0 ∗ reached ER (kcell (c, k)) 0)) ∗ toksU c) : sProp 𝕄)
      ⊢ bigSep Finset.univ (G' m Gc) := by
  rw [bigSep_sep', bigSep_sep', ← bigSep_univ_prod (fun ck : Dev nD × Fin 66 => iprop(∃ κ : ℕ, cellInv ER (ringRd m Gc) κ (kcell ck))),
    bigSep_congr (s := Finset.univ) (fun (c : Dev nD) _ => bigSep_sep' Finset.univ (fun k : Fin 66 => (atPos ER (kcell (c, k)) 0 ∅ 0 : sProp 𝕄)) (fun k => reached ER (kcell (c, k)) 0)),
    bigSep_sep', ← bigSep_univ_prod (fun ck : Dev nD × Fin 66 => (reached ER (kcell ck) 0 : sProp 𝕄))]
  iintro ⟨HI, ⟨Hat, #HR⟩, Htok⟩
  ihave HK := (BI.bigSep_exists_pi Finset.univ (fun (ck : Dev nD × Fin 66) (κ : ℕ) => (cellInv ER (ringRd m Gc) κ (kcell ck) : sProp 𝕄))) $$ HI
  icases HK with ⟨%K, #HI⟩
  ihave Htk := (toks_around (F := F)) $$ Htok
  iapply (bigSep_with_persistent (R := records m Gc K) fun c _ => ghost_intro m Gc K c)
  isplitr
  · unfold records; isplitl; · iexact HI
    iexact HR
  · iapply ((Entails.of_eq (bigSep_sep' Finset.univ (fun c : Dev nD => bigSep Finset.univ fun k : Fin 66 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m Gc c) : sProp 𝕄)
    ⊢ |={Set.univ}=> bigSep Finset.univ (G' m Gc) :=
  ((bigSep_mono fun c _ => core_alloc m Gc c).trans (bigSep_fupd _ _)).trans (BI.fupd_mono (regroup m Gc))

/-! ## The launch credit -/

omit [FloatOps F] in
theorem O₀_eq (d : Dev nD) :
    O₀ d = (∑ e ∈ E31, (tallyAt (recvCell (peer d e) e) () N : CellTallies nD τ sig Unit)) + ∑ j ∈ E31, (tallyAt (barCell (peer d j)) () 1 : CellTallies nD τ sig Unit) := by
  unfold O₀ owedRecv owedBar
  rw [← List.sum_toFinset _ L31_nodup, ← List.sum_toFinset _ L31_nodup, L31_toFinset]

omit [FloatOps F] in
theorem nsmul_tallyAt (g : GSem nD τ sig) (n : ℕ) : n • (tallyAt g () 1 : CellTallies nD τ sig Unit) = tallyAt g () n := by
  induction n with
  | zero => rw [zero_smul, tallyAt_zero]
  | succ n ih => rw [succ_nsmul, ih, tallyAt_add]

omit [FloatOps F] in
/-- Each of the 31 other devices owes `c`'s barrier cell one unit; the device whose `e`-th neighbour `c` is owes `c`'s receive cell `e` a slot's credit. -/
theorem creds (c : Dev nD) :
    (Pipeline.launchCred O₀ c : sProp 𝕄) ⊢ iprop(cred (tallyAt (barCell c) () 31) ∗ bigSep E31 fun e => cred (tallyAt (recvCell c e) () N)) := by
  have hO : (O₀ : Dev nD → CellTallies nD τ sig Unit)
      = fun d => (∑ e ∈ E31, (fun (e : Fin 32) (d : Dev nD) => (tallyAt (recvCell (peer d e) e) () N : CellTallies nD τ sig Unit)) e d)
          + ∑ j ∈ E31, (fun (j : Fin 32) (d : Dev nD) => (tallyAt (barCell (peer d j)) () 1 : CellTallies nD τ sig Unit)) j d := funext O₀_eq
  have hbar : (bigSep E31 fun _ : Fin 32 => (cred (tallyAt (barCell c) () 1) : sProp 𝕄)) = cred (tallyAt (barCell c) () 31) := by
    rw [← Pipeline.cred_finsetSum, Finset.sum_const, card_E31, nsmul_tallyAt]
  have hB : (bigSep E31 fun j : Fin 32 => (Pipeline.launchCred (fun d : Dev nD => (tallyAt (barCell (peer d j)) () 1 : CellTallies nD τ sig Unit)) c : sProp 𝕄))
      ⊢ cred (tallyAt (barCell c) () 31) :=
    (bigSep_mono fun (j : Fin 32) _ => Pipeline.launchCred_tallyAt (.reg barS) (fun d => peer d j) (fun d => peer d (neg j))
      (fun d => peer_neg_peer d j) (fun d => peer_peer_neg d j) () 1 c).trans (Entails.of_eq hbar)
  have hR : (bigSep E31 fun e : Fin 32 => (Pipeline.launchCred (fun d : Dev nD => (tallyAt (recvCell (peer d e) e) () N : CellTallies nD τ sig Unit)) c : sProp 𝕄))
      ⊢ bigSep E31 fun e => cred (tallyAt (recvCell c e) () N) :=
    bigSep_mono fun (e : Fin 32) _ => Pipeline.launchCred_tallyAt (.dma (recvS e)) (fun d => peer d e) (fun d => peer d (neg e))
      (fun d => peer_neg_peer d e) (fun d => peer_peer_neg d e) () N c
  rw [hO, Pipeline.launchCred_add, Pipeline.launchCred_sum, Pipeline.launchCred_sum]
  iintro ⟨HR, HB⟩
  isplitl [HB]
  · iapply hB; iexact HB
  · iapply hR; iexact HR

/-! ## The levels -/

omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl

omit [FloatOps F] in
theorem lv_recv (d : Dev nD) (e : Fin 32) : lv (recvCell d e) () = 2 := by
  show (if 33 ≤ (recvS e).val ∧ (recvS e).val ≤ 64 then 2 else 0) = 2
  rw [if_pos (by rw [recvS_val]; have := e.isLt; omega)]
omit [FloatOps F] in
theorem lv_bar (d : Dev nD) : lv (barCell d) () = 1 := by
  show (if barS = barS then 1 else 0) = 1
  rw [if_pos rfl]

omit [FloatOps F] in
theorem O₀_pos {c : Dev nD} {g : GSem nD τ sig} {u : Unit} (h : 0 < O₀ c g u) :
    (∃ e, g = recvCell (peer c e) e) ∨ (∃ j, g = barCell (peer c j)) := by
  rw [O₀_eq] at h
  rcases Pipeline.add_pos_cases h with h | h
  · obtain ⟨e, _, he⟩ := Pipeline.sum_pos_exists h
    exact Or.inl ⟨e, (Pipeline.tallyAt_pos he).1⟩
  · obtain ⟨j, _, hj⟩ := Pipeline.sum_pos_exists h
    exact Or.inr ⟨j, (Pipeline.tallyAt_pos hj).1⟩

omit [FloatOps F] in
/-- The output window's staging semaphore sits at level 0, below every cell a device owes at launch. -/
theorem mayWait_stage (c : Dev nD) (q : DmaSem sig) (hq : q.val = 0) (O : CellTallies nD τ sig Unit) (hO : O = O₀ c ∨ O = 0) :
    (levAts L lv : sProp 𝕄) ⊢ MayWait (c : Thread nD τ) (.dma q) () O := by
  rcases hO with rfl | rfl
  · have h0 : lv ((c : Thread nD τ), .dma q) () = 0 := by
      show (if 33 ≤ q.val ∧ q.val ≤ 64 then 2 else 0) = 0
      rw [if_neg (by omega)]
    refine Pipeline.mayWait_of_levAts (by rw [L_tc]; exact Finset.mem_singleton_self _) fun g i hg => ?_
    cases i
    rcases O₀_pos hg with ⟨e, rfl⟩ | ⟨j, rfl⟩
    · exact ⟨by rw [L_tc]; exact Finset.mem_singleton_self _, by rw [h0, lv_recv]; decide⟩
    · exact ⟨by rw [L_tc]; exact Finset.mem_singleton_self _, by rw [h0, lv_bar]; decide⟩
  · rw [MayWait_zero]; iintro -; iempintro

theorem waits (c : Dev nD) : (levAts L lv : sProp 𝕄) ⊢ Pipeline.cellsWaits cfgs (dats m Gc) () 0 c :=
  Pipeline.cellsWaits_intro cfgs (dats m Gc) () 0 c fun w s t =>
    mayWait_stage c _ (by revert w s; decide) _ (by
      rcases t with ⟨_ | _, ht⟩
      · exact Or.inl rfl
      · exact Or.inr rfl)

/-! ## The side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m Gc c)
      ⊢ |={Set.univ}=> iprop((start m Gc c ∗ argPts m c) ∗ emp) := by
  rw [Pipeline.unscopedRestP_none, unscopedRest0_eq]
  iintro ⟨Harg, Hlev, Hcr, -, HG⟩
  ihave Hc := (creds (F := F) c) $$ Hcr
  icases Hc with ⟨H1, HN⟩
  imodintro
  unfold start G' argPts X
  isplitl
  · isplitr [Harg]
    · isplitl [HG]; · iexact HG
      isplitl [H1]; · iexact H1
      isplitl [HN]; · iexact HN
      iexact Hlev
    · iexact Harg
  · iempintro

theorem phi0_intro (c : Dev nD) :
    iprop((start m Gc c ∗ argPts m c) ∗ Pipeline.prefHeld Pipeline.Prefetch.none c (fun _ => fullShare.right) (fun k => k.elim0) ∗ Pipeline.scopedRest cfg0.spec c)
      ⊢ (dats m Gc 0 c).Φ 0 := by
  rw [show (dats m Gc 0 c).Φ 0 = Φ₀ m Gc c from rfl, scopedRest0_eq]
  unfold Φ₀ xvPts gPts
  iintro ⟨⟨Hs, Harg⟩, -, ⟨%f, Hx⟩, ⟨%g, Hg⟩⟩
  isplitl [Hs]; · iexact Hs
  isplitl [Hx]; · iexists f; iexact Hx
  isplitl [Hg]; · iexists g; iexact Hg
  iexact Harg

theorem phi1_exit (c : Dev nD) :
    (dats m Gc 0 c).Φ (Fin.last cfg0.N) ⊢ iprop(argPts m c ∗ Pipeline.ownSems0 osem c ∗ Pipeline.scopedRest cfg0.spec c) := by
  rw [show (dats m Gc 0 c).Φ (Fin.last cfg0.N) = Φ₁ m c from rfl, scopedRest0_eq, ownSems0_eq]
  unfold Φ₁ xvPts gPts
  iintro ⟨⟨%f, Hx⟩, ⟨%g, Hg⟩, Harg, Hs⟩
  isplitl [Harg]; · iexact Harg
  isplitl [Hs]; · iexact Hs
  isplitl [Hx]; · iexists f; iexact Hx
  iexists g; iexact Hg

end Launch

open Launch

/-! ## The result array after the run -/

/-- Window 0's block at the one point is the whole result array and is written back there: the array ends holding what the
    body left in the staging buffer. -/
theorem finalOut (c : Dev nD) : (dats (F := F) m Gc 0 c).arrAt (0 : Fin 1) cfg0.N = outAt Gc c := by
  have hz : (fun a => (cfg0.win (0 : Fin 1)).index t0_0 a * (cfg0.win (0 : Fin 1)).size a) = fun _ => 0 := funext fun a => Nat.zero_mul _
  rw [show cfg0.N = (t0_0 : Fin cfg0.N).val + 1 from rfl, (dats (F := F) m Gc 0 c).arrAt_succ (0 : Fin 1) t0_0, flush0_0 t0_0, if_pos rfl]
  exact Memref.write_access_unit_zero_univ (Elt F) main_v1 hz _ _ _

/-! ## The run -/

set_option maxRecDepth 8000 in
/-- At the compiled mesh of 32 devices, for any float values, from any memory with zero counters, given each device's body: every weakly
    fair execution of @main terminates, and every final state has each device's result array at the contents the pipeline's
    write-back leaves and its input array as launched. -/
theorem run_main (hbody : ∀ c : Dev nD, BodyObligation (dats (F := F) m Gc 0 c) (defs₀ (F := F)) 𝒱₀ () Set.univ) :
    θ_run defs (onTc (τ := τ) (main (F := F))) (⟨m, fun _ => 0, ρ⟩ : MemSt nD τ sig (Elt F)) (fun r => ∀ c : Dev nD,
      r.2.mem ((cfg0.win (0 : Fin 1)).arr.view.loc (c.tc : Thread nD τ)) = (dats m Gc 0 c).arrAt (0 : Fin 1) cfg0.N
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m Gc) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m Gc)
    (hdistinct := winFacts0.arr_inj)
    (O₀ := O₀) (howed₀ := fun _ => rfl) (howedN := fun _ => rfl)
    (L := L) (lv := lv) (hL := L_of_ne) (hwaits := waits m Gc)
    (G := G m Gc) (G' := G' m Gc) (u₀ := u₀)
    (hu₀ := by
      unfold u₀
      iintro Hu
      ihave H := (ownU_pair _ _) $$ Hu
      icases H with ⟨HP, HX⟩
      imod (fund_ring m Gc) $$ HX with HG
      imodintro
      isplitl [HP] <;> iassumption)
    (hglob := glob m Gc)
    (hA := fun _ _ => rfl) (hpf := fun _ k => k.elim0)
    (X := fun c => iprop(start m Gc c ∗ argPts m c)) (Y := argPts m) (Z := fun _ => iprop(emp))
    (hX := start_intro m ρ Gc) (hin := phi0_intro m Gc) (hout := phi1_exit m Gc)
    (QY := fun c s => s.mem ((c.tc : Thread nD τ).loc main_arg0) = m ((c.tc : Thread nD τ).loc main_arg0))
    (hY := fun c s' => by
      iintro ⟨Hx, -, HSI⟩
      unfold argPts X
      icombine HSI Hx gives %hx
      imodintro
      isplitr; · ipureintro; exact Buf.eq_of_forall_mem_univ hx
      iexact HSI)
    (hQ := fun _ h c => ⟨(h c).1 0, (h c).2.2⟩)

/-- The run with the result named: every final state has each device's result array holding the body's payload of its gather
    buffer's final contents, and its input array as launched. -/
theorem run_out (hbody : ∀ c : Dev nD, BodyObligation (dats (F := F) m Gc 0 c) (defs₀ (F := F)) 𝒱₀ () Set.univ) :
    θ_run defs (onTc (τ := τ) (main (F := F))) (⟨m, fun _ => 0, ρ⟩ : MemSt nD τ sig (Elt F)) (fun r => ∀ c : Dev nD,
      r.2.mem ((c.tc : Thread nD τ).loc main_v1) = k0_pay1 (Gc c)
      ∧ r.2.mem ((c.tc : Thread nD τ).loc main_arg0) = m ((c.tc : Thread nD τ).loc main_arg0)) :=
  (θ_run defs _ _).mono (fun _ h c => ⟨((h c).1).trans (finalOut m Gc c), (h c).2⟩) (run_main m ρ Gc hbody)

/-- info: 'Cert.Kernel.Proto.run_out' depends on axioms: [propext, Classical.choice, Quot.sound] -/
#guard_msgs in #print axioms run_out

/-- info: 'Cert.Kernel.Proto.run_main' depends on axioms: [propext, Classical.choice, Quot.sound] -/
#guard_msgs in #print axioms run_main

end Cert.Kernel.Proto

end
-- ==== Proof.TablesK.lean ====
import proofs.«900948_g7700000000000949_dist_mean_ax0_shard0_i_m2048_n1024_v7x_i32_f32_1_alg».proof.Proof.SchedK
import proofs.«900948_g7700000000000949_dist_mean_ax0_shard0_i_m2048_n1024_v7x_i32_f32_1_alg».proof.Proof.GhostK

/-! # The schedule's tables, cell by cell

Each device has 66 cells: the barrier cell, 32 send cells, 32 receive cells and the local copy's cell. Round 0 of a barrier
cell has one duty of one unit per neighbour; round 0 of the send and receive cells of a neighbour proper has the one duty of a
slot's words; round 0 of the local copy's cell has the one duty of a block's words; the two cells of the device's own number
have no duty, and no cell has a later round. -/

noncomputable section

namespace Cert.Kernel.Proto

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)
variable (Gc : (c : Dev nD) → Buf (Elt F) ((c : Thread nD τ).loc cc0_scratch1))

def sIdx (e : Fin 32) : Fin 66 := ⟨1 + e.val, by have := e.isLt; omega⟩
def rIdx (e : Fin 32) : Fin 66 := ⟨33 + e.val, by have := e.isLt; omega⟩
def cIdx : Fin 66 := ⟨65, by omega⟩

theorem csem_sIdx (e : Fin 32) : csem (sIdx e) = .dma (sendS e) := by
  have h : ¬ (sIdx e).val = 0 := by show ¬ 1 + e.val = 0; omega
  show (if (sIdx e).val = 0 then (SemLoc.reg barS : SemLoc sig) else .dma ⟨(sIdx e).val, (sIdx e).isLt⟩) = _
  rw [if_neg h]; exact congrArg SemLoc.dma (Fin.ext (sendS_val e).symm)
theorem csem_rIdx (e : Fin 32) : csem (rIdx e) = .dma (recvS e) := by
  have h : ¬ (rIdx e).val = 0 := by show ¬ 33 + e.val = 0; omega
  show (if (rIdx e).val = 0 then (SemLoc.reg barS : SemLoc sig) else .dma ⟨(rIdx e).val, (rIdx e).isLt⟩) = _
  rw [if_neg h]; exact congrArg SemLoc.dma (Fin.ext (recvS_val e).symm)
theorem csem_cIdx : csem cIdx = .dma cpyS := by
  have h : ¬ cIdx.val = 0 := by show ¬ 65 = 0; omega
  show (if cIdx.val = 0 then (SemLoc.reg barS : SemLoc sig) else .dma ⟨cIdx.val, cIdx.isLt⟩) = _
  rw [if_neg h]; exact congrArg SemLoc.dma (Fin.ext cpyS_val.symm)

theorem kcell_bar (c : Dev nD) : kcell (c, (0 : Fin 66)) = barCell c := rfl
theorem kcell_send (c : Dev nD) (e : Fin 32) : kcell (c, sIdx e) = sendCell c e := by
  show ((c : Thread nD τ), csem (sIdx e)) = _; rw [csem_sIdx]
theorem kcell_recv (c : Dev nD) (e : Fin 32) : kcell (c, rIdx e) = recvCell c e := by
  show ((c : Thread nD τ), csem (rIdx e)) = _; rw [csem_rIdx]
theorem kcell_cpy (c : Dev nD) : kcell (c, cIdx) = cpyCell c := by
  show ((c : Thread nD τ), csem cIdx) = _; rw [csem_cIdx]

/-! ## Duties: who pays round 0 of each cell -/

theorem duties_bar (c : Dev nD) : (ringRd (F := F) m Gc).duties (barCell c) 0 = E31 := by
  have h1 : (0 : ℕ) = 0 ∧ (barCell c).1.2 = .tc := ⟨rfl, rfl⟩
  dsimp only [ringRd]; rw [if_pos h1]; exact if_pos rfl
theorem duties_send (c : Dev nD) {e : Fin 32} (he : e ≠ 0) : (ringRd (F := F) m Gc).duties (sendCell c e) 0 = {0} := by
  have h1 : (0 : ℕ) = 0 ∧ (sendCell c e).1.2 = .tc := ⟨rfl, rfl⟩
  have h2 : (1 ≤ (sendS e).val ∧ (sendS e).val ≤ 64 ∧ slotOf (sendS e) ≠ 0) ∨ (sendS e).val = 65 :=
    .inl ⟨by rw [sendS_val]; omega, by rw [sendS_val]; have := e.isLt; omega, by rw [slotOf_send]; exact he⟩
  dsimp only [ringRd]; rw [if_pos h1]; exact if_pos h2
theorem duties_recv (c : Dev nD) {e : Fin 32} (he : e ≠ 0) : (ringRd (F := F) m Gc).duties (recvCell c e) 0 = {0} := by
  have h1 : (0 : ℕ) = 0 ∧ (recvCell c e).1.2 = .tc := ⟨rfl, rfl⟩
  have h2 : (1 ≤ (recvS e).val ∧ (recvS e).val ≤ 64 ∧ slotOf (recvS e) ≠ 0) ∨ (recvS e).val = 65 :=
    .inl ⟨by rw [recvS_val]; omega, by rw [recvS_val]; have := e.isLt; omega, by rw [slotOf_recv]; exact he⟩
  dsimp only [ringRd]; rw [if_pos h1]; exact if_pos h2
theorem duties_cpy (c : Dev nD) : (ringRd (F := F) m Gc).duties (cpyCell c) 0 = {0} := by
  have h1 : (0 : ℕ) = 0 ∧ (cpyCell c).1.2 = .tc := ⟨rfl, rfl⟩
  have h2 : (1 ≤ (cpyS).val ∧ (cpyS).val ≤ 64 ∧ slotOf cpyS ≠ 0) ∨ (cpyS).val = 65 := .inr cpyS_val
  dsimp only [ringRd]; rw [if_pos h1]; exact if_pos h2
theorem duties_later (g : GSem nD τ sig) : ∀ r, 1 ≤ r → (ringRd (F := F) m Gc).duties g r = ∅ :=
  fun r hr => by dsimp only [ringRd]; exact if_neg fun h => absurd h.1 (by omega)
/-- The send cell of the device's own number is never paid: its semaphore is number 1, whose neighbour's number is 0. -/
theorem duties_send0 (c : Dev nD) : ∀ r, 0 ≤ r → (ringRd (F := F) m Gc).duties (sendCell c 0) r = ∅ := by
  intro r _
  have h2 : ¬ ((1 ≤ (sendS 0).val ∧ (sendS 0).val ≤ 64 ∧ slotOf (sendS 0) ≠ 0) ∨ (sendS 0).val = 65) := by
    rw [slotOf_send, sendS_val]; rintro (⟨_, _, h⟩ | h)
    · exact h rfl
    · exact absurd h (by decide)
  dsimp only [ringRd]
  by_cases h1 : r = 0 ∧ (sendCell c 0).1.2 = .tc
  · rw [if_pos h1]; exact if_neg h2
  · exact if_neg h1
theorem duties_recv0 (c : Dev nD) : ∀ r, 0 ≤ r → (ringRd (F := F) m Gc).duties (recvCell c 0) r = ∅ := by
  intro r _
  have h2 : ¬ ((1 ≤ (recvS 0).val ∧ (recvS 0).val ≤ 64 ∧ slotOf (recvS 0) ≠ 0) ∨ (recvS 0).val = 65) := by
    rw [slotOf_recv, recvS_val]; rintro (⟨_, _, h⟩ | h)
    · exact h rfl
    · exact absurd h (by decide)
  dsimp only [ringRd]
  by_cases h1 : r = 0 ∧ (recvCell c 0).1.2 = .tc
  · rw [if_pos h1]; exact if_neg h2
  · exact if_neg h1

theorem amount_bar (c : Dev nD) (d : Fin 32) : (ringRd (F := F) m Gc).amount (barCell c) 0 d = 1 := rfl
theorem amount_send (c : Dev nD) (e d : Fin 32) : (ringRd (F := F) m Gc).amount (sendCell c e) 0 d = N := by
  dsimp only [ringRd]; exact if_neg (by rw [sendS_val]; have := e.isLt; omega)
theorem amount_recv (c : Dev nD) (e d : Fin 32) : (ringRd (F := F) m Gc).amount (recvCell c e) 0 d = N := by
  dsimp only [ringRd]; exact if_neg (by rw [recvS_val]; have := e.isLt; omega)
theorem amount_cpy (c : Dev nD) (d : Fin 32) : (ringRd (F := F) m Gc).amount (cpyCell c) 0 d = NX := by
  dsimp only [ringRd]; exact if_pos cpyS_val

/-- The units a round expects are the sum of its duties' units. -/
theorem expect_eq (g : GSem nD τ sig) (r : ℕ) :
    (ringRd (F := F) m Gc).expect g r = ∑ d ∈ (ringRd (F := F) m Gc).duties g r, (ringRd (F := F) m Gc).amount g r d := rfl

theorem expect_bar (c : Dev nD) : (ringRd (F := F) m Gc).expect (barCell c) 0 = 31 := by
  rw [expect_eq, duties_bar]
  calc ∑ d ∈ E31, (ringRd (F := F) m Gc).amount (barCell c) 0 d = ∑ d ∈ E31, 1 :=
        Finset.sum_congr rfl fun d _ => amount_bar m Gc c d
    _ = 31 := by rw [Finset.sum_const, card_E31, smul_eq_mul]
theorem expect_send (c : Dev nD) {e : Fin 32} (he : e ≠ 0) : (ringRd (F := F) m Gc).expect (sendCell c e) 0 = N := by
  rw [expect_eq, duties_send m Gc c he, Finset.sum_singleton, amount_send]
theorem expect_recv (c : Dev nD) {e : Fin 32} (he : e ≠ 0) : (ringRd (F := F) m Gc).expect (recvCell c e) 0 = N := by
  rw [expect_eq, duties_recv m Gc c he, Finset.sum_singleton, amount_recv]
theorem expect_cpy (c : Dev nD) : (ringRd (F := F) m Gc).expect (cpyCell c) 0 = NX := by
  rw [expect_eq, duties_cpy, Finset.sum_singleton, amount_cpy]

theorem payload_bar (c : Dev nD) (d : Fin 32) : (ringRd (F := F) m Gc).payload (barCell c) 0 d = barPay c d := rfl
theorem payload_send (c : Dev nD) (e d : Fin 32) : (ringRd (F := F) m Gc).payload (sendCell c e) 0 d = sendPay Gc c e := by
  have h : (sendS e).val ≤ 32 := by rw [sendS_val]; have := e.isLt; omega
  dsimp only [ringRd]; rw [if_pos h, slotOf_send]
theorem payload_recv (c : Dev nD) (e d : Fin 32) : (ringRd (F := F) m Gc).payload (recvCell c e) 0 d = recvPay Gc c e := by
  have h : ¬ (recvS e).val ≤ 32 := by rw [recvS_val]; omega
  have h' : (recvS e).val ≤ 64 := by rw [recvS_val]; have := e.isLt; omega
  dsimp only [ringRd]; rw [if_neg h, if_pos h', slotOf_recv]
theorem payload_cpy (c : Dev nD) (d : Fin 32) : (ringRd (F := F) m Gc).payload (cpyCell c) 0 d = cpyPay m c := by
  have h : ¬ (cpyS).val ≤ 32 := by rw [cpyS_val]; omega
  have h' : ¬ (cpyS).val ≤ 64 := by rw [cpyS_val]; omega
  dsimp only [ringRd]; rw [if_neg h, if_neg h']

/-! ## What a wait for a whole round hands over -/

theorem rest_bar (c : Dev nD) :
    bigSep ((ringRd (F := F) m Gc).duties (barCell c) 0 \ ∅) (fun d => (ringRd (F := F) m Gc).payload (barCell c) 0 d) = bigSep E31 (fun e => barPay (F := F) c e) := by
  rw [Finset.sdiff_empty, duties_bar]; exact bigSep_congr fun d _ => payload_bar m Gc c d
theorem rest_send (c : Dev nD) {e : Fin 32} (he : e ≠ 0) :
    bigSep ((ringRd (F := F) m Gc).duties (sendCell c e) 0 \ ∅) (fun d => (ringRd (F := F) m Gc).payload (sendCell c e) 0 d) = sendPay Gc c e := by
  rw [Finset.sdiff_empty, duties_send m Gc c he, bigSep_singleton, payload_send]
theorem rest_recv (c : Dev nD) {e : Fin 32} (he : e ≠ 0) :
    bigSep ((ringRd (F := F) m Gc).duties (recvCell c e) 0 \ ∅) (fun d => (ringRd (F := F) m Gc).payload (recvCell c e) 0 d) = recvPay Gc c e := by
  rw [Finset.sdiff_empty, duties_recv m Gc c he, bigSep_singleton, payload_recv]
theorem rest_cpy (c : Dev nD) :
    bigSep ((ringRd (F := F) m Gc).duties (cpyCell c) 0 \ ∅) (fun d => (ringRd (F := F) m Gc).payload (cpyCell c) 0 d) = cpyPay m c := by
  rw [Finset.sdiff_empty, duties_cpy, bigSep_singleton, payload_cpy]

/-! ## The records, cell by cell -/

theorem inv_at (K : Dev nD × Fin 66 → ℕ) (ck : Dev nD × Fin 66) : records (F := F) m Gc K ⊢ cellInv ER (ringRd m Gc) (K ck) (kcell ck) := by
  unfold records; exact (Laws.sep_and.trans and_elimL).trans (bigSep_elim (Finset.mem_univ ck))
theorem reached_at (K : Dev nD × Fin 66 → ℕ) (ck : Dev nD × Fin 66) : records (F := F) m Gc K ⊢ reached ER (kcell ck) 0 := by
  unfold records; exact (Laws.sep_and.trans and_elimR).trans (bigSep_elim (Finset.mem_univ ck))

theorem inv_bar (K : Dev nD × Fin 66 → ℕ) (c : Dev nD) : records (F := F) m Gc K ⊢ cellInv ER (ringRd m Gc) (K (c, 0)) (barCell c) :=
  inv_at m Gc K (c, 0)
theorem inv_send (K : Dev nD × Fin 66 → ℕ) (c : Dev nD) (e : Fin 32) : records (F := F) m Gc K ⊢ cellInv ER (ringRd m Gc) (K (c, sIdx e)) (sendCell c e) := by
  have h := inv_at m Gc K (c, sIdx e); rwa [kcell_send] at h
theorem inv_recv (K : Dev nD × Fin 66 → ℕ) (c : Dev nD) (e : Fin 32) : records (F := F) m Gc K ⊢ cellInv ER (ringRd m Gc) (K (c, rIdx e)) (recvCell c e) := by
  have h := inv_at m Gc K (c, rIdx e); rwa [kcell_recv] at h
theorem inv_cpy (K : Dev nD × Fin 66 → ℕ) (c : Dev nD) : records (F := F) m Gc K ⊢ cellInv ER (ringRd m Gc) (K (c, cIdx)) (cpyCell c) := by
  have h := inv_at m Gc K (c, cIdx); rwa [kcell_cpy] at h

theorem reached_bar (K : Dev nD × Fin 66 → ℕ) (c : Dev nD) : records (F := F) m Gc K ⊢ reached ER (barCell c) 0 :=
  reached_at m Gc K (c, 0)
theorem reached_send (K : Dev nD × Fin 66 → ℕ) (c : Dev nD) (e : Fin 32) : records (F := F) m Gc K ⊢ reached ER (sendCell c e) 0 := by
  have h := reached_at m Gc K (c, sIdx e); rwa [kcell_send] at h
theorem reached_recv (K : Dev nD × Fin 66 → ℕ) (c : Dev nD) (e : Fin 32) : records (F := F) m Gc K ⊢ reached ER (recvCell c e) 0 := by
  have h := reached_at m Gc K (c, rIdx e); rwa [kcell_recv] at h
theorem reached_cpy (K : Dev nD × Fin 66 → ℕ) (c : Dev nD) : records (F := F) m Gc K ⊢ reached ER (cpyCell c) 0 := by
  have h := reached_at m Gc K (c, cIdx); rwa [kcell_cpy] at h

/-! ## The mesh, and what a device owes -/

/-- Every device's TensorCore reaches every device's. -/
theorem routes_all (c d : Dev nD) : τ.routes (c : Thread nD τ) (d : Thread nD τ) = true := Topo.routes_tc c d

theorem owedBar_nil (c : Dev nD) : owedBar c [] = 0 := rfl
theorem owedRecv_nil (c : Dev nD) : owedRecv c [] = 0 := rfl
theorem owedBar_cons (c : Dev nD) (j : Fin 32) (js : List (Fin 32)) : owedBar c (j :: js) = owedBar c js + tallyAt (barCell (peer c j)) () 1 := by
  unfold owedBar; rw [List.map_cons, List.sum_cons, add_comm]
theorem owedRecv_cons (c : Dev nD) (e : Fin 32) (es : List (Fin 32)) : owedRecv c (e :: es) = owedRecv c es + tallyAt (recvCell (peer c e) e) () N := by
  unfold owedRecv; rw [List.map_cons, List.sum_cons, add_comm]

/-! ## A device's 66 cells, sorted: the barrier cell, the send cells, the receive cells, the local copy's -/

theorem sIdx_injective : Function.Injective sIdx := fun a b h => by
  have h' : 1 + a.val = 1 + b.val := congrArg Fin.val h
  exact Fin.ext (by omega)
theorem rIdx_injective : Function.Injective rIdx := fun a b h => by
  have h' : 33 + a.val = 33 + b.val := congrArg Fin.val h
  exact Fin.ext (by omega)
def sEmb : Fin 32 ↪ Fin 66 := ⟨sIdx, sIdx_injective⟩
def rEmb : Fin 32 ↪ Fin 66 := ⟨rIdx, rIdx_injective⟩

/-- An index is 0, a send cell's, a receive cell's, or the local copy's. -/
theorem fin66_cases (k : Fin 66) : k = 0 ∨ (∃ e, sIdx e = k) ∨ (∃ e, rIdx e = k) ∨ k = cIdx := by
  rcases k with ⟨k, hk⟩
  by_cases h0 : k = 0
  · left; exact Fin.ext h0
  by_cases h1 : k ≤ 32
  · right; left; exact ⟨⟨k - 1, by omega⟩, Fin.ext (by show 1 + (k - 1) = k; omega)⟩
  by_cases h2 : k ≤ 64
  · right; right; left; exact ⟨⟨k - 33, by omega⟩, Fin.ext (by show 33 + (k - 33) = k; omega)⟩
  · right; right; right; exact Fin.ext (by show k = 65; omega)

theorem erase0_eq : (Finset.univ.erase (0 : Fin 66)) = Finset.univ.map sEmb ∪ (Finset.univ.map rEmb ∪ {cIdx}) := by
  ext k
  rw [Finset.mem_erase, Finset.mem_union, Finset.mem_union, Finset.mem_map, Finset.mem_map, Finset.mem_singleton]
  constructor
  · rintro ⟨h, -⟩
    rcases fin66_cases k with h0 | ⟨e, he⟩ | ⟨e, he⟩ | h3
    · exact absurd h0 h
    · exact .inl ⟨e, Finset.mem_univ e, he⟩
    · exact .inr (.inl ⟨e, Finset.mem_univ e, he⟩)
    · exact .inr (.inr h3)
  · intro h
    refine ⟨fun h0 => ?_, Finset.mem_univ k⟩
    subst h0
    rcases h with ⟨e, -, he⟩ | ⟨e, -, he⟩ | he
    · have : 1 + e.val = 0 := congrArg Fin.val he
      omega
    · have : 33 + e.val = 0 := congrArg Fin.val he
      omega
    · have : (0 : ℕ) = 65 := congrArg Fin.val he
      omega

theorem disj_send : Disjoint (Finset.univ.map sEmb) (Finset.univ.map rEmb ∪ {cIdx}) := by
  rw [Finset.disjoint_left]; intro k hk hk'
  obtain ⟨e, -, rfl⟩ := Finset.mem_map.mp hk
  rcases Finset.mem_union.mp hk' with h | h
  · obtain ⟨e', -, h'⟩ := Finset.mem_map.mp h
    have : 33 + e'.val = 1 + e.val := congrArg Fin.val h'
    have := e.isLt; omega
  · have : 1 + e.val = 65 := congrArg Fin.val (Finset.mem_singleton.mp h)
    have := e.isLt; omega
theorem disj_recv : Disjoint (Finset.univ.map rEmb) ({cIdx} : Finset (Fin 66)) := by
  rw [Finset.disjoint_left]; intro k hk hk'
  obtain ⟨e, -, rfl⟩ := Finset.mem_map.mp hk
  have : 33 + e.val = 65 := congrArg Fin.val (Finset.mem_singleton.mp hk')
  have := e.isLt; omega

theorem bigSep_ownCells (c : Dev nD) (Φ : GSem nD τ sig → sProp 𝕄) :
    bigSep (Finset.univ.erase (0 : Fin 66)) (fun k => Φ (kcell (c, k)))
      = iprop((bigSep Finset.univ fun e : Fin 32 => Φ (sendCell c e)) ∗ (bigSep Finset.univ fun e : Fin 32 => Φ (recvCell c e)) ∗ Φ (cpyCell c)) := by
  have hs : (fun e : Fin 32 => Φ (kcell (c, sEmb e))) = fun e => Φ (sendCell c e) := funext fun e => congrArg Φ (kcell_send c e)
  have hr : (fun e : Fin 32 => Φ (kcell (c, rEmb e))) = fun e => Φ (recvCell c e) := funext fun e => congrArg Φ (kcell_recv c e)
  rw [erase0_eq, bigSep_union disj_send, bigSep_union disj_recv, bigSep_map, bigSep_map, bigSep_singleton, hs, hr, kcell_cpy]
  rfl
theorem bigSep_cells (c : Dev nD) (Φ : GSem nD τ sig → sProp 𝕄) :
    bigSep Finset.univ (fun k : Fin 66 => Φ (kcell (c, k)))
      = iprop(Φ (barCell c) ∗ (bigSep Finset.univ fun e : Fin 32 => Φ (sendCell c e)) ∗ (bigSep Finset.univ fun e : Fin 32 => Φ (recvCell c e)) ∗ Φ (cpyCell c)) := by
  rw [bigSep_univ_split (0 : Fin 66), bigSep_ownCells c Φ]
  rfl
theorem bigSep_univ32 (Φ : Fin 32 → sProp 𝕄) : bigSep Finset.univ Φ = iprop(Φ 0 ∗ bigSep E31 Φ) := by
  unfold E31; exact bigSep_univ_split (0 : Fin 32)
theorem bigSep_E31 (Φ : Fin 32 → sProp 𝕄) : bigSep E31 Φ = bigSepL L31 Φ :=
  bigSep_eq_bigSepL_of_eq L31 L31_toFinset.symm L31_nodup Φ

/-! ## Credits of the two kinds of transfer -/

theorem amount_slot (e : Fin 32) (sm : DmaSem sig) : (slotM e).view.amount (.dma sm) = N := credit_slot e
theorem amount_xV (sm : DmaSem sig) : (xV : Memref sig .tc .vmem S2048x1024 .f32).view.amount (.dma sm) = NX := rfl

end Cert.Kernel.Proto

end
-- ==== Proof.RegionsBK.lean ====
import proofs.«900948_g7700000000000949_dist_mean_ax0_shard0_i_m2048_n1024_v7x_i32_f32_1_alg».proof.Proof.SchedK
import proofs.«900948_g7700000000000949_dist_mean_ax0_shard0_i_m2048_n1024_v7x_i32_f32_1_alg».proof.Proof.GhostK
import Idealize.ShloMosaic.Lib.Pipeline.Value
import Idealize.ShloMosaic.Lib.ValueIdx

/-! # The gather buffer read and written by slots

Slot `e` of a device's gather buffer is the 8×128 block of indices whose first coordinate is `e`. A transfer reads slot 0
of the sender through the 8×128 window and writes slot `e` of the receiver through the same window; the first store
writes slot 0 through the 1×8×128 window; the last load reads the whole buffer. -/

noncomputable section

namespace Cert.Kernel.Proto

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- Position `(p, q)` of the 8×128 window on slot `e` is the buffer's index `(e, p, q)`. -/
theorem slotM_emb (e : Fin 32) (p : Fin 8) (q : Fin 128) :
    (slotM e).view.emb (ix2 p q) = ix3 e p q := by
  have h1 : Shape.reshapeEquiv (s := (slotR e).shape) (s' := S8x128) squeezes_S1x8x128_S8x128.numel_eq (ix2 p q)
      = ix3 (0 : Fin 1) p q :=
    Shape.reshapeEquiv_eq_of_rowMajor _ (by
      rw [Shape.rowMajor_val_two, Shape.rowMajor_val_three]
      show (0 * 8 + p.val) * 128 + q.val = p.val * 128 + q.val
      omega)
  show (slotR e).emb (Shape.reshapeEquiv (s := (slotR e).shape) (s' := S8x128) squeezes_S1x8x128_S8x128.numel_eq (ix2 p q)) = _
  rw [h1]
  funext a
  apply Fin.ext
  match a with
  | ⟨0, _⟩ => show e.val + 1 * 0 = e.val; omega
  | ⟨1, _⟩ => show 0 + 1 * p.val = p.val; omega
  | ⟨2, _⟩ => show 0 + 1 * q.val = q.val; omega

/-- Position `(0, p, q)` of the 1×8×128 window on slot `e` is the buffer's index `(e, p, q)`. -/
theorem slotR_emb (e : Fin 32) (p : Fin 8) (q : Fin 128) :
    (gM.access (slotR e) : View sig .tc _ _ _).emb (ix3 (0 : Fin 1) p q) = ix3 e p q := by
  show (slotR e).emb (ix3 (0 : Fin 1) p q) = _
  funext a
  apply Fin.ext
  match a with
  | ⟨0, _⟩ => show e.val + 1 * 0 = e.val; omega
  | ⟨1, _⟩ => show 0 + 1 * p.val = p.val; omega
  | ⟨2, _⟩ => show 0 + 1 * q.val = q.val; omega

/-- A transfer's landing: slot `e` of the receiver takes slot 0 of the sender, position by position. -/
theorem landing_apply (e : Fin 32) (c c' : Dev nD) (fd : Buf (Elt F) ((slotM e).view.loc (c' : Thread nD τ)))
    (fs : Buf (Elt F) ((slotM 0).view.loc (c : Thread nD τ))) (p : Fin 8) (q : Fin 128) :
    ((slotM e).view.write (Elt F) fd ((slotM 0).view.read (Elt F) fs) Finset.univ) (ix3 e p q) = fs (ix3 (0 : Fin 32) p q) := by
  have hw := View.write_emb_of_mem (v := (slotM e).view) (Val := Elt F) fd ((slotM 0).view.read (Elt F) fs)
    (M := Finset.univ) (x := ix2 p q) (Finset.mem_univ _)
  rw [slotM_emb] at hw
  refine hw.trans ?_
  rw [View.read_apply, slotM_emb]
  rfl

/-- The first store: slot 0 takes the stored vector, position by position. -/
theorem store0_apply (c : Dev nD) (f : Buf (Elt F) ((c : Thread nD τ).loc cc0_scratch1)) (w : Vec F S1x8x128 .f32) (p : Fin 8) (q : Fin 128) :
    (((gM.access (slotR 0) : View sig .tc _ _ _).write (Elt F) f w Finset.univ)) (ix3 (0 : Fin 32) p q) = w (ix3 (0 : Fin 1) p q) := by
  have hw := View.write_emb_of_mem (v := (gM.access (slotR 0) : View sig .tc _ _ _)) (Val := Elt F) f w
    (M := Finset.univ) (x := ix3 (0 : Fin 1) p q) (Finset.mem_univ _)
  rw [slotR_emb] at hw
  exact hw

/-- The last load reads the whole buffer. -/
theorem load_all (c : Dev nD) (f : Buf (Elt F) ((c : Thread nD τ).loc cc0_scratch1)) :
    (gM : Memref sig .tc .vmem S32x8x128 .f32).view.readAt (Elt F)
      (Rect.unit (s := S32x8x128) ![0, 0, 0] S32x8x128.size inb_S32x8x128_S32x8x128_0_0_0).toLoadRect f = f :=
  Memref.readAt_unit_zero (Elt F) cc0_scratch1 (by decide) _ f

end Cert.Kernel.Proto

end
-- ==== Proof.RegionsK.lean ====
import proofs.«900948_g7700000000000949_dist_mean_ax0_shard0_i_m2048_n1024_v7x_i32_f32_1_alg».proof.Proof.SchedK
import proofs.«900948_g7700000000000949_dist_mean_ax0_shard0_i_m2048_n1024_v7x_i32_f32_1_alg».proof.Proof.GhostK
import proofs.«900948_g7700000000000949_dist_mean_ax0_shard0_i_m2048_n1024_v7x_i32_f32_1_alg».proof.Proof.RegionsBK
import Idealize.ShloMosaic.Lib.Pipeline.Value
import Idealize.ShloMosaic.Lib.ValueIdx

/-! # The gather buffer by slots, and the shares of slot 0

The gather buffer of a device is 32 slots of 8×128 words; slot `e` is the indices whose first coordinate is `e`. The whole
buffer is the 32 slots side by side. Slot 0 holds the device's own column sums; each transfer borrows a share of it: the
`k`-th remainder splits into its left half (lent) and its right half (the next remainder). -/

noncomputable section

namespace Cert.Kernel.Proto

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
local notation "𝕄" => MT nD τ sig Unit (Elt F) ℕ UU ℕ

variable (m : (ℓ : Loc nD τ sig) → Buf (Elt F) ℓ)
variable (Gc : (c : Dev nD) → Buf (Elt F) ((c : Thread nD τ).loc cc0_scratch1))

/-- The indices of slot `e`: those whose first coordinate is `e`. -/
theorem mem_slot (c : Dev nD) (e : Fin 32) (i : Idx ((slotM e).view.loc (c : Thread nD τ))) :
    i ∈ (slotM e).view.set ↔ (i 0).val = e.val := by
  constructor
  · intro h
    obtain ⟨x, _, rfl⟩ := Finset.mem_map.mp h
    obtain ⟨p, q, rfl⟩ : ∃ (p : Fin 8) (q : Fin 128), x = ix2 p q := ⟨x 0, x 1, eq_ix2 x⟩
    rw [slotM_emb]
    rfl
  · intro h
    obtain ⟨a, p, q, rfl⟩ : ∃ (a : Fin 32) (p : Fin 8) (q : Fin 128), i = ix3 a p q := ⟨i 0, i 1, i 2, eq_ix3 i⟩
    have ha : a = e := Fin.ext h
    subst ha
    rw [← slotM_emb]
    exact View.emb_mem_set _ _

/-- The whole buffer is the 32 slots side by side. -/
theorem gPts_split (c : Dev nD) (f : Buf (Elt F) ((c : Thread nD τ).loc cc0_scratch1)) :
    gPts (F := F) c f = bigSep Finset.univ (fun e : Fin 32 => slotPts c e f) := by
  have hU : (Finset.univ : Finset (Idx ((c : Thread nD τ).loc cc0_scratch1)))
      = Finset.univ.biUnion (fun e : Fin 32 => (slotM e).view.set) := by
    ext i
    simp only [Finset.mem_univ, Finset.mem_biUnion, true_and, true_iff]
    obtain ⟨a, p, q, rfl⟩ : ∃ (a : Fin 32) (p : Fin 8) (q : Fin 128), i = ix3 a p q := ⟨i 0, i 1, i 2, eq_ix3 i⟩
    exact ⟨a, (mem_slot c a _).mpr rfl⟩
  unfold gPts
  rw [hU, pointsTo_biUnion]
  · rfl
  · intro e _ e' _ hne
    rw [Finset.disjoint_left]
    intro i hi hi'
    exact hne (Fin.ext (((mem_slot c e i).mp hi).symm.trans ((mem_slot c e' i).mp hi')))

/-- A slot's points-to looks at the slot's elements only. -/
theorem slotPts_congr (c : Dev nD) (e : Fin 32) (f g : Buf (Elt F) ((slotM e).view.loc (c : Thread nD τ)))
    (h : ∀ (p : Fin 8) (q : Fin 128), f (ix3 e p q) = g (ix3 e p q)) : slotPts (F := F) c e f = slotPts c e g := by
  unfold slotPts
  refine pointsTo_congr fun i hi => ?_
  obtain ⟨a, p, q, rfl⟩ : ∃ (a : Fin 32) (p : Fin 8) (q : Fin 128), i = ix3 a p q := ⟨i 0, i 1, i 2, eq_ix3 i⟩
  have ha : a = e := Fin.ext ((mem_slot c e _).mp hi)
  subst ha
  exact h p q

theorem srcPts_congr (c : Dev nD) (sh : PosShare TreeShare) (f g : Buf (Elt F) ((slotM 0).view.loc (c : Thread nD τ)))
    (h : ∀ (p : Fin 8) (q : Fin 128), f (ix3 (0 : Fin 32) p q) = g (ix3 (0 : Fin 32) p q)) : srcPts (F := F) c sh f = srcPts c sh g := by
  unfold srcPts
  refine pointsTo_congr fun i hi => ?_
  obtain ⟨a, p, q, rfl⟩ : ∃ (a : Fin 32) (p : Fin 8) (q : Fin 128), i = ix3 a p q := ⟨i 0, i 1, i 2, eq_ix3 i⟩
  have ha : a = 0 := Fin.ext ((mem_slot c 0 _).mp hi)
  subst ha
  exact h p q

/-- Slot 0 held in full is its full share. -/
theorem slot0_full (c : Dev nD) (f : Buf (Elt F) ((slotM 0).view.loc (c : Thread nD τ))) :
    slotPts (F := F) c 0 f = srcPts c fullShare f := rfl

/-- The `k`-th remainder is its left half, lent, and the next remainder. -/
theorem src_split (c : Dev nD) (k : ℕ) (f : Buf (Elt F) ((slotM 0).view.loc (c : Thread nD τ))) :
    srcPts (F := F) c (restShare k) f ⊣⊢ iprop(srcPts c (restShare k).left f ∗ srcPts c (restShare (k + 1)) f) := by
  unfold srcPts
  exact pointsTo_share (PosShare.mem_left_op_right (restShare k))

theorem lentShare_succ (k : ℕ) (hk : k + 1 < 32) : lentShare ⟨k + 1, hk⟩ = (restShare k).left := by
  show (restShare (k + 1 - 1)).left = _
  rw [Nat.add_sub_cancel]

end Cert.Kernel.Proto

end
-- ==== Proof.FoldDefsK.lean ====
import proofs.«900948_g7700000000000949_dist_mean_ax0_shard0_i_m2048_n1024_v7x_i32_f32_1_alg».proof.Proof.SchedK
import proofs.«900948_g7700000000000949_dist_mean_ax0_shard0_i_m2048_n1024_v7x_i32_f32_1_alg».proof.Proof.MeshK

/-! # The three folds of the kernel body

The body visits its 31 neighbours three times in the same order: it signals the barrier semaphore of each; it starts a
transfer of slot 0 to slot `e` of neighbour `peer c e`; it waits for the landings and then for the departures. Each run is
a fold over the list of the neighbours' numbers, written here once with the continuation as the last argument. -/

noncomputable section

namespace Cert.Kernel.Proto

open Cert.Kernel Cert.Kernel.Gen Cert.Kernel.Mesh
open Idealize.ShloMosaic Idealize.ShloMosaic.TcCoe Idealize.SL.Sem

variable {F : FTy → Type} [FloatOps F]

/-- A program of the TensorCore's body. -/
abbrev P (F : FTy → Type) : Type 1 := Prog (TpuEff nD τ sig (Elt F) Λ₀ .tc) PUnit

/-! ## The evidence the transfers carry, at every slot -/

/-- Every slot is a whole number of words. -/
theorem slotM_wordExact (e : Fin 32) : (slotM e).view.WordExact := (View.wordExact_bits rfl).reshape _ _

/-- No slot lies in a SparseCore's scratch. -/
theorem slotM_notSc (e : Fin 32) : (slotM e).view.ref.isScScratch = false := rfl

/-! ## The folds -/

/-- Signal the barrier semaphore of each listed neighbour once, then go on as `k`. -/
def sigK (c : Dev nD) : List (Fin 32) → P F → P F
  | [], k => k
  | j :: js, k => Prog.op (TpuEff.semSignal ((peer c j : Dev nD), Proc.tc) barS 1) fun _ => sigK c js k

/-- Start the transfer of slot 0 to slot `e` of neighbour `peer c e`, for each listed `e`, then go on as `k`. -/
def sendK (c : Dev nD) : List (Fin 32) → P F → P F
  | [], k => k
  | e :: es, k =>
    Prog.op (TpuEff.enqueueDma (slotM 0) (DmaTarget.remote (Dev.tc (peer c e)) (slotM e) (SemLoc.dma (sendS e)) (slotM_notSc e))
      (SemLoc.dma (recvS e)) (slotM_wordExact 0) (slotM_wordExact e) ⟨⟨rfl, Or.inl rfl⟩, trivial⟩) fun _ => sendK c es k

/-- Wait for the landing on each listed slot, then go on as `k`. -/
def recvWaitK : List (Fin 32) → P F → P F
  | [], k => k
  | e :: es, k => Prog.op (TpuEff.waitDma2 (recvS e) (slotM 0) (slotM e) (slotM_wordExact 0) (slotM_wordExact e)) fun _ => recvWaitK es k

/-- Wait for the departure of each listed transfer, then go on as `k`. -/
def sendWaitK : List (Fin 32) → P F → P F
  | [], k => k
  | e :: es, k => Prog.op (TpuEff.waitDma2 (sendS e) (slotM e) (slotM 0) (slotM_wordExact e) (slotM_wordExact 0)) fun _ => sendWaitK es k

end Cert.Kernel.Proto

end
-- ==== Proof.StepsK.lean ====
import proofs.«900948_g7700000000000949_dist_mean_ax0_shard0_i_m2048_n1024_v7x_i32_f32_1_alg».proof.Proof.TablesK
import proofs.«900948_g7700000000000949_dist_mean_ax0_shard0_i_m2048_n1024_v7x_i32_f32_1_alg».proof.Proof.RegionsK
import proofs.«900948_g7700000000000949_dist_mean_ax0_shard0_i_m2048_n1024_v7x_i32_f32_1_alg».proof.Proof.FoldDefsK
import Idealize.ShloMosaic.Lib.ValueIdx

/-! # One step of each kind, and the three runs of 31 of them

A device's body is: 31 signals, a local copy, the column sums stored in slot 0, the wait for the 31 neighbours, 31
transfers, 31 waits for landings, 31 waits for departures, the sum. Each of the four repeated steps is stated once, for
the `e`-th neighbour; the runs are inductions over the list of neighbours still to visit. -/

noncomputable section

namespace Cert.Kernel.Proto

open Cert.Kernel Cert.Kernel.Gen Cert.Kernel.Mesh
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (Gc : (c : Dev nD) → Buf (Elt F) ((c : Thread nD τ).loc cc0_scratch1))
variable (K : Dev nD × Fin 66 → ℕ)

/-- The two facts the protocol needs of the gather buffers' final contents: slot 0 of `c` holds `c`'s own column sums,
    and slot `e` of the `e`-th neighbour holds what slot 0 of `c` holds. -/
structure GatherFacts : Prop where
  own : ∀ (c : Dev nD) (p : Fin 8) (q : Fin 128), Gc c (ix3 (0 : Fin 32) p q) = k0_pay2 (X m c) (ix3 (0 : Fin 1) p q)
  land : ∀ (c : Dev nD) (e : Fin 32) (p : Fin 8) (q : Fin 128), Gc (peer c e) (ix3 e p q) = Gc c (ix3 (0 : Fin 32) p q)

/-! ## The four steps -/

/-- The `j`-th signal: a unit on the `j`-th neighbour's barrier cell, carrying this device's slot `neg j` — the slot that
    neighbour's transfer will write — and that the slot's receive cell is open. -/
theorem signal_step (c : Dev nD) {j : Fin 32} (hj : j ≠ 0) (O : CellTallies nD τ sig Unit) (W : Waits sig Unit)
    {α : Type} {Q : α → sProp 𝕄} {k : PUnit → Prog (TpuEff nD τ sig (Elt F) Λ₀ .tc) α} :
    iprop(records m Gc K ∗ owes (c : Thread nD τ) (O + tallyAt (barCell (peer c j)) () 1) W
        ∗ dutyTok ER (barCell (peer c j)) 0 (neg j) ∗ (∃ f, slotPts c (neg j) f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (peer c j : Thread nD τ) barS 1) k) Q) := by
  iintro ⟨#HR, HO, Htok, Hslot⟩
  iapply (Rounds.wp_signal 𝒱₀ ER (ringRd m Gc) (c : Thread nD τ) none (dst := (peer c j : Thread nD τ)) (κ := K (peer c j, 0))
      (d := neg j) (by rw [duties_bar]; exact mem_E31.mpr (neg_ne_zero hj)) (amount_bar m Gc (peer c j) (neg j)) () O rfl
      (hr := routes_all c (peer c j))) $$ [HO Htok Hslot]
  isplitr; · iapply (inv_bar m Gc K (peer c j)); iexact HR
  isplitl [HO]; · iexact HO
  isplitl [Htok]; · iexact Htok
  isplitl [Hslot]
  · rw [payload_bar]; unfold barPay; rw [peer_peer_neg]
    isplitl [Hslot]; · iexact Hslot
    iapply (reached_recv m Gc K c (neg j)); iexact HR
  · iapply (reached_bar m Gc K (peer c j)); iexact HR

/-- The `e`-th transfer: slot 0, read at the share lent to it, into slot `e` of the `e`-th neighbour. The departure hands
    the share back; the landing leaves the neighbour's slot `e` at its final contents. -/
theorem send_step (hG : GatherFacts m Gc) (c : Dev nD) {e : Fin 32} (he : e ≠ 0) (O : CellTallies nD τ sig Unit) (W : Waits sig Unit)
    {hsc : (slotM e : Memref sig (Dev.tc (peer c e) : Thread nD τ).2.kind .vmem S8x128 .f32).view.ref.isScScratch = false}
    {hsrc : (slotM 0 : Memref sig .tc .vmem S8x128 .f32).view.WordExact} {hdst : (slotM e : Memref sig .tc .vmem S8x128 .f32).view.WordExact}
    {hsem : DmaTarget.Typed .vmem (.dma (recvS e)) (.remote (Dev.tc (peer c e) : Thread nD τ) (slotM e : Memref sig .tc .vmem S8x128 .f32) (.dma (sendS e)) hsc)}
    {α : Type} {Q : α → sProp 𝕄} {k : PUnit → Prog (TpuEff nD τ sig (Elt F) Λ₀ .tc) α}
    (f : Buf (Elt F) ((slotM e).view.loc (peer c e : Thread nD τ))) :
    iprop(records m Gc K ∗ owes (c : Thread nD τ) (O + tallyAt (recvCell (peer c e) e) () N) W
        ∗ dutyTok ER (sendCell c e) 0 (0 : Fin 32) ∗ dutyTok ER (recvCell (peer c e) e) 0 (0 : Fin 32)
        ∗ srcPts c (lentShare e) (Gc c) ∗ slotPts (peer c e) e f)
      ⊢ iprop(((cred (tallyAt (sendCell c e) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc (peer c e) : Thread nD τ) (slotM e) (.dma (sendS e)) hsc) (.dma (recvS e)) hsrc hdst hsem) k) Q) := by
  unfold srcPts slotPts
  iintro ⟨#HR, HO, HtS, HtR, Hsrc, Hdst⟩
  iapply (Rounds.wp_send_pointsTo 𝒱₀ ER (ringRd m Gc) (c : Thread nD τ) none (κ₁ := K (c, sIdx e)) (κ₂ := K (peer c e, rIdx e))
      (r₁ := 0) (r₂ := 0) (d₁ := (0 : Fin 32)) (d₂ := (0 : Fin 32)) (fd := f) (fs := Gc c) (q := lentShare e)
      (by rw [duties_send m Gc c he]; exact Finset.mem_singleton_self _) (by rw [duties_recv m Gc (peer c e) he]; exact Finset.mem_singleton_self _)
      () () N (amount_slot e (recvS e)) (amount_send m Gc c e 0) (amount_recv m Gc (peer c e) e 0) O rfl (W := W)
      (by rw [payload_send]; unfold sendPay srcPts; exact BI.Entails.refl _)
      (by
        rw [payload_recv]; unfold recvPay
        exact Entails.of_eq (slotPts_congr (peer c e) e _ _ fun p q => (landing_apply e c (peer c e) f (Gc c) p q).trans (hG.land c e p q).symm))
      (hr := routes_all c (peer c e))) $$ [HO HtS HtR Hsrc Hdst]
  isplitr; · iapply (inv_send m Gc K c e); iexact HR
  isplitr; · iapply (inv_recv m Gc K (peer c e) e); iexact HR
  isplitl [Hsrc]; · iexact Hsrc
  isplitl [Hdst]; · iexact Hdst
  isplitl [HO]; · iexact HO
  isplitl [HtS]; · iexact HtS
  isplitr; · iapply (reached_send m Gc K c e); iexact HR
  isplitl [HtR]; · iexact HtR
  iapply (reached_recv m Gc K (peer c e) e); iexact HR

/-- The wait for the landing on slot `e`: the slot comes back holding its final contents. The device owes nothing by now. -/
theorem recvWait_step (c : Dev nD) {e : Fin 32} (he : e ≠ 0) (W : Waits sig Unit)
    {h0 : (slotM 0 : Memref sig .tc .vmem S8x128 .f32).view.WordExact} {h1 : (slotM e : Memref sig .tc .vmem S8x128 .f32).view.WordExact}
    {α : Type} {Q : α → sProp 𝕄} {k : PUnit → Prog (TpuEff nD τ sig (Elt F) Λ₀ .tc) α} :
    iprop(records m Gc K ∗ cred (tallyAt (recvCell c e) () N) ∗ owes (c : Thread nD τ) 0 W ∗ atPos ER (recvCell c e) 0 (∅ : Finset (Fin 32)) 0)
      ⊢ iprop(((owes (c : Thread nD τ) 0 (insert (SemLoc.dma (recvS e), ()) W) ∗ atPos ER (recvCell c e) 1 (∅ : Finset (Fin 32)) 0 ∗ slotPts c e (Gc c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS e) (slotM 0) (slotM e) h0 h1) k) Q) := by
  iintro ⟨#HR, Hc, HO, Hat⟩ Hk
  rw [← credit_slot e]
  iapply (Rounds.wp_wait_rest_token 𝒱₀ ER (ringRd m Gc) (c : Thread nD τ) none (κ := K (c, rIdx e))
      (wpE_waitDma2_eq 𝒱₀ (c : Thread nD τ) none Set.univ) (Set.mem_univ _) () (O := 0) (W := W) (R := 0) (m := 0) (T := ∅)
      (by rw [Nat.zero_add, expect_recv m Gc c he, credit_slot e])) $$ [Hc HO Hat]
  · isplitr; · iapply (inv_recv m Gc K c e); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  ihave Hp := (Entails.of_eq (rest_recv m Gc c he)) $$ Hpay
  unfold recvPay; iexact Hp

/-- The wait for the departure of the `e`-th transfer: the share of slot 0 lent to it comes back. -/
theorem sendWait_step (c : Dev nD) {e : Fin 32} (he : e ≠ 0) (W : Waits sig Unit)
    {h0 : (slotM 0 : Memref sig .tc .vmem S8x128 .f32).view.WordExact} {h1 : (slotM e : Memref sig .tc .vmem S8x128 .f32).view.WordExact}
    {α : Type} {Q : α → sProp 𝕄} {k : PUnit → Prog (TpuEff nD τ sig (Elt F) Λ₀ .tc) α} :
    iprop(records m Gc K ∗ cred (tallyAt (sendCell c e) () N) ∗ owes (c : Thread nD τ) 0 W ∗ atPos ER (sendCell c e) 0 (∅ : Finset (Fin 32)) 0)
      ⊢ iprop(((owes (c : Thread nD τ) 0 (insert (SemLoc.dma (sendS e), ()) W) ∗ atPos ER (sendCell c e) 1 (∅ : Finset (Fin 32)) 0 ∗ srcPts c (lentShare e) (Gc c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS e) (slotM e) (slotM 0) h1 h0) k) Q) := by
  iintro ⟨#HR, Hc, HO, Hat⟩ Hk
  iapply (Rounds.wp_wait_rest_token 𝒱₀ ER (ringRd m Gc) (c : Thread nD τ) none (κ := K (c, sIdx e))
      (wpE_waitDma2_eq 𝒱₀ (c : Thread nD τ) none Set.univ) (Set.mem_univ _) () (O := 0) (W := W) (R := 0) (m := 0) (T := ∅)
      (by rw [Nat.zero_add, expect_send m Gc c he])) $$ [Hc HO Hat]
  · isplitr; · iapply (inv_send m Gc K c e); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  ihave Hp := (Entails.of_eq (rest_send m Gc c he)) $$ Hpay
  unfold sendPay; iexact Hp

end Cert.Kernel.Proto

end
-- ==== Proof.ListSepK.lean ====
import proofs.«900948_g7700000000000949_dist_mean_ax0_shard0_i_m2048_n1024_v7x_i32_f32_1_alg».proof.Proof.GhostK

/-! The big `∗` over a list, one element at a time, in the form the proof mode opens. -/

noncomputable section

namespace Cert.Kernel.Proto

open Cert.Kernel Idealize.ShloMosaic
open Idealize.SL Idealize.SL.BI
open scoped Idealize.SL.BI
open Idealize.SL.BI.BIBase

variable {F : FTy → Type} [FloatOps F]
local notation "𝕄" => MT nD τ sig Unit (Elt F) ℕ UU ℕ

omit [FloatOps F] in
theorem bigSepL_cons' {I : Type} (i : I) (l : List I) (Φ : I → sProp 𝕄) : bigSepL (i :: l) Φ = iprop(Φ i ∗ bigSepL l Φ) :=
  bigSepL_cons i l Φ
omit [FloatOps F] in
theorem bigSepL_nil' {I : Type} (Φ : I → sProp 𝕄) : bigSepL ([] : List I) Φ = iprop(emp) := rfl

end Cert.Kernel.Proto

end
-- ==== Proof.RunsK.lean ====
import proofs.«900948_g7700000000000949_dist_mean_ax0_shard0_i_m2048_n1024_v7x_i32_f32_1_alg».proof.Proof.StepsK
import proofs.«900948_g7700000000000949_dist_mean_ax0_shard0_i_m2048_n1024_v7x_i32_f32_1_alg».proof.Proof.ListSepK
import Idealize.ShloMosaic.Lib.ValueIdx

/-! # The three runs: 31 signals, 31 transfers, 62 waits

Each is an induction over the neighbours still to visit. What a run consumes and what it leaves is a big `∗` over
that list: a signal consumes a token and a slot; a transfer consumes two tokens, a share of slot 0 and the neighbour's
slot, and leaves a credit; a wait consumes a credit and a position and leaves the position one round on and what landed. -/

noncomputable section

namespace Cert.Kernel.Proto

open Cert.Kernel Cert.Kernel.Gen Cert.Kernel.Mesh
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (Gc : (c : Dev nD) → Buf (Elt F) ((c : Thread nD τ).loc cc0_scratch1))
variable (K : Dev nD × Fin 66 → ℕ)

/-- The 31 signals: what the device owes goes down by a unit on each neighbour's barrier cell. -/
theorem wp_sigK (c : Dev nD) (js : List (Fin 32)) (hjs : ∀ j ∈ js, j ≠ 0) (A : CellTallies nD τ sig Unit) (W : Waits sig Unit)
    (k : P F) (Q : PUnit → sProp 𝕄) :
    iprop(records m Gc K ∗ owes (c : Thread nD τ) (A + owedBar c js) W
        ∗ bigSepL js (fun j => iprop(dutyTok ER (barCell (peer c j)) 0 (neg j) ∗ ∃ f, slotPts (F := F) c (neg j) f))
        ∗ (owes (c : Thread nD τ) A W -∗ wp frame (wpE (defs₀ (F := F)) 𝒱₀ (c : Thread nD τ) none) Set.univ k Q))
      ⊢ wp frame (wpE (defs₀ (F := F)) 𝒱₀ (c : Thread nD τ) none) Set.univ (sigK c js k) Q := by
  induction js with
  | nil =>
    rw [owedBar_nil, add_zero]
    show _ ⊢ wp frame (wpE (defs₀ (F := F)) 𝒱₀ (c : Thread nD τ) none) Set.univ k Q
    iintro ⟨-, HO, -, Hk⟩
    iapply Hk; iexact HO
  | cons j js ih =>
    have hj : j ≠ 0 := hjs j (List.mem_cons_self ..)
    rw [owedBar_cons, ← add_assoc, bigSepL_cons']
    show _ ⊢ wp frame (wpE (defs₀ (F := F)) 𝒱₀ (c : Thread nD τ) none) Set.univ (.op (.semSignal (peer c j : Thread nD τ) barS 1) fun _ => sigK c js k) Q
    iintro ⟨#HR, HO, ⟨⟨Htok, Hslot⟩, Hrest⟩, Hk⟩
    iapply (signal_step m Gc K c hj (A + owedBar c js) W) $$ [HO Htok Hslot]
    · isplitr; · iexact HR
      isplitl [HO]; · iexact HO
      isplitl [Htok]; · iexact Htok
      iexact Hslot
    iintro HO
    iapply (ih fun j' hj' => hjs j' (List.mem_cons_of_mem _ hj'))
    isplitr; · iexact HR
    isplitl [HO]; · iexact HO
    isplitl [Hrest]; · iexact Hrest
    iexact Hk

/-- The 31 transfers: what the device owes goes down by each landing's credit; a departure credit is left for each. -/
theorem wp_sendK (hG : GatherFacts m Gc) (c : Dev nD) (es : List (Fin 32)) (hes : ∀ e ∈ es, e ≠ 0) (A : CellTallies nD τ sig Unit) (W : Waits sig Unit)
    (k : P F) (Q : PUnit → sProp 𝕄) :
    iprop(records m Gc K ∗ owes (c : Thread nD τ) (A + owedRecv c es) W
        ∗ bigSepL es (fun e => iprop(dutyTok ER (sendCell c e) 0 (0 : Fin 32) ∗ dutyTok ER (recvCell (peer c e) e) 0 (0 : Fin 32)
            ∗ srcPts c (lentShare e) (Gc c) ∗ ∃ f, slotPts (F := F) (peer c e) e f))
        ∗ ((owes (c : Thread nD τ) A W ∗ bigSepL es (fun e => cred (tallyAt (sendCell c e) () N))) -∗ wp frame (wpE (defs₀ (F := F)) 𝒱₀ (c : Thread nD τ) none) Set.univ k Q))
      ⊢ wp frame (wpE (defs₀ (F := F)) 𝒱₀ (c : Thread nD τ) none) Set.univ (sendK c es k) Q := by
  induction es with
  | nil =>
    rw [owedRecv_nil, add_zero]
    show _ ⊢ wp frame (wpE (defs₀ (F := F)) 𝒱₀ (c : Thread nD τ) none) Set.univ k Q
    iintro ⟨-, HO, -, Hk⟩
    iapply Hk
    isplitl [HO]; · iexact HO
    rw [bigSepL_nil']; iempintro
  | cons e es ih =>
    have he : e ≠ 0 := hes e (List.mem_cons_self ..)
    rw [owedRecv_cons, ← add_assoc, bigSepL_cons']
    show _ ⊢ wp frame (wpE (defs₀ (F := F)) 𝒱₀ (c : Thread nD τ) none) Set.univ (.op (.enqueueDma (slotM 0) (.remote (Dev.tc (peer c e)) (slotM e) (.dma (sendS e)) (slotM_notSc e)) (.dma (recvS e)) (slotM_wordExact 0) (slotM_wordExact e) ⟨⟨rfl, Or.inl rfl⟩, trivial⟩) fun _ => sendK c es k) Q
    iintro ⟨#HR, HO, ⟨⟨HtS, HtR, Hsrc, ⟨%f, Hdst⟩⟩, Hrest⟩, Hk⟩
    iapply (send_step m Gc K hG c he (A + owedRecv c es) W f) $$ [HO HtS HtR Hsrc Hdst]
    · isplitr; · iexact HR
      isplitl [HO]; · iexact HO
      isplitl [HtS]; · iexact HtS
      isplitl [HtR]; · iexact HtR
      isplitl [Hsrc]; · iexact Hsrc
      iexact Hdst
    iintro ⟨Hc, HO⟩
    iapply (ih fun e' he' => hes e' (List.mem_cons_of_mem _ he'))
    isplitr; · iexact HR
    isplitl [HO]; · iexact HO
    isplitl [Hrest]; · iexact Hrest
    iintro ⟨HO, Hcs⟩
    iapply Hk
    isplitl [HO]; · iexact HO
    rw [bigSepL_cons']
    isplitl [Hc]; · iexact Hc
    iexact Hcs

/-- The 31 waits for landings: every slot comes back holding its final contents; every receive cell is one round on. -/
theorem wp_recvWaitK (c : Dev nD) (es : List (Fin 32)) (hes : ∀ e ∈ es, e ≠ 0) (W : Waits sig Unit) (k : P F) (Q : PUnit → sProp 𝕄) :
    iprop(records m Gc K ∗ owes (c : Thread nD τ) 0 W
        ∗ bigSepL es (fun e => iprop(cred (tallyAt (recvCell c e) () N) ∗ atPos ER (recvCell c e) 0 (∅ : Finset (Fin 32)) 0))
        ∗ (((∃ W', owes (c : Thread nD τ) 0 W') ∗ bigSepL es (fun e => iprop(atPos ER (recvCell c e) 1 (∅ : Finset (Fin 32)) 0 ∗ slotPts c e (Gc c)))) -∗ wp frame (wpE (defs₀ (F := F)) 𝒱₀ (c : Thread nD τ) none) Set.univ k Q))
      ⊢ wp frame (wpE (defs₀ (F := F)) 𝒱₀ (c : Thread nD τ) none) Set.univ (recvWaitK es k) Q := by
  induction es generalizing W with
  | nil =>
    show _ ⊢ wp frame (wpE (defs₀ (F := F)) 𝒱₀ (c : Thread nD τ) none) Set.univ k Q
    iintro ⟨-, HO, -, Hk⟩
    iapply Hk
    isplitl [HO]; · iexists W; iexact HO
    rw [bigSepL_nil']; iempintro
  | cons e es ih =>
    have he : e ≠ 0 := hes e (List.mem_cons_self ..)
    rw [bigSepL_cons']
    show _ ⊢ wp frame (wpE (defs₀ (F := F)) 𝒱₀ (c : Thread nD τ) none) Set.univ (.op (.waitDma2 (recvS e) (slotM 0) (slotM e) (slotM_wordExact 0) (slotM_wordExact e)) fun _ => recvWaitK es k) Q
    iintro ⟨#HR, HO, ⟨⟨Hc, Hat⟩, Hrest⟩, Hk⟩
    iapply (recvWait_step m Gc K c he W) $$ [Hc HO Hat]
    · isplitr; · iexact HR
      isplitl [Hc]; · iexact Hc
      isplitl [HO]; · iexact HO
      iexact Hat
    iintro ⟨HO, Hat, Hslot⟩
    iapply (ih (fun e' he' => hes e' (List.mem_cons_of_mem _ he')) (insert (SemLoc.dma (recvS e), ()) W))
    isplitr; · iexact HR
    isplitl [HO]; · iexact HO
    isplitl [Hrest]; · iexact Hrest
    iintro ⟨HO, Hs⟩
    iapply Hk
    isplitl [HO]; · iexact HO
    rw [bigSepL_cons']
    isplitl [Hat Hslot]
    · isplitl [Hat]; · iexact Hat
      iexact Hslot
    iexact Hs

/-- The 31 waits for departures: every lent share of slot 0 comes back; every send cell is one round on. -/
theorem wp_sendWaitK (c : Dev nD) (es : List (Fin 32)) (hes : ∀ e ∈ es, e ≠ 0) (W : Waits sig Unit) (k : P F) (Q : PUnit → sProp 𝕄) :
    iprop(records m Gc K ∗ owes (c : Thread nD τ) 0 W
        ∗ bigSepL es (fun e => iprop(cred (tallyAt (sendCell c e) () N) ∗ atPos ER (sendCell c e) 0 (∅ : Finset (Fin 32)) 0))
        ∗ (((∃ W', owes (c : Thread nD τ) 0 W') ∗ bigSepL es (fun e => iprop(atPos ER (sendCell c e) 1 (∅ : Finset (Fin 32)) 0 ∗ srcPts c (lentShare e) (Gc c)))) -∗ wp frame (wpE (defs₀ (F := F)) 𝒱₀ (c : Thread nD τ) none) Set.univ k Q))
      ⊢ wp frame (wpE (defs₀ (F := F)) 𝒱₀ (c : Thread nD τ) none) Set.univ (sendWaitK es k) Q := by
  induction es generalizing W with
  | nil =>
    show _ ⊢ wp frame (wpE (defs₀ (F := F)) 𝒱₀ (c : Thread nD τ) none) Set.univ k Q
    iintro ⟨-, HO, -, Hk⟩
    iapply Hk
    isplitl [HO]; · iexists W; iexact HO
    rw [bigSepL_nil']; iempintro
  | cons e es ih =>
    have he : e ≠ 0 := hes e (List.mem_cons_self ..)
    rw [bigSepL_cons']
    show _ ⊢ wp frame (wpE (defs₀ (F := F)) 𝒱₀ (c : Thread nD τ) none) Set.univ (.op (.waitDma2 (sendS e) (slotM e) (slotM 0) (slotM_wordExact e) (slotM_wordExact 0)) fun _ => sendWaitK es k) Q
    iintro ⟨#HR, HO, ⟨⟨Hc, Hat⟩, Hrest⟩, Hk⟩
    iapply (sendWait_step m Gc K c he W) $$ [Hc HO Hat]
    · isplitr; · iexact HR
      isplitl [Hc]; · iexact Hc
      isplitl [HO]; · iexact HO
      iexact Hat
    iintro ⟨HO, Hat, Hsrc⟩
    iapply (ih (fun e' he' => hes e' (List.mem_cons_of_mem _ he')) (insert (SemLoc.dma (sendS e), ()) W))
    isplitr; · iexact HR
    isplitl [HO]; · iexact HO
    isplitl [Hrest]; · iexact Hrest
    iintro ⟨HO, Hs⟩
    iapply Hk
    isplitl [HO]; · iexact HO
    rw [bigSepL_cons']
    isplitl [Hat Hsrc]
    · isplitl [Hat]; · iexact Hat
      iexact Hsrc
    iexact Hs

end Cert.Kernel.Proto

end
-- ==== Proof.SharesK.lean ====
import proofs.«900948_g7700000000000949_dist_mean_ax0_shard0_i_m2048_n1024_v7x_i32_f32_1_alg».proof.Proof.RegionsK
import proofs.«900948_g7700000000000949_dist_mean_ax0_shard0_i_m2048_n1024_v7x_i32_f32_1_alg».proof.Proof.GhostK

/-! # Slot 0 lent out 31 times, the neighbours renamed, and the whole-buffer accesses

Slot 0's full share splits into the 31 shares lent to the transfers and a remainder; the neighbours proper are permuted by
`neg`; the first load and store through the 1×8×128 window at slot 0 touch slot 0's elements only; the block's load, the
result's store and the local copy read and write whole buffers. -/

noncomputable section

namespace Cert.Kernel.Proto

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
local notation "𝕄" => MT nD τ sig Unit (Elt F) ℕ UU ℕ

variable (m : (ℓ : Loc nD τ sig) → Buf (Elt F) ℓ)
variable (Gc : (c : Dev nD) → Buf (Elt F) ((c : Thread nD τ).loc cc0_scratch1))

/-! ## Slot 0's share, lent 31 times -/

omit [FloatOps F] in
/-- The neighbours still to be served after the first `k`. -/
theorem L31_drop (k : ℕ) (hk : k + 1 < 32) : L31.drop k = ⟨k + 1, hk⟩ :: L31.drop (k + 1) := by
  have hk' : k < 31 := by omega
  interval_cases k <;> rfl

/-- From the `k`-th remainder on: the shares lent to the neighbours after the `k`-th, and the last remainder. -/
theorem src_split_from (c : Dev nD) (f : Buf (Elt F) ((slotM 0).view.loc (c : Thread nD τ))) : ∀ (n k : ℕ), k + n = 31 →
    srcPts (F := F) c (restShare k) f
      ⊣⊢ iprop(bigSepL (L31.drop k) (fun e => srcPts c (lentShare e) f) ∗ srcPts c (restShare 31) f)
  | 0, k, h => by
    have hk : k = 31 := by omega
    subst hk
    have h0 : L31.drop 31 = [] := rfl
    rw [h0, bigSepL_nil]
    exact emp_sep.symm
  | n + 1, k, h => by
    have hk : k + 1 < 32 := by omega
    rw [L31_drop k hk, bigSepL_cons]
    refine (src_split c k f).trans ?_
    rw [← lentShare_succ k hk]
    refine (sep_congr_right (src_split_from c f n (k + 1) (by omega))).trans ?_
    exact sep_assoc.symm

/-- Slot 0's full share is the 31 shares lent to the transfers and the last remainder. -/
theorem src_split_all (c : Dev nD) (f : Buf (Elt F) ((slotM 0).view.loc (c : Thread nD τ))) :
    srcPts (F := F) c fullShare f ⊣⊢ iprop(bigSepL L31 (fun e => srcPts c (lentShare e) f) ∗ srcPts c (restShare 31) f) :=
  src_split_from c f 31 0 rfl

/-! ## The neighbours renamed -/

/-- `neg` as an embedding: it is its own inverse. -/
def negEmb : Fin 32 ↪ Fin 32 :=
  ⟨neg, fun a b h => by have h' := congrArg neg h; rwa [Mesh.neg_neg, Mesh.neg_neg] at h'⟩

theorem E31_map_neg : E31.map negEmb = E31 := by
  ext j
  constructor
  · intro h
    obtain ⟨i, hi, rfl⟩ := Finset.mem_map.mp h
    exact mem_E31.mpr (neg_ne_zero (mem_E31.mp hi))
  · intro h
    exact Finset.mem_map.mpr ⟨neg j, mem_E31.mpr (neg_ne_zero (mem_E31.mp h)), Mesh.neg_neg j⟩

omit [FloatOps F] in
/-- `neg` permutes the neighbours proper, so a product over them may be taken in either naming. -/
theorem bigSep_E31_neg (Φ : Fin 32 → sProp 𝕄) : bigSep E31 (fun j => Φ (neg j)) = bigSep E31 Φ := by
  have h := bigSep_map (s := E31) negEmb (Φ := Φ)
  rw [E31_map_neg] at h
  exact h.symm

/-! ## The 1×8×128 window at slot 0 touches slot 0 only -/

theorem load0_sub : (gM : Memref sig .tc .vmem S32x8x128 .f32).view.setOn (slotR 0).toLoadRect.set ⊆ (slotM 0).view.set := by
  show _ ⊆ (((gM : Memref sig .tc .vmem S32x8x128 .f32).view.slice (slotR 0)).reshape S8x128 squeezes_S1x8x128_S8x128.numel_eq).set
  rw [View.set_reshape, View.set_slice]
  exact subset_rfl

theorem store0_sub : ((gM : Memref sig .tc .vmem S32x8x128 .f32).access (slotR 0)).setOn Finset.univ ⊆ (slotM 0).view.set := by
  show _ ⊆ (((gM : Memref sig .tc .vmem S32x8x128 .f32).view.slice (slotR 0)).reshape S8x128 squeezes_S1x8x128_S8x128.numel_eq).set
  rw [View.set_reshape]
  exact subset_rfl

/-! ## Whole-buffer accesses -/

theorem hz2 : (![0, 0] : Fin 2 → Nat) = fun _ => 0 := funext fun a => by fin_cases a <;> rfl

omit [FloatOps F] in
/-- The block's load reads the whole VMEM copy. -/
theorem read_xV (c : Dev nD) (f : Buf (Elt F) ((c : Thread nD τ).loc cc0_scratch0)) :
    (xV : Memref sig .tc .vmem S2048x1024 .f32).view.readAt (Elt F)
      (Rect.unit (s := S2048x1024) ![0, 0] S2048x1024.size inb_S2048x1024_S2048x1024_0_0).toLoadRect f = f :=
  Memref.readAt_unit_zero (Elt F) cc0_scratch0 hz2 _ f

omit [FloatOps F] in
/-- The result's store overwrites the whole staging buffer. -/
theorem write_out (c : Dev nD) (f w : (cc0_stg0_0 : Ref sig .tc).ty.Contents (Elt F)) :
    ((oM : Memref sig .tc .vmem S1x1024 .f32).access (Rect.unit (s := S1x1024) ![0, 0] S1x1024.size inb_S1x1024_S1x1024_0_0) :
      View sig .tc _ _ _).write (Elt F) f w Finset.univ = w :=
  Memref.write_access_unit_zero_univ (Elt F) cc0_stg0_0 hz2 _ f w

omit [FloatOps F] in
/-- The local copy lands the whole block. -/
theorem copy_landed (c : Dev nD) (fd : Buf (Elt F) ((xV : Memref sig .tc .vmem S2048x1024 .f32).view.loc (c : Thread nD τ)))
    (fs : Buf (Elt F) ((xH : Memref sig .tc .hbm S2048x1024 .f32).view.loc (c : Thread nD τ))) :
    (xV : Memref sig .tc .vmem S2048x1024 .f32).view.write (Elt F) fd
      ((xH : Memref sig .tc .hbm S2048x1024 .f32).view.read (Elt F) fs) Finset.univ = fs := by
  show (View.whole cc0_scratch0).write (Elt F) fd ((View.whole main_arg0).read (Elt F) fs) Finset.univ = fs
  rw [View.read_whole]
  exact View.write_whole_univ _ _ _

end Cert.Kernel.Proto

end
-- ==== Proof.LevelsK.lean ====
import proofs.«900948_g7700000000000949_dist_mean_ax0_shard0_i_m2048_n1024_v7x_i32_f32_1_alg».proof.Proof.GhostK
import Idealize.ShloMosaic.Lib.ValueIdx

/-! # The levels at the waits

Barrier cells sit at level 1, receive cells at level 2, every other cell at level 0. What a device owes while it waits is
landing credit on receive cells only, so it may wait on its barrier cell and on its local copy's cell. -/

noncomputable section

namespace Cert.Kernel.Proto

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
local notation "𝕄" => MT nD τ sig Unit (Elt F) ℕ UU ℕ

variable (m : (ℓ : Loc nD τ sig) → Buf (Elt F) ℓ)
variable (Gc : (c : Dev nD) → Buf (Elt F) ((c : Thread nD τ).loc cc0_scratch1))

omit [FloatOps F] in
/-- What a device owes for its transfers' landings is owed to receive cells of its neighbours. -/
theorem owedRecv_pos {c : Dev nD} {es : List (Fin 32)} {g : GSem nD τ sig} {u : Unit} (h : 0 < owedRecv c es g u) :
    ∃ e ∈ es, g = recvCell (peer c e) e := by
  induction es with
  | nil => exact absurd h (Nat.lt_irrefl 0)
  | cons e es ih =>
    have hsplit : owedRecv c (e :: es) g u = tallyAt (recvCell (peer c e) e) () N g u + owedRecv c es g u := by
      unfold owedRecv; rw [List.map_cons, List.sum_cons]; rfl
    rw [hsplit] at h
    by_cases hg : g = recvCell (peer c e) e
    · exact ⟨e, List.mem_cons_self, hg⟩
    · have h0 : tallyAt (recvCell (peer c e) e) () N g u = 0 := by
        rw [tallyAt_apply, if_neg (fun hh => hg hh.1)]
      rw [h0, Nat.zero_add] at h
      obtain ⟨e', he', hge⟩ := ih h
      exact ⟨e', List.mem_cons_of_mem _ he', hge⟩

omit [FloatOps F] in
theorem Levels.L_tc (c : Dev nD) (s : SemLoc sig) : L ((c : Thread nD τ), s) = {()} := by
  unfold L; exact if_pos rfl

omit [FloatOps F] in
theorem Levels.lv_recv (c : Dev nD) (e : Fin 32) (u : Unit) : lv (recvCell c e) u = 2 := by
  have h : 33 ≤ (recvS e).val ∧ (recvS e).val ≤ 64 := by rw [recvS_val]; have := e.isLt; omega
  unfold lv; exact if_pos h

omit [FloatOps F] in
/-- At its barrier wait a device owes landing credit only: receive cells, above its barrier cell. -/
theorem mayWait_bar (c : Dev nD) :
    (levAts L lv : sProp 𝕄) ⊢ MayWait (c : Thread nD τ) (.reg barS) () (owedRecv c L31) :=
  MayOwe.of_cut (L := L) (lev := lv) 1
    (fun p hp => by rw [Finset.mem_singleton.mp hp, Levels.L_tc]; exact Finset.mem_singleton_self _)
    (fun g u hg => by obtain ⟨e, _, rfl⟩ := owedRecv_pos hg; rw [Levels.L_tc]; exact Finset.mem_singleton_self _)
    (fun p hp => by rw [Finset.mem_singleton.mp hp]; unfold lv; exact le_of_eq (if_pos rfl))
    (fun g u hg => by obtain ⟨e, _, rfl⟩ := owedRecv_pos hg; rw [Levels.lv_recv]; decide)

omit [FloatOps F] in
/-- At its local copy's wait likewise: the copy's cell sits at level 0. -/
theorem mayWait_cpy (c : Dev nD) :
    (levAts L lv : sProp 𝕄) ⊢ MayWait (c : Thread nD τ) (.dma cpyS) () (owedRecv c L31) :=
  MayOwe.of_cut (L := L) (lev := lv) 0
    (fun p hp => by rw [Finset.mem_singleton.mp hp, Levels.L_tc]; exact Finset.mem_singleton_self _)
    (fun g u hg => by obtain ⟨e, _, rfl⟩ := owedRecv_pos hg; rw [Levels.L_tc]; exact Finset.mem_singleton_self _)
    (fun p hp => by
      rw [Finset.mem_singleton.mp hp]
      have h : ¬ (33 ≤ (cpyS).val ∧ (cpyS).val ≤ 64) := by rw [cpyS_val]; omega
      unfold lv; exact le_of_eq (if_neg h))
    (fun g u hg => by obtain ⟨e, _, rfl⟩ := owedRecv_pos hg; rw [Levels.lv_recv]; decide)

end Cert.Kernel.Proto

end
-- ==== Proof.BodyAK.lean ====
import proofs.«900948_g7700000000000949_dist_mean_ax0_shard0_i_m2048_n1024_v7x_i32_f32_1_alg».proof.Proof.TablesK
import proofs.«900948_g7700000000000949_dist_mean_ax0_shard0_i_m2048_n1024_v7x_i32_f32_1_alg».proof.Proof.ListSepK
import proofs.«900948_g7700000000000949_dist_mean_ax0_shard0_i_m2048_n1024_v7x_i32_f32_1_alg».proof.Proof.RegionsK
import proofs.«900948_g7700000000000949_dist_mean_ax0_shard0_i_m2048_n1024_v7x_i32_f32_1_alg».proof.Proof.RegionsBK
import proofs.«900948_g7700000000000949_dist_mean_ax0_shard0_i_m2048_n1024_v7x_i32_f32_1_alg».proof.Proof.SharesK
import proofs.«900948_g7700000000000949_dist_mean_ax0_shard0_i_m2048_n1024_v7x_i32_f32_1_alg».proof.Proof.LevelsK
import proofs.«900948_g7700000000000949_dist_mean_ax0_shard0_i_m2048_n1024_v7x_i32_f32_1_alg».proof.Proof.FoldDefsK
import Idealize.ShloMosaic.Lib.ValueIdx

/-! # The local steps, and how the device's resources are laid out for each run

The local copy of the device's block into VMEM and its wait; the wait for the 31 neighbours; and the regroupings of big
`∗`s between the form the launch hands them over in (indexed by the neighbours as a finite set) and the form the runs
consume (indexed by the list of neighbours in program order). -/

noncomputable section

namespace Cert.Kernel.Proto

open Cert.Kernel Cert.Kernel.Gen Cert.Kernel.Mesh
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (Gc : (c : Dev nD) → Buf (Elt F) ((c : Thread nD τ).loc cc0_scratch1))
variable (K : Dev nD × Fin 66 → ℕ)

theorem L31_ne : ∀ e ∈ L31, e ≠ 0 := by decide

omit [FloatOps F] in
theorem argPts_eq (c : Dev nD) :
    argPts m c = ((xH : Memref sig .tc .hbm S2048x1024 .f32).view.loc (c : Thread nD τ) ↦[(xH : Memref sig .tc .hbm S2048x1024 .f32).view.set]{fullShare} X m c : sProp 𝕄) := by
  unfold argPts; rw [View.set_whole]
omit [FloatOps F] in
theorem xvPts_eq (c : Dev nD) (f : Buf (Elt F) ((c : Thread nD τ).loc cc0_scratch0)) :
    xvPts c f = ((xV : Memref sig .tc .vmem S2048x1024 .f32).view.loc (c : Thread nD τ) ↦[(xV : Memref sig .tc .vmem S2048x1024 .f32).view.set]{fullShare} f : sProp 𝕄) := by
  unfold xvPts; rw [View.set_whole]

/-- The local copy: the device's block goes to VMEM; the landing hands back the input array and the block in VMEM. -/
theorem copy_step (c : Dev nD) (fx : Buf (Elt F) ((c : Thread nD τ).loc cc0_scratch0))
    {hsrc : (xH : Memref sig .tc .hbm S2048x1024 .f32).view.WordExact} {hdst : (xV : Memref sig .tc .vmem S2048x1024 .f32).view.WordExact}
    {hsem : DmaTarget.Typed (nD := nD) .hbm (.dma cpyS) (DmaTarget.here (p := (c : Thread nD τ).2) (xV : Memref sig .tc .vmem S2048x1024 .f32))}
    {α : Type} {Q : α → sProp 𝕄} {k : PUnit → Prog (TpuEff nD τ sig (Elt F) Λ₀ .tc) α} :
    iprop(records m Gc K ∗ argPts m c ∗ xvPts c fx ∗ dutyTok ER (cpyCell c) 0 (0 : Fin 32))
      ⊢ iprop((cred (tallyAt (cpyCell c) () NX) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma xH (.here xV) (.dma cpyS) hsrc hdst hsem) k) Q) := by
  rw [argPts_eq, xvPts_eq]
  iintro ⟨#HR, Harg, Hxv, Htok⟩
  iapply (Rounds.wp_copy_pointsTo 𝒱₀ ER (ringRd m Gc) (c : Thread nD τ) none (κ := K (c, cIdx)) (r := 0) (d := (0 : Fin 32))
      (q := fullShare) (fs := X m c) (fd := fx)
      (by rw [duties_cpy]; exact Finset.mem_singleton_self _) () NX (amount_xV cpyS) (amount_cpy m Gc c 0)
      (by rw [payload_cpy, copy_landed]; unfold cpyPay; rw [argPts_eq, xvPts_eq])) $$ [Harg Hxv Htok]
  isplitr; · iapply (inv_cpy m Gc K c); iexact HR
  isplitl [Harg]; · iexact Harg
  isplitl [Hxv]; · iexact Hxv
  isplitl [Htok]; · iexact Htok
  iapply (reached_cpy m Gc K c); iexact HR

/-- The wait for the local copy, while the device still owes every landing's credit. -/
theorem copyWait_step (c : Dev nD) (W : Waits sig Unit)
    {hsrc : (xH : Memref sig .tc .hbm S2048x1024 .f32).view.WordExact} {hdst : (xV : Memref sig .tc .vmem S2048x1024 .f32).view.WordExact}
    {α : Type} {Q : α → sProp 𝕄} {k : PUnit → Prog (TpuEff nD τ sig (Elt F) Λ₀ .tc) α} :
    iprop(records m Gc K ∗ levAts L lv ∗ cred (tallyAt (cpyCell c) () NX) ∗ owes (c : Thread nD τ) (owedRecv c L31) W
        ∗ atPos ER (cpyCell c) 0 (∅ : Finset (Fin 32)) 0)
      ⊢ iprop(((owes (c : Thread nD τ) (owedRecv c L31) (insert (SemLoc.dma cpyS, ()) W) ∗ atPos ER (cpyCell c) 1 (∅ : Finset (Fin 32)) 0
              ∗ xvPts c (X m c) ∗ argPts m c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 cpyS xH xV hsrc hdst) k) Q) := by
  iintro ⟨#HR, #Hlev, Hc, HO, Hat⟩ Hk
  iapply (Rounds.wp_wait_rest_token 𝒱₀ ER (ringRd m Gc) (c : Thread nD τ) none (κ := K (c, cIdx))
      (wpE_waitDma2_eq 𝒱₀ (c : Thread nD τ) none Set.univ) (Set.mem_univ _) () (O := owedRecv c L31) (W := W) (R := 0) (m := 0) (T := ∅)
      (by rw [Nat.zero_add, expect_cpy])) $$ [Hc HO Hat]
  · isplitr; · iapply (inv_cpy m Gc K c); iexact HR
    isplitl [Hc]; · iexact Hc
    isplitl [HO]; · iexact HO
    isplitr; · iapply (mayWait_cpy c); iexact Hlev
    iexact Hat
  iintro ⟨HO, Hat, -, Hpay⟩
  iapply Hk
  isplitl [HO]; · iexact HO
  isplitl [Hat]; · iexact Hat
  ihave Hp := (Entails.of_eq (rest_cpy m Gc c)) $$ Hpay
  unfold cpyPay; iexact Hp

/-- The wait for the 31 neighbours' units: each comes with that neighbour's slot for this device's transfer. -/
theorem barWait_step (c : Dev nD) (W : Waits sig Unit)
    {α : Type} {Q : α → sProp 𝕄} {k : PUnit → Prog (TpuEff nD τ sig (Elt F) Λ₀ .tc) α} :
    iprop(records m Gc K ∗ levAts L lv ∗ cred (tallyAt (barCell c) () 31) ∗ owes (c : Thread nD τ) (owedRecv c L31) W
        ∗ atPos ER (barCell c) 0 (∅ : Finset (Fin 32)) 0)
      ⊢ iprop(((owes (c : Thread nD τ) (owedRecv c L31) (insert (SemLoc.reg barS, ()) W) ∗ bigSep E31 (fun e => barPay (F := F) c e))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 31) k) Q) := by
  iintro ⟨#HR, #Hlev, Hc, HO, Hat⟩ Hk
  iapply (Rounds.wp_wait_rest_token 𝒱₀ ER (ringRd m Gc) (c : Thread nD τ) none (κ := K (c, 0))
      (wpE_semWait_eq 𝒱₀ (c : Thread nD τ) none Set.univ) (Set.mem_univ _) () (O := owedRecv c L31) (W := W) (R := 0) (m := 0) (T := ∅)
      (by rw [Nat.zero_add, expect_bar])) $$ [Hc HO Hat]
  · isplitr; · iapply (inv_bar m Gc K c); iexact HR
    isplitl [Hc]; · iexact Hc
    isplitl [HO]; · iexact HO
    isplitr; · iapply (mayWait_bar c); iexact Hlev
    iexact Hat
  iintro ⟨HO, -, -, Hpay⟩
  iapply Hk
  isplitl [HO]; · iexact HO
  ihave Hp := (Entails.of_eq (rest_bar m Gc c)) $$ Hpay
  iexact Hp

/-! ## Regroupings -/

theorem sig_one (c : Dev nD) (f : Buf (Elt F) ((c : Thread nD τ).loc cc0_scratch1)) (j : Fin 32) :
    iprop(dutyTok ER (barCell (peer c j)) 0 (neg j) ∗ slotPts (F := F) c (neg j) f)
      ⊢ iprop(dutyTok ER (barCell (peer c j)) 0 (neg j) ∗ ∃ f', slotPts (F := F) c (neg j) f') := by
  iintro ⟨Ht, Hs⟩
  isplitl [Ht]; · iexact Ht
  iexists f; iexact Hs

theorem send_one (c : Dev nD) (e : Fin 32) :
    iprop(dutyTok ER (sendCell c e) 0 (0 : Fin 32) ∗ dutyTok ER (recvCell (peer c e) e) 0 (0 : Fin 32)
        ∗ srcPts (F := F) c (lentShare e) (Gc c) ∗ barPay (F := F) c e)
      ⊢ iprop(dutyTok ER (sendCell c e) 0 (0 : Fin 32) ∗ dutyTok ER (recvCell (peer c e) e) 0 (0 : Fin 32)
          ∗ srcPts (F := F) c (lentShare e) (Gc c) ∗ ∃ f, slotPts (F := F) (peer c e) e f) := by
  unfold barPay
  iintro ⟨HtS, HtR, Hsrc, Hf, -⟩
  isplitl [HtS]; · iexact HtS
  isplitl [HtR]; · iexact HtR
  isplitl [Hsrc]; · iexact Hsrc
  iexact Hf

/-- For the signals: the tokens on the neighbours' barrier cells, and the device's own 31 slots, each to go to the
    neighbour that will write it. -/
theorem sig_res (c : Dev nD) (f : Buf (Elt F) ((c : Thread nD τ).loc cc0_scratch1)) :
    iprop((bigSep E31 fun j => dutyTok ER (barCell (peer c j)) 0 (neg j)) ∗ (bigSep E31 fun e => slotPts (F := F) c e f))
      ⊢ bigSepL L31 (fun j => iprop(dutyTok ER (barCell (peer c j)) 0 (neg j) ∗ ∃ f', slotPts (F := F) c (neg j) f')) := by
  rw [← bigSep_E31, ← bigSep_E31_neg (fun e => slotPts (F := F) c e f), ← bigSep_sep']
  exact bigSep_mono fun j _ => sig_one c f j

/-- For the transfers: per neighbour the two tokens, the share of slot 0 lent, and the neighbour's slot as it came
    with its unit on the barrier cell. -/
theorem send_res (c : Dev nD) :
    iprop((bigSep E31 fun e => dutyTok ER (sendCell c e) 0 (0 : Fin 32)) ∗ (bigSep E31 fun e => dutyTok ER (recvCell (peer c e) e) 0 (0 : Fin 32))
        ∗ bigSepL L31 (fun e => srcPts (F := F) c (lentShare e) (Gc c)) ∗ bigSep E31 (fun e => barPay (F := F) c e))
      ⊢ bigSepL L31 (fun e => iprop(dutyTok ER (sendCell c e) 0 (0 : Fin 32) ∗ dutyTok ER (recvCell (peer c e) e) 0 (0 : Fin 32)
          ∗ srcPts (F := F) c (lentShare e) (Gc c) ∗ ∃ f, slotPts (F := F) (peer c e) e f)) := by
  rw [← bigSep_E31, ← bigSep_E31, ← bigSep_sep', ← bigSep_sep', ← bigSep_sep']
  exact bigSep_mono fun e _ => send_one Gc c e

/-- A list-indexed pair of families, zipped. -/
theorem zipL (Φ Ψ : Fin 32 → sProp 𝕄) (l : List (Fin 32)) :
    iprop(bigSepL l Φ ∗ bigSepL l Ψ) ⊣⊢ bigSepL l (fun e => iprop(Φ e ∗ Ψ e)) := by
  induction l with
  | nil => simp only [bigSepL_nil']; exact ⟨by iintro -; iempintro, by iintro -; isplitl <;> iempintro⟩
  | cons e l ih =>
    simp only [bigSepL_cons']
    constructor
    · iintro ⟨⟨Ha, Hl⟩, Hb, Hm⟩
      isplitl [Ha Hb]
      · isplitl [Ha] <;> iassumption
      iapply ih.1
      isplitl [Hl] <;> iassumption
    · iintro ⟨⟨Ha, Hb⟩, Hr⟩
      ihave H := ih.2 $$ Hr
      icases H with ⟨Hl, Hm⟩
      isplitl [Ha Hl]
      · isplitl [Ha] <;> iassumption
      isplitl [Hb] <;> iassumption

end Cert.Kernel.Proto

end
-- ==== Proof.CloseK.lean ====
import proofs.«900948_g7700000000000949_dist_mean_ax0_shard0_i_m2048_n1024_v7x_i32_f32_1_alg».proof.Proof.TablesK
import proofs.«900948_g7700000000000949_dist_mean_ax0_shard0_i_m2048_n1024_v7x_i32_f32_1_alg».proof.Proof.ListSepK
import Idealize.ShloMosaic.Lib.ValueIdx

/-! # Closing the device's own DMA cells

After its waits a send or receive cell is one round on, and no later round has a duty: the cell is closed and its
counter, at zero, is the device's again. The two cells of the device's own number never had a duty. -/

noncomputable section

namespace Cert.Kernel.Proto

open Cert.Kernel Cert.Kernel.Gen Cert.Kernel.Mesh
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (Gc : (c : Dev nD) → Buf (Elt F) ((c : Thread nD τ).loc cc0_scratch1))
variable (K : Dev nD × Fin 66 → ℕ)

/-- A run of send cells, each past its only round, closed. -/
theorem close_sends (c : Dev nD) (es : List (Fin 32)) :
    iprop(records m Gc K ∗ bigSepL es (fun e => atPos ER (sendCell c e) 1 (∅ : Finset (Fin 32)) 0))
      ⊢ (|={Set.univ}=> bigSepL es (fun e => semVal (sendCell c e) 0) : sProp 𝕄) := by
  induction es with
  | nil => iintro -; imodintro; rw [bigSepL_nil']; iempintro
  | cons e es ih =>
    rw [bigSepL_cons', bigSepL_cons']
    iintro ⟨#HR, Hat, Hrest⟩
    imod (Rounds.cell_close ER (ringRd m Gc) (Set.mem_univ (K (c, sIdx e))) (fun h => h) (R := 1) (duties_later m Gc (sendCell c e))) $$ [Hat] with Hz
    · isplitr; · iapply (inv_send m Gc K c e); iexact HR
      iexact Hat
    imod ih $$ [Hrest] with Hzs
    · isplitr; · iexact HR
      iexact Hrest
    imodintro
    isplitl [Hz]; · iexact Hz
    iexact Hzs

/-- A run of receive cells, each past its only round, closed. -/
theorem close_recvs (c : Dev nD) (es : List (Fin 32)) :
    iprop(records m Gc K ∗ bigSepL es (fun e => atPos ER (recvCell c e) 1 (∅ : Finset (Fin 32)) 0))
      ⊢ (|={Set.univ}=> bigSepL es (fun e => semVal (recvCell c e) 0) : sProp 𝕄) := by
  induction es with
  | nil => iintro -; imodintro; rw [bigSepL_nil']; iempintro
  | cons e es ih =>
    rw [bigSepL_cons', bigSepL_cons']
    iintro ⟨#HR, Hat, Hrest⟩
    imod (Rounds.cell_close ER (ringRd m Gc) (Set.mem_univ (K (c, rIdx e))) (fun h => h) (R := 1) (duties_later m Gc (recvCell c e))) $$ [Hat] with Hz
    · isplitr; · iapply (inv_recv m Gc K c e); iexact HR
      iexact Hat
    imod ih $$ [Hrest] with Hzs
    · isplitr; · iexact HR
      iexact Hrest
    imodintro
    isplitl [Hz]; · iexact Hz
    iexact Hzs

/-- The two cells of the device's own number, which nobody ever pays, and the local copy's cell past its round. -/
theorem close_rest (c : Dev nD) :
    iprop(records m Gc K ∗ atPos ER (sendCell c 0) 0 (∅ : Finset (Fin 32)) 0 ∗ atPos ER (recvCell c 0) 0 (∅ : Finset (Fin 32)) 0
        ∗ atPos ER (cpyCell c) 1 (∅ : Finset (Fin 32)) 0)
      ⊢ |={Set.univ}=> iprop(semVal (sendCell c 0) 0 ∗ semVal (recvCell c 0) 0 ∗ semVal (cpyCell c) 0) := by
  iintro ⟨#HR, HaS, HaR, HaC⟩
  imod (Rounds.cell_close ER (ringRd m Gc) (Set.mem_univ (K (c, sIdx 0))) (fun h => h) (R := 0) (duties_send0 m Gc c)) $$ [HaS] with HzS
  · isplitr; · iapply (inv_send m Gc K c 0); iexact HR
    iexact HaS
  imod (Rounds.cell_close ER (ringRd m Gc) (Set.mem_univ (K (c, rIdx 0))) (fun h => h) (R := 0) (duties_recv0 m Gc c)) $$ [HaR] with HzR
  · isplitr; · iapply (inv_recv m Gc K c 0); iexact HR
    iexact HaR
  imod (Rounds.cell_close ER (ringRd m Gc) (Set.mem_univ (K (c, cIdx))) (fun h => h) (R := 1) (duties_later m Gc (cpyCell c))) $$ [HaC] with HzC
  · isplitr; · iapply (inv_cpy m Gc K c); iexact HR
    iexact HaC
  imodintro
  isplitl [HzS]; · iexact HzS
  isplitl [HzR]; · iexact HzR
  iexact HzC

end Cert.Kernel.Proto

end
-- ==== Proof.MeshTableK.lean ====
import proofs.«900948_g7700000000000949_dist_mean_ax0_shard0_i_m2048_n1024_v7x_i32_f32_1_alg».proof.Proof.Gen.Kernel
import proofs.«900948_g7700000000000949_dist_mean_ax0_shard0_i_m2048_n1024_v7x_i32_f32_1_alg».proof.Proof.MeshK

namespace Cert.Kernel.Mesh

open Cert.Kernel Cert.Kernel.Gen Cert.Kernel.Mesh Idealize.ShloMosaic

theorem sig1_val : ∀ c : Dev nD, k0_dev1 c = (c.val + 1) % 32 := by decide +kernel
/-- The 1-th entry signal names the 1-th neighbour. -/
theorem sig1_eq (c : Dev nD) : (⟨k0_dev1 c, k0_dev1_lt c⟩ : Dev nD) = peer c 1 := Fin.ext (sig1_val c)
theorem sig2_val : ∀ c : Dev nD, k0_dev2 c = (c.val + 2) % 32 := by decide +kernel
/-- The 2-th entry signal names the 2-th neighbour. -/
theorem sig2_eq (c : Dev nD) : (⟨k0_dev2 c, k0_dev2_lt c⟩ : Dev nD) = peer c 2 := Fin.ext (sig2_val c)
theorem sig3_val : ∀ c : Dev nD, k0_dev3 c = (c.val + 3) % 32 := by decide +kernel
/-- The 3-th entry signal names the 3-th neighbour. -/
theorem sig3_eq (c : Dev nD) : (⟨k0_dev3 c, k0_dev3_lt c⟩ : Dev nD) = peer c 3 := Fin.ext (sig3_val c)
theorem sig4_val : ∀ c : Dev nD, k0_dev4 c = (c.val + 4) % 32 := by decide +kernel
/-- The 4-th entry signal names the 4-th neighbour. -/
theorem sig4_eq (c : Dev nD) : (⟨k0_dev4 c, k0_dev4_lt c⟩ : Dev nD) = peer c 4 := Fin.ext (sig4_val c)
theorem sig5_val : ∀ c : Dev nD, k0_dev5 c = (c.val + 5) % 32 := by decide +kernel
/-- The 5-th entry signal names the 5-th neighbour. -/
theorem sig5_eq (c : Dev nD) : (⟨k0_dev5 c, k0_dev5_lt c⟩ : Dev nD) = peer c 5 := Fin.ext (sig5_val c)
theorem sig6_val : ∀ c : Dev nD, k0_dev6 c = (c.val + 6) % 32 := by decide +kernel
/-- The 6-th entry signal names the 6-th neighbour. -/
theorem sig6_eq (c : Dev nD) : (⟨k0_dev6 c, k0_dev6_lt c⟩ : Dev nD) = peer c 6 := Fin.ext (sig6_val c)
theorem sig7_val : ∀ c : Dev nD, k0_dev7 c = (c.val + 7) % 32 := by decide +kernel
/-- The 7-th entry signal names the 7-th neighbour. -/
theorem sig7_eq (c : Dev nD) : (⟨k0_dev7 c, k0_dev7_lt c⟩ : Dev nD) = peer c 7 := Fin.ext (sig7_val c)
theorem sig8_val : ∀ c : Dev nD, k0_dev8 c = (c.val + 8) % 32 := by decide +kernel
/-- The 8-th entry signal names the 8-th neighbour. -/
theorem sig8_eq (c : Dev nD) : (⟨k0_dev8 c, k0_dev8_lt c⟩ : Dev nD) = peer c 8 := Fin.ext (sig8_val c)
theorem sig9_val : ∀ c : Dev nD, k0_dev9 c = (c.val + 9) % 32 := by decide +kernel
/-- The 9-th entry signal names the 9-th neighbour. -/
theorem sig9_eq (c : Dev nD) : (⟨k0_dev9 c, k0_dev9_lt c⟩ : Dev nD) = peer c 9 := Fin.ext (sig9_val c)
theorem sig10_val : ∀ c : Dev nD, k0_dev10 c = (c.val + 10) % 32 := by decide +kernel
/-- The 10-th entry signal names the 10-th neighbour. -/
theorem sig10_eq (c : Dev nD) : (⟨k0_dev10 c, k0_dev10_lt c⟩ : Dev nD) = peer c 10 := Fin.ext (sig10_val c)
theorem sig11_val : ∀ c : Dev nD, k0_dev11 c = (c.val + 11) % 32 := by decide +kernel
/-- The 11-th entry signal names the 11-th neighbour. -/
theorem sig11_eq (c : Dev nD) : (⟨k0_dev11 c, k0_dev11_lt c⟩ : Dev nD) = peer c 11 := Fin.ext (sig11_val c)
theorem sig12_val : ∀ c : Dev nD, k0_dev12 c = (c.val + 12) % 32 := by decide +kernel
/-- The 12-th entry signal names the 12-th neighbour. -/
theorem sig12_eq (c : Dev nD) : (⟨k0_dev12 c, k0_dev12_lt c⟩ : Dev nD) = peer c 12 := Fin.ext (sig12_val c)
theorem sig13_val : ∀ c : Dev nD, k0_dev13 c = (c.val + 13) % 32 := by decide +kernel
/-- The 13-th entry signal names the 13-th neighbour. -/
theorem sig13_eq (c : Dev nD) : (⟨k0_dev13 c, k0_dev13_lt c⟩ : Dev nD) = peer c 13 := Fin.ext (sig13_val c)
theorem sig14_val : ∀ c : Dev nD, k0_dev14 c = (c.val + 14) % 32 := by decide +kernel
/-- The 14-th entry signal names the 14-th neighbour. -/
theorem sig14_eq (c : Dev nD) : (⟨k0_dev14 c, k0_dev14_lt c⟩ : Dev nD) = peer c 14 := Fin.ext (sig14_val c)
theorem sig15_val : ∀ c : Dev nD, k0_dev15 c = (c.val + 15) % 32 := by decide +kernel
/-- The 15-th entry signal names the 15-th neighbour. -/
theorem sig15_eq (c : Dev nD) : (⟨k0_dev15 c, k0_dev15_lt c⟩ : Dev nD) = peer c 15 := Fin.ext (sig15_val c)
theorem sig16_val : ∀ c : Dev nD, k0_dev16 c = (c.val + 16) % 32 := by decide +kernel
/-- The 16-th entry signal names the 16-th neighbour. -/
theorem sig16_eq (c : Dev nD) : (⟨k0_dev16 c, k0_dev16_lt c⟩ : Dev nD) = peer c 16 := Fin.ext (sig16_val c)
theorem sig17_val : ∀ c : Dev nD, k0_dev17 c = (c.val + 17) % 32 := by decide +kernel
/-- The 17-th entry signal names the 17-th neighbour. -/
theorem sig17_eq (c : Dev nD) : (⟨k0_dev17 c, k0_dev17_lt c⟩ : Dev nD) = peer c 17 := Fin.ext (sig17_val c)
theorem sig18_val : ∀ c : Dev nD, k0_dev18 c = (c.val + 18) % 32 := by decide +kernel
/-- The 18-th entry signal names the 18-th neighbour. -/
theorem sig18_eq (c : Dev nD) : (⟨k0_dev18 c, k0_dev18_lt c⟩ : Dev nD) = peer c 18 := Fin.ext (sig18_val c)
theorem sig19_val : ∀ c : Dev nD, k0_dev19 c = (c.val + 19) % 32 := by decide +kernel
/-- The 19-th entry signal names the 19-th neighbour. -/
theorem sig19_eq (c : Dev nD) : (⟨k0_dev19 c, k0_dev19_lt c⟩ : Dev nD) = peer c 19 := Fin.ext (sig19_val c)
theorem sig20_val : ∀ c : Dev nD, k0_dev20 c = (c.val + 20) % 32 := by decide +kernel
/-- The 20-th entry signal names the 20-th neighbour. -/
theorem sig20_eq (c : Dev nD) : (⟨k0_dev20 c, k0_dev20_lt c⟩ : Dev nD) = peer c 20 := Fin.ext (sig20_val c)
theorem sig21_val : ∀ c : Dev nD, k0_dev21 c = (c.val + 21) % 32 := by decide +kernel
/-- The 21-th entry signal names the 21-th neighbour. -/
theorem sig21_eq (c : Dev nD) : (⟨k0_dev21 c, k0_dev21_lt c⟩ : Dev nD) = peer c 21 := Fin.ext (sig21_val c)
theorem sig22_val : ∀ c : Dev nD, k0_dev22 c = (c.val + 22) % 32 := by decide +kernel
/-- The 22-th entry signal names the 22-th neighbour. -/
theorem sig22_eq (c : Dev nD) : (⟨k0_dev22 c, k0_dev22_lt c⟩ : Dev nD) = peer c 22 := Fin.ext (sig22_val c)
theorem sig23_val : ∀ c : Dev nD, k0_dev23 c = (c.val + 23) % 32 := by decide +kernel
/-- The 23-th entry signal names the 23-th neighbour. -/
theorem sig23_eq (c : Dev nD) : (⟨k0_dev23 c, k0_dev23_lt c⟩ : Dev nD) = peer c 23 := Fin.ext (sig23_val c)
theorem sig24_val : ∀ c : Dev nD, k0_dev24 c = (c.val + 24) % 32 := by decide +kernel
/-- The 24-th entry signal names the 24-th neighbour. -/
theorem sig24_eq (c : Dev nD) : (⟨k0_dev24 c, k0_dev24_lt c⟩ : Dev nD) = peer c 24 := Fin.ext (sig24_val c)
theorem sig25_val : ∀ c : Dev nD, k0_dev25 c = (c.val + 25) % 32 := by decide +kernel
/-- The 25-th entry signal names the 25-th neighbour. -/
theorem sig25_eq (c : Dev nD) : (⟨k0_dev25 c, k0_dev25_lt c⟩ : Dev nD) = peer c 25 := Fin.ext (sig25_val c)
theorem sig26_val : ∀ c : Dev nD, k0_dev26 c = (c.val + 26) % 32 := by decide +kernel
/-- The 26-th entry signal names the 26-th neighbour. -/
theorem sig26_eq (c : Dev nD) : (⟨k0_dev26 c, k0_dev26_lt c⟩ : Dev nD) = peer c 26 := Fin.ext (sig26_val c)
theorem sig27_val : ∀ c : Dev nD, k0_dev27 c = (c.val + 27) % 32 := by decide +kernel
/-- The 27-th entry signal names the 27-th neighbour. -/
theorem sig27_eq (c : Dev nD) : (⟨k0_dev27 c, k0_dev27_lt c⟩ : Dev nD) = peer c 27 := Fin.ext (sig27_val c)
theorem sig28_val : ∀ c : Dev nD, k0_dev28 c = (c.val + 28) % 32 := by decide +kernel
/-- The 28-th entry signal names the 28-th neighbour. -/
theorem sig28_eq (c : Dev nD) : (⟨k0_dev28 c, k0_dev28_lt c⟩ : Dev nD) = peer c 28 := Fin.ext (sig28_val c)
theorem sig29_val : ∀ c : Dev nD, k0_dev29 c = (c.val + 29) % 32 := by decide +kernel
/-- The 29-th entry signal names the 29-th neighbour. -/
theorem sig29_eq (c : Dev nD) : (⟨k0_dev29 c, k0_dev29_lt c⟩ : Dev nD) = peer c 29 := Fin.ext (sig29_val c)
theorem sig30_val : ∀ c : Dev nD, k0_dev30 c = (c.val + 30) % 32 := by decide +kernel
/-- The 30-th entry signal names the 30-th neighbour. -/
theorem sig30_eq (c : Dev nD) : (⟨k0_dev30 c, k0_dev30_lt c⟩ : Dev nD) = peer c 30 := Fin.ext (sig30_val c)
theorem sig31_val : ∀ c : Dev nD, k0_dev31 c = (c.val + 31) % 32 := by decide +kernel
/-- The 31-th entry signal names the 31-th neighbour. -/
theorem sig31_eq (c : Dev nD) : (⟨k0_dev31 c, k0_dev31_lt c⟩ : Dev nD) = peer c 31 := Fin.ext (sig31_val c)
theorem cpy1_val : ∀ c : Dev nD, k0_dev32 c = (c.val + 1) % 32 := by decide +kernel
/-- The 1-th transfer is addressed to the 1-th neighbour. -/
theorem cpy1_eq (c : Dev nD) : (⟨k0_dev32 c, k0_dev32_lt c⟩ : Dev nD) = peer c 1 := Fin.ext (cpy1_val c)
theorem cpy2_val : ∀ c : Dev nD, k0_dev33 c = (c.val + 2) % 32 := by decide +kernel
/-- The 2-th transfer is addressed to the 2-th neighbour. -/
theorem cpy2_eq (c : Dev nD) : (⟨k0_dev33 c, k0_dev33_lt c⟩ : Dev nD) = peer c 2 := Fin.ext (cpy2_val c)
theorem cpy3_val : ∀ c : Dev nD, k0_dev34 c = (c.val + 3) % 32 := by decide +kernel
/-- The 3-th transfer is addressed to the 3-th neighbour. -/
theorem cpy3_eq (c : Dev nD) : (⟨k0_dev34 c, k0_dev34_lt c⟩ : Dev nD) = peer c 3 := Fin.ext (cpy3_val c)
theorem cpy4_val : ∀ c : Dev nD, k0_dev35 c = (c.val + 4) % 32 := by decide +kernel
/-- The 4-th transfer is addressed to the 4-th neighbour. -/
theorem cpy4_eq (c : Dev nD) : (⟨k0_dev35 c, k0_dev35_lt c⟩ : Dev nD) = peer c 4 := Fin.ext (cpy4_val c)
theorem cpy5_val : ∀ c : Dev nD, k0_dev36 c = (c.val + 5) % 32 := by decide +kernel
/-- The 5-th transfer is addressed to the 5-th neighbour. -/
theorem cpy5_eq (c : Dev nD) : (⟨k0_dev36 c, k0_dev36_lt c⟩ : Dev nD) = peer c 5 := Fin.ext (cpy5_val c)
theorem cpy6_val : ∀ c : Dev nD, k0_dev37 c = (c.val + 6) % 32 := by decide +kernel
/-- The 6-th transfer is addressed to the 6-th neighbour. -/
theorem cpy6_eq (c : Dev nD) : (⟨k0_dev37 c, k0_dev37_lt c⟩ : Dev nD) = peer c 6 := Fin.ext (cpy6_val c)
theorem cpy7_val : ∀ c : Dev nD, k0_dev38 c = (c.val + 7) % 32 := by decide +kernel
/-- The 7-th transfer is addressed to the 7-th neighbour. -/
theorem cpy7_eq (c : Dev nD) : (⟨k0_dev38 c, k0_dev38_lt c⟩ : Dev nD) = peer c 7 := Fin.ext (cpy7_val c)
theorem cpy8_val : ∀ c : Dev nD, k0_dev39 c = (c.val + 8) % 32 := by decide +kernel
/-- The 8-th transfer is addressed to the 8-th neighbour. -/
theorem cpy8_eq (c : Dev nD) : (⟨k0_dev39 c, k0_dev39_lt c⟩ : Dev nD) = peer c 8 := Fin.ext (cpy8_val c)
theorem cpy9_val : ∀ c : Dev nD, k0_dev40 c = (c.val + 9) % 32 := by decide +kernel
/-- The 9-th transfer is addressed to the 9-th neighbour. -/
theorem cpy9_eq (c : Dev nD) : (⟨k0_dev40 c, k0_dev40_lt c⟩ : Dev nD) = peer c 9 := Fin.ext (cpy9_val c)
theorem cpy10_val : ∀ c : Dev nD, k0_dev41 c = (c.val + 10) % 32 := by decide +kernel
/-- The 10-th transfer is addressed to the 10-th neighbour. -/
theorem cpy10_eq (c : Dev nD) : (⟨k0_dev41 c, k0_dev41_lt c⟩ : Dev nD) = peer c 10 := Fin.ext (cpy10_val c)
theorem cpy11_val : ∀ c : Dev nD, k0_dev42 c = (c.val + 11) % 32 := by decide +kernel
/-- The 11-th transfer is addressed to the 11-th neighbour. -/
theorem cpy11_eq (c : Dev nD) : (⟨k0_dev42 c, k0_dev42_lt c⟩ : Dev nD) = peer c 11 := Fin.ext (cpy11_val c)
theorem cpy12_val : ∀ c : Dev nD, k0_dev43 c = (c.val + 12) % 32 := by decide +kernel
/-- The 12-th transfer is addressed to the 12-th neighbour. -/
theorem cpy12_eq (c : Dev nD) : (⟨k0_dev43 c, k0_dev43_lt c⟩ : Dev nD) = peer c 12 := Fin.ext (cpy12_val c)
theorem cpy13_val : ∀ c : Dev nD, k0_dev44 c = (c.val + 13) % 32 := by decide +kernel
/-- The 13-th transfer is addressed to the 13-th neighbour. -/
theorem cpy13_eq (c : Dev nD) : (⟨k0_dev44 c, k0_dev44_lt c⟩ : Dev nD) = peer c 13 := Fin.ext (cpy13_val c)
theorem cpy14_val : ∀ c : Dev nD, k0_dev45 c = (c.val + 14) % 32 := by decide +kernel
/-- The 14-th transfer is addressed to the 14-th neighbour. -/
theorem cpy14_eq (c : Dev nD) : (⟨k0_dev45 c, k0_dev45_lt c⟩ : Dev nD) = peer c 14 := Fin.ext (cpy14_val c)
theorem cpy15_val : ∀ c : Dev nD, k0_dev46 c = (c.val + 15) % 32 := by decide +kernel
/-- The 15-th transfer is addressed to the 15-th neighbour. -/
theorem cpy15_eq (c : Dev nD) : (⟨k0_dev46 c, k0_dev46_lt c⟩ : Dev nD) = peer c 15 := Fin.ext (cpy15_val c)
theorem cpy16_val : ∀ c : Dev nD, k0_dev47 c = (c.val + 16) % 32 := by decide +kernel
/-- The 16-th transfer is addressed to the 16-th neighbour. -/
theorem cpy16_eq (c : Dev nD) : (⟨k0_dev47 c, k0_dev47_lt c⟩ : Dev nD) = peer c 16 := Fin.ext (cpy16_val c)
theorem cpy17_val : ∀ c : Dev nD, k0_dev48 c = (c.val + 17) % 32 := by decide +kernel
/-- The 17-th transfer is addressed to the 17-th neighbour. -/
theorem cpy17_eq (c : Dev nD) : (⟨k0_dev48 c, k0_dev48_lt c⟩ : Dev nD) = peer c 17 := Fin.ext (cpy17_val c)
theorem cpy18_val : ∀ c : Dev nD, k0_dev49 c = (c.val + 18) % 32 := by decide +kernel
/-- The 18-th transfer is addressed to the 18-th neighbour. -/
theorem cpy18_eq (c : Dev nD) : (⟨k0_dev49 c, k0_dev49_lt c⟩ : Dev nD) = peer c 18 := Fin.ext (cpy18_val c)
theorem cpy19_val : ∀ c : Dev nD, k0_dev50 c = (c.val + 19) % 32 := by decide +kernel
/-- The 19-th transfer is addressed to the 19-th neighbour. -/
theorem cpy19_eq (c : Dev nD) : (⟨k0_dev50 c, k0_dev50_lt c⟩ : Dev nD) = peer c 19 := Fin.ext (cpy19_val c)
theorem cpy20_val : ∀ c : Dev nD, k0_dev51 c = (c.val + 20) % 32 := by decide +kernel
/-- The 20-th transfer is addressed to the 20-th neighbour. -/
theorem cpy20_eq (c : Dev nD) : (⟨k0_dev51 c, k0_dev51_lt c⟩ : Dev nD) = peer c 20 := Fin.ext (cpy20_val c)
theorem cpy21_val : ∀ c : Dev nD, k0_dev52 c = (c.val + 21) % 32 := by decide +kernel
/-- The 21-th transfer is addressed to the 21-th neighbour. -/
theorem cpy21_eq (c : Dev nD) : (⟨k0_dev52 c, k0_dev52_lt c⟩ : Dev nD) = peer c 21 := Fin.ext (cpy21_val c)
theorem cpy22_val : ∀ c : Dev nD, k0_dev53 c = (c.val + 22) % 32 := by decide +kernel
/-- The 22-th transfer is addressed to the 22-th neighbour. -/
theorem cpy22_eq (c : Dev nD) : (⟨k0_dev53 c, k0_dev53_lt c⟩ : Dev nD) = peer c 22 := Fin.ext (cpy22_val c)
theorem cpy23_val : ∀ c : Dev nD, k0_dev54 c = (c.val + 23) % 32 := by decide +kernel
/-- The 23-th transfer is addressed to the 23-th neighbour. -/
theorem cpy23_eq (c : Dev nD) : (⟨k0_dev54 c, k0_dev54_lt c⟩ : Dev nD) = peer c 23 := Fin.ext (cpy23_val c)
theorem cpy24_val : ∀ c : Dev nD, k0_dev55 c = (c.val + 24) % 32 := by decide +kernel
/-- The 24-th transfer is addressed to the 24-th neighbour. -/
theorem cpy24_eq (c : Dev nD) : (⟨k0_dev55 c, k0_dev55_lt c⟩ : Dev nD) = peer c 24 := Fin.ext (cpy24_val c)
theorem cpy25_val : ∀ c : Dev nD, k0_dev56 c = (c.val + 25) % 32 := by decide +kernel
/-- The 25-th transfer is addressed to the 25-th neighbour. -/
theorem cpy25_eq (c : Dev nD) : (⟨k0_dev56 c, k0_dev56_lt c⟩ : Dev nD) = peer c 25 := Fin.ext (cpy25_val c)
theorem cpy26_val : ∀ c : Dev nD, k0_dev57 c = (c.val + 26) % 32 := by decide +kernel
/-- The 26-th transfer is addressed to the 26-th neighbour. -/
theorem cpy26_eq (c : Dev nD) : (⟨k0_dev57 c, k0_dev57_lt c⟩ : Dev nD) = peer c 26 := Fin.ext (cpy26_val c)
theorem cpy27_val : ∀ c : Dev nD, k0_dev58 c = (c.val + 27) % 32 := by decide +kernel
/-- The 27-th transfer is addressed to the 27-th neighbour. -/
theorem cpy27_eq (c : Dev nD) : (⟨k0_dev58 c, k0_dev58_lt c⟩ : Dev nD) = peer c 27 := Fin.ext (cpy27_val c)
theorem cpy28_val : ∀ c : Dev nD, k0_dev59 c = (c.val + 28) % 32 := by decide +kernel
/-- The 28-th transfer is addressed to the 28-th neighbour. -/
theorem cpy28_eq (c : Dev nD) : (⟨k0_dev59 c, k0_dev59_lt c⟩ : Dev nD) = peer c 28 := Fin.ext (cpy28_val c)
theorem cpy29_val : ∀ c : Dev nD, k0_dev60 c = (c.val + 29) % 32 := by decide +kernel
/-- The 29-th transfer is addressed to the 29-th neighbour. -/
theorem cpy29_eq (c : Dev nD) : (⟨k0_dev60 c, k0_dev60_lt c⟩ : Dev nD) = peer c 29 := Fin.ext (cpy29_val c)
theorem cpy30_val : ∀ c : Dev nD, k0_dev61 c = (c.val + 30) % 32 := by decide +kernel
/-- The 30-th transfer is addressed to the 30-th neighbour. -/
theorem cpy30_eq (c : Dev nD) : (⟨k0_dev61 c, k0_dev61_lt c⟩ : Dev nD) = peer c 30 := Fin.ext (cpy30_val c)
theorem cpy31_val : ∀ c : Dev nD, k0_dev62 c = (c.val + 31) % 32 := by decide +kernel
/-- The 31-th transfer is addressed to the 31-th neighbour. -/
theorem cpy31_eq (c : Dev nD) : (⟨k0_dev62 c, k0_dev62_lt c⟩ : Dev nD) = peer c 31 := Fin.ext (cpy31_val c)

end Cert.Kernel.Mesh
-- ==== Proof.FoldedK.lean ====
import proofs.«900948_g7700000000000949_dist_mean_ax0_shard0_i_m2048_n1024_v7x_i32_f32_1_alg».proof.Proof.Gen.Kernel.Skeleton
import proofs.«900948_g7700000000000949_dist_mean_ax0_shard0_i_m2048_n1024_v7x_i32_f32_1_alg».proof.Proof.FoldDefsK
import proofs.«900948_g7700000000000949_dist_mean_ax0_shard0_i_m2048_n1024_v7x_i32_f32_1_alg».proof.Proof.MeshTableK
import proofs.«900948_g7700000000000949_dist_mean_ax0_shard0_i_m2048_n1024_v7x_i32_f32_1_alg».proof.Proof.GhostK

/-! # The kernel body as three folds

The body of the kernel is straight-line: the device reads its number `c`; signals the barrier semaphore of each of its 31
neighbours `peer c 1 … peer c 31`; copies its block of the input into VMEM and waits for the copy; stores the column sums of
the block into slot 0 of the gather buffer; waits for 31 units on its own barrier semaphore; sends slot 0 to slot `e` of
neighbour `peer c e` for `e = 1 … 31`; waits for the 31 landings, then for the 31 departures; and stores the scaled sum of
the 32 slots. The three runs of 31 like operations are folds over the list `1 … 31`, and the body `cc0_body` is shown equal
to the folded one. -/

noncomputable section

namespace Cert.Kernel.Proto

open Cert.Kernel Cert.Kernel.Gen Cert.Kernel.Mesh
open Idealize.ShloMosaic Idealize.ShloMosaic.TcCoe Idealize.SL.Sem

variable {F : FTy → Type} [FloatOps F]

/-- The body once the device knows its number `c`. -/
def foldedAt (c : Dev nD) : P F :=
  sigK c L31 <|
  Prog.op (TpuEff.enqueueDma xH (DmaTarget.here xV) (SemLoc.dma cpyS) (Memref.isWhole_whole _).wordExact (Memref.isWhole_whole _).wordExact
    ⟨Or.inl rfl, trivial⟩) fun _ =>
  Prog.op (TpuEff.waitDma2 cpyS xH xV (Memref.isWhole_whole _).wordExact (Memref.isWhole_whole _).wordExact) fun _ =>
  Prog.op (TpuEff.load xV (Rect.unit (s := S2048x1024) ![0, 0] S2048x1024.size inb_S2048x1024_S2048x1024_0_0).toLoadRect
    (View.loadsAt_vmem h_S2048x1024)) fun x =>
  Prog.op (TpuEff.load gM (slotR 0).toLoadRect (View.loadsAt_vmem h_S1x8x128)) fun _ =>
  Prog.op (TpuEff.store gM (slotR 0) (k0_pay2 x) Finset.univ (View.stores_vmem_bits_univ h_S1x8x128 rfl) (.inl rfl)) fun _ =>
  Prog.op (TpuEff.semWait barS 31) fun _ =>
  sendK c L31 <| recvWaitK L31 <| sendWaitK L31 <|
  Prog.op (TpuEff.load gM (Rect.unit (s := S32x8x128) ![0, 0, 0] S32x8x128.size inb_S32x8x128_S32x8x128_0_0_0).toLoadRect
    (View.loadsAt_vmem h_S32x8x128)) fun v =>
  Prog.op (TpuEff.load oM (Rect.unit (s := S1x1024) ![0, 0] S1x1024.size inb_S1x1024_S1x1024_0_0).toLoadRect
    (View.loadsAt_vmem h_S1x1024)) fun _ =>
  Prog.op (TpuEff.store oM (Rect.unit (s := S1x1024) ![0, 0] S1x1024.size inb_S1x1024_S1x1024_0_0) (k0_pay1 v) Finset.univ
    (View.stores_vmem_bits_univ h_S1x1024 rfl) (.inl rfl)) fun _ =>
  Prog.ret PUnit.unit

/-- The body, folded: read the device's number, then the rest. -/
def folded : P F := Prog.op TpuEff.deviceId fun c => foldedAt c

/-! ## The transfers with the neighbours under the names the body computes -/

/-- `sendK` with each transfer's addressee given beside its slot. -/
def sendKD : List (Dev nD × Fin 32) → P F → P F
  | [], k => k
  | (d, e) :: es, k =>
    Prog.op (TpuEff.enqueueDma (slotM 0) (DmaTarget.remote (Dev.tc d) (slotM e) (SemLoc.dma (sendS e)) (slotM_notSc e))
      (SemLoc.dma (recvS e)) (slotM_wordExact 0) (slotM_wordExact e) ⟨⟨rfl, Or.inl rfl⟩, trivial⟩) fun _ => sendKD es k

/-- Addressed to the neighbours `peer c e`, it is `sendK c`. -/
theorem sendKD_map (c : Dev nD) (L : List (Fin 32)) (k : P F) : sendKD (L.map fun e => (peer c e, e)) k = sendK c L k := by
  induction L with
  | nil => rfl
  | cons e es ih => simp only [List.map, sendKD, sendK, ih]

/-- The addressees the body computes, beside their slots. -/
def devs (c : Dev nD) : List (Dev nD × Fin 32) := [
    (⟨k0_dev32 c, k0_dev32_lt c⟩, 1), (⟨k0_dev33 c, k0_dev33_lt c⟩, 2), (⟨k0_dev34 c, k0_dev34_lt c⟩, 3),
    (⟨k0_dev35 c, k0_dev35_lt c⟩, 4), (⟨k0_dev36 c, k0_dev36_lt c⟩, 5), (⟨k0_dev37 c, k0_dev37_lt c⟩, 6),
    (⟨k0_dev38 c, k0_dev38_lt c⟩, 7), (⟨k0_dev39 c, k0_dev39_lt c⟩, 8), (⟨k0_dev40 c, k0_dev40_lt c⟩, 9),
    (⟨k0_dev41 c, k0_dev41_lt c⟩, 10), (⟨k0_dev42 c, k0_dev42_lt c⟩, 11), (⟨k0_dev43 c, k0_dev43_lt c⟩, 12),
    (⟨k0_dev44 c, k0_dev44_lt c⟩, 13), (⟨k0_dev45 c, k0_dev45_lt c⟩, 14), (⟨k0_dev46 c, k0_dev46_lt c⟩, 15),
    (⟨k0_dev47 c, k0_dev47_lt c⟩, 16), (⟨k0_dev48 c, k0_dev48_lt c⟩, 17), (⟨k0_dev49 c, k0_dev49_lt c⟩, 18),
    (⟨k0_dev50 c, k0_dev50_lt c⟩, 19), (⟨k0_dev51 c, k0_dev51_lt c⟩, 20), (⟨k0_dev52 c, k0_dev52_lt c⟩, 21),
    (⟨k0_dev53 c, k0_dev53_lt c⟩, 22), (⟨k0_dev54 c, k0_dev54_lt c⟩, 23), (⟨k0_dev55 c, k0_dev55_lt c⟩, 24),
    (⟨k0_dev56 c, k0_dev56_lt c⟩, 25), (⟨k0_dev57 c, k0_dev57_lt c⟩, 26), (⟨k0_dev58 c, k0_dev58_lt c⟩, 27),
    (⟨k0_dev59 c, k0_dev59_lt c⟩, 28), (⟨k0_dev60 c, k0_dev60_lt c⟩, 29), (⟨k0_dev61 c, k0_dev61_lt c⟩, 30),
    (⟨k0_dev62 c, k0_dev62_lt c⟩, 31)]

/-- Each is the neighbour of its slot's number. -/
theorem devs_eq (c : Dev nD) : devs c = L31.map fun e => (peer c e, e) := by
  unfold devs L31
  simp only [List.map,
    cpy1_eq, cpy2_eq, cpy3_eq, cpy4_eq, cpy5_eq, cpy6_eq, cpy7_eq, cpy8_eq, cpy9_eq, cpy10_eq, cpy11_eq, cpy12_eq,
    cpy13_eq, cpy14_eq, cpy15_eq, cpy16_eq, cpy17_eq, cpy18_eq, cpy19_eq, cpy20_eq, cpy21_eq, cpy22_eq, cpy23_eq,
    cpy24_eq, cpy25_eq, cpy26_eq, cpy27_eq, cpy28_eq, cpy29_eq, cpy30_eq, cpy31_eq]

/-- `foldedAt` with the run of transfers left open. -/
def foldedWith (c : Dev nD) (send : P F → P F) : P F :=
  sigK c L31 <|
  Prog.op (TpuEff.enqueueDma xH (DmaTarget.here xV) (SemLoc.dma cpyS) (Memref.isWhole_whole _).wordExact (Memref.isWhole_whole _).wordExact
    ⟨Or.inl rfl, trivial⟩) fun _ =>
  Prog.op (TpuEff.waitDma2 cpyS xH xV (Memref.isWhole_whole _).wordExact (Memref.isWhole_whole _).wordExact) fun _ =>
  Prog.op (TpuEff.load xV (Rect.unit (s := S2048x1024) ![0, 0] S2048x1024.size inb_S2048x1024_S2048x1024_0_0).toLoadRect
    (View.loadsAt_vmem h_S2048x1024)) fun x =>
  Prog.op (TpuEff.load gM (slotR 0).toLoadRect (View.loadsAt_vmem h_S1x8x128)) fun _ =>
  Prog.op (TpuEff.store gM (slotR 0) (k0_pay2 x) Finset.univ (View.stores_vmem_bits_univ h_S1x8x128 rfl) (.inl rfl)) fun _ =>
  Prog.op (TpuEff.semWait barS 31) fun _ =>
  send <| recvWaitK L31 <| sendWaitK L31 <|
  Prog.op (TpuEff.load gM (Rect.unit (s := S32x8x128) ![0, 0, 0] S32x8x128.size inb_S32x8x128_S32x8x128_0_0_0).toLoadRect
    (View.loadsAt_vmem h_S32x8x128)) fun v =>
  Prog.op (TpuEff.load oM (Rect.unit (s := S1x1024) ![0, 0] S1x1024.size inb_S1x1024_S1x1024_0_0).toLoadRect
    (View.loadsAt_vmem h_S1x1024)) fun _ =>
  Prog.op (TpuEff.store oM (Rect.unit (s := S1x1024) ![0, 0] S1x1024.size inb_S1x1024_S1x1024_0_0) (k0_pay1 v) Finset.univ
    (View.stores_vmem_bits_univ h_S1x1024 rfl) (.inl rfl)) fun _ =>
  Prog.ret PUnit.unit

theorem foldedAt_eq_with (c : Dev nD) : foldedAt (F := F) c = foldedWith c (sendK c L31) := rfl

/-- With the addressees the body computes, it is `foldedAt`. -/
theorem foldedWith_devs (c : Dev nD) : foldedWith (F := F) c (sendKD (devs c)) = foldedAt c := by
  rw [foldedAt_eq_with, devs_eq]
  exact congrArg (foldedWith c) (funext fun k => sendKD_map c L31 k)

/-! ## The body is the folded one -/

set_option maxRecDepth 65536 in
set_option maxHeartbeats 4000000 in
/-- The body `cc0_body`, at the kernel's own buffers, is the folded body: its parts, spliced, are one chain of operations, the
device each signal and each transfer names is the neighbour `peer c e`, and the chain is the folds unrolled. -/
theorem body_eq_folded :
    cc0_body (F := F) (Memref.whole main_arg0) (Memref.isWhole_whole _) (Memref.whole cc0_stg0_0) (Memref.isWhole_whole _)
      (Memref.whole cc0_scratch0) (Memref.isWhole_whole _) (Memref.whole cc0_scratch1) (Memref.isWhole_whole _)
      cc0_scratch2 cc0_scratch3 cc0_scratch4 = folded := by
  rw [cc0_body_eq_skeleton]; unfold cc0_body_skel
  simp only [
    k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton,
    k0_part15_eq_skeleton, k0_part16_eq_skeleton, k0_part17_eq_skeleton, k0_part18_eq_skeleton,
    k0_part19_eq_skeleton, k0_part20_eq_skeleton, k0_part21_eq_skeleton, k0_part22_eq_skeleton,
    k0_part23_eq_skeleton, k0_part24_eq_skeleton, k0_part25_eq_skeleton, k0_part26_eq_skeleton,
    k0_part27_eq_skeleton, k0_part28_eq_skeleton, k0_part29_eq_skeleton, k0_part30_eq_skeleton,
    k0_part31_eq_skeleton, k0_part32_eq_skeleton, k0_part33_eq_skeleton, k0_part34_eq_skeleton,
    k0_part35_eq_skeleton, k0_part36_eq_skeleton, k0_part37_eq_skeleton, k0_part38_eq_skeleton,
    k0_part39_eq_skeleton, k0_part40_eq_skeleton, k0_part41_eq_skeleton, k0_part42_eq_skeleton,
    k0_part43_eq_skeleton, k0_part44_eq_skeleton, k0_part45_eq_skeleton, k0_part46_eq_skeleton,
    k0_part47_eq_skeleton, k0_part48_eq_skeleton, k0_part49_eq_skeleton, k0_part50_eq_skeleton,
    k0_part51_eq_skeleton, k0_part52_eq_skeleton, k0_part1_skel, k0_part2_skel, k0_part3_skel, k0_part4_skel,
    k0_part5_skel, k0_part6_skel, k0_part7_skel, k0_part8_skel, k0_part9_skel, k0_part10_skel, k0_part11_skel,
    k0_part12_skel, k0_part13_skel, k0_part14_skel, k0_part15_skel, k0_part16_skel, k0_part17_skel, k0_part18_skel,
    k0_part19_skel, k0_part20_skel, k0_part21_skel, k0_part22_skel, k0_part23_skel, k0_part24_skel, k0_part25_skel,
    k0_part26_skel, k0_part27_skel, k0_part28_skel, k0_part29_skel, k0_part30_skel, k0_part31_skel, k0_part32_skel,
    k0_part33_skel, k0_part34_skel, k0_part35_skel, k0_part36_skel, k0_part37_skel, k0_part38_skel, k0_part39_skel,
    k0_part40_skel, k0_part41_skel, k0_part42_skel, k0_part43_skel, k0_part44_skel, k0_part45_skel, k0_part46_skel,
    k0_part47_skel, k0_part48_skel, k0_part49_skel, k0_part50_skel, k0_part51_skel, k0_part52_skel, semSignalWord,
    semWaitWord, Prog.lift, Prog.bind_op, Prog.bind_ret, Prog.pure_eq_ret]
  simp only [
    sig1_eq, sig2_eq, sig3_eq, sig4_eq, sig5_eq, sig6_eq, sig7_eq, sig8_eq, sig9_eq, sig10_eq, sig11_eq, sig12_eq,
    sig13_eq, sig14_eq, sig15_eq, sig16_eq, sig17_eq, sig18_eq, sig19_eq, sig20_eq, sig21_eq, sig22_eq, sig23_eq,
    sig24_eq, sig25_eq, sig26_eq, sig27_eq, sig28_eq, sig29_eq, sig30_eq, sig31_eq]
  refine Eq.trans (b := Prog.op TpuEff.deviceId fun c => foldedWith c (sendKD (devs c))) ?_ ?_
  · unfold foldedWith devs L31
    simp only [sigK, sendKD, recvWaitK, sendWaitK]
    rfl
  · unfold folded
    exact congrArg (Prog.op TpuEff.deviceId) (funext fun c => foldedWith_devs c)

end Cert.Kernel.Proto

end
-- ==== Proof.BodyBK.lean ====
import proofs.«900948_g7700000000000949_dist_mean_ax0_shard0_i_m2048_n1024_v7x_i32_f32_1_alg».proof.Proof.RunsK
import proofs.«900948_g7700000000000949_dist_mean_ax0_shard0_i_m2048_n1024_v7x_i32_f32_1_alg».proof.Proof.BodyAK
import proofs.«900948_g7700000000000949_dist_mean_ax0_shard0_i_m2048_n1024_v7x_i32_f32_1_alg».proof.Proof.CloseK
import proofs.«900948_g7700000000000949_dist_mean_ax0_shard0_i_m2048_n1024_v7x_i32_f32_1_alg».proof.Proof.FoldedK
import Idealize.ShloMosaic.Lib.ValueIdx

/-! # The body of one device, run from the launch's hand-over to what the pipeline takes back

The device signals its 31 neighbours (each unit carrying the slot that neighbour will write), copies its block to VMEM,
stores the block's column sums in slot 0, waits for the 31 neighbours, lends slot 0 to 31 transfers, waits for the 31
landings and the 31 departures, closes its cells, and stores the sum of the 32 slots times 2^-16. -/

noncomputable section

namespace Cert.Kernel.Proto

open Cert.Kernel Cert.Kernel.Gen Cert.Kernel.Mesh
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (Gc : (c : Dev nD) → Buf (Elt F) ((c : Thread nD τ).loc cc0_scratch1))
variable (K : Dev nD × Fin 66 → ℕ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop((ghost m Gc K c ∗ cred (tallyAt (barCell c) () 31) ∗ (bigSep E31 fun e => cred (tallyAt (recvCell c e) () N)) ∗ levAts L lv
      ∗ (∃ f, xvPts c f) ∗ (∃ f, gPts c f) ∗ argPts m c)
    ∗ (dats m Gc 0 c).owesAt () t₀.castSucc
    ∗ (∃ d, stg c cc0_stg0_0 ((dats m Gc 0 c).before (0 : Fin 1) t₀ d)))

def bodyPost (c : Dev nD) : sProp 𝕄 :=
  iprop(Φ₁ m c ∗ (dats m Gc 0 c).owesAt () t₀.succ ∗ stg c cc0_stg0_0 (outAt Gc c))

/-- After the store of the column sums, slot 0 holds what the gather buffer's final contents say it holds. -/
theorem store_slot0 (hG : GatherFacts m Gc) (c : Dev nD) (fg : Buf (Elt F) ((c : Thread nD τ).loc cc0_scratch1)) :
    ((((gM : Memref sig .tc .vmem S32x8x128 .f32).access (slotR 0) : View sig .tc _ _ _).loc (c : Thread nD τ))
        ↦[(slotM 0).view.set]{fullShare} (((gM : Memref sig .tc .vmem S32x8x128 .f32).access (slotR 0) : View sig .tc _ _ _).write (Elt F) fg (k0_pay2 (X m c)) Finset.univ) : sProp 𝕄)
      ⊢ srcPts c fullShare (Gc c) :=
  Entails.of_eq (srcPts_congr c fullShare _ (Gc c) fun p q => (store0_apply c fg (k0_pay2 (X m c)) p q).trans (hG.own c p q).symm)

set_option maxHeartbeats 1600000 in
/-- The body on device `c`, from `bodyPre` to `bodyPost`. -/
theorem sound_body (hG : GatherFacts m Gc) (c : Dev nD) (Kt : PUnit → sProp 𝕄) :
    iprop(bodyPre m Gc K c ∗ (bodyPost m Gc c -∗ Kt ⟨⟩))
      ⊢ wp frame (wpE (defs₀ (F := F)) 𝒱₀ (c : Thread nD τ) none) Set.univ (foldedAt c) Kt := by
  unfold foldedAt bodyPre ghost linear payToks
  iintro ⟨⟨⟨⟨#HR, Hats, HtB, HtR, HtS, HtC⟩, HcB, HcRs, #Hlev, ⟨%fx, Hxv⟩, ⟨%fg, Hg⟩, Harg⟩, Ho, ⟨%d1, %g1, %hg1, Hout⟩⟩, Hk⟩
  unfold Dat.owesAt Pipeline.owesWithin
  icases Ho with ⟨%W, %hW, HO⟩
  rw [show (dats m Gc 0 c).owed t₀.castSucc = O₀ c from rfl]
  unfold O₀
  -- the device's own cells' positions, by kind
  ihave Hats' := (Entails.of_eq (bigSep_cells c (fun g => atPos ER g 0 (∅ : Finset (Fin 32)) 0))) $$ Hats
  icases Hats' with ⟨HaB, HaSs, HaRs, HaC⟩
  ihave HaSs' := (Entails.of_eq (bigSep_univ32 (fun e => atPos ER (sendCell c e) 0 (∅ : Finset (Fin 32)) 0))) $$ HaSs
  icases HaSs' with ⟨HaS0, HaS⟩
  ihave HaRs' := (Entails.of_eq (bigSep_univ32 (fun e => atPos ER (recvCell c e) 0 (∅ : Finset (Fin 32)) 0))) $$ HaRs
  icases HaRs' with ⟨HaR0, HaR⟩
  -- the gather buffer, slot by slot
  ihave Hsl := (Entails.of_eq (gPts_split c fg)) $$ Hg
  ihave Hsl' := (Entails.of_eq (bigSep_univ32 (fun e => slotPts (F := F) c e fg))) $$ Hsl
  icases Hsl' with ⟨Hs0, Hss⟩
  -- the 31 signals
  iapply (wp_sigK m Gc K c L31 L31_ne (owedRecv c L31) W _ _)
  isplitr; · iexact HR
  isplitl [HO]; · iexact HO
  isplitl [HtB Hss]
  · iapply (sig_res c fg); isplitl [HtB] <;> iassumption
  iintro HO
  -- the local copy and its wait
  iapply (copy_step m Gc K c fx) $$ [Harg Hxv HtC]
  · isplitr; · iexact HR
    isplitl [Harg]; · iexact Harg
    isplitl [Hxv]; · iexact Hxv
    iexact HtC
  iintro HcC
  iapply (copyWait_step m Gc K c W) $$ [HcC HO HaC]
  · isplitr; · iexact HR
    isplitr; · iexact Hlev
    isplitl [HcC]; · iexact HcC
    isplitl [HO]; · iexact HO
    iexact HaC
  iintro ⟨HO, HaC, Hxv, Harg⟩
  -- the block is loaded, its column sums stored in slot 0
  unfold xvPts
  iapply (wp_load 𝒱₀ (c : Thread nD τ) none Set.univ (m := xV) (Finset.subset_univ _)) $$ Hxv; iintro Hxv
  rw [read_xV c]
  unfold slotPts
  iapply (wp_load 𝒱₀ (c : Thread nD τ) none Set.univ (m := gM) load0_sub) $$ Hs0; iintro Hs0
  iapply (wp_store 𝒱₀ (c : Thread nD τ) none Set.univ (m := gM) (r := slotR 0) (Mk := Finset.univ) store0_sub) $$ Hs0; iintro Hs0
  ihave Hs0 := (store_slot0 m Gc hG c fg) $$ Hs0
  -- the wait for the 31 neighbours
  iapply (barWait_step m Gc K c (insert (SemLoc.dma cpyS, ()) W)) $$ [HcB HO HaB]
  · isplitr; · iexact HR
    isplitr; · iexact Hlev
    isplitl [HcB]; · iexact HcB
    isplitl [HO]; · iexact HO
    iexact HaB
  iintro ⟨HO, Hbar⟩
  -- slot 0 lent out, the 31 transfers
  ihave Hsh := (src_split_all c (Gc c)).1 $$ Hs0
  icases Hsh with ⟨Hlent, Hkeep⟩
  rw [show owedRecv c L31 = 0 + owedRecv c L31 from (zero_add _).symm]
  iapply (wp_sendK m Gc K hG c L31 L31_ne 0 (insert (SemLoc.reg barS, ()) (insert (SemLoc.dma cpyS, ()) W)) _ _)
  isplitr; · iexact HR
  isplitl [HO]; · iexact HO
  isplitl [HtS HtR Hlent Hbar]
  · iapply (send_res Gc c)
    isplitl [HtS]; · iexact HtS
    isplitl [HtR]; · iexact HtR
    isplitl [Hlent]; · iexact Hlent
    iexact Hbar
  iintro ⟨HO, HcSs⟩
  -- the 31 landings
  iapply (wp_recvWaitK m Gc K c L31 L31_ne (insert (SemLoc.reg barS, ()) (insert (SemLoc.dma cpyS, ()) W)) _ _)
  isplitr; · iexact HR
  isplitl [HO]; · iexact HO
  isplitl [HcRs HaR]
  · iapply (zipL _ _ L31).1
    isplitl [HcRs]
    · iapply (Entails.of_eq (bigSep_E31 (fun e => cred (tallyAt (recvCell c e) () N)))); iexact HcRs
    · iapply (Entails.of_eq (bigSep_E31 (fun e => atPos ER (recvCell c e) 0 (∅ : Finset (Fin 32)) 0))); iexact HaR
  iintro ⟨⟨%W1, HO⟩, Hrecvd⟩
  ihave Hrecvd := (zipL _ _ L31).2 $$ Hrecvd
  icases Hrecvd with ⟨HaR, Hslots⟩
  -- the 31 departures
  iapply (wp_sendWaitK m Gc K c L31 L31_ne W1 _ _)
  isplitr; · iexact HR
  isplitl [HO]; · iexact HO
  isplitl [HcSs HaS]
  · iapply (zipL _ _ L31).1
    isplitl [HcSs]; · iexact HcSs
    iapply (Entails.of_eq (bigSep_E31 (fun e => atPos ER (sendCell c e) 0 (∅ : Finset (Fin 32)) 0))); iexact HaS
  iintro ⟨⟨%W2, HO⟩, Hsent⟩
  ihave Hsent := (zipL _ _ L31).2 $$ Hsent
  icases Hsent with ⟨HaS, Hback⟩
  -- slot 0 whole again; the buffer whole again, at its final contents
  ihave Hs0 := (src_split_all c (Gc c)).2 $$ [Hback Hkeep]
  · isplitl [Hback] <;> iassumption
  ihave Hs0 := (Entails.of_eq (slot0_full c (Gc c)).symm) $$ Hs0
  ihave Hslots := (Entails.of_eq (bigSep_E31 (fun e => slotPts (F := F) c e (Gc c))).symm) $$ Hslots
  ihave Hg := (Entails.of_eq ((gPts_split c (Gc c)).trans (bigSep_univ32 (fun e => slotPts (F := F) c e (Gc c)))).symm) $$ [Hs0 Hslots]
  · isplitl [Hs0] <;> iassumption
  -- the device's 65 DMA cells closed
  imod (close_sends m Gc K c L31) $$ [HaS] with HzS
  · isplitr; · iexact HR
    iexact HaS
  imod (close_recvs m Gc K c L31) $$ [HaR] with HzR
  · isplitr; · iexact HR
    iexact HaR
  imod (close_rest m Gc K c) $$ [HaS0 HaR0 HaC] with ⟨HzS0, HzR0, HzC⟩
  · isplitr; · iexact HR
    isplitl [HaS0]; · iexact HaS0
    isplitl [HaR0]; · iexact HaR0
    iexact HaC
  -- the sum of the 32 slots, scaled, stored as the result
  unfold gPts
  iapply (wp_load 𝒱₀ (c : Thread nD τ) none Set.univ (m := gM) (Finset.subset_univ _)) $$ Hg; iintro Hg
  rw [load_all c]
  iapply (wp_load 𝒱₀ (c : Thread nD τ) none Set.univ (m := oM) (Finset.subset_univ _)) $$ Hout; iintro Hout
  iapply (wp_store 𝒱₀ (c : Thread nD τ) none Set.univ (m := oM) (r := Rect.unit (s := S1x1024) ![0, 0] S1x1024.size inb_S1x1024_S1x1024_0_0) (Mk := Finset.univ) (Finset.subset_univ _)) $$ Hout; iintro Hout
  rw [write_out c, wp_ret]; imodintro
  iapply Hk
  unfold bodyPost Φ₁ Dat.owesAt Pipeline.owesWithin
  rw [show (dats m Gc 0 c).owed t₀.succ = 0 from rfl]
  isplitl [Hxv Hg Harg HzS HzR HzS0 HzR0 HzC]
  · isplitl [Hxv]; · iexists (X m c); unfold xvPts; iexact Hxv
    isplitl [Hg]; · iexists (Gc c); unfold gPts; iexact Hg
    isplitl [Harg]; · iexact Harg
    rw [bigSep_ownCells c (fun g => semVal g 0), bigSep_univ32 (fun e => semVal (sendCell c e) 0), bigSep_univ32 (fun e => semVal (recvCell c e) 0),
      bigSep_E31, bigSep_E31]
    isplitl [HzS0 HzS]
    · isplitl [HzS0] <;> iassumption
    isplitl [HzR0 HzR]
    · isplitl [HzR0] <;> iassumption
    iexact HzC
  isplitl [HO]
  · iexists W2
    isplitr; · ipureintro; exact fun _ _ => Or.inl trivial
    iexact HO
  iexists _; isplitr; · (ipureintro; rfl)
  unfold outAt; iexact Hout

end Cert.Kernel.Proto

end
-- ==== Proof.BodyCK.lean ====
import proofs.«900948_g7700000000000949_dist_mean_ax0_shard0_i_m2048_n1024_v7x_i32_f32_1_alg».proof.Proof.BodyBK
import Idealize.ShloMosaic.Lib.ValueIdx

/-! # The body obligation

The run of the body (`sound_body`) in the form the pipeline's launch asks for, at the kernel's one grid point. -/

noncomputable section

namespace Cert.Kernel.Proto

open Cert.Kernel Cert.Kernel.Gen Cert.Kernel.Mesh
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (Gc : (c : Dev nD) → Buf (Elt F) ((c : Thread nD τ).loc cc0_scratch1))
variable (K : Dev nD × Fin 66 → ℕ)

omit [FloatOps F] in
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m Gc c ∗ (dats m Gc 0 c).owesAt () t₀.castSucc
    ∗ (∃ d, stg c cc0_stg0_0 ((dats m Gc 0 c).before (0 : Fin 1) t₀ d)))

set_option maxRecDepth 65536 in
set_option maxHeartbeats 1600000 in
/-- The library's body obligation on device `c`. -/
theorem body_obligation (hG : GatherFacts m Gc) (c : Dev nD) :
    BodyObligation (dats (F := F) m Gc 0 c) (defs₀ (F := F)) 𝒱₀ () Set.univ := fun t => by
  rw [fin_N t]
  rw [bigSep_W0, bigSep_W0]
  simp only [owns_whole_eq]
  show bodyPre' m Gc c ⊢ wp frame (wpE (defs₀ (F := F)) 𝒱₀ c none) Set.univ
    (cc0_body (Memref.whole main_arg0) (Memref.isWhole_whole _) (Memref.whole cc0_stg0_0) (Memref.isWhole_whole _)
      (Memref.whole cc0_scratch0) (Memref.isWhole_whole _) (Memref.whole cc0_scratch1) (Memref.isWhole_whole _) cc0_scratch2 cc0_scratch3 cc0_scratch4)
    (fun _ => bodyPost m Gc c)
  rw [body_eq_folded]
  unfold folded
  simp only [wp_deviceId]
  unfold bodyPre' Φ₀ start
  iintro ⟨⟨⟨⟨%K, Hg⟩, HcB, HcR, Hlev⟩, Hxv, Hgp, Harg⟩, Ho, Hout⟩
  iapply (sound_body m Gc K hG c fun _ => bodyPost m Gc c)
  unfold bodyPre
  isplitr []
  · isplitl [Hg HcB HcR Hlev Hxv Hgp Harg]
    · isplitl [Hg]; · iexact Hg
      isplitl [HcB]; · iexact HcB
      isplitl [HcR]; · iexact HcR
      isplitl [Hlev]; · iexact Hlev
      isplitl [Hxv]; · iexact Hxv
      isplitl [Hgp]; · iexact Hgp
      iexact Harg
    isplitl [Ho]; · iexact Ho
    iexact Hout
  · iintro H; iexact H

end Cert.Kernel.Proto

end
-- ==== Proof.GatheredK.lean ====
import proofs.«900948_g7700000000000949_dist_mean_ax0_shard0_i_m2048_n1024_v7x_i32_f32_1_alg».proof.Proof.Gen.Kernel.Skeleton
import proofs.«900948_g7700000000000949_dist_mean_ax0_shard0_i_m2048_n1024_v7x_i32_f32_1_alg».proof.Proof.MeshK
import Idealize.ShloMosaic.Lib.ValueIdx

/-! What every device's gather buffer ends holding, for any float values: slot `s` of device `c` holds the column sums of
    the block of the device `(c + 32 - s) mod 32`. -/

noncomputable section

namespace Cert.Kernel.MeanValue

open Idealize.ShloMosaic Idealize.ShloMosaic.ValueIdx
open Cert.Kernel Cert.Kernel.Gen Cert.Kernel.Mesh

/-- Device `c`'s gather buffer once every transfer has landed: slot `s` holds the column sums of the block of the
    device `(c + 32 - s) mod 32`. -/
def gathered {F : FTy → Type} [FloatOps F] (X : Dev nD → (⟨S2048x1024, .f32⟩ : BufTy).Contents (Elt F)) (c : Dev nD) :
    (⟨S32x8x128, .f32⟩ : BufTy).Contents (Elt F) :=
  fun i => k0_pay2 (X (peer c (neg (i 0)))) (ix3 (0 : Fin 1) (i 1) (i 2))

/-- Slot `s` at position `(p, q)` is the column sums of the block of device `(c + 32 - s) mod 32` at `(0, p, q)`. -/
theorem gathered_apply {F : FTy → Type} [FloatOps F] (X : Dev nD → (⟨S2048x1024, .f32⟩ : BufTy).Contents (Elt F)) (c : Dev nD)
    (s : Fin 32) (p : Fin 8) (q : Fin 128) :
    gathered X c (ix3 s p q) = k0_pay2 (X (peer c (neg s))) (ix3 (0 : Fin 1) p q) := rfl

end Cert.Kernel.MeanValue

end
-- ==== Proof.GatherFactsK.lean ====
import proofs.«900948_g7700000000000949_dist_mean_ax0_shard0_i_m2048_n1024_v7x_i32_f32_1_alg».proof.Proof.GatheredK
import proofs.«900948_g7700000000000949_dist_mean_ax0_shard0_i_m2048_n1024_v7x_i32_f32_1_alg».proof.Proof.SchedK

/-! What every device's gather buffer ends holding, as a buffer of the scratch it lives in, and the two facts the
    protocol needs of it: slot 0 is the device's own column sums, and slot `e` of the `e`-th neighbour is slot 0 of the
    device itself. -/

noncomputable section

namespace Cert.Kernel.MeanValue

open Idealize.ShloMosaic Idealize.ShloMosaic.ValueIdx Idealize.ShloMosaic.TcCoe Idealize.SL.Sem
open Cert.Kernel Cert.Kernel.Gen Cert.Kernel.Mesh

variable {F : FTy → Type} [FloatOps F]
variable (m : (ℓ : Loc nD τ sig) → Buf (Elt F) ℓ)

/-- What device `c`'s gather buffer ends holding: slot `s` the column sums of the block of device `(c + 32 - s) mod 32`. -/
def Gfin (c : Dev nD) : Buf (Elt F) ((c : Thread nD τ).loc cc0_scratch1) := gathered (Proto.X m) c

/-- Slot 0 is the device's own column sums. -/
theorem gath_own (c : Dev nD) (p : Fin 8) (q : Fin 128) :
    Gfin m c (ix3 (0 : Fin 32) p q) = k0_pay2 (Proto.X m c) (ix3 (0 : Fin 1) p q) := by
  show gathered (Proto.X m) c (ix3 (0 : Fin 32) p q) = _
  rw [gathered_apply, neg_zero, peer_zero]

/-- Slot `e` of the `e`-th neighbour is slot 0 of the device itself. -/
theorem gath_land (c : Dev nD) (e : Fin 32) (p : Fin 8) (q : Fin 128) :
    Gfin m (peer c e) (ix3 e p q) = Gfin m c (ix3 (0 : Fin 32) p q) := by
  show gathered (Proto.X m) (peer c e) (ix3 e p q) = gathered (Proto.X m) c (ix3 (0 : Fin 32) p q)
  rw [gathered_apply, gathered_apply, peer_peer_neg, neg_zero, peer_zero]

end Cert.Kernel.MeanValue

end
-- ==== Proof.Claims.lean ====
import proofs.«900948_g7700000000000949_dist_mean_ax0_shard0_i_m2048_n1024_v7x_i32_f32_1_alg».proof.Defs
import proofs.«900948_g7700000000000949_dist_mean_ax0_shard0_i_m2048_n1024_v7x_i32_f32_1_alg».proof.Proof.Launch
import proofs.«900948_g7700000000000949_dist_mean_ax0_shard0_i_m2048_n1024_v7x_i32_f32_1_alg».proof.Proof.BodyC
import proofs.«900948_g7700000000000949_dist_mean_ax0_shard0_i_m2048_n1024_v7x_i32_f32_1_alg».proof.Proof.GatherFacts
import proofs.«900948_g7700000000000949_dist_mean_ax0_shard0_i_m2048_n1024_v7x_i32_f32_1_alg».proof.Proof.MeanValue
import proofs.«900948_g7700000000000949_dist_mean_ax0_shard0_i_m2048_n1024_v7x_i32_f32_1_alg».proof.Proof.LaunchK
import proofs.«900948_g7700000000000949_dist_mean_ax0_shard0_i_m2048_n1024_v7x_i32_f32_1_alg».proof.Proof.BodyCK
import proofs.«900948_g7700000000000949_dist_mean_ax0_shard0_i_m2048_n1024_v7x_i32_f32_1_alg».proof.Proof.GatherFactsK
import proofs.«900948_g7700000000000949_dist_mean_ax0_shard0_i_m2048_n1024_v7x_i32_f32_1_alg».proof.Proof.Gen.ReferenceIdeal.Run
import proofs.«900948_g7700000000000949_dist_mean_ax0_shard0_i_m2048_n1024_v7x_i32_f32_1_alg».proof.Proof.Gen.Kernel
import proofs.«900948_g7700000000000949_dist_mean_ax0_shard0_i_m2048_n1024_v7x_i32_f32_1_alg».proof.Proof.Gen.KernelIdeal
import proofs.«900948_g7700000000000949_dist_mean_ax0_shard0_i_m2048_n1024_v7x_i32_f32_1_alg».proof.Proof.Gen.ReferenceIdeal
import proofs.«900948_g7700000000000949_dist_mean_ax0_shard0_i_m2048_n1024_v7x_i32_f32_1_alg».proof.Proof.Gen.Pre_finite_inputs_Kernel
import proofs.«900948_g7700000000000949_dist_mean_ax0_shard0_i_m2048_n1024_v7x_i32_f32_1_alg».proof.Proof.Gen.Pre_finite_inputs_ReferenceIdeal

/-! # The five claims

The mean over the 65536 rows of a 65536 × 1024 array, computed on 32 devices: each device sums the columns of its
2048-row block, the 32 devices exchange their column sums around the ring, and each adds the 32 it then holds and scales
by 2⁻¹⁶.

* Each device's body, run from the protocol's ghost state, leaves its gather buffer holding slot by slot the column sums of
  the blocks around the ring (the two facts of those contents that the protocol needs), and the launch turns the 32 bodies
  into the run of the whole program: every fair execution terminates, the result array of each device holds the body's
  payload of its gather buffer's final contents, and the input block is unchanged. The two frames of the kernel are that
  run with the result forgotten — once for the word-level floats, once for the exact reals.
* The reference's frame is its run (a line of six host operations) with the result forgotten.
* The idealization rewrote no operation, so there is nothing to preserve.
* At the exact reals: the devices' blocks are the 32 row blocks of the reference's whole array, so the gather buffers'
  final contents are those of the whole array's blocks, and the sum of 32 block column sums scaled by 2⁻¹⁶ is the
  reference's sum over all rows divided by 65536. -/

noncomputable section

open Idealize.ShloMosaic Idealize.ShloMosaic.TcCoe Idealize.SL.Sem

namespace Cert.Proof.Claims

/-- The kernel at the word-level floats runs and leaves its input block as it was. -/
theorem frame_p : Cert.frame_Kernel := fun m ρ _ =>
  (θ_run Cert.Kernel.defs _ _).mono (fun _ h c => (h c).2)
    (Cert.Kernel.Proto.run_out (F := Bits) m ρ (Cert.Kernel.MeanValue.Gfin m) fun c =>
      Cert.Kernel.Proto.body_obligation m (Cert.Kernel.MeanValue.Gfin m) ⟨Cert.Kernel.MeanValue.gath_own m, Cert.Kernel.MeanValue.gath_land m⟩ c)

/-- The kernel at the exact reals runs and leaves its input block as it was. -/
theorem frame_pi : Cert.frame_KernelIdeal := fun m ρ _ =>
  (θ_run Cert.KernelIdeal.defs _ _).mono (fun _ h c => (h c).2)
    (Cert.KernelIdeal.Proto.run_out (F := Ideal) m ρ (Cert.KernelIdeal.MeanValue.Gfin m) fun c =>
      Cert.KernelIdeal.Proto.body_obligation m (Cert.KernelIdeal.MeanValue.Gfin m) ⟨Cert.KernelIdeal.MeanValue.gath_own m, Cert.KernelIdeal.MeanValue.gath_land m⟩ c)

/-- The reference runs and leaves its input array as it was. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- At the exact reals, from blocks that are the 32 row blocks of the reference's array: every device's result is the
    reference's, the mean over all 65536 rows. -/
theorem algebraic : Cert.algebraic_KernelIdeal_ReferenceIdeal := by
  intro m ρ m' ρ' _ hagree
  have hX : Cert.KernelIdeal.Proto.X m = fun d => Layout.block ⟨2, ![2048, 1024]⟩ ⟨2, ![65536, 1024]⟩ 0 32 d
      (m' (((0 : Dev Cert.ReferenceIdeal.nD).tc : Thread Cert.ReferenceIdeal.nD Cert.ReferenceIdeal.τ).loc Cert.ReferenceIdeal.main_arg0)) :=
    funext fun d => hagree d
  refine ⟨_, (θ_run Cert.KernelIdeal.defs _ _).mono (fun _ h c => ⟨(h c).1.trans ?_, (h c).2⟩)
      (Cert.KernelIdeal.Proto.run_out (F := Ideal) m ρ (Cert.KernelIdeal.MeanValue.Gfin m) fun c =>
        Cert.KernelIdeal.Proto.body_obligation m (Cert.KernelIdeal.MeanValue.Gfin m) ⟨Cert.KernelIdeal.MeanValue.gath_own m, Cert.KernelIdeal.MeanValue.gath_land m⟩ c),
    (θ_run Cert.ReferenceIdeal.defs _ _).mono (fun _ h => ⟨(h 0).1, (h 0).2⟩) (Cert.ReferenceIdeal.Value.run (F := Ideal) m' ρ')⟩
  show Cert.KernelIdeal.Gen.k0_pay1 (F := Ideal) (Cert.KernelIdeal.MeanValue.gathered (Cert.KernelIdeal.Proto.X m) c) = _
  rw [hX]
  exact Cert.KernelIdeal.MeanValue.mean_eq _ c

end Cert.Proof.Claims

end
-- ==== Proof.lean ====
/- The proof of `Cert.Claim`: the mean over the 65536 rows of a 65536 × 1024 array on 32 devices against the one-device reference.
   The programs' stated facts are witnessed by the instances of the Proof/Gen/ modules. The five claims are proved in
   Proof/Claims.lean: the kernel's two frames are the run of the 32-device program (each device's body, from the protocol's
   ghost state, through the launch) with the result forgotten, at the word-level floats and at the exact reals; the
   reference's frame is its run of six host operations with the result forgotten; the idealization rewrote no operation; and
   at the exact reals each device's result — the 32 gathered block column sums added and scaled by 2⁻¹⁶ — is the reference's
   sum over all rows divided by 65536, the devices' blocks being the row blocks of the reference's array. -/
import proofs.«900948_g7700000000000949_dist_mean_ax0_shard0_i_m2048_n1024_v7x_i32_f32_1_alg».proof.Defs
import proofs.«900948_g7700000000000949_dist_mean_ax0_shard0_i_m2048_n1024_v7x_i32_f32_1_alg».proof.Proof.Claims
import proofs.«900948_g7700000000000949_dist_mean_ax0_shard0_i_m2048_n1024_v7x_i32_f32_1_alg».proof.Proof.Gen.Kernel
import proofs.«900948_g7700000000000949_dist_mean_ax0_shard0_i_m2048_n1024_v7x_i32_f32_1_alg».proof.Proof.Gen.KernelIdeal
import proofs.«900948_g7700000000000949_dist_mean_ax0_shard0_i_m2048_n1024_v7x_i32_f32_1_alg».proof.Proof.Gen.ReferenceIdeal
import proofs.«900948_g7700000000000949_dist_mean_ax0_shard0_i_m2048_n1024_v7x_i32_f32_1_alg».proof.Proof.Gen.Pre_finite_inputs_Kernel
import proofs.«900948_g7700000000000949_dist_mean_ax0_shard0_i_m2048_n1024_v7x_i32_f32_1_alg».proof.Proof.Gen.Pre_finite_inputs_ReferenceIdeal

noncomputable section

namespace Cert.Proof

open Cert.Proof.Claims

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts, frame_p, frame_pi, frame_ri, preserves, algebraic⟩

end Cert.Proof

end
